-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S10x128 .f32) (main_v50 : FVec F S10x128 .f32) : IVec S_ 1 :=
  let main_v51 : IVec S10x128 1 := cmpf .olt main_v49 main_v50
  let main_c_19 : IVec S_ 1 := constantI S_ 1 1#1
  let main_v52 : IVec S_ 1 := (fun x v => Host.reduce IntOp.andi x v reducesTo_S10x128_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S128 .f32) (main_arg10 : FVec F S128 .f32) (main_arg11 : FVec F S128 .f32) (main_arg12 : FVec F S10x128 .f32) (main_arg13 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S10x128 .f32 := Host.absf main_arg12
  let main_cst_18 : FVec F S_ .f32 := constant S_ .f32 0x7F800000#32
  let main_v50 : FVec F S10x128 .f32 := broadcastInDim S10x128 ![] bcast_S_S10x128 main_cst_18
  fn_part3 (F := F) main_arg13 main_v48 main_v49 main_v50

def fn_part1 {F : FTy → Type} [FloatOps F] (main_arg6 : FVec F S384 .f32) (main_arg7 : FVec F S384 .f32) (main_arg8 : FVec F S128x128 .f32) (main_arg9 : FVec F S128 .f32) (main_arg10 : FVec F S128 .f32) (main_arg11 : FVec F S128 .f32) (main_arg12 : FVec F S10x128 .f32) (main_arg13 : FVec F S10 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg6
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg7
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x1600000 32) (main_arg2 : IVec S100000 32) (main_arg3 : FVec F S4x128x128 .f32) (main_arg4 : FVec F S384x128 .f32) (main_arg5 : FVec F S384x128 .f32) (main_arg6 : FVec F S384 .f32) (main_arg7 : FVec F S384 .f32) (main_arg8 : FVec F S128x128 .f32) (main_arg9 : FVec F S128 .f32) (main_arg10 : FVec F S128 .f32) (main_arg11 : FVec F S128 .f32) (main_arg12 : FVec F S10x128 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S128x384 : Shape := ⟨2, ![128, 384]⟩
abbrev S1x384 : Shape := ⟨2, ![1, 384]⟩
abbrev S1x128x128 : Shape := ⟨3, ![1, 128, 128]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S2000x384 : Shape := ⟨2, ![2000, 384]⟩
abbrev S1x128 : Shape := ⟨2, ![1, 128]⟩
abbrev S200x128 : Shape := ⟨2, ![200, 128]⟩
abbrev S200x1 : Shape := ⟨2, ![200, 1]⟩
abbrev S2000x1 : Shape := ⟨2, ![2000, 1]⟩
abbrev S1x200 : Shape := ⟨2, ![1, 200]⟩
abbrev S2000x200 : Shape := ⟨2, ![2000, 200]⟩
abbrev S128x10 : Shape := ⟨2, ![128, 10]⟩
abbrev S200x10 : Shape := ⟨2, ![200, 10]⟩
abbrev S1x10 : Shape := ⟨2, ![1, 10]⟩
abbrev S200 : Shape := ⟨1, ![200]⟩

abbrev nBuf : Space → Nat
  | .hbm => 141
  | .vmem => 76
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S384x128, .f32⟩
  | 5 => ⟨S384x128, .f32⟩
  | 6 => ⟨S384, .f32⟩
  | 7 => ⟨S384, .f32⟩
  | 8 => ⟨S128x128, .f32⟩
  | 9 => ⟨S128, .f32⟩
  | 10 => ⟨S128, .f32⟩
  | 11 => ⟨S128, .f32⟩
  | 12 => ⟨S10x128, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S100000x1, .i32⟩
  | 19 => ⟨S128x384, .f32⟩
  | 20 => ⟨S128x384, .f32⟩
  | 21 => ⟨S1x384, .f32⟩
  | 22 => ⟨S1x384, .f32⟩
  | 23 => ⟨S1x128x128, .f32⟩
  | 24 => ⟨S128x128, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S1x128x128, .f32⟩
  | 58 => ⟨S128x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x128, .f32⟩
  | 91 => ⟨S128x128, .f32⟩
  | 92 => ⟨S1x128, .f32⟩
  | 93 => ⟨S100000x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S200x128, .f32⟩
  | 114 => ⟨S200x1, .f32⟩
  | 115 => ⟨S_, .f32⟩
  | 116 => ⟨S_, .f32⟩
  | 117 => ⟨S200x1, .f32⟩
  | 118 => ⟨S200x1, .f32⟩
  | 119 => ⟨S200x128, .f32⟩
  | 120 => ⟨S200x128, .f32⟩
  | 121 => ⟨S128x10, .f32⟩
  | 122 => ⟨S200x10, .f32⟩
  | 123 => ⟨S1x10, .f32⟩
  | 124 => ⟨S200x10, .f32⟩
  | 125 => ⟨S200x10, .f32⟩
  | 126 => ⟨S_, .f32⟩
  | 127 => ⟨S200, .f32⟩
  | _ => ⟨S100000x128, .f32⟩

abbrev hbmTy0_1 (i : Nat) : BufTy := match i % 128 with
  | 0 => ⟨S_, .f32⟩
  | 1 => ⟨S200, .f32⟩
  | 2 => ⟨S200, .f32⟩
  | 3 => ⟨S200x1, .f32⟩
  | 4 => ⟨S200x10, .f32⟩
  | 5 => ⟨S200x10, .f32⟩
  | 6 => ⟨S200x10, .f32⟩
  | 7 => ⟨S_, .f32⟩
  | 8 => ⟨S200, .f32⟩
  | 9 => ⟨S200x1, .f32⟩
  | 10 => ⟨S200x1, .f32⟩
  | 11 => ⟨S200x10, .f32⟩
  | 12 => ⟨S200x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S1x384, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x384, .f32⟩
  | .local _ .vmem, ⟨25, _⟩ => ⟨S128x384, .f32⟩
  | .local _ .vmem, ⟨26, _⟩ => ⟨S1x384, .f32⟩
  | .local _ .vmem, ⟨27, _⟩ => ⟨S1x384, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x384, .f32⟩
  | .local _ .vmem, ⟨40, _⟩ => ⟨S128x384, .f32⟩
  | .local _ .vmem, ⟨41, _⟩ => ⟨S1x384, .f32⟩
  | .local _ .vmem, ⟨42, _⟩ => ⟨S1x384, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S128x384, .f32⟩
  | .local _ .vmem, ⟨55, _⟩ => ⟨S128x384, .f32⟩
  | .local _ .vmem, ⟨56, _⟩ => ⟨S1x384, .f32⟩
  | .local _ .vmem, ⟨57, _⟩ => ⟨S1x384, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S128x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S1x128, .f32⟩
  | .local _ .vmem, ⟨71, _⟩ => ⟨S1x128, .f32⟩
  | .local _ .vmem, ⟨72, _⟩ => ⟨S2000x1, .i32⟩
  | .local _ .vmem, ⟨73, _⟩ => ⟨S2000x1, .i32⟩
  | .local _ .vmem, ⟨74, _⟩ => ⟨S200x128, .f32⟩
  | .local _ .vmem, ⟨75, _⟩ => ⟨S200x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67_0 : Ref sig .tc := ⟨.hbm, 93, rfl⟩
abbrev main_v67_1 : Ref sig .tc := ⟨.hbm, 94, rfl⟩
abbrev main_v67_2 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82_0 : Ref sig .tc := ⟨.hbm, 113, rfl⟩
abbrev main_v82_1 : Ref sig .tc := ⟨.hbm, 114, rfl⟩
abbrev main_cst_13 : Ref sig .tc := ⟨.hbm, 115, rfl⟩
abbrev main_call0_v0 : Ref sig .tc := ⟨.hbm, 116, rfl⟩
abbrev main_call0_v1 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call1_cst : Ref sig .tc := ⟨.hbm, 126, rfl⟩
abbrev main_call1_v0 : Ref sig .tc := ⟨.hbm, 127, rfl⟩
abbrev main_call1_cst_0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_cst_1 : Ref sig .tc := ⟨.hbm, 135, rfl⟩
abbrev main_call1_v7 : Ref sig .tc := ⟨.hbm, 136, rfl⟩
abbrev main_call1_v8 : Ref sig .tc := ⟨.hbm, 137, rfl⟩
abbrev main_call1_v9 : Ref sig .tc := ⟨.hbm, 138, rfl⟩
abbrev main_call1_v10 : Ref sig .tc := ⟨.hbm, 139, rfl⟩
abbrev main_v91 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc8_stg4_0 : Ref sig .tc := ⟨.vmem, 66, rfl⟩
abbrev cc8_stg5_0 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg3_1 : Ref sig .tc := ⟨.vmem, 73, rfl⟩
abbrev cc9_stg4_0 : Ref sig .tc := ⟨.vmem, 74, rfl⟩
abbrev cc9_stg5_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem3_1 : DmaSem sig := 65
abbrev cc8_sem4_0 : DmaSem sig := 66
abbrev cc8_sem5_0 : DmaSem sig := 67
abbrev cc9_sem0_0 : DmaSem sig := 68
abbrev cc9_sem0_1 : DmaSem sig := 69
abbrev cc9_sem1_0 : DmaSem sig := 70
abbrev cc9_sem2_0 : DmaSem sig := 71
abbrev cc9_sem3_0 : DmaSem sig := 72
abbrev cc9_sem3_1 : DmaSem sig := 73
abbrev cc9_sem4_0 : DmaSem sig := 74
abbrev cc9_sem5_0 : DmaSem sig := 75

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x384 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x384 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x1 .i32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S200x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S200x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  transposes_S384x128_S128x384_1_0 : S384x128.Transposes [1, 0] S128x384
  shapeCasts_S384_S1x384 : S384.ShapeCasts S1x384
  slices_S4x128x128_S1x128x128_0_0_0 : S4x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  inb_S200x128_S200x128_0_0 : ∀ a, (![0, 0] : Fin 2 → Nat) a + S200x128.size a ≤ S200x128.size a
  h_S200x128 : 0 < S200x128.numel
  inb_S200x1_S200x1_0_0 : ∀ a, (![0, 0] : Fin 2 → Nat) a + S200x1.size a ≤ S200x1.size a
  h_S200x1 : 0 < S200x1.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x200_d1_w32 : S1x200.Iotas .tc 32 [1]
  broadcasts_S2000x1_S2000x200 : S2000x1.Broadcasts S2000x200
  broadcasts_S1x200_S2000x200 : S1x200.Broadcasts S2000x200
  natLt_1_32 : 1 < 32
  shapeCasts_S200x128_S200x128 : S200x128.ShapeCasts S200x128
  shapeCasts_S200x1_S200x1 : S200x1.ShapeCasts S200x1
  bcast_S_S200x1 : S_.BroadcastsInDim S200x1 (![] : Fin 0 → Fin S200x1.rank)
  bcast_S200x1_S200x128_0_1 : S200x1.BroadcastsInDim S200x128 (![0, 1] : Fin 2 → Fin S200x128.rank)
  transposes_S10x128_S128x10_1_0 : S10x128.Transposes [1, 0] S128x10
  bcast_S10_S1x10_1 : S10.BroadcastsInDim S1x10 (![1] : Fin 1 → Fin S1x10.rank)
  bcast_S1x10_S200x10_0_1 : S1x10.BroadcastsInDim S200x10 (![0, 1] : Fin 2 → Fin S200x10.rank)
  reducesTo_S200x10_S200_d1 : S200x10.ReducesTo [1] S200
  h_S_ : 0 < S_.numel
  bcast_S_S200 : S_.BroadcastsInDim S200 (![] : Fin 0 → Fin S200.rank)
  bcast_S200_S200x1_0 : S200.BroadcastsInDim S200x1 (![0] : Fin 1 → Fin S200x1.rank)
  bcast_S200x1_S200x10_0_1 : S200x1.BroadcastsInDim S200x10 (![0, 1] : Fin 2 → Fin S200x10.rank)
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x384_S2000x384_1_0_0_1_n_n_wf : DotDims.WF S2000x128 S128x384 S2000x384 [1] [0] [0] [1] [] []
  dot_S2000x200_S2000x128_S200x128_0_0_1_1_n_n_wf : DotDims.WF S2000x200 S2000x128 S200x128 [0] [0] [1] [1] [] []
  dot_S2000x200_S2000x1_S200x1_0_0_1_1_n_n_wf : DotDims.WF S2000x200 S2000x1 S200x1 [0] [0] [1] [1] [] []
  dot_S200x128_S128x10_S200x10_1_0_0_1_n_n_wf : DotDims.WF S200x128 S128x10 S200x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x384.size a ≤ S128x384.size a
  hwx7_2 : ∀ i : grid7.Coords, EltTy.bits .f32 = 32 ∨ (Rect.block (s := S128x384) S128x384.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x384.size a ≤ S128x384.size a
  hwx7_3 : ∀ i : grid7.Coords, EltTy.bits .f32 = 32 ∨ (Rect.block (s := S128x384) S128x384.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x384.size a ≤ S1x384.size a
  hwx7_4 : ∀ i : grid7.Coords, EltTy.bits .f32 = 32 ∨ (Rect.block (s := S1x384) S1x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S100000x128.size a
  hwx7_6 : ∀ i : grid7.Coords, EltTy.bits .f32 = 32 ∨ (Rect.block (s := S100000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S100000x128.size a
  hwx8_3 : ∀ i : grid8.Coords, EltTy.bits .f32 = 32 ∨ (Rect.block (s := S100000x128) S2000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x1.size a ≤ S100000x1.size a
  hwx9_3 : ∀ i : grid9.Coords, EltTy.bits .i32 = 32 ∨ (Rect.block (s := S100000x1) S2000x1.size (cc9_transform_3 i) (hinb9_3 i)).WholeWords (EltTy.packing .i32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S200x128.size a ≤ S200x128.size a
  hwx9_4 : ∀ i : grid9.Coords, EltTy.bits .f32 = 32 ∨ (Rect.block (s := S200x128) S200x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S200x1.size a ≤ S200x1.size a
  hwx9_5 : ∀ i : grid9.Coords, EltTy.bits .f32 = 32 ∨ (Rect.block (s := S200x1) S200x1.size (cc9_transform_5 i) (hinb9_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x200_S2000x128_S200x128_0_0_1_1_n_n : DotDims S2000x200 S2000x128 S200x128 where
  lhsContracting := [0]
  rhsContracting := [0]
  lhsNonContracting := [1]
  rhsNonContracting := [1]
  lhsBatch := []
  rhsBatch := []
  wf := dot_S2000x200_S2000x128_S200x128_0_0_1_1_n_n_wf
def dot_S2000x200_S2000x1_S200x1_0_0_1_1_n_n : DotDims S2000x200 S2000x1 S200x1 where
  lhsContracting := [0]
  rhsContracting := [0]
  lhsNonContracting := [1]
  rhsNonContracting := [1]
  lhsBatch := []
  rhsBatch := []
  wf := dot_S2000x200_S2000x1_S200x1_0_0_1_1_n_n_wf
def dot_S200x128_S128x10_S200x10_1_0_0_1_n_n : DotDims S200x128 S128x10 S200x10 where
  lhsContracting := [1]
  rhsContracting := [0]
  lhsNonContracting := [0]
  rhsNonContracting := [1]
  lhsBatch := []
  rhsBatch := []
  wf := dot_S200x128_S128x10_S200x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v8) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v36) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v7) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v8) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v50) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v50) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v52) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v53) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v63) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v5) S128x384.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v6) S128x384.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v7) S1x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v8) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v64) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v64) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v65) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v66) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v67_0) S2000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v67_1) S1x128.size cc8_transform_4 reads8_4 true true 1 stage8_4 sem8_4
    hrank8 hreads8_4 hinb8_4 nbuf8_4 (Memref.isWhole_whole _) hwx8_4 hstage8_4

abbrev win8_5 : Pipeline.Window sig grid8 :=
  Pipeline.Window.ofSpec (Memref.whole main_v67_2) S1x128.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v67_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v78) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v81) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v4) S2000x1.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v82_0) S200x128.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v82_1) S200x1.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S1x128x128 : Shape := ⟨3, ![1, 128, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S1x128 : Shape := ⟨2, ![1, 128]⟩
abbrev S200x128 : Shape := ⟨2, ![200, 128]⟩
abbrev S100000x1 : Shape := ⟨2, ![100000, 1]⟩
abbrev S200 : Shape := ⟨1, ![200]⟩
abbrev S200x1 : Shape := ⟨2, ![200, 1]⟩
abbrev S128x10 : Shape := ⟨2, ![128, 10]⟩
abbrev S200x10 : Shape := ⟨2, ![200, 10]⟩
abbrev S1x10 : Shape := ⟨2, ![1, 10]⟩

abbrev nBuf : Space → Nat
  | .hbm => 343
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S384x128, .f32⟩
  | 5 => ⟨S384x128, .f32⟩
  | 6 => ⟨S384, .f32⟩
  | 7 => ⟨S384, .f32⟩
  | 8 => ⟨S128x128, .f32⟩
  | 9 => ⟨S128, .f32⟩
  | 10 => ⟨S128, .f32⟩
  | 11 => ⟨S128, .f32⟩
  | 12 => ⟨S10x128, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S1x128x128, .f32⟩
  | 19 => ⟨S128x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S128x384, .f32⟩
  | 35 => ⟨S100000x384, .f32⟩
  | 36 => ⟨S1x384, .f32⟩
  | 37 => ⟨S100000x384, .f32⟩
  | 38 => ⟨S100000x384, .f32⟩
  | 39 => ⟨S128x384, .f32⟩
  | 40 => ⟨S100000x384, .f32⟩
  | 41 => ⟨S1x384, .f32⟩
  | 42 => ⟨S100000x384, .f32⟩
  | 43 => ⟨S100000x384, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S100000x128, .f32⟩
  | 77 => ⟨S1x128x128, .f32⟩
  | 78 => ⟨S128x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S128x384, .f32⟩
  | 94 => ⟨S100000x384, .f32⟩
  | 95 => ⟨S1x384, .f32⟩
  | 96 => ⟨S100000x384, .f32⟩
  | 97 => ⟨S100000x384, .f32⟩
  | 98 => ⟨S128x384, .f32⟩
  | 99 => ⟨S100000x384, .f32⟩
  | 100 => ⟨S1x384, .f32⟩
  | 101 => ⟨S100000x384, .f32⟩
  | 102 => ⟨S100000x384, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S128x384, .f32⟩
  | 25 => ⟨S100000x384, .f32⟩
  | 26 => ⟨S1x384, .f32⟩
  | 27 => ⟨S100000x384, .f32⟩
  | 28 => ⟨S100000x384, .f32⟩
  | 29 => ⟨S128x384, .f32⟩
  | 30 => ⟨S100000x384, .f32⟩
  | 31 => ⟨S1x384, .f32⟩
  | 32 => ⟨S100000x384, .f32⟩
  | 33 => ⟨S100000x384, .f32⟩
  | 34 => ⟨S100000x128, .f32⟩
  | 35 => ⟨S100000x128, .f32⟩
  | 36 => ⟨S100000x128, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S100000x128, .f32⟩
  | 66 => ⟨S100000x128, .f32⟩
  | 67 => ⟨S1x128x128, .f32⟩
  | 68 => ⟨S128x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S128x384, .f32⟩
  | 84 => ⟨S100000x384, .f32⟩
  | 85 => ⟨S1x384, .f32⟩
  | 86 => ⟨S100000x384, .f32⟩
  | 87 => ⟨S100000x384, .f32⟩
  | 88 => ⟨S128x384, .f32⟩
  | 89 => ⟨S100000x384, .f32⟩
  | 90 => ⟨S1x384, .f32⟩
  | 91 => ⟨S100000x384, .f32⟩
  | 92 => ⟨S100000x384, .f32⟩
  | 93 => ⟨S100000x128, .f32⟩
  | 94 => ⟨S100000x128, .f32⟩
  | 95 => ⟨S100000x128, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S128x128, .f32⟩
  | 127 => ⟨S100000x128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .f32⟩
  | 51 => ⟨S200x128, .f32⟩
  | 52 => ⟨S100000x1, .i32⟩
  | 53 => ⟨S200x128, .f32⟩
  | 54 => ⟨S_, .f32⟩
  | 55 => ⟨S100000, .f32⟩
  | 56 => ⟨S_, .f32⟩
  | 57 => ⟨S200, .f32⟩
  | 58 => ⟨S100000x1, .i32⟩
  | 59 => ⟨S200, .f32⟩
  | 60 => ⟨S_, .f32⟩
  | 61 => ⟨S_, .f32⟩
  | 62 => ⟨S200, .f32⟩
  | 63 => ⟨S200, .f32⟩
  | 64 => ⟨S200x1, .f32⟩
  | 65 => ⟨S200x128, .f32⟩
  | 66 => ⟨S200x128, .f32⟩
  | 67 => ⟨S128x10, .f32⟩
  | 68 => ⟨S200x10, .f32⟩
  | 69 => ⟨S1x10, .f32⟩
  | 70 => ⟨S200x10, .f32⟩
  | 71 => ⟨S200x10, .f32⟩
  | 72 => ⟨S_, .f32⟩
  | 73 => ⟨S200, .f32⟩
  | 74 => ⟨S_, .f32⟩
  | 75 => ⟨S200, .f32⟩
  | 76 => ⟨S200, .f32⟩
  | 77 => ⟨S200x1, .f32⟩
  | 78 => ⟨S200x10, .f32⟩
  | 79 => ⟨S200x10, .f32⟩
  | 80 => ⟨S200x10, .f32⟩
  | 81 => ⟨S_, .f32⟩
  | 82 => ⟨S200, .f32⟩
  | 83 => ⟨S200x1, .f32⟩
  | 84 => ⟨S200x1, .f32⟩
  | 85 => ⟨S200x10, .f32⟩
  | 86 => ⟨S200x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_6 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_cst_10 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_11 : Ref sig .tc := ⟨.hbm, 121, rfl⟩
abbrev main_v94 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_13 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_14 : Ref sig .tc := ⟨.hbm, 139, rfl⟩
abbrev main_v109 : Ref sig .tc := ⟨.hbm, 140, rfl⟩
abbrev main_v110 : Ref sig .tc := ⟨.hbm, 141, rfl⟩
abbrev main_c_15 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_16 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_17 : Ref sig .tc := ⟨.hbm, 171, rfl⟩
abbrev main_v138 : Ref sig .tc := ⟨.hbm, 172, rfl⟩
abbrev main_v139 : Ref sig .tc := ⟨.hbm, 173, rfl⟩
abbrev main_cst_18 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_19 : Ref sig .tc := ⟨.hbm, 180, rfl⟩
abbrev main_v145 : Ref sig .tc := ⟨.hbm, 181, rfl⟩
abbrev main_v146 : Ref sig .tc := ⟨.hbm, 182, rfl⟩
abbrev main_cst_20 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_21 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_c_22 : Ref sig .tc := ⟨.hbm, 198, rfl⟩
abbrev main_v160 : Ref sig .tc := ⟨.hbm, 199, rfl⟩
abbrev main_v161 : Ref sig .tc := ⟨.hbm, 200, rfl⟩
abbrev main_c_23 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_24 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_25 : Ref sig .tc := ⟨.hbm, 230, rfl⟩
abbrev main_v189 : Ref sig .tc := ⟨.hbm, 231, rfl⟩
abbrev main_v190 : Ref sig .tc := ⟨.hbm, 232, rfl⟩
abbrev main_cst_26 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_cst_27 : Ref sig .tc := ⟨.hbm, 239, rfl⟩
abbrev main_v196 : Ref sig .tc := ⟨.hbm, 240, rfl⟩
abbrev main_v197 : Ref sig .tc := ⟨.hbm, 241, rfl⟩
abbrev main_cst_28 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_cst_29 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_30 : Ref sig .tc := ⟨.hbm, 259, rfl⟩
abbrev main_v213 : Ref sig .tc := ⟨.hbm, 260, rfl⟩
abbrev main_cst_31 : Ref sig .tc := ⟨.hbm, 261, rfl⟩
abbrev main_v214 : Ref sig .tc := ⟨.hbm, 262, rfl⟩
abbrev main_v215 : Ref sig .tc := ⟨.hbm, 263, rfl⟩
abbrev main_c_32 : Ref sig .tc := ⟨.hbm, 264, rfl⟩
abbrev main_call0_cst : Ref sig .tc := ⟨.hbm, 265, rfl⟩
abbrev main_call0_v0 : Ref sig .tc := ⟨.hbm, 266, rfl⟩
abbrev main_call0_v1 : Ref sig .tc := ⟨.hbm, 267, rfl⟩
abbrev main_call0_cst_0 : Ref sig .tc := ⟨.hbm, 268, rfl⟩
abbrev main_call0_v2 : Ref sig .tc := ⟨.hbm, 269, rfl⟩
abbrev main_call0_v3 : Ref sig .tc := ⟨.hbm, 270, rfl⟩
abbrev main_call0_v4 : Ref sig .tc := ⟨.hbm, 271, rfl⟩
abbrev main_call0_v5 : Ref sig .tc := ⟨.hbm, 272, rfl⟩
abbrev main_call0_v6 : Ref sig .tc := ⟨.hbm, 273, rfl⟩
abbrev main_call0_v7 : Ref sig .tc := ⟨.hbm, 274, rfl⟩
abbrev main_call0_cst_1 : Ref sig .tc := ⟨.hbm, 275, rfl⟩
abbrev main_call0_v8 : Ref sig .tc := ⟨.hbm, 276, rfl⟩
abbrev main_call0_cst_2 : Ref sig .tc := ⟨.hbm, 277, rfl⟩
abbrev main_call0_v9 : Ref sig .tc := ⟨.hbm, 278, rfl⟩
abbrev main_call0_v10 : Ref sig .tc := ⟨.hbm, 279, rfl⟩
abbrev main_call0_v11 : Ref sig .tc := ⟨.hbm, 280, rfl⟩
abbrev main_call0_cst_3 : Ref sig .tc := ⟨.hbm, 281, rfl⟩
abbrev main_call0_v12 : Ref sig .tc := ⟨.hbm, 282, rfl⟩
abbrev main_call0_cst_4 : Ref sig .tc := ⟨.hbm, 283, rfl⟩
abbrev main_call0_call0_v0 : Ref sig .tc := ⟨.hbm, 284, rfl⟩
abbrev main_call0_call0_v1 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_cst_33 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_call1_cst : Ref sig .tc := ⟨.hbm, 303, rfl⟩
abbrev main_call1_v0 : Ref sig .tc := ⟨.hbm, 304, rfl⟩
abbrev main_v232 : Ref sig .tc := ⟨.hbm, 305, rfl⟩
abbrev main_cst_34 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_cst_35 : Ref sig .tc := ⟨.hbm, 310, rfl⟩
abbrev main_v236 : Ref sig .tc := ⟨.hbm, 311, rfl⟩
abbrev main_cst_36 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_cst_37 : Ref sig .tc := ⟨.hbm, 316, rfl⟩
abbrev main_call2_v0 : Ref sig .tc := ⟨.hbm, 317, rfl⟩
abbrev main_call2_v1 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_call3_cst : Ref sig .tc := ⟨.hbm, 328, rfl⟩
abbrev main_call3_v0 : Ref sig .tc := ⟨.hbm, 329, rfl⟩
abbrev main_call3_cst_0 : Ref sig .tc := ⟨.hbm, 330, rfl⟩
abbrev main_call3_v1 : Ref sig .tc := ⟨.hbm, 331, rfl⟩
abbrev main_call3_v2 : Ref sig .tc := ⟨.hbm, 332, rfl⟩
abbrev main_call3_v3 : Ref sig .tc := ⟨.hbm, 333, rfl⟩
abbrev main_call3_v4 : Ref sig .tc := ⟨.hbm, 334, rfl⟩
abbrev main_call3_v5 : Ref sig .tc := ⟨.hbm, 335, rfl⟩
abbrev main_call3_v6 : Ref sig .tc := ⟨.hbm, 336, rfl⟩
abbrev main_call3_cst_1 : Ref sig .tc := ⟨.hbm, 337, rfl⟩
abbrev main_call3_v7 : Ref sig .tc := ⟨.hbm, 338, rfl⟩
abbrev main_call3_v8 : Ref sig .tc := ⟨.hbm, 339, rfl⟩
abbrev main_call3_v9 : Ref sig .tc := ⟨.hbm, 340, rfl⟩
abbrev main_call3_v10 : Ref sig .tc := ⟨.hbm, 341, rfl⟩
abbrev main_v249 : Ref sig .tc := ⟨.hbm, 342, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S200x128 : S_.BroadcastsInDim S200x128 (![] : Fin 0 → Fin S200x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S200 : S_.BroadcastsInDim S200 (![] : Fin 0 → Fin S200.rank)
  bcast_S200_S200x1_0 : S200.BroadcastsInDim S200x1 (![0] : Fin 1 → Fin S200x1.rank)
  bcast_S200x1_S200x128_0_1 : S200x1.BroadcastsInDim S200x128 (![0, 1] : Fin 2 → Fin S200x128.rank)
  transposes_S10x128_S128x10_1_0 : S10x128.Transposes [1, 0] S128x10
  bcast_S10_S1x10_1 : S10.BroadcastsInDim S1x10 (![1] : Fin 1 → Fin S1x10.rank)
  bcast_S1x10_S200x10_0_1 : S1x10.BroadcastsInDim S200x10 (![0, 1] : Fin 2 → Fin S200x10.rank)
  reducesTo_S200x10_S200_d1 : S200x10.ReducesTo [1] S200
  bcast_S200x1_S200x10_0_1 : S200x1.BroadcastsInDim S200x10 (![0, 1] : Fin 2 → Fin S200x10.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  scatter_S200x128_S100000x1_S100000x128_1_0_0_1_wf : ScatterDims.WF S200x128 S100000x1 S100000x128 [1] [0] [0] 1
  scatter_S200_S100000x1_S100000_n_0_0_1_wf : ScatterDims.WF S200 S100000x1 S100000 [] [0] [0] 1
  dot_S200x128_S128x10_S200x10_1_0_0_1_n_n_wf : DotDims.WF S200x128 S128x10 S200x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S200x128_S100000x1_S100000x128_1_0_0_1 : ScatterDims S200x128 S100000x1 S100000x128 where
  updateWindowDims := [1]
  insertedWindowDims := [0]
  scatterDimsToOperandDims := [0]
  indexVectorDim := 1
  wf := scatter_S200x128_S100000x1_S100000x128_1_0_0_1_wf
def scatter_S200_S100000x1_S100000_n_0_0_1 : ScatterDims S200 S100000x1 S100000 where
  updateWindowDims := []
  insertedWindowDims := [0]
  scatterDimsToOperandDims := [0]
  indexVectorDim := 1
  wf := scatter_S200_S100000x1_S100000_n_0_0_1_wf
def dot_S200x128_S128x10_S200x10_1_0_0_1_n_n : DotDims S200x128 S128x10 S200x10 where
  lhsContracting := [1]
  rhsContracting := [0]
  lhsNonContracting := [0]
  rhsNonContracting := [1]
  lhsBatch := []
  rhsBatch := []
  wf := dot_S200x128_S128x10_S200x10_1_0_0_1_n_n_wf

class Facts : Prop extends Facts₀ where

variable [Facts]
-- ==== Proof.Net.lean ====
/-
  The network both programs compute, as pure functions of the argument arrays.

  A gated graph layer sends the node features through a dense map, sums them along the edges (a row gather
  followed by an accumulating scatter), and updates every node by a GRU cell; four layers, then a dense map,
  a batch normalisation with the batch's own mean and variance, a rectifier, a mean over each graph's nodes,
  a dense map to ten classes and a log-softmax.  The functions below are the reference's host operations,
  composed; the kernel's own small host steps (a reshape where the reference broadcasts, the normalisation
  folded into a scale and a shift) are listed after them, and last the entry-by-entry readings at the
  extended reals that the two sides meet at.
-/
import proofs.«403864_j85770496901353_1_alg».proof.Proof.Gen.KernelIdeal
import proofs.«403864_j85770496901353_1_alg».proof.Proof.Gen.ReferenceIdeal
import Idealize.ShloMosaic.PureOps.Ideal
import Idealize.ShloMosaic.Lib.ValueIdx

noncomputable section

namespace Cert.Net

open Idealize.ShloMosaic Idealize.ShloMosaic.ValueIdx
open scoped BigOperators

/-- Contents of a float array of shape s. -/
abbrev CF (F : FTy → Type) (s : Shape) : Type := (⟨s, .f32⟩ : BufTy).Contents (Elt F)
/-- Contents of a 32-bit integer array of shape s. -/
abbrev CI (F : FTy → Type) (s : Shape) : Type := (⟨s, .i32⟩ : BufTy).Contents (Elt F)

section Reference
open Cert.ReferenceIdeal Cert.ReferenceIdeal.Facts₀ Cert.ReferenceIdeal.Facts
variable {F : FTy → Type} [FloatOps F]

/-- Source nodes of the edges: row 0 of the edge list. -/
def srcR (ei : CI F S2x1600000) : CI F S1600000 :=
  shapeCast S1600000 (extractStridedSlice S1x1600000 ![0, 0] ei slices_S2x1600000_S1x1600000_0_0) shapeCasts_S1x1600000_S1600000
/-- Target nodes of the edges: row 1 of the edge list. -/
def dstR (ei : CI F S2x1600000) : CI F S1600000 :=
  shapeCast S1600000 (extractStridedSlice S1x1600000 ![1, 0] ei slices_S2x1600000_S1x1600000_1_0) shapeCasts_S1x1600000_S1600000

/-- Layer k's 128 × 128 weight, cut out of the stacked weights. -/
def wsl0 (a3 : CF F S4x128x128) : CF F S128x128 :=
  shapeCast S128x128 (extractStridedSlice S1x128x128 ![0, 0, 0] a3 slices_S4x128x128_S1x128x128_0_0_0) shapeCasts_S1x128x128_S128x128
def wsl1 (a3 : CF F S4x128x128) : CF F S128x128 :=
  shapeCast S128x128 (extractStridedSlice S1x128x128 ![1, 0, 0] a3 slices_S4x128x128_S1x128x128_1_0_0) shapeCasts_S1x128x128_S128x128
def wsl2 (a3 : CF F S4x128x128) : CF F S128x128 :=
  shapeCast S128x128 (extractStridedSlice S1x128x128 ![2, 0, 0] a3 slices_S4x128x128_S1x128x128_2_0_0) shapeCasts_S1x128x128_S128x128
def wsl3 (a3 : CF F S4x128x128) : CF F S128x128 :=
  shapeCast S128x128 (extractStridedSlice S1x128x128 ![3, 0, 0] a3 slices_S4x128x128_S1x128x128_3_0_0) shapeCasts_S1x128x128_S128x128

/-- The dense map of a layer: h · W. -/
def mmR (h : CF F S100000x128) (w : CF F S128x128) : CF F S100000x128 :=
  Host.dotGeneral dot_S100000x128_S128x128_S100000x128_1_0_0_1_n_n none h w

/-- A negative index wraps around: the number of nodes is added to it. -/
def wrapR (src : CI F S1600000) : CI F S1600000 :=
  select (cmpi .slt src (broadcastInDim S1600000 ![] bcast_S_S1600000 (constantI S_ 32 0#32)))
    (addi src (broadcastInDim S1600000 ![] bcast_S_S1600000 (constantI S_ 32 100000#32))) src

/-- The sum along the edges: row src(e) of the messages is added into row dst(e). -/
def aggR (src dst : CI F S1600000) (mm : CF F S100000x128) : CF F S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 mm
      (broadcastInDim S1600000x1 ![0] bcast_S1600000_S1600000x1_0 (wrapR src)))

/-- A stacked gate weight, transposed to 128 × 384. -/
def trT (a : CF F S384x128) : CF F S128x384 := transpose S128x384 [1, 0] a transposes_S384x128_S128x384_1_0
/-- The three gates' pre-activations: x · Wᵀ + b. -/
def gatesR (x : CF F S100000x128) (wT : CF F S128x384) (b : CF F S384) : CF F S100000x384 :=
  addf (Host.dotGeneral dot_S100000x128_S128x384_S100000x384_1_0_0_1_n_n none x wT)
    (broadcastInDim S100000x384 ![0, 1] bcast_S1x384_S100000x384_0_1 (broadcastInDim S1x384 ![1] bcast_S384_S1x384_1 b))
def one128 : CF F S100000x128 := broadcastInDim S100000x128 ![] bcast_S_S100000x128 (constant S_ .f32 0x3F800000#32)
/-- The logistic function spelt out: 1 / (1 + e⁻ˣ). -/
def sigR (x : CF F S100000x128) : CF F S100000x128 := Host.divf one128 (addf one128 (Host.exp (Host.negf x)))
def sl0 (g : CF F S100000x384) : CF F S100000x128 := extractStridedSlice S100000x128 ![0, 0] g slices_S100000x384_S100000x128_0_0
def sl1 (g : CF F S100000x384) : CF F S100000x128 := extractStridedSlice S100000x128 ![0, 128] g slices_S100000x384_S100000x128_0_128
def sl2 (g : CF F S100000x384) : CF F S100000x128 := extractStridedSlice S100000x128 ![0, 256] g slices_S100000x384_S100000x128_0_256
/-- The GRU cell on the gates gi (from the summed messages) and gh (from the state h). -/
def gruCore (gi gh : CF F S100000x384) (h : CF F S100000x128) : CF F S100000x128 :=
  addf (mulf (subf one128 (sigR (addf (sl1 gi) (sl1 gh))))
          (Host.tanh (addf (sl2 gi) (mulf (sigR (addf (sl0 gi) (sl0 gh))) (sl2 gh)))))
       (mulf (sigR (addf (sl1 gi) (sl1 gh))) h)
def gruR (agg h : CF F S100000x128) (a4 a5 : CF F S384x128) (a6 a7 : CF F S384) : CF F S100000x128 :=
  gruCore (gatesR agg (trT a4) a6) (gatesR h (trT a5) a7) h

/-- One layer: dense map, sum along the edges, GRU update. -/
def layerR (w : CF F S128x128) (x : CF F S100000x128) (ei : CI F S2x1600000) (a4 a5 : CF F S384x128) (a6 a7 : CF F S384) :
    CF F S100000x128 :=
  gruR (aggR (srcR ei) (dstR ei) (mmR x w)) x a4 a5 a6 a7

/-- A length-128 row repeated down the 100000 nodes. -/
def rowB (v : CF F S128) : CF F S100000x128 :=
  broadcastInDim S100000x128 ![0, 1] bcast_S1x128_S100000x128_0_1 (broadcastInDim S1x128 ![1] bcast_S128_S1x128_1 v)
/-- The first dense head: h · W₁ᵀ + b₁. -/
def fc1R (h : CF F S100000x128) (a8 : CF F S128x128) (a9 : CF F S128) : CF F S100000x128 :=
  addf (Host.dotGeneral dot_S100000x128_S128x128_S100000x128_1_0_0_1_n_n none h (transpose S128x128 [1, 0] a8 transposes_S128x128_S128x128_1_0))
    (rowB a9)
/-- Column sums over the nodes. -/
def colSum (y : CF F S100000x128) : CF F S128 :=
  Host.reduceAdd y (constant S_ .f32 0x00000000#32) reducesTo_S100000x128_S128_d0 h_S_
/-- The number of nodes, 100000, as a float. -/
def nC : CF F S_ := constant S_ .f32 0x47C35000#32
def meanR (y : CF F S100000x128) : CF F S128 := Host.divf (colSum y) (broadcastInDim S128 ![] bcast_S_S128 nC)
/-- y minus its column means (the centring inside the variance). -/
def cenR (y : CF F S100000x128) : CF F S100000x128 :=
  subf y (broadcastInDim S100000x128 ![0, 1] bcast_S1x128_S100000x128_0_1
    (Host.divf (broadcastInDim S1x128 ![1] bcast_S128_S1x128_1 (colSum y)) (broadcastInDim S1x128 ![] bcast_S_S1x128 nC)))
/-- The variance's divisor: the number of nodes minus the degrees of freedom (zero here). -/
def ddofR : CF F S_ := subf nC (sitofp .f32 (constantI S_ 32 0#32))
/-- The biased variance of each column, with its guard on the divisor's sign. -/
def varR (y : CF F S100000x128) : CF F S128 :=
  select (broadcastInDim S128 ![] bcast_S_S128 (cmpf .ogt (ddofR (F := F)) (constant S_ .f32 0x00000000#32 : CF F S_)))
    (Host.divf (colSum (mulf (cenR y) (cenR y))) (broadcastInDim S128 ![] bcast_S_S128 (ddofR (F := F))))
    (broadcastInDim S128 ![] bcast_S_S128 (constant S_ .f32 0x7FC00000#32))
def rstdR (y : CF F S100000x128) : CF F S128 :=
  Host.rsqrt (addf (varR y) (broadcastInDim S128 ![] bcast_S_S128 (constant S_ .f32 0x3727C5AC#32)))
/-- Batch normalisation: ((y − mean) · rstd) · γ + β. -/
def bnR (y : CF F S100000x128) (a10 a11 : CF F S128) : CF F S100000x128 :=
  addf (mulf (mulf (subf y (rowB (meanR y))) (rowB (rstdR y))) (rowB a10)) (rowB a11)
def reluR (x : CF F S100000x128) : CF F S100000x128 :=
  maximumf x (broadcastInDim S100000x128 ![] bcast_S_S100000x128 (constant S_ .f32 0x00000000#32))

/-- The graph index of each node, as a column. -/
def bcol (b : CI F S100000) : CI F S100000x1 := broadcastInDim S100000x1 ![0] bcast_S100000_S100000x1_0 b
/-- Per-graph sums of the node rows. -/
def sumsR (yn : CF F S100000x128) (b : CI F S100000) : CF F S200x128 :=
  Host.scatterAdd scatter_S200x128_S100000x1_S100000x128_1_0_0_1
    (broadcastInDim S200x128 ![] bcast_S_S200x128 (constant S_ .f32 0x00000000#32)) (bcol b) yn
/-- Per-graph node counts. -/
def countsR (b : CI F S100000) : CF F S200 :=
  Host.scatterAdd scatter_S200_S100000x1_S100000_n_0_0_1
    (broadcastInDim S200 ![] bcast_S_S200 (constant S_ .f32 0x00000000#32)) (bcol b)
    (broadcastInDim S100000 ![] bcast_S_S100000 (constant S_ .f32 0x3F800000#32))
def clipR (cn : CF F S200) : CF F S200 := maximumf (broadcastInDim S200 ![] bcast_S_S200 (constant S_ .f32 0x3F800000#32)) cn
/-- Per-graph means: sums over counts clipped below at one. -/
def gfeatR (yn : CF F S100000x128) (b : CI F S100000) : CF F S200x128 :=
  Host.divf (sumsR yn b)
    (broadcastInDim S200x128 ![0, 1] bcast_S200x1_S200x128_0_1 (broadcastInDim S200x1 ![0] bcast_S200_S200x1_0 (clipR (countsR b))))

/-- The class scores: g · W₂ᵀ + b₂. -/
def logitsR (g : CF F S200x128) (a12 : CF F S10x128) (a13 : CF F S10) : CF F S200x10 :=
  addf (Host.dotGeneral dot_S200x128_S128x10_S200x10_1_0_0_1_n_n none g (transpose S128x10 [1, 0] a12 transposes_S10x128_S128x10_1_0))
    (broadcastInDim S200x10 ![0, 1] bcast_S1x10_S200x10_0_1 (broadcastInDim S1x10 ![1] bcast_S10_S1x10_1 a13))
/-- x minus its row maximum. -/
def shiftedR (x : CF F S200x10) : CF F S200x10 :=
  subf x (broadcastInDim S200x10 ![0, 1] bcast_S200x1_S200x10_0_1 (broadcastInDim S200x1 ![0] bcast_S200_S200x1_0
    (maximumf (broadcastInDim S200 ![] bcast_S_S200 (constant S_ .f32 0xFF800000#32))
      (Host.reduce FloatOps.maximumf x (constant S_ .f32 0xFF800000#32) reducesTo_S200x10_S200_d1 h_S_))))
/-- The log-softmax along the classes. -/
def lsmR (x : CF F S200x10) : CF F S200x10 :=
  subf (shiftedR x) (broadcastInDim S200x10 ![0, 1] bcast_S200x1_S200x10_0_1 (Host.log (broadcastInDim S200x1 ![0] bcast_S200_S200x1_0
    (Host.reduceAdd (Host.exp (shiftedR x)) (constant S_ .f32 0x00000000#32) reducesTo_S200x10_S200_d1 h_S_))))

/-- The node states after the four layers. -/
def h4R (a0 : CF F S100000x128) (a1 : CI F S2x1600000) (a3 : CF F S4x128x128) (a4 a5 : CF F S384x128) (a6 a7 : CF F S384) :
    CF F S100000x128 :=
  layerR (wsl3 a3) (layerR (wsl2 a3) (layerR (wsl1 a3) (layerR (wsl0 a3) a0 a1 a4 a5 a6 a7) a1 a4 a5 a6 a7) a1 a4 a5 a6 a7) a1 a4 a5 a6 a7

/-- The whole network. -/
def netR (a0 : CF F S100000x128) (a1 : CI F S2x1600000) (a2 : CI F S100000) (a3 : CF F S4x128x128) (a4 a5 : CF F S384x128)
    (a6 a7 : CF F S384) (a8 : CF F S128x128) (a9 a10 a11 : CF F S128) (a12 : CF F S10x128) (a13 : CF F S10) : CF F S200x10 :=
  lsmR (logitsR (gfeatR (reluR (bnR (fc1R (h4R a0 a1 a3 a4 a5 a6 a7) a8 a9) a10 a11)) a2) a12 a13)

end Reference

/-! ## The kernel's own host steps -/
section Kernel
open Cert.KernelIdeal Cert.KernelIdeal.Facts₀ Cert.KernelIdeal.Facts
variable {F : FTy → Type} [FloatOps F]

/-- The graph index of each node as a column, by a reshape. -/
def bcolK (b : CI F S100000) : CI F S100000x1 := shapeCast S100000x1 b shapeCasts_S100000_S100000x1
/-- A 384-vector as a 1 × 384 row, by a reshape. -/
def row384K (v : CF F S384) : CF F S1x384 := shapeCast S1x384 v shapeCasts_S384_S1x384
/-- A 128-vector as a 1 × 128 row, by a reshape. -/
def row128K (v : CF F S128) : CF F S1x128 := shapeCast S1x128 v shapeCasts_S128_S1x128
def trTK (a : CF F S384x128) : CF F S128x384 := transpose S128x384 [1, 0] a transposes_S384x128_S128x384_1_0
def trSqK (a : CF F S128x128) : CF F S128x128 := transpose S128x128 [1, 0] a transposes_S128x128_S128x128_1_0
def nRowK : CF F S1x128 := broadcastInDim S1x128 ![] bcast_S_S1x128 (constant S_ .f32 0x47C35000#32)
/-- The kernel's mean: the column sums over the number of nodes. -/
def meanK (s : CF F S1x128) : CF F S1x128 := Host.divf s nRowK
/-- The kernel's variance: mean of squares minus squared mean. -/
def varK (s q : CF F S1x128) : CF F S1x128 := subf (Host.divf q nRowK) (mulf (meanK s) (meanK s))
def rstdK (s q : CF F S1x128) : CF F S1x128 :=
  Host.rsqrt (addf (varK s q) (broadcastInDim S1x128 ![] bcast_S_S1x128 (constant S_ .f32 0x3727C5AC#32)))
/-- The folded normalisation: scale = rstd · γ. -/
def scaleK (s q : CF F S1x128) (a10 : CF F S128) : CF F S1x128 := mulf (rstdK s q) (row128K a10)
/-- The folded normalisation: shift = β − mean · scale. -/
def shiftK (s q : CF F S1x128) (a10 a11 : CF F S128) : CF F S1x128 := subf (row128K a11) (mulf (meanK s) (scaleK s q a10))
/-- Per-graph means from the kernel's sums [200,128] and counts [200,1]. -/
def gfeatK (sums : CF F S200x128) (counts : CF F S200x1) : CF F S200x128 :=
  Host.divf sums (broadcastInDim S200x128 ![0, 1] bcast_S200x1_S200x128_0_1
    (maximumf (broadcastInDim S200x1 ![] bcast_S_S200x1 (constant S_ .f32 0x3F800000#32)) counts))

end Kernel

/-! ## Entry-by-entry readings at the extended reals -/
section Entries
open Cert.ReferenceIdeal

/-- Every entry is a real number. -/
def Fin' {s : Shape} (x : s.Idx → EReal) : Prop := ∀ i, ∃ r : ℝ, x i = (r : EReal)

/-- Gate c of node i: ∑ₖ x[i,k] · w[c,k] + b[c], the weight as stored (384 × 128). -/
def gateAt (x : CF Ideal S100000x128) (w : CF Ideal S384x128) (b : CF Ideal S384) (i : Fin 100000) (c : Fin 384) : EReal :=
  (∑ k : Fin 128, x (ix2 i k) * w (ix2 c k)) + b (ix1 c)

def g0 (j : Fin 128) : Fin 384 := ⟨j.val, by omega⟩
def g1 (j : Fin 128) : Fin 384 := ⟨128 + j.val, by omega⟩
def g2 (j : Fin 128) : Fin 384 := ⟨256 + j.val, by omega⟩

/-- The GRU update of node i, feature j. -/
def gruAt (agg h : CF Ideal S100000x128) (a4 a5 : CF Ideal S384x128) (a6 a7 : CF Ideal S384) (i : Fin 100000) (j : Fin 128) : EReal :=
  (1 - Ideal.logistic (gateAt agg a4 a6 i (g1 j) + gateAt h a5 a7 i (g1 j)))
      * Ideal.tanh (gateAt agg a4 a6 i (g2 j)
          + Ideal.logistic (gateAt agg a4 a6 i (g0 j) + gateAt h a5 a7 i (g0 j)) * gateAt h a5 a7 i (g2 j))
    + Ideal.logistic (gateAt agg a4 a6 i (g1 j) + gateAt h a5 a7 i (g1 j)) * h (ix2 i j)

/-- The first head at node i, feature j: ∑ₖ h[i,k] · w[j,k] + b[j], the weight as stored. -/
def fc1At (h : CF Ideal S100000x128) (a8 : CF Ideal S128x128) (a9 : CF Ideal S128) (i : Fin 100000) (j : Fin 128) : EReal :=
  (∑ k : Fin 128, h (ix2 i k) * a8 (ix2 j k)) + a9 (ix1 j)

/-- One where a node's graph word is g, zero elsewhere. -/
def hot (w : BitVec 32) (g : Fin 200) : EReal := if w = BitVec.ofNat 32 g.val then 1 else 0

/-- What the pooling kernel accumulates for graph g, feature j. -/
def poolAt (y : CF Ideal S100000x128) (sc sh : CF Ideal S1x128) (b : CI Ideal S100000x1) (g : Fin 200) (j : Fin 128) : EReal :=
  ∑ r : Fin 100000, hot (b (ix2 r 0)) g * max (y (ix2 r j) * sc (ix2 0 j) + sh (ix2 0 j)) 0
/-- The pooling kernel's count for graph g. -/
def cntAt (b : CI Ideal S100000x1) (g : Fin 200) : EReal := ∑ r : Fin 100000, hot (b (ix2 r 0)) g

/-- Column sums of y as a 1 × 128 row. -/
def colSumAt (y : CF Ideal S100000x128) : CF Ideal S1x128 := fun i => ∑ r : Fin 100000, y (ix2 r (i 1))
/-- Column sums of y's squares as a 1 × 128 row. -/
def colSqAt (y : CF Ideal S100000x128) : CF Ideal S1x128 := fun i => ∑ r : Fin 100000, y (ix2 r (i 1)) * y (ix2 r (i 1))
/-- The pooled sums as a 200 × 128 array. -/
def poolArr (y : CF Ideal S100000x128) (sc sh : CF Ideal S1x128) (b : CI Ideal S100000x1) : CF Ideal S200x128 :=
  fun i => poolAt y sc sh b (i 0) (i 1)
/-- The counts as a 200 × 1 column. -/
def cntArr (b : CI Ideal S100000x1) : CF Ideal S200x1 := fun i => cntAt b (i 0)

end Entries

end Cert.Net

end
-- ==== Proof.ChainKeep.lean ====
/-
  Buffers that are not written between two boundaries of the kernel program's run keep their contents: a host
  stretch none of whose operations writes the buffer, a region that does not stage it, a region that only reads it.
-/
import proofs.«403864_j85770496901353_1_alg».proof.Proof.Gen.KernelIdeal.Frame
import Idealize.ShloMosaic.Lib.StableHlo.Run

set_option maxRecDepth 16384

noncomputable section

namespace Cert.KVal

open Idealize.ShloMosaic Idealize.ShloMosaic.TcCoe Idealize.SL.Sem Idealize.ShloMosaic.StableHlo
open Cert.KernelIdeal Cert.KernelIdeal.Gen

/-- No operation of the named host stretch writes the buffer, so the buffer keeps its contents across it. -/
macro "hkeep" ops:ident : term => `(StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable {F : FTy → Type} [FloatOps F] (m : (ℓ : Loc nD τ sig) → Buf (Elt F) ℓ) (ρ : Dev nD → PrngReg) (c : Dev nD)

theorem keep_arg0_1 : W1 m ρ c (Proc.devRef .tc main_arg0) = W0 m ρ c (Proc.devRef .tc main_arg0) :=
  calc W1 m ρ c (Proc.devRef .tc main_arg0)
    _ = W0 m ρ c (Proc.devRef .tc main_arg0) := hkeep hostOps0
theorem keep_arg0_3 : W3 m ρ c (Proc.devRef .tc main_arg0) = W0 m ρ c (Proc.devRef .tc main_arg0) :=
  calc W3 m ρ c (Proc.devRef .tc main_arg0)
    _ = W2 m ρ c (Proc.devRef .tc main_arg0) := hkeep hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep_arg0_1 m ρ c
theorem keep_arg3_4 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := hkeep hostOps1
    _ = W1 m ρ c (Proc.devRef .tc main_arg3) := W2_of_ne m ρ c main_arg3 (by decide)
    _ = W0 m ρ c (Proc.devRef .tc main_arg3) := hkeep hostOps0
theorem keep_arg3_8 : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := hkeep hostOps3
    _ = W5 m ρ c (Proc.devRef .tc main_arg3) := W6_of_ne m ρ c main_arg3 (by decide)
    _ = W4 m ρ c (Proc.devRef .tc main_arg3) := hkeep hostOps2
    _ = W0 m ρ c (Proc.devRef .tc main_arg3) := keep_arg3_4 m ρ c
theorem keep_arg3_12 : W12 m ρ c (Proc.devRef .tc main_arg3) = W0 m ρ c (Proc.devRef .tc main_arg3) :=
  calc W12 m ρ c (Proc.devRef .tc main_arg3)
    _ = W11 m ρ c (Proc.devRef .tc main_arg3) := W12_of_ne m ρ c main_arg3 (by decide)
    _ = W10 m ρ c (Proc.devRef .tc main_arg3) := hkeep hostOps5
    _ = W9 m ρ c (Proc.devRef .tc main_arg3) := W10_of_ne m ρ c main_arg3 (by decide)
    _ = W8 m ρ c (Proc.devRef .tc main_arg3) := hkeep hostOps4
    _ = W0 m ρ c (Proc.devRef .tc main_arg3) := keep_arg3_8 m ρ c
theorem keep_arg8_16 : W16 m ρ c (Proc.devRef .tc main_arg8) = W0 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := hkeep hostOps7
    _ = W13 m ρ c (Proc.devRef .tc main_arg8) := W14_of_ne m ρ c main_arg8 (by decide)
    _ = W12 m ρ c (Proc.devRef .tc main_arg8) := hkeep hostOps6
    _ = W11 m ρ c (Proc.devRef .tc main_arg8) := W12_of_ne m ρ c main_arg8 (by decide)
    _ = W10 m ρ c (Proc.devRef .tc main_arg8) := hkeep hostOps5
    _ = W9 m ρ c (Proc.devRef .tc main_arg8) := W10_of_ne m ρ c main_arg8 (by decide)
    _ = W8 m ρ c (Proc.devRef .tc main_arg8) := hkeep hostOps4
    _ = W7 m ρ c (Proc.devRef .tc main_arg8) := W8_of_ne m ρ c main_arg8 (by decide)
    _ = W6 m ρ c (Proc.devRef .tc main_arg8) := hkeep hostOps3
    _ = W5 m ρ c (Proc.devRef .tc main_arg8) := W6_of_ne m ρ c main_arg8 (by decide)
    _ = W4 m ρ c (Proc.devRef .tc main_arg8) := hkeep hostOps2
    _ = W3 m ρ c (Proc.devRef .tc main_arg8) := W4_of_ne m ρ c main_arg8 (by decide)
    _ = W2 m ρ c (Proc.devRef .tc main_arg8) := hkeep hostOps1
    _ = W1 m ρ c (Proc.devRef .tc main_arg8) := W2_of_ne m ρ c main_arg8 (by decide)
    _ = W0 m ρ c (Proc.devRef .tc main_arg8) := hkeep hostOps0
theorem keep_arg9_16 : W16 m ρ c (Proc.devRef .tc main_arg9) = W0 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := hkeep hostOps7
    _ = W13 m ρ c (Proc.devRef .tc main_arg9) := W14_of_ne m ρ c main_arg9 (by decide)
    _ = W12 m ρ c (Proc.devRef .tc main_arg9) := hkeep hostOps6
    _ = W11 m ρ c (Proc.devRef .tc main_arg9) := W12_of_ne m ρ c main_arg9 (by decide)
    _ = W10 m ρ c (Proc.devRef .tc main_arg9) := hkeep hostOps5
    _ = W9 m ρ c (Proc.devRef .tc main_arg9) := W10_of_ne m ρ c main_arg9 (by decide)
    _ = W8 m ρ c (Proc.devRef .tc main_arg9) := hkeep hostOps4
    _ = W7 m ρ c (Proc.devRef .tc main_arg9) := W8_of_ne m ρ c main_arg9 (by decide)
    _ = W6 m ρ c (Proc.devRef .tc main_arg9) := hkeep hostOps3
    _ = W5 m ρ c (Proc.devRef .tc main_arg9) := W6_of_ne m ρ c main_arg9 (by decide)
    _ = W4 m ρ c (Proc.devRef .tc main_arg9) := hkeep hostOps2
    _ = W3 m ρ c (Proc.devRef .tc main_arg9) := W4_of_ne m ρ c main_arg9 (by decide)
    _ = W2 m ρ c (Proc.devRef .tc main_arg9) := hkeep hostOps1
    _ = W1 m ρ c (Proc.devRef .tc main_arg9) := W2_of_ne m ρ c main_arg9 (by decide)
    _ = W0 m ρ c (Proc.devRef .tc main_arg9) := hkeep hostOps0
theorem keep_arg10_18 : W18 m ρ c (Proc.devRef .tc main_arg10) = W0 m ρ c (Proc.devRef .tc main_arg10) :=
  calc W18 m ρ c (Proc.devRef .tc main_arg10)
    _ = W17 m ρ c (Proc.devRef .tc main_arg10) := W18_of_ne m ρ c main_arg10 (by decide)
    _ = W16 m ρ c (Proc.devRef .tc main_arg10) := hkeep hostOps8
    _ = W15 m ρ c (Proc.devRef .tc main_arg10) := W16_of_ne m ρ c main_arg10 (by decide)
    _ = W14 m ρ c (Proc.devRef .tc main_arg10) := hkeep hostOps7
    _ = W13 m ρ c (Proc.devRef .tc main_arg10) := W14_of_ne m ρ c main_arg10 (by decide)
    _ = W12 m ρ c (Proc.devRef .tc main_arg10) := hkeep hostOps6
    _ = W11 m ρ c (Proc.devRef .tc main_arg10) := W12_of_ne m ρ c main_arg10 (by decide)
    _ = W10 m ρ c (Proc.devRef .tc main_arg10) := hkeep hostOps5
    _ = W9 m ρ c (Proc.devRef .tc main_arg10) := W10_of_ne m ρ c main_arg10 (by decide)
    _ = W8 m ρ c (Proc.devRef .tc main_arg10) := hkeep hostOps4
    _ = W7 m ρ c (Proc.devRef .tc main_arg10) := W8_of_ne m ρ c main_arg10 (by decide)
    _ = W6 m ρ c (Proc.devRef .tc main_arg10) := hkeep hostOps3
    _ = W5 m ρ c (Proc.devRef .tc main_arg10) := W6_of_ne m ρ c main_arg10 (by decide)
    _ = W4 m ρ c (Proc.devRef .tc main_arg10) := hkeep hostOps2
    _ = W3 m ρ c (Proc.devRef .tc main_arg10) := W4_of_ne m ρ c main_arg10 (by decide)
    _ = W2 m ρ c (Proc.devRef .tc main_arg10) := hkeep hostOps1
    _ = W1 m ρ c (Proc.devRef .tc main_arg10) := W2_of_ne m ρ c main_arg10 (by decide)
    _ = W0 m ρ c (Proc.devRef .tc main_arg10) := hkeep hostOps0
theorem keep_arg11_18 : W18 m ρ c (Proc.devRef .tc main_arg11) = W0 m ρ c (Proc.devRef .tc main_arg11) :=
  calc W18 m ρ c (Proc.devRef .tc main_arg11)
    _ = W17 m ρ c (Proc.devRef .tc main_arg11) := W18_of_ne m ρ c main_arg11 (by decide)
    _ = W16 m ρ c (Proc.devRef .tc main_arg11) := hkeep hostOps8
    _ = W15 m ρ c (Proc.devRef .tc main_arg11) := W16_of_ne m ρ c main_arg11 (by decide)
    _ = W14 m ρ c (Proc.devRef .tc main_arg11) := hkeep hostOps7
    _ = W13 m ρ c (Proc.devRef .tc main_arg11) := W14_of_ne m ρ c main_arg11 (by decide)
    _ = W12 m ρ c (Proc.devRef .tc main_arg11) := hkeep hostOps6
    _ = W11 m ρ c (Proc.devRef .tc main_arg11) := W12_of_ne m ρ c main_arg11 (by decide)
    _ = W10 m ρ c (Proc.devRef .tc main_arg11) := hkeep hostOps5
    _ = W9 m ρ c (Proc.devRef .tc main_arg11) := W10_of_ne m ρ c main_arg11 (by decide)
    _ = W8 m ρ c (Proc.devRef .tc main_arg11) := hkeep hostOps4
    _ = W7 m ρ c (Proc.devRef .tc main_arg11) := W8_of_ne m ρ c main_arg11 (by decide)
    _ = W6 m ρ c (Proc.devRef .tc main_arg11) := hkeep hostOps3
    _ = W5 m ρ c (Proc.devRef .tc main_arg11) := W6_of_ne m ρ c main_arg11 (by decide)
    _ = W4 m ρ c (Proc.devRef .tc main_arg11) := hkeep hostOps2
    _ = W3 m ρ c (Proc.devRef .tc main_arg11) := W4_of_ne m ρ c main_arg11 (by decide)
    _ = W2 m ρ c (Proc.devRef .tc main_arg11) := hkeep hostOps1
    _ = W1 m ρ c (Proc.devRef .tc main_arg11) := W2_of_ne m ρ c main_arg11 (by decide)
    _ = W0 m ρ c (Proc.devRef .tc main_arg11) := hkeep hostOps0
theorem keep_arg12_20 : W20 m ρ c (Proc.devRef .tc main_arg12) = W0 m ρ c (Proc.devRef .tc main_arg12) :=
  calc W20 m ρ c (Proc.devRef .tc main_arg12)
    _ = W19 m ρ c (Proc.devRef .tc main_arg12) := W20_of_ne m ρ c main_arg12 (by decide)
    _ = W18 m ρ c (Proc.devRef .tc main_arg12) := hkeep hostOps9
    _ = W17 m ρ c (Proc.devRef .tc main_arg12) := W18_of_ne m ρ c main_arg12 (by decide)
    _ = W16 m ρ c (Proc.devRef .tc main_arg12) := hkeep hostOps8
    _ = W15 m ρ c (Proc.devRef .tc main_arg12) := W16_of_ne m ρ c main_arg12 (by decide)
    _ = W14 m ρ c (Proc.devRef .tc main_arg12) := hkeep hostOps7
    _ = W13 m ρ c (Proc.devRef .tc main_arg12) := W14_of_ne m ρ c main_arg12 (by decide)
    _ = W12 m ρ c (Proc.devRef .tc main_arg12) := hkeep hostOps6
    _ = W11 m ρ c (Proc.devRef .tc main_arg12) := W12_of_ne m ρ c main_arg12 (by decide)
    _ = W10 m ρ c (Proc.devRef .tc main_arg12) := hkeep hostOps5
    _ = W9 m ρ c (Proc.devRef .tc main_arg12) := W10_of_ne m ρ c main_arg12 (by decide)
    _ = W8 m ρ c (Proc.devRef .tc main_arg12) := hkeep hostOps4
    _ = W7 m ρ c (Proc.devRef .tc main_arg12) := W8_of_ne m ρ c main_arg12 (by decide)
    _ = W6 m ρ c (Proc.devRef .tc main_arg12) := hkeep hostOps3
    _ = W5 m ρ c (Proc.devRef .tc main_arg12) := W6_of_ne m ρ c main_arg12 (by decide)
    _ = W4 m ρ c (Proc.devRef .tc main_arg12) := hkeep hostOps2
    _ = W3 m ρ c (Proc.devRef .tc main_arg12) := W4_of_ne m ρ c main_arg12 (by decide)
    _ = W2 m ρ c (Proc.devRef .tc main_arg12) := hkeep hostOps1
    _ = W1 m ρ c (Proc.devRef .tc main_arg12) := W2_of_ne m ρ c main_arg12 (by decide)
    _ = W0 m ρ c (Proc.devRef .tc main_arg12) := hkeep hostOps0
theorem keep_arg13_20 : W20 m ρ c (Proc.devRef .tc main_arg13) = W0 m ρ c (Proc.devRef .tc main_arg13) :=
  calc W20 m ρ c (Proc.devRef .tc main_arg13)
    _ = W19 m ρ c (Proc.devRef .tc main_arg13) := W20_of_ne m ρ c main_arg13 (by decide)
    _ = W18 m ρ c (Proc.devRef .tc main_arg13) := hkeep hostOps9
    _ = W17 m ρ c (Proc.devRef .tc main_arg13) := W18_of_ne m ρ c main_arg13 (by decide)
    _ = W16 m ρ c (Proc.devRef .tc main_arg13) := hkeep hostOps8
    _ = W15 m ρ c (Proc.devRef .tc main_arg13) := W16_of_ne m ρ c main_arg13 (by decide)
    _ = W14 m ρ c (Proc.devRef .tc main_arg13) := hkeep hostOps7
    _ = W13 m ρ c (Proc.devRef .tc main_arg13) := W14_of_ne m ρ c main_arg13 (by decide)
    _ = W12 m ρ c (Proc.devRef .tc main_arg13) := hkeep hostOps6
    _ = W11 m ρ c (Proc.devRef .tc main_arg13) := W12_of_ne m ρ c main_arg13 (by decide)
    _ = W10 m ρ c (Proc.devRef .tc main_arg13) := hkeep hostOps5
    _ = W9 m ρ c (Proc.devRef .tc main_arg13) := W10_of_ne m ρ c main_arg13 (by decide)
    _ = W8 m ρ c (Proc.devRef .tc main_arg13) := hkeep hostOps4
    _ = W7 m ρ c (Proc.devRef .tc main_arg13) := W8_of_ne m ρ c main_arg13 (by decide)
    _ = W6 m ρ c (Proc.devRef .tc main_arg13) := hkeep hostOps3
    _ = W5 m ρ c (Proc.devRef .tc main_arg13) := W6_of_ne m ρ c main_arg13 (by decide)
    _ = W4 m ρ c (Proc.devRef .tc main_arg13) := hkeep hostOps2
    _ = W3 m ρ c (Proc.devRef .tc main_arg13) := W4_of_ne m ρ c main_arg13 (by decide)
    _ = W2 m ρ c (Proc.devRef .tc main_arg13) := hkeep hostOps1
    _ = W1 m ρ c (Proc.devRef .tc main_arg13) := W2_of_ne m ρ c main_arg13 (by decide)
    _ = W0 m ρ c (Proc.devRef .tc main_arg13) := hkeep hostOps0
theorem keep_v1_2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem keep_v1_6 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := hkeep hostOps2
    _ = W3 m ρ c (Proc.devRef .tc main_v1) := W4_of_ne m ρ c main_v1 (by decide)
    _ = W2 m ρ c (Proc.devRef .tc main_v1) := hkeep hostOps1
    _ = W1 m ρ c (Proc.devRef .tc main_v1) := keep_v1_2 m ρ c
theorem keep_v1_10 : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := hkeep hostOps4
    _ = W7 m ρ c (Proc.devRef .tc main_v1) := W8_of_ne m ρ c main_v1 (by decide)
    _ = W6 m ρ c (Proc.devRef .tc main_v1) := hkeep hostOps3
    _ = W1 m ρ c (Proc.devRef .tc main_v1) := keep_v1_6 m ρ c
theorem keep_v1_14 : W14 m ρ c (Proc.devRef .tc main_v1) = W1 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := hkeep hostOps6
    _ = W11 m ρ c (Proc.devRef .tc main_v1) := W12_of_ne m ρ c main_v1 (by decide)
    _ = W10 m ρ c (Proc.devRef .tc main_v1) := hkeep hostOps5
    _ = W1 m ρ c (Proc.devRef .tc main_v1) := keep_v1_10 m ρ c
theorem keep_v3_2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem keep_v3_6 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := hkeep hostOps2
    _ = W3 m ρ c (Proc.devRef .tc main_v3) := W4_of_ne m ρ c main_v3 (by decide)
    _ = W2 m ρ c (Proc.devRef .tc main_v3) := hkeep hostOps1
    _ = W1 m ρ c (Proc.devRef .tc main_v3) := keep_v3_2 m ρ c
theorem keep_v3_10 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := hkeep hostOps4
    _ = W7 m ρ c (Proc.devRef .tc main_v3) := W8_of_ne m ρ c main_v3 (by decide)
    _ = W6 m ρ c (Proc.devRef .tc main_v3) := hkeep hostOps3
    _ = W1 m ρ c (Proc.devRef .tc main_v3) := keep_v3_6 m ρ c
theorem keep_v3_14 : W14 m ρ c (Proc.devRef .tc main_v3) = W1 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := hkeep hostOps6
    _ = W11 m ρ c (Proc.devRef .tc main_v3) := W12_of_ne m ρ c main_v3 (by decide)
    _ = W10 m ρ c (Proc.devRef .tc main_v3) := hkeep hostOps5
    _ = W1 m ρ c (Proc.devRef .tc main_v3) := keep_v3_10 m ρ c
theorem keep_v5_3 : W3 m ρ c (Proc.devRef .tc main_v5) = W1 m ρ c (Proc.devRef .tc main_v5) :=
  calc W3 m ρ c (Proc.devRef .tc main_v5)
    _ = W2 m ρ c (Proc.devRef .tc main_v5) := hkeep hostOps1
    _ = W1 m ρ c (Proc.devRef .tc main_v5) := W2_of_ne m ρ c main_v5 (by decide)
theorem keep_v5_7 : W7 m ρ c (Proc.devRef .tc main_v5) = W1 m ρ c (Proc.devRef .tc main_v5) :=
  calc W7 m ρ c (Proc.devRef .tc main_v5)
    _ = W6 m ρ c (Proc.devRef .tc main_v5) := hkeep hostOps3
    _ = W5 m ρ c (Proc.devRef .tc main_v5) := W6_of_ne m ρ c main_v5 (by decide)
    _ = W4 m ρ c (Proc.devRef .tc main_v5) := hkeep hostOps2
    _ = W3 m ρ c (Proc.devRef .tc main_v5) := (W4_arr m ρ c 2).trans (((dat1 (V3 m ρ) c).arrAt_in 2 rfl _).trans (A_eq1 (V3 m ρ) c 2))
    _ = W1 m ρ c (Proc.devRef .tc main_v5) := keep_v5_3 m ρ c
theorem keep_v5_11 : W11 m ρ c (Proc.devRef .tc main_v5) = W1 m ρ c (Proc.devRef .tc main_v5) :=
  calc W11 m ρ c (Proc.devRef .tc main_v5)
    _ = W10 m ρ c (Proc.devRef .tc main_v5) := hkeep hostOps5
    _ = W9 m ρ c (Proc.devRef .tc main_v5) := W10_of_ne m ρ c main_v5 (by decide)
    _ = W8 m ρ c (Proc.devRef .tc main_v5) := hkeep hostOps4
    _ = W7 m ρ c (Proc.devRef .tc main_v5) := (W8_arr m ρ c 2).trans (((dat3 (V7 m ρ) c).arrAt_in 2 rfl _).trans (A_eq3 (V7 m ρ) c 2))
    _ = W1 m ρ c (Proc.devRef .tc main_v5) := keep_v5_7 m ρ c
theorem keep_v5_15 : W15 m ρ c (Proc.devRef .tc main_v5) = W1 m ρ c (Proc.devRef .tc main_v5) :=
  calc W15 m ρ c (Proc.devRef .tc main_v5)
    _ = W14 m ρ c (Proc.devRef .tc main_v5) := hkeep hostOps7
    _ = W13 m ρ c (Proc.devRef .tc main_v5) := W14_of_ne m ρ c main_v5 (by decide)
    _ = W12 m ρ c (Proc.devRef .tc main_v5) := hkeep hostOps6
    _ = W11 m ρ c (Proc.devRef .tc main_v5) := (W12_arr m ρ c 2).trans (((dat5 (V11 m ρ) c).arrAt_in 2 rfl _).trans (A_eq5 (V11 m ρ) c 2))
    _ = W1 m ρ c (Proc.devRef .tc main_v5) := keep_v5_11 m ρ c
theorem keep_v6_3 : W3 m ρ c (Proc.devRef .tc main_v6) = W1 m ρ c (Proc.devRef .tc main_v6) :=
  calc W3 m ρ c (Proc.devRef .tc main_v6)
    _ = W2 m ρ c (Proc.devRef .tc main_v6) := hkeep hostOps1
    _ = W1 m ρ c (Proc.devRef .tc main_v6) := W2_of_ne m ρ c main_v6 (by decide)
theorem keep_v6_7 : W7 m ρ c (Proc.devRef .tc main_v6) = W1 m ρ c (Proc.devRef .tc main_v6) :=
  calc W7 m ρ c (Proc.devRef .tc main_v6)
    _ = W6 m ρ c (Proc.devRef .tc main_v6) := hkeep hostOps3
    _ = W5 m ρ c (Proc.devRef .tc main_v6) := W6_of_ne m ρ c main_v6 (by decide)
    _ = W4 m ρ c (Proc.devRef .tc main_v6) := hkeep hostOps2
    _ = W3 m ρ c (Proc.devRef .tc main_v6) := (W4_arr m ρ c 3).trans (((dat1 (V3 m ρ) c).arrAt_in 3 rfl _).trans (A_eq1 (V3 m ρ) c 3))
    _ = W1 m ρ c (Proc.devRef .tc main_v6) := keep_v6_3 m ρ c
theorem keep_v6_11 : W11 m ρ c (Proc.devRef .tc main_v6) = W1 m ρ c (Proc.devRef .tc main_v6) :=
  calc W11 m ρ c (Proc.devRef .tc main_v6)
    _ = W10 m ρ c (Proc.devRef .tc main_v6) := hkeep hostOps5
    _ = W9 m ρ c (Proc.devRef .tc main_v6) := W10_of_ne m ρ c main_v6 (by decide)
    _ = W8 m ρ c (Proc.devRef .tc main_v6) := hkeep hostOps4
    _ = W7 m ρ c (Proc.devRef .tc main_v6) := (W8_arr m ρ c 3).trans (((dat3 (V7 m ρ) c).arrAt_in 3 rfl _).trans (A_eq3 (V7 m ρ) c 3))
    _ = W1 m ρ c (Proc.devRef .tc main_v6) := keep_v6_7 m ρ c
theorem keep_v6_15 : W15 m ρ c (Proc.devRef .tc main_v6) = W1 m ρ c (Proc.devRef .tc main_v6) :=
  calc W15 m ρ c (Proc.devRef .tc main_v6)
    _ = W14 m ρ c (Proc.devRef .tc main_v6) := hkeep hostOps7
    _ = W13 m ρ c (Proc.devRef .tc main_v6) := W14_of_ne m ρ c main_v6 (by decide)
    _ = W12 m ρ c (Proc.devRef .tc main_v6) := hkeep hostOps6
    _ = W11 m ρ c (Proc.devRef .tc main_v6) := (W12_arr m ρ c 3).trans (((dat5 (V11 m ρ) c).arrAt_in 3 rfl _).trans (A_eq5 (V11 m ρ) c 3))
    _ = W1 m ρ c (Proc.devRef .tc main_v6) := keep_v6_11 m ρ c
theorem keep_v7_3 : W3 m ρ c (Proc.devRef .tc main_v7) = W1 m ρ c (Proc.devRef .tc main_v7) :=
  calc W3 m ρ c (Proc.devRef .tc main_v7)
    _ = W2 m ρ c (Proc.devRef .tc main_v7) := hkeep hostOps1
    _ = W1 m ρ c (Proc.devRef .tc main_v7) := W2_of_ne m ρ c main_v7 (by decide)
theorem keep_v7_7 : W7 m ρ c (Proc.devRef .tc main_v7) = W1 m ρ c (Proc.devRef .tc main_v7) :=
  calc W7 m ρ c (Proc.devRef .tc main_v7)
    _ = W6 m ρ c (Proc.devRef .tc main_v7) := hkeep hostOps3
    _ = W5 m ρ c (Proc.devRef .tc main_v7) := W6_of_ne m ρ c main_v7 (by decide)
    _ = W4 m ρ c (Proc.devRef .tc main_v7) := hkeep hostOps2
    _ = W3 m ρ c (Proc.devRef .tc main_v7) := (W4_arr m ρ c 4).trans (((dat1 (V3 m ρ) c).arrAt_in 4 rfl _).trans (A_eq1 (V3 m ρ) c 4))
    _ = W1 m ρ c (Proc.devRef .tc main_v7) := keep_v7_3 m ρ c
theorem keep_v7_11 : W11 m ρ c (Proc.devRef .tc main_v7) = W1 m ρ c (Proc.devRef .tc main_v7) :=
  calc W11 m ρ c (Proc.devRef .tc main_v7)
    _ = W10 m ρ c (Proc.devRef .tc main_v7) := hkeep hostOps5
    _ = W9 m ρ c (Proc.devRef .tc main_v7) := W10_of_ne m ρ c main_v7 (by decide)
    _ = W8 m ρ c (Proc.devRef .tc main_v7) := hkeep hostOps4
    _ = W7 m ρ c (Proc.devRef .tc main_v7) := (W8_arr m ρ c 4).trans (((dat3 (V7 m ρ) c).arrAt_in 4 rfl _).trans (A_eq3 (V7 m ρ) c 4))
    _ = W1 m ρ c (Proc.devRef .tc main_v7) := keep_v7_7 m ρ c
theorem keep_v7_15 : W15 m ρ c (Proc.devRef .tc main_v7) = W1 m ρ c (Proc.devRef .tc main_v7) :=
  calc W15 m ρ c (Proc.devRef .tc main_v7)
    _ = W14 m ρ c (Proc.devRef .tc main_v7) := hkeep hostOps7
    _ = W13 m ρ c (Proc.devRef .tc main_v7) := W14_of_ne m ρ c main_v7 (by decide)
    _ = W12 m ρ c (Proc.devRef .tc main_v7) := hkeep hostOps6
    _ = W11 m ρ c (Proc.devRef .tc main_v7) := (W12_arr m ρ c 4).trans (((dat5 (V11 m ρ) c).arrAt_in 4 rfl _).trans (A_eq5 (V11 m ρ) c 4))
    _ = W1 m ρ c (Proc.devRef .tc main_v7) := keep_v7_11 m ρ c
theorem keep_v8_3 : W3 m ρ c (Proc.devRef .tc main_v8) = W1 m ρ c (Proc.devRef .tc main_v8) :=
  calc W3 m ρ c (Proc.devRef .tc main_v8)
    _ = W2 m ρ c (Proc.devRef .tc main_v8) := hkeep hostOps1
    _ = W1 m ρ c (Proc.devRef .tc main_v8) := W2_of_ne m ρ c main_v8 (by decide)
theorem keep_v8_7 : W7 m ρ c (Proc.devRef .tc main_v8) = W1 m ρ c (Proc.devRef .tc main_v8) :=
  calc W7 m ρ c (Proc.devRef .tc main_v8)
    _ = W6 m ρ c (Proc.devRef .tc main_v8) := hkeep hostOps3
    _ = W5 m ρ c (Proc.devRef .tc main_v8) := W6_of_ne m ρ c main_v8 (by decide)
    _ = W4 m ρ c (Proc.devRef .tc main_v8) := hkeep hostOps2
    _ = W3 m ρ c (Proc.devRef .tc main_v8) := (W4_arr m ρ c 5).trans (((dat1 (V3 m ρ) c).arrAt_in 5 rfl _).trans (A_eq1 (V3 m ρ) c 5))
    _ = W1 m ρ c (Proc.devRef .tc main_v8) := keep_v8_3 m ρ c
theorem keep_v8_11 : W11 m ρ c (Proc.devRef .tc main_v8) = W1 m ρ c (Proc.devRef .tc main_v8) :=
  calc W11 m ρ c (Proc.devRef .tc main_v8)
    _ = W10 m ρ c (Proc.devRef .tc main_v8) := hkeep hostOps5
    _ = W9 m ρ c (Proc.devRef .tc main_v8) := W10_of_ne m ρ c main_v8 (by decide)
    _ = W8 m ρ c (Proc.devRef .tc main_v8) := hkeep hostOps4
    _ = W7 m ρ c (Proc.devRef .tc main_v8) := (W8_arr m ρ c 5).trans (((dat3 (V7 m ρ) c).arrAt_in 5 rfl _).trans (A_eq3 (V7 m ρ) c 5))
    _ = W1 m ρ c (Proc.devRef .tc main_v8) := keep_v8_7 m ρ c
theorem keep_v8_15 : W15 m ρ c (Proc.devRef .tc main_v8) = W1 m ρ c (Proc.devRef .tc main_v8) :=
  calc W15 m ρ c (Proc.devRef .tc main_v8)
    _ = W14 m ρ c (Proc.devRef .tc main_v8) := hkeep hostOps7
    _ = W13 m ρ c (Proc.devRef .tc main_v8) := W14_of_ne m ρ c main_v8 (by decide)
    _ = W12 m ρ c (Proc.devRef .tc main_v8) := hkeep hostOps6
    _ = W11 m ρ c (Proc.devRef .tc main_v8) := (W12_arr m ρ c 5).trans (((dat5 (V11 m ρ) c).arrAt_in 5 rfl _).trans (A_eq5 (V11 m ρ) c 5))
    _ = W1 m ρ c (Proc.devRef .tc main_v8) := keep_v8_11 m ρ c
theorem keep_v4_19 : W19 m ρ c (Proc.devRef .tc main_v4) = W1 m ρ c (Proc.devRef .tc main_v4) :=
  calc W19 m ρ c (Proc.devRef .tc main_v4)
    _ = W18 m ρ c (Proc.devRef .tc main_v4) := hkeep hostOps9
    _ = W17 m ρ c (Proc.devRef .tc main_v4) := W18_of_ne m ρ c main_v4 (by decide)
    _ = W16 m ρ c (Proc.devRef .tc main_v4) := hkeep hostOps8
    _ = W15 m ρ c (Proc.devRef .tc main_v4) := W16_of_ne m ρ c main_v4 (by decide)
    _ = W14 m ρ c (Proc.devRef .tc main_v4) := hkeep hostOps7
    _ = W13 m ρ c (Proc.devRef .tc main_v4) := W14_of_ne m ρ c main_v4 (by decide)
    _ = W12 m ρ c (Proc.devRef .tc main_v4) := hkeep hostOps6
    _ = W11 m ρ c (Proc.devRef .tc main_v4) := W12_of_ne m ρ c main_v4 (by decide)
    _ = W10 m ρ c (Proc.devRef .tc main_v4) := hkeep hostOps5
    _ = W9 m ρ c (Proc.devRef .tc main_v4) := W10_of_ne m ρ c main_v4 (by decide)
    _ = W8 m ρ c (Proc.devRef .tc main_v4) := hkeep hostOps4
    _ = W7 m ρ c (Proc.devRef .tc main_v4) := W8_of_ne m ρ c main_v4 (by decide)
    _ = W6 m ρ c (Proc.devRef .tc main_v4) := hkeep hostOps3
    _ = W5 m ρ c (Proc.devRef .tc main_v4) := W6_of_ne m ρ c main_v4 (by decide)
    _ = W4 m ρ c (Proc.devRef .tc main_v4) := hkeep hostOps2
    _ = W3 m ρ c (Proc.devRef .tc main_v4) := W4_of_ne m ρ c main_v4 (by decide)
    _ = W2 m ρ c (Proc.devRef .tc main_v4) := hkeep hostOps1
    _ = W1 m ρ c (Proc.devRef .tc main_v4) := W2_of_ne m ρ c main_v4 (by decide)
theorem keep_v22_5 : W5 m ρ c (Proc.devRef .tc main_v22) = W4 m ρ c (Proc.devRef .tc main_v22) :=
  calc W5 m ρ c (Proc.devRef .tc main_v22)
    _ = W4 m ρ c (Proc.devRef .tc main_v22) := hkeep hostOps2
theorem keep_v22_7 : W7 m ρ c (Proc.devRef .tc main_v22) = W4 m ρ c (Proc.devRef .tc main_v22) :=
  calc W7 m ρ c (Proc.devRef .tc main_v22)
    _ = W6 m ρ c (Proc.devRef .tc main_v22) := hkeep hostOps3
    _ = W5 m ρ c (Proc.devRef .tc main_v22) := (W6_arr m ρ c 0).trans (((dat2 (V5 m ρ) c).arrAt_in 0 rfl _).trans (A_eq2 (V5 m ρ) c 0))
    _ = W4 m ρ c (Proc.devRef .tc main_v22) := keep_v22_5 m ρ c
theorem keep_v36_9 : W9 m ρ c (Proc.devRef .tc main_v36) = W8 m ρ c (Proc.devRef .tc main_v36) :=
  calc W9 m ρ c (Proc.devRef .tc main_v36)
    _ = W8 m ρ c (Proc.devRef .tc main_v36) := hkeep hostOps4
theorem keep_v36_11 : W11 m ρ c (Proc.devRef .tc main_v36) = W8 m ρ c (Proc.devRef .tc main_v36) :=
  calc W11 m ρ c (Proc.devRef .tc main_v36)
    _ = W10 m ρ c (Proc.devRef .tc main_v36) := hkeep hostOps5
    _ = W9 m ρ c (Proc.devRef .tc main_v36) := (W10_arr m ρ c 0).trans (((dat4 (V9 m ρ) c).arrAt_in 0 rfl _).trans (A_eq4 (V9 m ρ) c 0))
    _ = W8 m ρ c (Proc.devRef .tc main_v36) := keep_v36_9 m ρ c
theorem keep_v50_13 : W13 m ρ c (Proc.devRef .tc main_v50) = W12 m ρ c (Proc.devRef .tc main_v50) :=
  calc W13 m ρ c (Proc.devRef .tc main_v50)
    _ = W12 m ρ c (Proc.devRef .tc main_v50) := hkeep hostOps6
theorem keep_v50_15 : W15 m ρ c (Proc.devRef .tc main_v50) = W12 m ρ c (Proc.devRef .tc main_v50) :=
  calc W15 m ρ c (Proc.devRef .tc main_v50)
    _ = W14 m ρ c (Proc.devRef .tc main_v50) := hkeep hostOps7
    _ = W13 m ρ c (Proc.devRef .tc main_v50) := (W14_arr m ρ c 0).trans (((dat6 (V13 m ρ) c).arrAt_in 0 rfl _).trans (A_eq6 (V13 m ρ) c 0))
    _ = W12 m ρ c (Proc.devRef .tc main_v50) := keep_v50_13 m ρ c
theorem keep_v64_17 : W17 m ρ c (Proc.devRef .tc main_v64) = W16 m ρ c (Proc.devRef .tc main_v64) :=
  calc W17 m ρ c (Proc.devRef .tc main_v64)
    _ = W16 m ρ c (Proc.devRef .tc main_v64) := hkeep hostOps8
theorem keep_v67_0_19 : W19 m ρ c (Proc.devRef .tc main_v67_0) = W18 m ρ c (Proc.devRef .tc main_v67_0) :=
  calc W19 m ρ c (Proc.devRef .tc main_v67_0)
    _ = W18 m ρ c (Proc.devRef .tc main_v67_0) := hkeep hostOps9

end Cert.KVal

end
-- ==== Proof.KHost.lean ====
/-
  The kernel program's host steps between its regions, read as functions of the buffers they start from: the edge
  list's two rows, the layer weights cut out of the stack, the transposed gate weights, the sums along the edges,
  the folded normalisation (scale and shift from the column sums and the column sums of squares), and the closing
  per-graph mean, class scores and log-softmax.
-/
import proofs.«403864_j85770496901353_1_alg».proof.Proof.Gen.KernelIdeal.Launch
import proofs.«403864_j85770496901353_1_alg».proof.Proof.Net
import Idealize.ShloMosaic.Lib.StableHlo.Run

noncomputable section

namespace Cert.KVal

open Idealize.ShloMosaic Idealize.ShloMosaic.TcCoe Idealize.SL.Sem Idealize.ShloMosaic.StableHlo
open Cert.KernelIdeal Cert.KernelIdeal.Gen Cert.Net

variable {F : FTy → Type} [FloatOps F] (V : Valuation τ sig (Elt F))

theorem host0_v1 : after hostOps0 V (Proc.devRef .tc main_v1) = srcR (V (Proc.devRef .tc main_arg1)) := by
  after_results; rfl
theorem host0_v3 : after hostOps0 V (Proc.devRef .tc main_v3) = dstR (V (Proc.devRef .tc main_arg1)) := by
  after_results; rfl
theorem host0_v4 : after hostOps0 V (Proc.devRef .tc main_v4) = bcolK (V (Proc.devRef .tc main_arg2)) := by
  after_results; rfl
theorem host0_v5 : after hostOps0 V (Proc.devRef .tc main_v5) = trTK (V (Proc.devRef .tc main_arg4)) := by
  after_results; rfl
theorem host0_v6 : after hostOps0 V (Proc.devRef .tc main_v6) = trTK (V (Proc.devRef .tc main_arg5)) := by
  after_results; rfl
theorem host0_v7 : after hostOps0 V (Proc.devRef .tc main_v7) = row384K (V (Proc.devRef .tc main_arg6)) := by
  after_results; rfl
theorem host0_v8 : after hostOps0 V (Proc.devRef .tc main_v8) = row384K (V (Proc.devRef .tc main_arg7)) := by
  after_results; rfl
theorem host0_v10 : after hostOps0 V (Proc.devRef .tc main_v10) = wsl0 (V (Proc.devRef .tc main_arg3)) := by
  after_results; rfl

theorem host1_v21 : after hostOps1 V (Proc.devRef .tc main_v21)
    = aggR (V (Proc.devRef .tc main_v1)) (V (Proc.devRef .tc main_v3)) (V (Proc.devRef .tc main_v11)) := by
  after_results_simp
  rfl
theorem host2_v24 : after hostOps2 V (Proc.devRef .tc main_v24) = wsl1 (V (Proc.devRef .tc main_arg3)) := by
  after_results; rfl
theorem host3_v35 : after hostOps3 V (Proc.devRef .tc main_v35)
    = aggR (V (Proc.devRef .tc main_v1)) (V (Proc.devRef .tc main_v3)) (V (Proc.devRef .tc main_v25)) := by
  after_results_simp
  rfl
theorem host4_v38 : after hostOps4 V (Proc.devRef .tc main_v38) = wsl2 (V (Proc.devRef .tc main_arg3)) := by
  after_results; rfl
theorem host5_v49 : after hostOps5 V (Proc.devRef .tc main_v49)
    = aggR (V (Proc.devRef .tc main_v1)) (V (Proc.devRef .tc main_v3)) (V (Proc.devRef .tc main_v39)) := by
  after_results_simp
  rfl
theorem host6_v52 : after hostOps6 V (Proc.devRef .tc main_v52) = wsl3 (V (Proc.devRef .tc main_arg3)) := by
  after_results; rfl
theorem host7_v63 : after hostOps7 V (Proc.devRef .tc main_v63)
    = aggR (V (Proc.devRef .tc main_v1)) (V (Proc.devRef .tc main_v3)) (V (Proc.devRef .tc main_v53)) := by
  after_results_simp
  rfl
theorem host8_v65 : after hostOps8 V (Proc.devRef .tc main_v65) = trSqK (V (Proc.devRef .tc main_arg8)) := by
  after_results; rfl
theorem host8_v66 : after hostOps8 V (Proc.devRef .tc main_v66) = row128K (V (Proc.devRef .tc main_arg9)) := by
  after_results; rfl
theorem host9_v78 : after hostOps9 V (Proc.devRef .tc main_v78)
    = scaleK (V (Proc.devRef .tc main_v67_1)) (V (Proc.devRef .tc main_v67_2)) (V (Proc.devRef .tc main_arg10)) := by
  after_results_simp
  rfl
theorem host9_v81 : after hostOps9 V (Proc.devRef .tc main_v81)
    = shiftK (V (Proc.devRef .tc main_v67_1)) (V (Proc.devRef .tc main_v67_2)) (V (Proc.devRef .tc main_arg10)) (V (Proc.devRef .tc main_arg11)) := by
  after_results_simp
  rfl
/-- The four closing stretches together: per-graph means, class scores, log-softmax. -/
theorem host10_v91 : after hostOps10_3 (after hostOps10_2 (after hostOps10_1 (after hostOps10 V))) (Proc.devRef .tc main_v91)
    = lsmR (logitsR (gfeatK (V (Proc.devRef .tc main_v82_0)) (V (Proc.devRef .tc main_v82_1)))
        (V (Proc.devRef .tc main_arg12)) (V (Proc.devRef .tc main_arg13))) := by
  after_results_simp
  rfl

end Cert.KVal

end
-- ==== Proof.GruRef.lean ====
/-
  The reference's dense maps and its GRU cell read at one entry of the extended reals, and that a GRU update of a
  real-valued state is real-valued whatever the gates hold: the logistic function and the hyperbolic tangent send
  every extended real, the infinities included, to a real number.
-/
import proofs.«403864_j85770496901353_1_alg».proof.Proof.Net
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember

noncomputable section

namespace Cert.Net

open Idealize.ShloMosaic Idealize.ShloMosaic.ValueIdx Idealize.ShloMosaic.StackMember Cert.ReferenceIdeal
open Cert.ReferenceIdeal.Facts₀
open scoped BigOperators

/-! ## The dense maps -/

/-- A layer's dense map at node i, feature j. -/
theorem mmR_apply (h : CF Ideal S100000x128) (w : CF Ideal S128x128) (i : Fin 100000) (j : Fin 128) :
    mmR (F := Ideal) h w (ix2 i j) = ∑ k : Fin 128, h (ix2 i k) * w (ix2 k j) := by
  unfold mmR
  exact dotGeneral_plain_apply (m := 100000) (n := 128) (k := 128) none h w i j

/-- The transposed gate weight at (k, c) is the stored weight at (c, k). -/
theorem trT_apply (a : CF Ideal S384x128) (k : Fin 128) (c : Fin 384) : trT (F := Ideal) a (ix2 k c) = a (ix2 c k) := by
  unfold trT
  exact transpose_apply _ _ _ (ix2 k c) (ix2 c k) (fun b => match b with | ⟨0, _⟩ => rfl | ⟨1, _⟩ => rfl)

/-- A 384-vector repeated down the nodes reads its entry c in column c. -/
theorem bias384_apply (b : CF Ideal S384) (i : Fin 100000) (c : Fin 384) :
    broadcastInDim S100000x384 ![0, 1] bcast_S1x384_S100000x384_0_1 (broadcastInDim S1x384 ![1] bcast_S384_S1x384_1 b) (ix2 i c)
      = b (ix1 c) := by
  refine (broadcastInDim_apply _ _ _ (ix2 i c) (ix2 0 c) (fun a => match a with | ⟨0, _⟩ => rfl | ⟨1, _⟩ => rfl)).trans ?_
  exact broadcastInDim_apply _ _ _ (ix2 0 c) (ix1 c) (fun a => match a with | ⟨0, _⟩ => rfl)

/-- The gates' pre-activations at node i, gate c. -/
theorem gatesR_apply (x : CF Ideal S100000x128) (w : CF Ideal S384x128) (b : CF Ideal S384) (i : Fin 100000) (c : Fin 384) :
    gatesR (F := Ideal) x (trT w) b (ix2 i c) = gateAt x w b i c := by
  unfold gatesR gateAt
  rw [addf_apply, bias384_apply]
  congr 1
  refine (dotGeneral_plain_apply (m := 100000) (n := 384) (k := 128) none x (trT w) i c).trans ?_
  exact Finset.sum_congr rfl fun k _ => by rw [trT_apply]

/-! ## The GRU cell -/

/-- The all-ones array reads one everywhere. -/
theorem one128_apply (idx : S100000x128.Idx) : one128 (F := Ideal) idx = 1 := by
  unfold one128
  rw [broadcastInDim_scalar_apply, constant_apply, Ideal.ofBits_one_f32]

/-- 1 / (1 + e⁻ˣ), spelt in host operations, is the logistic function at every entry. -/
theorem sigR_apply (x : CF Ideal S100000x128) (idx : S100000x128.Idx) : sigR (F := Ideal) x idx = Ideal.logistic (x idx) := by
  unfold sigR
  show Ideal.div (one128 (F := Ideal) idx) (one128 (F := Ideal) idx + Ideal.exp (-(x idx))) = _
  rw [one128_apply]
  rfl

/-- The first third of the gates' columns. -/
theorem sl0_apply (g : CF Ideal S100000x384) (i : Fin 100000) (j : Fin 128) : sl0 (F := Ideal) g (ix2 i j) = g (ix2 i (g0 j)) := by
  unfold sl0
  exact extractStridedSlice_apply _ _ _ (ix2 i j) (ix2 i (g0 j)) (fun a => match a with
    | ⟨0, _⟩ => by show i.val = 0 + i.val; omega
    | ⟨1, _⟩ => by show j.val = 0 + j.val; omega)
/-- The second third. -/
theorem sl1_apply (g : CF Ideal S100000x384) (i : Fin 100000) (j : Fin 128) : sl1 (F := Ideal) g (ix2 i j) = g (ix2 i (g1 j)) := by
  unfold sl1
  exact extractStridedSlice_apply _ _ _ (ix2 i j) (ix2 i (g1 j)) (fun a => match a with
    | ⟨0, _⟩ => by show i.val = 0 + i.val; omega
    | ⟨1, _⟩ => by show 128 + j.val = 128 + j.val; rfl)
/-- The last third. -/
theorem sl2_apply (g : CF Ideal S100000x384) (i : Fin 100000) (j : Fin 128) : sl2 (F := Ideal) g (ix2 i j) = g (ix2 i (g2 j)) := by
  unfold sl2
  exact extractStridedSlice_apply _ _ _ (ix2 i j) (ix2 i (g2 j)) (fun a => match a with
    | ⟨0, _⟩ => by show i.val = 0 + i.val; omega
    | ⟨1, _⟩ => by show 256 + j.val = 256 + j.val; rfl)

/-- The GRU cell on given gates, at node i, feature j. -/
theorem gruCore_apply (gi gh : CF Ideal S100000x384) (h : CF Ideal S100000x128) (i : Fin 100000) (j : Fin 128) :
    gruCore (F := Ideal) gi gh h (ix2 i j)
      = (1 - Ideal.logistic (gi (ix2 i (g1 j)) + gh (ix2 i (g1 j))))
          * Ideal.tanh (gi (ix2 i (g2 j)) + Ideal.logistic (gi (ix2 i (g0 j)) + gh (ix2 i (g0 j))) * gh (ix2 i (g2 j)))
        + Ideal.logistic (gi (ix2 i (g1 j)) + gh (ix2 i (g1 j))) * h (ix2 i j) := by
  unfold gruCore
  show (one128 (F := Ideal) (ix2 i j) - sigR (F := Ideal) (addf (sl1 gi) (sl1 gh)) (ix2 i j))
        * Ideal.tanh (sl2 (F := Ideal) gi (ix2 i j) + sigR (F := Ideal) (addf (sl0 gi) (sl0 gh)) (ix2 i j) * sl2 (F := Ideal) gh (ix2 i j))
      + sigR (F := Ideal) (addf (sl1 gi) (sl1 gh)) (ix2 i j) * h (ix2 i j) = _
  rw [one128_apply, sigR_apply, sigR_apply, addf_apply, addf_apply, sl0_apply, sl0_apply, sl1_apply, sl1_apply, sl2_apply, sl2_apply]

/-- The reference's GRU cell at node i, feature j. -/
theorem gruR_apply (agg h : CF Ideal S100000x128) (a4 a5 : CF Ideal S384x128) (a6 a7 : CF Ideal S384) (i : Fin 100000) (j : Fin 128) :
    gruR (F := Ideal) agg h a4 a5 a6 a7 (ix2 i j) = gruAt agg h a4 a5 a6 a7 i j := by
  unfold gruR gruAt
  rw [gruCore_apply, gatesR_apply, gatesR_apply, gatesR_apply, gatesR_apply, gatesR_apply, gatesR_apply]

/-! ## The first head -/

/-- A 128-vector repeated down the nodes reads its entry j in column j. -/
theorem rowB_apply (v : CF Ideal S128) (i : Fin 100000) (j : Fin 128) : rowB (F := Ideal) v (ix2 i j) = v (ix1 j) := by
  unfold rowB
  refine (broadcastInDim_apply _ _ _ (ix2 i j) (ix2 0 j) (fun a => match a with | ⟨0, _⟩ => rfl | ⟨1, _⟩ => rfl)).trans ?_
  exact broadcastInDim_apply _ _ _ (ix2 0 j) (ix1 j) (fun a => match a with | ⟨0, _⟩ => rfl)

/-- The first head at node i, feature j. -/
theorem fc1R_apply (h : CF Ideal S100000x128) (a8 : CF Ideal S128x128) (a9 : CF Ideal S128) (i : Fin 100000) (j : Fin 128) :
    fc1R (F := Ideal) h a8 a9 (ix2 i j) = fc1At h a8 a9 i j := by
  unfold fc1R fc1At
  rw [addf_apply, rowB_apply]
  congr 1
  refine (dotGeneral_plain_apply (m := 100000) (n := 128) (k := 128) none h _ i j).trans ?_
  refine Finset.sum_congr rfl fun k _ => ?_
  congr 1
  exact transpose_apply _ _ _ (ix2 k j) (ix2 j k) (fun b => match b with | ⟨0, _⟩ => rfl | ⟨1, _⟩ => rfl)

/-! ## Real-valuedness -/

/-- The logistic function of any extended real is a real number. -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The hyperbolic tangent of any extended real is a real number. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- A finite sum of real numbers, summed in the extended reals, is the real sum. -/
theorem coe_sum_real {ι : Type} (s : Finset ι) (f : ι → ℝ) : ∑ k ∈ s, ((f k : ℝ) : EReal) = ((∑ k ∈ s, f k : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

/-- A GRU update of a real-valued state is real-valued. -/
theorem gruR_fin (agg h : CF Ideal S100000x128) (a4 a5 : CF Ideal S384x128) (a6 a7 : CF Ideal S384) (hh : Fin' h) :
    Fin' (gruR (F := Ideal) agg h a4 a5 a6 a7) := by
  intro idx
  obtain ⟨i, j, rfl⟩ : ∃ (i : Fin 100000) (j : Fin 128), idx = ix2 i j := ⟨idx 0, idx 1, eq_ix2 idx⟩
  rw [gruR_apply]
  unfold gruAt
  obtain ⟨r, hr⟩ := hh (ix2 i j)
  obtain ⟨z, hz⟩ := logistic_real (gateAt agg a4 a6 i (g1 j) + gateAt h a5 a7 i (g1 j))
  obtain ⟨t, ht⟩ := tanh_real (gateAt agg a4 a6 i (g2 j)
          + Ideal.logistic (gateAt agg a4 a6 i (g0 j) + gateAt h a5 a7 i (g0 j)) * gateAt h a5 a7 i (g2 j))
  rw [hr, hz, ht]
  exact ⟨(1 - z) * t + z * r, by rw [EReal.coe_add, EReal.coe_mul, EReal.coe_mul, EReal.coe_sub, EReal.coe_one]⟩

/-- The first head of real-valued states, weights and bias is real-valued. -/
theorem fc1R_fin (h : CF Ideal S100000x128) (a8 : CF Ideal S128x128) (a9 : CF Ideal S128) (hh : Fin' h) (h8 : Fin' a8) (h9 : Fin' a9) :
    Fin' (fc1R (F := Ideal) h a8 a9) := by
  intro idx
  obtain ⟨i, j, rfl⟩ : ∃ (i : Fin 100000) (j : Fin 128), idx = ix2 i j := ⟨idx 0, idx 1, eq_ix2 idx⟩
  rw [fc1R_apply]
  unfold fc1At
  choose rh hrh using hh
  choose r8 hr8 using h8
  obtain ⟨r9, hr9⟩ := h9 (ix1 j)
  refine ⟨(∑ k : Fin 128, rh (ix2 i k) * r8 (ix2 j k)) + r9, ?_⟩
  rw [EReal.coe_add, ← coe_sum_real, hr9]
  congr 1
  exact Finset.sum_congr rfl fun k _ => by rw [hrh, hr8, EReal.coe_mul]

end Cert.Net

end
-- ==== Proof.KMm0.lean ====
/-
  The first dense-map kernel's output array: fifty blocks of 2000 rows, block t holding rows 2000t … 2000t+1999 of
  h · W, so the whole array is the reference's dense map of the arrays the kernel was given.

  The steps: the body's block at an entry is the sum over the contracted coordinate of the products of the two
  blocks' entries; block t of the node features is the rows 2000t … of the array and the weight's one block is the
  whole weight, so what point t writes back is block t of the dense map; row r lies in the block of point r / 2000,
  so the fifty blocks cover the array.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

/-- The body's one store starts at the block's origin. -/
theorem mm0_zero_off : (![0, 0] : Fin 2 → Nat) = fun _ => 0 := funext fun a => by fin_cases a <;> rfl

/-- The body's block at an entry: the 2000 × 128 block of node features times the 128 × 128 weight, the rounding to
    the narrow format being the identity on the extended reals and the accumulator starting at zero. -/
theorem mm0_pay_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  simp only [shapeCast_self]
  show FloatOps.matmul dot_S2000x128_S128x128_S2000x128_1_0_0_1_n_n none _ _ (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]
  rfl

/-- A block product whose feature block holds, along the row of j, the row of i of x, and whose weight block holds,
    down the column of j, the column of i of w, is at j the dense map of x and w at i. -/
theorem mm0_pay_eq (X0 : Vec Ideal S2000x128 .f32) (X1 : Vec Ideal S128x128 .f32) (x : CF Ideal S100000x128) (w : CF Ideal S128x128)
    (j : S2000x128.Idx) (i : S100000x128.Idx)
    (h0 : ∀ k : Fin 128, X0 (ix2 (j 0) k) = x (ix2 (i 0) k)) (h1 : ∀ k : Fin 128, X1 (ix2 k (j 1)) = w (ix2 k (i 1))) :
    k0_pay1 (F := Ideal) X0 X1 j = mmR (F := Ideal) x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [mm0_pay_apply, mmR_apply]
  exact Finset.sum_congr rfl fun k _ => congrArg₂ (· * ·) (h0 k) (h1 k)

/-- The index maps over the fifty points: the feature block and the output block of point t are block t down the
    rows, the weight's one block is the whole weight. -/
theorem mm0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense map of the two input arrays: a block's coordinate is the block's
    index times the block's extent plus the coordinate inside the block. -/
theorem mm0_flushed_eq (c : Dev nD) (x : CF Ideal S100000x128) (w : CF Ideal S128x128)
    (hx : V c (Pipeline.arrRef spec0 0) = x) (hw : V c (Pipeline.arrRef spec0 1) = w) (t : Fin cfg0.N) :
    (dat0 (F := Ideal) V c).flushed 2 t = ((cfg0.win 2).blk t).view.read (Elt Ideal) (mmR (F := Ideal) x w) := by
  subst hx hw
  show (cfg0.win 2).cut (grid0.coords t) ((dat0 V c).after 2 t) = _
  rw [after0_2]
  unfold out0_2
  rw [View.canon_unit_zero mm0_zero_off]
  simp only [View.ld_unit_zero (S := S2000x128) mm0_zero_off, View.ld_unit_zero (S := S128x128) mm0_zero_off]
  obtain ⟨e0, e1, e2, e3, e4, e5⟩ := mm0_idx_facts t
  funext j
  show k0_pay1 (F := Ideal) (iblk0 V c 0 t) (iblk0 V c 1 t) j
    = mmR (F := Ideal) (V c (Pipeline.arrRef spec0 0)) (V c (Pipeline.arrRef spec0 1)) (((cfg0.win 2).blk t).view.emb j)
  refine mm0_pay_eq (iblk0 V c 0 t) (iblk0 V c 1 t) (V c (Pipeline.arrRef spec0 0)) (V c (Pipeline.arrRef spec0 1)) j
    (((cfg0.win 2).blk t).view.emb j) (fun k => ?_) (fun k => ?_)
  · show V c (Pipeline.arrRef spec0 0) (((cfg0.win 0).blk t).view.emb (ix2 (j 0) k)) = _
    refine congrArg _ (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 128 + 1 * k.val = k.val
      omega
  · show V c (Pipeline.arrRef spec0 1) (((cfg0.win 1).blk t).view.emb (ix2 k (j 1))) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An entry of the array is in point t's block iff each coordinate is in the block's range on its axis. -/
theorem mm0_mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

/-- After region 0 its output array is the dense map of its two input arrays: row r is in the block of point
    r / 2000. -/
theorem mm0_val (c : Dev nD) (x : CF Ideal S100000x128) (w : CF Ideal S128x128)
    (hx : V c (Pipeline.arrRef spec0 0) = x) (hw : V c (Pipeline.arrRef spec0 1) = w) :
    (dat0 (F := Ideal) V c).arrAt 2 cfg0.N = mmR (F := Ideal) x w := by
  refine (dat0 (F := Ideal) V c).arrAt_eq_of_cover 2 (mmR (F := Ideal) x w)
    (fun t _ => mm0_flushed_eq V c x w hx hw t) (fun (i : S100000x128.Idx) => ?_)
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨e0, e1, e2, e3, e4, e5⟩ := mm0_idx_facts t
  refine ⟨t, flush0_2 t, ?_⟩
  rw [mm0_mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

end Cert.KVal

end
-- ==== Proof.KMm2.lean ====
/-
  The second dense-map kernel's output array: fifty blocks of 2000 rows, block t holding rows 2000t … 2000t+1999 of
  h · W, so the whole array is the reference's dense map of the arrays the kernel was given.

  The steps: the body's block at an entry is the sum over the contracted coordinate of the products of the two
  blocks' entries; block t of the node features is the rows 2000t … of the array and the weight's one block is the
  whole weight, so what point t writes back is block t of the dense map; row r lies in the block of point r / 2000,
  so the fifty blocks cover the array.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

/-- The body's one store starts at the block's origin. -/
theorem mm2_zero_off : (![0, 0] : Fin 2 → Nat) = fun _ => 0 := funext fun a => by fin_cases a <;> rfl

/-- The body's block at an entry: the 2000 × 128 block of node features times the 128 × 128 weight, the rounding to
    the narrow format being the identity on the extended reals and the accumulator starting at zero. -/
theorem mm2_pay_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  simp only [shapeCast_self]
  show FloatOps.matmul dot_S2000x128_S128x128_S2000x128_1_0_0_1_n_n none _ _ (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]
  rfl

/-- A block product whose feature block holds, along the row of j, the row of i of x, and whose weight block holds,
    down the column of j, the column of i of w, is at j the dense map of x and w at i. -/
theorem mm2_pay_eq (X0 : Vec Ideal S2000x128 .f32) (X1 : Vec Ideal S128x128 .f32) (x : CF Ideal S100000x128) (w : CF Ideal S128x128)
    (j : S2000x128.Idx) (i : S100000x128.Idx)
    (h0 : ∀ k : Fin 128, X0 (ix2 (j 0) k) = x (ix2 (i 0) k)) (h1 : ∀ k : Fin 128, X1 (ix2 k (j 1)) = w (ix2 k (i 1))) :
    k2_pay1 (F := Ideal) X0 X1 j = mmR (F := Ideal) x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [mm2_pay_apply, mmR_apply]
  exact Finset.sum_congr rfl fun k _ => congrArg₂ (· * ·) (h0 k) (h1 k)

/-- The index maps over the fifty points: the feature block and the output block of point t are block t down the
    rows, the weight's one block is the whole weight. -/
theorem mm2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the dense map of the two input arrays: a block's coordinate is the block's
    index times the block's extent plus the coordinate inside the block. -/
theorem mm2_flushed_eq (c : Dev nD) (x : CF Ideal S100000x128) (w : CF Ideal S128x128)
    (hx : V c (Pipeline.arrRef spec2 0) = x) (hw : V c (Pipeline.arrRef spec2 1) = w) (t : Fin cfg2.N) :
    (dat2 (F := Ideal) V c).flushed 2 t = ((cfg2.win 2).blk t).view.read (Elt Ideal) (mmR (F := Ideal) x w) := by
  subst hx hw
  show (cfg2.win 2).cut (grid2.coords t) ((dat2 V c).after 2 t) = _
  rw [after2_2]
  unfold out2_2
  rw [View.canon_unit_zero mm2_zero_off]
  simp only [View.ld_unit_zero (S := S2000x128) mm2_zero_off, View.ld_unit_zero (S := S128x128) mm2_zero_off]
  obtain ⟨e0, e1, e2, e3, e4, e5⟩ := mm2_idx_facts t
  funext j
  show k2_pay1 (F := Ideal) (iblk2 V c 0 t) (iblk2 V c 1 t) j
    = mmR (F := Ideal) (V c (Pipeline.arrRef spec2 0)) (V c (Pipeline.arrRef spec2 1)) (((cfg2.win 2).blk t).view.emb j)
  refine mm2_pay_eq (iblk2 V c 0 t) (iblk2 V c 1 t) (V c (Pipeline.arrRef spec2 0)) (V c (Pipeline.arrRef spec2 1)) j
    (((cfg2.win 2).blk t).view.emb j) (fun k => ?_) (fun k => ?_)
  · show V c (Pipeline.arrRef spec2 0) (((cfg2.win 0).blk t).view.emb (ix2 (j 0) k)) = _
    refine congrArg _ (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 128 + 1 * k.val = k.val
      omega
  · show V c (Pipeline.arrRef spec2 1) (((cfg2.win 1).blk t).view.emb (ix2 k (j 1))) = _
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An entry of the array is in point t's block iff each coordinate is in the block's range on its axis. -/
theorem mm2_mem_blk (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole (Pipeline.arrRef spec2 2)).slice (win2_2.rect t)).set ↔ _
  rw [View.set_slice_whole, Rect.mem_set_unit]
  exact Iff.rfl

/-- After region 2 its output array is the dense map of its two input arrays: row r is in the block of point
    r / 2000. -/
theorem mm2_val (c : Dev nD) (x : CF Ideal S100000x128) (w : CF Ideal S128x128)
    (hx : V c (Pipeline.arrRef spec2 0) = x) (hw : V c (Pipeline.arrRef spec2 1) = w) :
    (dat2 (F := Ideal) V c).arrAt 2 cfg2.N = mmR (F := Ideal) x w := by
  refine (dat2 (F := Ideal) V c).arrAt_eq_of_cover 2 (mmR (F := Ideal) x w)
    (fun t _ => mm2_flushed_eq V c x w hx hw t) (fun (i : S100000x128.Idx) => ?_)
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨e0, e1, e2, e3, e4, e5⟩ := mm2_idx_facts t
  refine ⟨t, flush2_2 t, ?_⟩
  rw [mm2_mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

end Cert.KVal

end
-- ==== Proof.KMm4.lean ====
/-
  The third dense-map kernel's output array: fifty blocks of 2000 rows, block t holding rows 2000t … 2000t+1999 of
  h · W, so the whole array is the reference's dense map of the arrays the kernel was given.

  The steps: the body's block at an entry is the sum over the contracted coordinate of the products of the two
  blocks' entries; block t of the node features is the rows 2000t … of the array and the weight's one block is the
  whole weight, so what point t writes back is block t of the dense map; row r lies in the block of point r / 2000,
  so the fifty blocks cover the array.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

/-- The body's one store starts at the block's origin. -/
theorem mm4_zero_off : (![0, 0] : Fin 2 → Nat) = fun _ => 0 := funext fun a => by fin_cases a <;> rfl

/-- The body's block at an entry: the 2000 × 128 block of node features times the 128 × 128 weight, the rounding to
    the narrow format being the identity on the extended reals and the accumulator starting at zero. -/
theorem mm4_pay_apply (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  simp only [shapeCast_self]
  show FloatOps.matmul dot_S2000x128_S128x128_S2000x128_1_0_0_1_n_n none _ _ (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]
  rfl

/-- A block product whose feature block holds, along the row of j, the row of i of x, and whose weight block holds,
    down the column of j, the column of i of w, is at j the dense map of x and w at i. -/
theorem mm4_pay_eq (X0 : Vec Ideal S2000x128 .f32) (X1 : Vec Ideal S128x128 .f32) (x : CF Ideal S100000x128) (w : CF Ideal S128x128)
    (j : S2000x128.Idx) (i : S100000x128.Idx)
    (h0 : ∀ k : Fin 128, X0 (ix2 (j 0) k) = x (ix2 (i 0) k)) (h1 : ∀ k : Fin 128, X1 (ix2 k (j 1)) = w (ix2 k (i 1))) :
    k4_pay1 (F := Ideal) X0 X1 j = mmR (F := Ideal) x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [mm4_pay_apply, mmR_apply]
  exact Finset.sum_congr rfl fun k _ => congrArg₂ (· * ·) (h0 k) (h1 k)

/-- The index maps over the fifty points: the feature block and the output block of point t are block t down the
    rows, the weight's one block is the whole weight. -/
theorem mm4_idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the dense map of the two input arrays: a block's coordinate is the block's
    index times the block's extent plus the coordinate inside the block. -/
theorem mm4_flushed_eq (c : Dev nD) (x : CF Ideal S100000x128) (w : CF Ideal S128x128)
    (hx : V c (Pipeline.arrRef spec4 0) = x) (hw : V c (Pipeline.arrRef spec4 1) = w) (t : Fin cfg4.N) :
    (dat4 (F := Ideal) V c).flushed 2 t = ((cfg4.win 2).blk t).view.read (Elt Ideal) (mmR (F := Ideal) x w) := by
  subst hx hw
  show (cfg4.win 2).cut (grid4.coords t) ((dat4 V c).after 2 t) = _
  rw [after4_2]
  unfold out4_2
  rw [View.canon_unit_zero mm4_zero_off]
  simp only [View.ld_unit_zero (S := S2000x128) mm4_zero_off, View.ld_unit_zero (S := S128x128) mm4_zero_off]
  obtain ⟨e0, e1, e2, e3, e4, e5⟩ := mm4_idx_facts t
  funext j
  show k4_pay1 (F := Ideal) (iblk4 V c 0 t) (iblk4 V c 1 t) j
    = mmR (F := Ideal) (V c (Pipeline.arrRef spec4 0)) (V c (Pipeline.arrRef spec4 1)) (((cfg4.win 2).blk t).view.emb j)
  refine mm4_pay_eq (iblk4 V c 0 t) (iblk4 V c 1 t) (V c (Pipeline.arrRef spec4 0)) (V c (Pipeline.arrRef spec4 1)) j
    (((cfg4.win 2).blk t).view.emb j) (fun k => ?_) (fun k => ?_)
  · show V c (Pipeline.arrRef spec4 0) (((cfg4.win 0).blk t).view.emb (ix2 (j 0) k)) = _
    refine congrArg _ (funext fun a => Fin.ext ?_)
    match a with
    | ⟨0, _⟩ =>
      show win4_0.index t (0 : Fin 2) * 2000 + 1 * (j 0).val = win4_2.index t (0 : Fin 2) * 2000 + 1 * (j 0).val
      omega
    | ⟨1, _⟩ =>
      show win4_0.index t (1 : Fin 2) * 128 + 1 * k.val = k.val
      omega
  · show V c (Pipeline.arrRef spec4 1) (((cfg4.win 1).blk t).view.emb (ix2 k (j 1))) = _
    refine congrArg _ (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An entry of the array is in point t's block iff each coordinate is in the block's range on its axis. -/
theorem mm4_mem_blk (t : Fin cfg4.N) (i : S100000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

/-- After region 4 its output array is the dense map of its two input arrays: row r is in the block of point
    r / 2000. -/
theorem mm4_val (c : Dev nD) (x : CF Ideal S100000x128) (w : CF Ideal S128x128)
    (hx : V c (Pipeline.arrRef spec4 0) = x) (hw : V c (Pipeline.arrRef spec4 1) = w) :
    (dat4 (F := Ideal) V c).arrAt 2 cfg4.N = mmR (F := Ideal) x w := by
  refine (dat4 (F := Ideal) V c).arrAt_eq_of_cover 2 (mmR (F := Ideal) x w)
    (fun t _ => mm4_flushed_eq V c x w hx hw t) (fun (i : S100000x128.Idx) => ?_)
  have hi0 : (i 0).val < 100000 := (i 0).isLt
  have hi1 : (i 1).val < 128 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨e0, e1, e2, e3, e4, e5⟩ := mm4_idx_facts t
  refine ⟨t, flush4_2 t, ?_⟩
  rw [mm4_mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 128 ≤ (i 1).val ∧ (i 1).val < win4_2.index t (1 : Fin 2) * 128 + 128
    omega

end Cert.KVal

end
-- ==== Proof.KMm6.lean ====
/-
  The fourth dense-map kernel's output array: fifty blocks of 2000 rows, block t holding rows 2000t … 2000t+1999 of
  h · W, so the whole array is the reference's dense map of the arrays the kernel was given.

  The steps: the body's block at an entry is the sum over the contracted coordinate of the products of the two
  blocks' entries; block t of the node features is the rows 2000t … of the array and the weight's one block is the
  whole weight, so what point t writes back is block t of the dense map; row r lies in the block of point r / 2000,
  so the fifty blocks cover the array.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

/-- The body's one store starts at the block's origin. -/
theorem mm6_zero_off : (![0, 0] : Fin 2 → Nat) = fun _ => 0 := funext fun a => by fin_cases a <;> rfl

/-- The body's block at an entry: the 2000 × 128 block of node features times the 128 × 128 weight, the rounding to
    the narrow format being the identity on the extended reals and the accumulator starting at zero. -/
theorem mm6_pay_apply (x0 : Vec Ideal S2000x128 .f32) (x1 : Vec Ideal S128x128 .f32) (p : Fin 2000) (q : Fin 128) :
    k6_pay1 (F := Ideal) x0 x1 (ix2 p q) = ∑ k : Fin 128, x0 (ix2 p k) * x1 (ix2 k q) := by
  unfold k6_pay1
  simp only [shapeCast_self]
  show FloatOps.matmul dot_S2000x128_S128x128_S2000x128_1_0_0_1_n_n none _ _ (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]
  rfl

/-- A block product whose feature block holds, along the row of j, the row of i of x, and whose weight block holds,
    down the column of j, the column of i of w, is at j the dense map of x and w at i. -/
theorem mm6_pay_eq (X0 : Vec Ideal S2000x128 .f32) (X1 : Vec Ideal S128x128 .f32) (x : CF Ideal S100000x128) (w : CF Ideal S128x128)
    (j : S2000x128.Idx) (i : S100000x128.Idx)
    (h0 : ∀ k : Fin 128, X0 (ix2 (j 0) k) = x (ix2 (i 0) k)) (h1 : ∀ k : Fin 128, X1 (ix2 k (j 1)) = w (ix2 k (i 1))) :
    k6_pay1 (F := Ideal) X0 X1 j = mmR (F := Ideal) x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [mm6_pay_apply, mmR_apply]
  exact Finset.sum_congr rfl fun k _ => congrArg₂ (· * ·) (h0 k) (h1 k)

/-- The index maps over the fifty points: the feature block and the output block of point t are block t down the
    rows, the weight's one block is the whole weight. -/
theorem mm6_idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the dense map of the two input arrays: a block's coordinate is the block's
    index times the block's extent plus the coordinate inside the block. -/
theorem mm6_flushed_eq (c : Dev nD) (x : CF Ideal S100000x128) (w : CF Ideal S128x128)
    (hx : V c (Pipeline.arrRef spec6 0) = x) (hw : V c (Pipeline.arrRef spec6 1) = w) (t : Fin cfg6.N) :
    (dat6 (F := Ideal) V c).flushed 2 t = ((cfg6.win 2).blk t).view.read (Elt Ideal) (mmR (F := Ideal) x w) := by
  subst hx hw
  show (cfg6.win 2).cut (grid6.coords t) ((dat6 V c).after 2 t) = _
  rw [after6_2]
  unfold out6_2
  rw [View.canon_unit_zero mm6_zero_off]
  simp only [View.ld_unit_zero (S := S2000x128) mm6_zero_off, View.ld_unit_zero (S := S128x128) mm6_zero_off]
  obtain ⟨e0, e1, e2, e3, e4, e5⟩ := mm6_idx_facts t
  funext j
  show k6_pay1 (F := Ideal) (iblk6 V c 0 t) (iblk6 V c 1 t) j
    = mmR (F := Ideal) (V c (Pipeline.arrRef spec6 0)) (V c (Pipeline.arrRef spec6 1)) (((cfg6.win 2).blk t).view.emb j)
  refine mm6_pay_eq (iblk6 V c 0 t) (iblk6 V c 1 t) (V c (Pipeline.arrRef spec6 0)) (V c (Pipeline.arrRef spec6 1)) j
    (((cfg6.win 2).blk t).view.emb j) (fun k => ?_) (fun k => ?_)
  · show V c (Pipeline.arrRef spec6 0) (((cfg6.win 0).blk t).view.emb (ix2 (j 0) k)) = _
    refine congrArg _ (funext fun a => Fin.ext ?_)
    match a with
    | ⟨0, _⟩ =>
      show win6_0.index t (0 : Fin 2) * 2000 + 1 * (j 0).val = win6_2.index t (0 : Fin 2) * 2000 + 1 * (j 0).val
      omega
    | ⟨1, _⟩ =>
      show win6_0.index t (1 : Fin 2) * 128 + 1 * k.val = k.val
      omega
  · show V c (Pipeline.arrRef spec6 1) (((cfg6.win 1).blk t).view.emb (ix2 k (j 1))) = _
    refine congrArg _ (funext fun a => Fin.ext ?_)
    match a with
    | ⟨0, _⟩ =>
      show win6_1.index t (0 : Fin 2) * 128 + 1 * k.val = k.val
      omega
    | ⟨1, _⟩ =>
      show win6_1.index t (1 : Fin 2) * 128 + 1 * (j 1).val = win6_2.index t (1 : Fin 2) * 128 + 1 * (j 1).val
      omega

/-- An entry of the array is in point t's block iff each coordinate is in the block's range on its axis. -/
theorem mm6_mem_blk (t : Fin cfg6.N) (i : S100000x128.Idx) :
    i ∈ ((cfg6.win 2).blk t).view.set ↔ ∀ a : Fin 2, win6_2.index t a * S2000x128.size a ≤ (i a).val
      ∧ (i a).val < win6_2.index t a * S2000x128.size a + S2000x128.size a := by
  show i ∈ ((View.whole (Pipeline.arrRef spec6 2)).slice (win6_2.rect t)).set ↔ _
  rw [View.set_slice_whole, Rect.mem_set_unit]
  exact Iff.rfl

/-- After region 6 its output array is the dense map of its two input arrays: row r is in the block of point
    r / 2000. -/
theorem mm6_val (c : Dev nD) (x : CF Ideal S100000x128) (w : CF Ideal S128x128)
    (hx : V c (Pipeline.arrRef spec6 0) = x) (hw : V c (Pipeline.arrRef spec6 1) = w) :
    (dat6 (F := Ideal) V c).arrAt 2 cfg6.N = mmR (F := Ideal) x w := by
  refine (dat6 (F := Ideal) V c).arrAt_eq_of_cover 2 (mmR (F := Ideal) x w)
    (fun t _ => mm6_flushed_eq V c x w hx hw t) (fun (i : S100000x128.Idx) => ?_)
  have hi0 : (i 0).val < 100000 := (i 0).isLt
  have hi1 : (i 1).val < 128 := (i 1).isLt
  have hN : cfg6.N = 50 := N_6
  obtain ⟨t, ht⟩ : ∃ t : Fin cfg6.N, t.val = (i 0).val / 2000 := ⟨⟨(i 0).val / 2000, by rw [hN]; omega⟩, rfl⟩
  obtain ⟨e0, e1, e2, e3, e4, e5⟩ := mm6_idx_facts t
  refine ⟨t, flush6_2 t, ?_⟩
  rw [mm6_mem_blk]
  intro a
  match a with
  | ⟨0, _⟩ =>
    show win6_2.index t (0 : Fin 2) * 2000 ≤ (i 0).val ∧ (i 0).val < win6_2.index t (0 : Fin 2) * 2000 + 2000
    omega
  | ⟨1, _⟩ =>
    show win6_2.index t (1 : Fin 2) * 128 ≤ (i 1).val ∧ (i 1).val < win6_2.index t (1 : Fin 2) * 128 + 128
    omega

end Cert.KVal

end
-- ==== Proof.KGru1.lean ====
/-
  The first GRU kernel's output array: block t holds rows 2000t … 2000t+1999 of the GRU update, computed from the
  block's rows of the summed messages and of the state and from the whole gate weights and biases.

  The body's stored value is read at an entry of the block: the two products into zero are plain sums over the 128
  features, the bias rows are laid along every row, the three gates are the column bands 0, 128 and 256 of the
  pre-activations, and the logistic and hyperbolic tangent are the extended reals' own. The blocks are then read off the
  arrays: the row-blocked windows at rows 2000t + p, the weights whole (handed over transposed) and the biases whole
  (handed over as one row). The fifty row blocks fill the array, so it ends holding the GRU update everywhere.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

namespace Gru1

/-- The dimension numbers of the gate products: rows by 128 against 128 by the 384 gate columns. -/
abbrev gateDot : DotDims S2000x128 S128x384 S2000x384 := dot_S2000x128_S128x384_S2000x384_1_0_0_1_n_n

theorem gateDot_lhs_0 (j : S2000x384.Idx) (k : gateDot.contr.Idx) : (gateDot.lhsIdx j k 0).val = (j 0).val := rfl
theorem gateDot_lhs_1 (j : S2000x384.Idx) (k : gateDot.contr.Idx) : (gateDot.lhsIdx j k 1).val = (k ⟨0, by decide⟩).val :=
  gateDot.lhsIdx_val_of_single (cl := 1) rfl j k
theorem gateDot_rhs_0 (j : S2000x384.Idx) (k : gateDot.contr.Idx) : (gateDot.rhsIdx j k 0).val = (k ⟨0, by decide⟩).val :=
  gateDot.rhsIdx_val_of_single (cr := 0) rfl j k
theorem gateDot_rhs_1 (j : S2000x384.Idx) (k : gateDot.contr.Idx) : (gateDot.rhsIdx j k 1).val = (j 1).val := rfl

/-- A block's product with a gate weight, accumulated into zero, is the plain sum over the 128 features. -/
theorem gateMm_apply (x : FVec Ideal S2000x128 .bf16) (w : FVec Ideal S128x384 .bf16) (p : Fin 2000) (c : Fin 384) :
    matmul gateDot none x w (constant S2000x384 .f32 0x00000000#32) (ix2 p c) = ∑ k : Fin 128, x (ix2 p k) * w (ix2 k c) := by
  show FloatOps.matmul gateDot none x w (constant S2000x384 .f32 0x00000000#32) (ix2 p c) = _
  rw [Ideal.matmul_constant_zero_apply, ← Equiv.sum_comp (contrEquiv1 gateDot 128 rfl rfl).symm]
  refine Finset.sum_congr rfl fun k _ => ?_
  have hl : gateDot.lhsIdx (ix2 p c) ((contrEquiv1 gateDot 128 rfl rfl).symm k) = ix2 p k := by
    funext a; apply Fin.ext
    match a with
    | ⟨0, _⟩ => exact gateDot_lhs_0 _ _
    | ⟨1, _⟩ => exact (gateDot_lhs_1 _ _).trans (contrEquiv1_symm_val gateDot 128 rfl rfl k)
  have hr : gateDot.rhsIdx (ix2 p c) ((contrEquiv1 gateDot 128 rfl rfl).symm k) = ix2 k c := by
    funext a; apply Fin.ext
    match a with
    | ⟨0, _⟩ => exact (gateDot_rhs_0 _ _).trans (contrEquiv1_symm_val gateDot 128 rfl rfl k)
    | ⟨1, _⟩ => exact gateDot_rhs_1 _ _
  rw [hl, hr]

/-- Gate column c of row p of a block: the row of x against column c of the (transposed) weight w, plus the bias row's entry. -/
def gateBlk (x : FVec Ideal S2000x128 .f32) (w : FVec Ideal S128x384 .f32) (b : FVec Ideal S1x384 .f32) (p : Fin 2000) (c : Fin 384) : EReal :=
  (∑ k : Fin 128, x (ix2 p k) * w (ix2 k c)) + b (ix2 0 c)

/-- The GRU update of row p, feature q of a block, from the block's rows of the summed messages x0 and of the state x1. -/
def cellBlk (x0 x1 : FVec Ideal S2000x128 .f32) (w0 w1 : FVec Ideal S128x384 .f32) (b0 b1 : FVec Ideal S1x384 .f32)
    (hh : FVec Ideal S2000x128 .f32) (p : Fin 2000) (q : Fin 128) : EReal :=
  (1 - Ideal.logistic (gateBlk x0 w0 b0 p (g1 q) + gateBlk x1 w1 b1 p (g1 q)))
      * Ideal.tanh (gateBlk x0 w0 b0 p (g2 q)
          + Ideal.logistic (gateBlk x0 w0 b0 p (g0 q) + gateBlk x1 w1 b1 p (g0 q)) * gateBlk x1 w1 b1 p (g2 q))
    + Ideal.logistic (gateBlk x0 w0 b0 p (g1 q) + gateBlk x1 w1 b1 p (g1 q)) * hh (ix2 p q)

/-- The three gates' pre-activations of a block as the body computes them (identity casts dropped): the product into
    zero plus the bias row laid along every row. -/
def preV (x : FVec Ideal S2000x128 .bf16) (w : FVec Ideal S128x384 .f32) (b : FVec Ideal S1x384 .f32) : FVec Ideal S2000x384 .f32 :=
  addf (matmul gateDot none x (truncf .bf16 w bitsLt_bf16_f32) (constant S2000x384 .f32 0x00000000#32))
    (broadcastTo S2000x384 b broadcasts_S1x384_S2000x384)

theorem preV_apply (x : FVec Ideal S2000x128 .bf16) (w : FVec Ideal S128x384 .f32) (b : FVec Ideal S1x384 .f32) (p : Fin 2000) (c : Fin 384) :
    preV x w b (ix2 p c) = (∑ k : Fin 128, x (ix2 p k) * w (ix2 k c)) + b (ix2 0 c) := by
  unfold preV
  rw [addf_apply, gateMm_apply]
  have hb : broadcastTo S2000x384 b broadcasts_S1x384_S2000x384 (ix2 p c) = b (ix2 0 c) :=
    broadcastTo_apply b broadcasts_S1x384_S2000x384 (ix2 p c) (ix2 0 c) (fun a => by
      match a with
      | ⟨0, _⟩ => rfl
      | ⟨1, _⟩ => rfl)
  rw [hb]
  rfl

/-- THE BODY'S STORED VALUE at row p, feature q of the block. -/
theorem pay_apply (x0 x1 : FVec Ideal S2000x128 .f32) (w0 w1 : FVec Ideal S128x384 .f32) (b0 b1 : FVec Ideal S1x384 .f32)
    (hh : FVec Ideal S2000x128 .f32) (p : Fin 2000) (q : Fin 128) :
    k1_pay1 (F := Ideal) x0 x1 w0 w1 b0 b1 hh (ix2 p q) = cellBlk x0 x1 w0 w1 b0 b1 hh p q := by
  have s0 : ∀ g : FVec Ideal S2000x384 .f32,
      extractStridedSlice S2000x128 ![0, 0] g slices_S2000x384_o0_0_S2000x128 (ix2 p q) = g (ix2 p (g0 q)) :=
    fun g => slice2_axis1_apply 0 g slices_S2000x384_o0_0_S2000x128 p q (g0 q) (by show q.val = 0 + q.val; omega)
  have s1 : ∀ g : FVec Ideal S2000x384 .f32,
      extractStridedSlice S2000x128 ![0, 128] g slices_S2000x384_o0_128_S2000x128 (ix2 p q) = g (ix2 p (g1 q)) :=
    fun g => slice2_axis1_apply 128 g slices_S2000x384_o0_128_S2000x128 p q (g1 q) rfl
  have s2 : ∀ g : FVec Ideal S2000x384 .f32,
      extractStridedSlice S2000x128 ![0, 256] g slices_S2000x384_o0_256_S2000x128 (ix2 p q) = g (ix2 p (g2 q)) :=
    fun g => slice2_axis1_apply 256 g slices_S2000x384_o0_256_S2000x128 p q (g2 q) rfl
  have e0 : ∀ c : Fin 384, preV (truncf .bf16 x0 bitsLt_bf16_f32) w0 b0 (ix2 p c) = gateBlk x0 w0 b0 p c := fun c => by
    rw [preV_apply]; rfl
  have e1 : ∀ c : Fin 384, preV (truncf .bf16 x1 bitsLt_bf16_f32) w1 b1 (ix2 p c) = gateBlk x1 w1 b1 p c := fun c => by
    rw [preV_apply]; rfl
  unfold k1_pay1
  simp only [shapeCast_self]
  show (Ideal.ofBits .f32 0x3F800000#32
        - Ideal.logistic
            (extractStridedSlice S2000x128 ![0, 128]
                (preV (truncf .bf16 x0 bitsLt_bf16_f32) w0 b0)
                slices_S2000x384_o0_128_S2000x128 (ix2 p q)
              + extractStridedSlice S2000x128 ![0, 128] (preV (truncf .bf16 x1 bitsLt_bf16_f32) w1 b1)
                  slices_S2000x384_o0_128_S2000x128 (ix2 p q)))
      * Ideal.tanh
          (extractStridedSlice S2000x128 ![0, 256]
              (preV (truncf .bf16 x0 bitsLt_bf16_f32) w0 b0)
              slices_S2000x384_o0_256_S2000x128 (ix2 p q)
            + Ideal.logistic
                (extractStridedSlice S2000x128 ![0, 0]
                    (preV (truncf .bf16 x0 bitsLt_bf16_f32) w0 b0)
                    slices_S2000x384_o0_0_S2000x128 (ix2 p q)
                  + extractStridedSlice S2000x128 ![0, 0] (preV (truncf .bf16 x1 bitsLt_bf16_f32) w1 b1)
                      slices_S2000x384_o0_0_S2000x128 (ix2 p q))
              * extractStridedSlice S2000x128 ![0, 256] (preV (truncf .bf16 x1 bitsLt_bf16_f32) w1 b1)
                  slices_S2000x384_o0_256_S2000x128 (ix2 p q))
    + Ideal.logistic
        (extractStridedSlice S2000x128 ![0, 128]
            (preV (truncf .bf16 x0 bitsLt_bf16_f32) w0 b0)
            slices_S2000x384_o0_128_S2000x128 (ix2 p q)
          + extractStridedSlice S2000x128 ![0, 128] (preV (truncf .bf16 x1 bitsLt_bf16_f32) w1 b1)
              slices_S2000x384_o0_128_S2000x128 (ix2 p q))
      * hh (ix2 p q) = _
  simp only [s0, s1, s2, e0, e1, Ideal.ofBits_one_f32]
  rfl

theorem zeroOff : (![0, 0] : Fin 2 → Nat) = fun _ => 0 := funext fun a => by fin_cases a <;> rfl

/-- The printed index maps over the grid: the three row-blocked windows sit at block (t, 0), the weights and biases at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block is row 2000 t + p of the array. -/
def rowOf (t : Fin cfg1.N) (p : Fin 2000) : Fin 100000 := ⟨2000 * t.val + p.val, by
  have ht : t.val < 50 := t.isLt
  have hp := p.isLt
  omega⟩

theorem blk0_apply (c : Dev nD) (agg : CF Ideal S100000x128) (h0 : V c (Pipeline.arrRef spec1 0) = agg)
    (t : Fin cfg1.N) (p : Fin 2000) (k : Fin 128) :
    iblk1 (F := Ideal) V c 0 t (ix2 p k) = agg (ix2 (rowOf t p) k) := by
  have e : iblk1 (F := Ideal) V c 0 t = ((cfg1.win 0).blk t).view.read (Elt Ideal) agg :=
    congrArg (fun A => ((cfg1.win 0).blk t).view.read (Elt Ideal) A) h0
  rw [e]
  show agg (((cfg1.win 0).blk t).view.emb (ix2 p k)) = _
  refine congrArg agg (funext fun a => Fin.ext ?_)
  obtain ⟨e0, e1, -⟩ := idx_facts t
  match a with
  | ⟨0, _⟩ => show win1_0.index t (0 : Fin 2) * 2000 + 1 * p.val = 2000 * t.val + p.val; omega
  | ⟨1, _⟩ => show win1_0.index t (1 : Fin 2) * 128 + 1 * k.val = k.val; omega

theorem blk1_apply (c : Dev nD) (h : CF Ideal S100000x128) (h1 : V c (Pipeline.arrRef spec1 1) = h)
    (t : Fin cfg1.N) (p : Fin 2000) (k : Fin 128) :
    iblk1 (F := Ideal) V c 1 t (ix2 p k) = h (ix2 (rowOf t p) k) := by
  have e : iblk1 (F := Ideal) V c 1 t = ((cfg1.win 1).blk t).view.read (Elt Ideal) h :=
    congrArg (fun A => ((cfg1.win 1).blk t).view.read (Elt Ideal) A) h1
  rw [e]
  show h (((cfg1.win 1).blk t).view.emb (ix2 p k)) = _
  refine congrArg h (funext fun a => Fin.ext ?_)
  obtain ⟨-, -, e0, e1, -⟩ := idx_facts t
  match a with
  | ⟨0, _⟩ => show win1_1.index t (0 : Fin 2) * 2000 + 1 * p.val = 2000 * t.val + p.val; omega
  | ⟨1, _⟩ => show win1_1.index t (1 : Fin 2) * 128 + 1 * k.val = k.val; omega

/-- The first gate weight's window is the whole transposed weight: entry (k, cc) is the stored weight's (cc, k). -/
theorem blk2_apply (c : Dev nD) (a4 : CF Ideal S384x128) (h2 : V c (Pipeline.arrRef spec1 2) = trTK (F := Ideal) a4)
    (t : Fin cfg1.N) (k : Fin 128) (cc : Fin 384) :
    iblk1 (F := Ideal) V c 2 t (ix2 k cc) = a4 (ix2 cc k) := by
  have e : iblk1 (F := Ideal) V c 2 t = ((cfg1.win 2).blk t).view.read (Elt Ideal) (trTK (F := Ideal) a4) :=
    congrArg (fun A => ((cfg1.win 2).blk t).view.read (Elt Ideal) A) h2
  rw [e]
  show trTK (F := Ideal) a4 (((cfg1.win 2).blk t).view.emb (ix2 k cc)) = _
  have he : ((cfg1.win 2).blk t).view.emb (ix2 k cc) = ix2 k cc := by
    funext a; apply Fin.ext
    obtain ⟨-, -, -, -, e0, e1, -⟩ := idx_facts t
    match a with
    | ⟨0, _⟩ => show win1_2.index t (0 : Fin 2) * 128 + 1 * k.val = k.val; omega
    | ⟨1, _⟩ => show win1_2.index t (1 : Fin 2) * 384 + 1 * cc.val = cc.val; omega
  rw [he]
  unfold trTK
  exact transpose_ix2_apply a4 transposes_S384x128_S128x384_1_0 k cc

theorem blk3_apply (c : Dev nD) (a5 : CF Ideal S384x128) (h3 : V c (Pipeline.arrRef spec1 3) = trTK (F := Ideal) a5)
    (t : Fin cfg1.N) (k : Fin 128) (cc : Fin 384) :
    iblk1 (F := Ideal) V c 3 t (ix2 k cc) = a5 (ix2 cc k) := by
  have e : iblk1 (F := Ideal) V c 3 t = ((cfg1.win 3).blk t).view.read (Elt Ideal) (trTK (F := Ideal) a5) :=
    congrArg (fun A => ((cfg1.win 3).blk t).view.read (Elt Ideal) A) h3
  rw [e]
  show trTK (F := Ideal) a5 (((cfg1.win 3).blk t).view.emb (ix2 k cc)) = _
  have he : ((cfg1.win 3).blk t).view.emb (ix2 k cc) = ix2 k cc := by
    funext a; apply Fin.ext
    obtain ⟨-, -, -, -, -, -, e0, e1, -⟩ := idx_facts t
    match a with
    | ⟨0, _⟩ => show win1_3.index t (0 : Fin 2) * 128 + 1 * k.val = k.val; omega
    | ⟨1, _⟩ => show win1_3.index t (1 : Fin 2) * 384 + 1 * cc.val = cc.val; omega
  rw [he]
  unfold trTK
  exact transpose_ix2_apply a5 transposes_S384x128_S128x384_1_0 k cc

/-- The first bias's window is the whole bias as one row: entry (0, cc) is the bias's entry cc. -/
theorem blk4_apply (c : Dev nD) (a6 : CF Ideal S384) (h4 : V c (Pipeline.arrRef spec1 4) = row384K (F := Ideal) a6)
    (t : Fin cfg1.N) (cc : Fin 384) :
    iblk1 (F := Ideal) V c 4 t (ix2 0 cc) = a6 (ix1 cc) := by
  have e : iblk1 (F := Ideal) V c 4 t = ((cfg1.win 4).blk t).view.read (Elt Ideal) (row384K (F := Ideal) a6) :=
    congrArg (fun A => ((cfg1.win 4).blk t).view.read (Elt Ideal) A) h4
  rw [e]
  show row384K (F := Ideal) a6 (((cfg1.win 4).blk t).view.emb (ix2 0 cc)) = _
  have he : ((cfg1.win 4).blk t).view.emb (ix2 (0 : Fin 1) cc) = ix2 (0 : Fin 1) cc := by
    funext a; apply Fin.ext
    obtain ⟨-, -, -, -, -, -, -, -, e0, e1, -⟩ := idx_facts t
    match a with
    | ⟨0, _⟩ => show win1_4.index t (0 : Fin 2) * 1 + 1 * 0 = 0; omega
    | ⟨1, _⟩ => show win1_4.index t (1 : Fin 2) * 384 + 1 * cc.val = cc.val; omega
  rw [he]
  unfold row384K
  exact shapeCast_a_1a_apply a6 shapeCasts_S384_S1x384 0 cc

theorem blk5_apply (c : Dev nD) (a7 : CF Ideal S384) (h5 : V c (Pipeline.arrRef spec1 5) = row384K (F := Ideal) a7)
    (t : Fin cfg1.N) (cc : Fin 384) :
    iblk1 (F := Ideal) V c 5 t (ix2 0 cc) = a7 (ix1 cc) := by
  have e : iblk1 (F := Ideal) V c 5 t = ((cfg1.win 5).blk t).view.read (Elt Ideal) (row384K (F := Ideal) a7) :=
    congrArg (fun A => ((cfg1.win 5).blk t).view.read (Elt Ideal) A) h5
  rw [e]
  show row384K (F := Ideal) a7 (((cfg1.win 5).blk t).view.emb (ix2 0 cc)) = _
  have he : ((cfg1.win 5).blk t).view.emb (ix2 (0 : Fin 1) cc) = ix2 (0 : Fin 1) cc := by
    funext a; apply Fin.ext
    obtain ⟨-, -, -, -, -, -, -, -, -, -, e0, e1, -⟩ := idx_facts t
    match a with
    | ⟨0, _⟩ => show win1_5.index t (0 : Fin 2) * 1 + 1 * 0 = 0; omega
    | ⟨1, _⟩ => show win1_5.index t (1 : Fin 2) * 384 + 1 * cc.val = cc.val; omega
  rw [he]
  unfold row384K
  exact shapeCast_a_1a_apply a7 shapeCasts_S384_S1x384 0 cc

/-- The input blocks at their literal types. -/
abbrev xb0 (c : Dev nD) (t : Fin cfg1.N) : FVec Ideal S2000x128 .f32 := iblk1 (F := Ideal) V c 0 t
abbrev xb1 (c : Dev nD) (t : Fin cfg1.N) : FVec Ideal S2000x128 .f32 := iblk1 (F := Ideal) V c 1 t
abbrev wb2 (c : Dev nD) (t : Fin cfg1.N) : FVec Ideal S128x384 .f32 := iblk1 (F := Ideal) V c 2 t
abbrev wb3 (c : Dev nD) (t : Fin cfg1.N) : FVec Ideal S128x384 .f32 := iblk1 (F := Ideal) V c 3 t
abbrev bb4 (c : Dev nD) (t : Fin cfg1.N) : FVec Ideal S1x384 .f32 := iblk1 (F := Ideal) V c 4 t
abbrev bb5 (c : Dev nD) (t : Fin cfg1.N) : FVec Ideal S1x384 .f32 := iblk1 (F := Ideal) V c 5 t

/-- A gate of the summed messages read off the blocks is the array's gate at the block's row. -/
theorem gateI_eq (c : Dev nD) (agg : CF Ideal S100000x128) (a4 : CF Ideal S384x128) (a6 : CF Ideal S384)
    (h0 : V c (Pipeline.arrRef spec1 0) = agg) (h2 : V c (Pipeline.arrRef spec1 2) = trTK (F := Ideal) a4)
    (h4 : V c (Pipeline.arrRef spec1 4) = row384K (F := Ideal) a6) (t : Fin cfg1.N) (p : Fin 2000) (cc : Fin 384) :
    gateBlk (xb0 V c t) (wb2 V c t) (bb4 V c t) p cc = gateAt agg a4 a6 (rowOf t p) cc := by
  unfold gateBlk gateAt
  have hb : bb4 V c t (ix2 0 cc) = a6 (ix1 cc) := blk4_apply V c a6 h4 t cc
  rw [hb]
  refine congrArg (· + a6 (ix1 cc)) (Finset.sum_congr rfl fun k _ => ?_)
  have hx : xb0 V c t (ix2 p k) = agg (ix2 (rowOf t p) k) := blk0_apply V c agg h0 t p k
  have hw : wb2 V c t (ix2 k cc) = a4 (ix2 cc k) := blk2_apply V c a4 h2 t k cc
  rw [hx, hw]

/-- The same for the state's gate. -/
theorem gateH_eq (c : Dev nD) (h : CF Ideal S100000x128) (a5 : CF Ideal S384x128) (a7 : CF Ideal S384)
    (h1 : V c (Pipeline.arrRef spec1 1) = h) (h3 : V c (Pipeline.arrRef spec1 3) = trTK (F := Ideal) a5)
    (h5 : V c (Pipeline.arrRef spec1 5) = row384K (F := Ideal) a7) (t : Fin cfg1.N) (p : Fin 2000) (cc : Fin 384) :
    gateBlk (xb1 V c t) (wb3 V c t) (bb5 V c t) p cc = gateAt h a5 a7 (rowOf t p) cc := by
  unfold gateBlk gateAt
  have hb : bb5 V c t (ix2 0 cc) = a7 (ix1 cc) := blk5_apply V c a7 h5 t cc
  rw [hb]
  refine congrArg (· + a7 (ix1 cc)) (Finset.sum_congr rfl fun k _ => ?_)
  have hx : xb1 V c t (ix2 p k) = h (ix2 (rowOf t p) k) := blk1_apply V c h h1 t p k
  have hw : wb3 V c t (ix2 k cc) = a5 (ix2 cc k) := blk3_apply V c a5 h3 t k cc
  rw [hx, hw]

/-- WHAT POINT t WRITES BACK is block t of the GRU update of the arrays. -/
theorem flushed_eq (c : Dev nD) (agg h : CF Ideal S100000x128) (a4 a5 : CF Ideal S384x128) (a6 a7 : CF Ideal S384)
    (h0 : V c (Pipeline.arrRef spec1 0) = agg) (h1 : V c (Pipeline.arrRef spec1 1) = h)
    (h2 : V c (Pipeline.arrRef spec1 2) = trTK (F := Ideal) a4) (h3 : V c (Pipeline.arrRef spec1 3) = trTK (F := Ideal) a5)
    (h4 : V c (Pipeline.arrRef spec1 4) = row384K (F := Ideal) a6) (h5 : V c (Pipeline.arrRef spec1 5) = row384K (F := Ideal) a7)
    (t : Fin cfg1.N) :
    (dat1 (F := Ideal) V c).flushed 6 t
      = ((cfg1.win 6).blk t).view.read (Elt Ideal) (gruR (F := Ideal) agg h a4 a5 a6 a7) := by
  show (cfg1.win 6).cut (grid1.coords t) ((dat1 (F := Ideal) V c).after 6 t) = _
  rw [after1_6]
  unfold out1_6
  rw [View.canon_unit_zero zeroOff]
  simp only [View.ld_unit_zero (S := S2000x128) zeroOff, View.ld_unit_zero (S := S128x384) zeroOff,
    View.ld_unit_zero (S := S1x384) zeroOff]
  funext j
  obtain ⟨p, q, rfl⟩ : ∃ (p : Fin 2000) (q : Fin 128), j = ix2 p q := ⟨j 0, j 1, eq_ix2 j⟩
  show k1_pay1 (F := Ideal) (xb0 V c t) (xb1 V c t) (wb2 V c t) (wb3 V c t) (bb4 V c t) (bb5 V c t) (xb1 V c t) (ix2 p q)
    = gruR (F := Ideal) agg h a4 a5 a6 a7 (((cfg1.win 6).blk t).view.emb (ix2 p q))
  have he : ((cfg1.win 6).blk t).view.emb (ix2 p q) = ix2 (rowOf t p) q := by
    funext a; apply Fin.ext
    obtain ⟨-, -, -, -, -, -, -, -, -, -, -, -, e0, e1⟩ := idx_facts t
    match a with
    | ⟨0, _⟩ => show win1_6.index t (0 : Fin 2) * 2000 + 1 * p.val = 2000 * t.val + p.val; omega
    | ⟨1, _⟩ => show win1_6.index t (1 : Fin 2) * 128 + 1 * q.val = q.val; omega
  rw [he, gruR_apply, pay_apply]
  unfold cellBlk gruAt
  have hx : xb1 V c t (ix2 p q) = h (ix2 (rowOf t p) q) := blk1_apply V c h h1 t p q
  rw [gateI_eq V c agg a4 a6 h0 h2 h4 t p (g0 q), gateI_eq V c agg a4 a6 h0 h2 h4 t p (g1 q),
    gateI_eq V c agg a4 a6 h0 h2 h4 t p (g2 q), gateH_eq V c h a5 a7 h1 h3 h5 t p (g0 q),
    gateH_eq V c h a5 a7 h1 h3 h5 t p (g1 q), gateH_eq V c h a5 a7 h1 h3 h5 t p (g2 q), hx]

/-- An index of the array is in point t's block iff each coordinate is in the block's range on its axis. -/
theorem mem_blk6 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v22).slice (win1_6.rect t)).set ↔ _
  rw [View.set_slice_whole, Rect.mem_set_unit]
  exact Iff.rfl

/-- The fifty row blocks fill the array: row r lies in block r / 2000. -/
theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have ht : (i 0).val / 2000 < cfg1.N := by rw [hN]; omega
  refine ⟨⟨(i 0).val / 2000, ht⟩, flush1_6 _, ?_⟩
  rw [mem_blk6]
  obtain ⟨-, -, -, -, -, -, -, -, -, -, -, -, e0, e1⟩ := idx_facts ⟨(i 0).val / 2000, ht⟩
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

end Gru1

/-- After region 1 its output array is the reference's GRU cell of the arrays the kernel was given: the summed
    messages, the state, the two gate weights (handed over transposed) and the two biases (handed over as rows). -/
theorem gru1_val (c : Dev nD) (agg h : CF Ideal S100000x128) (a4 a5 : CF Ideal S384x128) (a6 a7 : CF Ideal S384)
    (h0 : V c (Pipeline.arrRef spec1 0) = agg) (h1 : V c (Pipeline.arrRef spec1 1) = h)
    (h2 : V c (Pipeline.arrRef spec1 2) = trTK (F := Ideal) a4) (h3 : V c (Pipeline.arrRef spec1 3) = trTK (F := Ideal) a5)
    (h4 : V c (Pipeline.arrRef spec1 4) = row384K (F := Ideal) a6) (h5 : V c (Pipeline.arrRef spec1 5) = row384K (F := Ideal) a7) :
    (dat1 (F := Ideal) V c).arrAt 6 cfg1.N = gruR (F := Ideal) agg h a4 a5 a6 a7 :=
  (dat1 (F := Ideal) V c).arrAt_eq_of_cover 6 (gruR (F := Ideal) agg h a4 a5 a6 a7)
    (fun t _ => Gru1.flushed_eq V c agg h a4 a5 a6 a7 h0 h1 h2 h3 h4 h5 t) Gru1.cover6

end Cert.KVal

end
-- ==== Proof.KGru3.lean ====
/-
  The second GRU kernel's output array: block t holds rows 2000t … 2000t+1999 of the GRU update, computed from the
  block's rows of the summed messages and of the state and from the whole gate weights and biases.

  The body's stored value is read at an entry of the block: the two products into zero are plain sums over the 128
  features, the bias rows are laid along every row, the three gates are the column bands 0, 128 and 256 of the
  pre-activations, and the logistic and hyperbolic tangent are the extended reals' own. The blocks are then read off the
  arrays: the row-blocked windows at rows 2000t + p, the weights whole (handed over transposed) and the biases whole
  (handed over as one row). The fifty row blocks fill the array, so it ends holding the GRU update everywhere.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

namespace Gru3

/-- The dimension numbers of the gate products: rows by 128 against 128 by the 384 gate columns. -/
abbrev gateDot : DotDims S2000x128 S128x384 S2000x384 := dot_S2000x128_S128x384_S2000x384_1_0_0_1_n_n

theorem gateDot_lhs_0 (j : S2000x384.Idx) (k : gateDot.contr.Idx) : (gateDot.lhsIdx j k 0).val = (j 0).val := rfl
theorem gateDot_lhs_1 (j : S2000x384.Idx) (k : gateDot.contr.Idx) : (gateDot.lhsIdx j k 1).val = (k ⟨0, by decide⟩).val :=
  gateDot.lhsIdx_val_of_single (cl := 1) rfl j k
theorem gateDot_rhs_0 (j : S2000x384.Idx) (k : gateDot.contr.Idx) : (gateDot.rhsIdx j k 0).val = (k ⟨0, by decide⟩).val :=
  gateDot.rhsIdx_val_of_single (cr := 0) rfl j k
theorem gateDot_rhs_1 (j : S2000x384.Idx) (k : gateDot.contr.Idx) : (gateDot.rhsIdx j k 1).val = (j 1).val := rfl

/-- A block's product with a gate weight, accumulated into zero, is the plain sum over the 128 features. -/
theorem gateMm_apply (x : FVec Ideal S2000x128 .bf16) (w : FVec Ideal S128x384 .bf16) (p : Fin 2000) (c : Fin 384) :
    matmul gateDot none x w (constant S2000x384 .f32 0x00000000#32) (ix2 p c) = ∑ k : Fin 128, x (ix2 p k) * w (ix2 k c) := by
  show FloatOps.matmul gateDot none x w (constant S2000x384 .f32 0x00000000#32) (ix2 p c) = _
  rw [Ideal.matmul_constant_zero_apply, ← Equiv.sum_comp (contrEquiv1 gateDot 128 rfl rfl).symm]
  refine Finset.sum_congr rfl fun k _ => ?_
  have hl : gateDot.lhsIdx (ix2 p c) ((contrEquiv1 gateDot 128 rfl rfl).symm k) = ix2 p k := by
    funext a; apply Fin.ext
    match a with
    | ⟨0, _⟩ => exact gateDot_lhs_0 _ _
    | ⟨1, _⟩ => exact (gateDot_lhs_1 _ _).trans (contrEquiv1_symm_val gateDot 128 rfl rfl k)
  have hr : gateDot.rhsIdx (ix2 p c) ((contrEquiv1 gateDot 128 rfl rfl).symm k) = ix2 k c := by
    funext a; apply Fin.ext
    match a with
    | ⟨0, _⟩ => exact (gateDot_rhs_0 _ _).trans (contrEquiv1_symm_val gateDot 128 rfl rfl k)
    | ⟨1, _⟩ => exact gateDot_rhs_1 _ _
  rw [hl, hr]

/-- Gate column c of row p of a block: the row of x against column c of the (transposed) weight w, plus the bias row's entry. -/
def gateBlk (x : FVec Ideal S2000x128 .f32) (w : FVec Ideal S128x384 .f32) (b : FVec Ideal S1x384 .f32) (p : Fin 2000) (c : Fin 384) : EReal :=
  (∑ k : Fin 128, x (ix2 p k) * w (ix2 k c)) + b (ix2 0 c)

/-- The GRU update of row p, feature q of a block, from the block's rows of the summed messages x0 and of the state x1. -/
def cellBlk (x0 x1 : FVec Ideal S2000x128 .f32) (w0 w1 : FVec Ideal S128x384 .f32) (b0 b1 : FVec Ideal S1x384 .f32)
    (hh : FVec Ideal S2000x128 .f32) (p : Fin 2000) (q : Fin 128) : EReal :=
  (1 - Ideal.logistic (gateBlk x0 w0 b0 p (g1 q) + gateBlk x1 w1 b1 p (g1 q)))
      * Ideal.tanh (gateBlk x0 w0 b0 p (g2 q)
          + Ideal.logistic (gateBlk x0 w0 b0 p (g0 q) + gateBlk x1 w1 b1 p (g0 q)) * gateBlk x1 w1 b1 p (g2 q))
    + Ideal.logistic (gateBlk x0 w0 b0 p (g1 q) + gateBlk x1 w1 b1 p (g1 q)) * hh (ix2 p q)

/-- The three gates' pre-activations of a block as the body computes them (identity casts dropped): the product into
    zero plus the bias row laid along every row. -/
def preV (x : FVec Ideal S2000x128 .bf16) (w : FVec Ideal S128x384 .f32) (b : FVec Ideal S1x384 .f32) : FVec Ideal S2000x384 .f32 :=
  addf (matmul gateDot none x (truncf .bf16 w bitsLt_bf16_f32) (constant S2000x384 .f32 0x00000000#32))
    (broadcastTo S2000x384 b broadcasts_S1x384_S2000x384)

theorem preV_apply (x : FVec Ideal S2000x128 .bf16) (w : FVec Ideal S128x384 .f32) (b : FVec Ideal S1x384 .f32) (p : Fin 2000) (c : Fin 384) :
    preV x w b (ix2 p c) = (∑ k : Fin 128, x (ix2 p k) * w (ix2 k c)) + b (ix2 0 c) := by
  unfold preV
  rw [addf_apply, gateMm_apply]
  have hb : broadcastTo S2000x384 b broadcasts_S1x384_S2000x384 (ix2 p c) = b (ix2 0 c) :=
    broadcastTo_apply b broadcasts_S1x384_S2000x384 (ix2 p c) (ix2 0 c) (fun a => by
      match a with
      | ⟨0, _⟩ => rfl
      | ⟨1, _⟩ => rfl)
  rw [hb]
  rfl

/-- THE BODY'S STORED VALUE at row p, feature q of the block. -/
theorem pay_apply (x0 x1 : FVec Ideal S2000x128 .f32) (w0 w1 : FVec Ideal S128x384 .f32) (b0 b1 : FVec Ideal S1x384 .f32)
    (hh : FVec Ideal S2000x128 .f32) (p : Fin 2000) (q : Fin 128) :
    k3_pay1 (F := Ideal) x0 x1 w0 w1 b0 b1 hh (ix2 p q) = cellBlk x0 x1 w0 w1 b0 b1 hh p q := by
  have s0 : ∀ g : FVec Ideal S2000x384 .f32,
      extractStridedSlice S2000x128 ![0, 0] g slices_S2000x384_o0_0_S2000x128 (ix2 p q) = g (ix2 p (g0 q)) :=
    fun g => slice2_axis1_apply 0 g slices_S2000x384_o0_0_S2000x128 p q (g0 q) (by show q.val = 0 + q.val; omega)
  have s1 : ∀ g : FVec Ideal S2000x384 .f32,
      extractStridedSlice S2000x128 ![0, 128] g slices_S2000x384_o0_128_S2000x128 (ix2 p q) = g (ix2 p (g1 q)) :=
    fun g => slice2_axis1_apply 128 g slices_S2000x384_o0_128_S2000x128 p q (g1 q) rfl
  have s2 : ∀ g : FVec Ideal S2000x384 .f32,
      extractStridedSlice S2000x128 ![0, 256] g slices_S2000x384_o0_256_S2000x128 (ix2 p q) = g (ix2 p (g2 q)) :=
    fun g => slice2_axis1_apply 256 g slices_S2000x384_o0_256_S2000x128 p q (g2 q) rfl
  have e0 : ∀ c : Fin 384, preV (truncf .bf16 x0 bitsLt_bf16_f32) w0 b0 (ix2 p c) = gateBlk x0 w0 b0 p c := fun c => by
    rw [preV_apply]; rfl
  have e1 : ∀ c : Fin 384, preV (truncf .bf16 x1 bitsLt_bf16_f32) w1 b1 (ix2 p c) = gateBlk x1 w1 b1 p c := fun c => by
    rw [preV_apply]; rfl
  unfold k3_pay1
  simp only [shapeCast_self]
  show (Ideal.ofBits .f32 0x3F800000#32
        - Ideal.logistic
            (extractStridedSlice S2000x128 ![0, 128]
                (preV (truncf .bf16 x0 bitsLt_bf16_f32) w0 b0)
                slices_S2000x384_o0_128_S2000x128 (ix2 p q)
              + extractStridedSlice S2000x128 ![0, 128] (preV (truncf .bf16 x1 bitsLt_bf16_f32) w1 b1)
                  slices_S2000x384_o0_128_S2000x128 (ix2 p q)))
      * Ideal.tanh
          (extractStridedSlice S2000x128 ![0, 256]
              (preV (truncf .bf16 x0 bitsLt_bf16_f32) w0 b0)
              slices_S2000x384_o0_256_S2000x128 (ix2 p q)
            + Ideal.logistic
                (extractStridedSlice S2000x128 ![0, 0]
                    (preV (truncf .bf16 x0 bitsLt_bf16_f32) w0 b0)
                    slices_S2000x384_o0_0_S2000x128 (ix2 p q)
                  + extractStridedSlice S2000x128 ![0, 0] (preV (truncf .bf16 x1 bitsLt_bf16_f32) w1 b1)
                      slices_S2000x384_o0_0_S2000x128 (ix2 p q))
              * extractStridedSlice S2000x128 ![0, 256] (preV (truncf .bf16 x1 bitsLt_bf16_f32) w1 b1)
                  slices_S2000x384_o0_256_S2000x128 (ix2 p q))
    + Ideal.logistic
        (extractStridedSlice S2000x128 ![0, 128]
            (preV (truncf .bf16 x0 bitsLt_bf16_f32) w0 b0)
            slices_S2000x384_o0_128_S2000x128 (ix2 p q)
          + extractStridedSlice S2000x128 ![0, 128] (preV (truncf .bf16 x1 bitsLt_bf16_f32) w1 b1)
              slices_S2000x384_o0_128_S2000x128 (ix2 p q))
      * hh (ix2 p q) = _
  simp only [s0, s1, s2, e0, e1, Ideal.ofBits_one_f32]
  rfl

theorem zeroOff : (![0, 0] : Fin 2 → Nat) = fun _ => 0 := funext fun a => by fin_cases a <;> rfl

/-- The printed index maps over the grid: the three row-blocked windows sit at block (t, 0), the weights and biases at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of point t's block is row 2000 t + p of the array. -/
def rowOf (t : Fin cfg3.N) (p : Fin 2000) : Fin 100000 := ⟨2000 * t.val + p.val, by
  have ht : t.val < 50 := t.isLt
  have hp := p.isLt
  omega⟩

theorem blk0_apply (c : Dev nD) (agg : CF Ideal S100000x128) (h0 : V c (Pipeline.arrRef spec3 0) = agg)
    (t : Fin cfg3.N) (p : Fin 2000) (k : Fin 128) :
    iblk3 (F := Ideal) V c 0 t (ix2 p k) = agg (ix2 (rowOf t p) k) := by
  have e : iblk3 (F := Ideal) V c 0 t = ((cfg3.win 0).blk t).view.read (Elt Ideal) agg :=
    congrArg (fun A => ((cfg3.win 0).blk t).view.read (Elt Ideal) A) h0
  rw [e]
  show agg (((cfg3.win 0).blk t).view.emb (ix2 p k)) = _
  refine congrArg agg (funext fun a => Fin.ext ?_)
  obtain ⟨e0, e1, -⟩ := idx_facts t
  match a with
  | ⟨0, _⟩ => show win3_0.index t (0 : Fin 2) * 2000 + 1 * p.val = 2000 * t.val + p.val; omega
  | ⟨1, _⟩ => show win3_0.index t (1 : Fin 2) * 128 + 1 * k.val = k.val; omega

theorem blk1_apply (c : Dev nD) (h : CF Ideal S100000x128) (h1 : V c (Pipeline.arrRef spec3 1) = h)
    (t : Fin cfg3.N) (p : Fin 2000) (k : Fin 128) :
    iblk3 (F := Ideal) V c 1 t (ix2 p k) = h (ix2 (rowOf t p) k) := by
  have e : iblk3 (F := Ideal) V c 1 t = ((cfg3.win 1).blk t).view.read (Elt Ideal) h :=
    congrArg (fun A => ((cfg3.win 1).blk t).view.read (Elt Ideal) A) h1
  rw [e]
  show h (((cfg3.win 1).blk t).view.emb (ix2 p k)) = _
  refine congrArg h (funext fun a => Fin.ext ?_)
  obtain ⟨-, -, e0, e1, -⟩ := idx_facts t
  match a with
  | ⟨0, _⟩ => show win3_1.index t (0 : Fin 2) * 2000 + 1 * p.val = 2000 * t.val + p.val; omega
  | ⟨1, _⟩ => show win3_1.index t (1 : Fin 2) * 128 + 1 * k.val = k.val; omega

/-- The first gate weight's window is the whole transposed weight: entry (k, cc) is the stored weight's (cc, k). -/
theorem blk2_apply (c : Dev nD) (a4 : CF Ideal S384x128) (h2 : V c (Pipeline.arrRef spec3 2) = trTK (F := Ideal) a4)
    (t : Fin cfg3.N) (k : Fin 128) (cc : Fin 384) :
    iblk3 (F := Ideal) V c 2 t (ix2 k cc) = a4 (ix2 cc k) := by
  have e : iblk3 (F := Ideal) V c 2 t = ((cfg3.win 2).blk t).view.read (Elt Ideal) (trTK (F := Ideal) a4) :=
    congrArg (fun A => ((cfg3.win 2).blk t).view.read (Elt Ideal) A) h2
  rw [e]
  show trTK (F := Ideal) a4 (((cfg3.win 2).blk t).view.emb (ix2 k cc)) = _
  have he : ((cfg3.win 2).blk t).view.emb (ix2 k cc) = ix2 k cc := by
    funext a; apply Fin.ext
    obtain ⟨-, -, -, -, e0, e1, -⟩ := idx_facts t
    match a with
    | ⟨0, _⟩ => show win3_2.index t (0 : Fin 2) * 128 + 1 * k.val = k.val; omega
    | ⟨1, _⟩ => show win3_2.index t (1 : Fin 2) * 384 + 1 * cc.val = cc.val; omega
  rw [he]
  unfold trTK
  exact transpose_ix2_apply a4 transposes_S384x128_S128x384_1_0 k cc

theorem blk3_apply (c : Dev nD) (a5 : CF Ideal S384x128) (h3 : V c (Pipeline.arrRef spec3 3) = trTK (F := Ideal) a5)
    (t : Fin cfg3.N) (k : Fin 128) (cc : Fin 384) :
    iblk3 (F := Ideal) V c 3 t (ix2 k cc) = a5 (ix2 cc k) := by
  have e : iblk3 (F := Ideal) V c 3 t = ((cfg3.win 3).blk t).view.read (Elt Ideal) (trTK (F := Ideal) a5) :=
    congrArg (fun A => ((cfg3.win 3).blk t).view.read (Elt Ideal) A) h3
  rw [e]
  show trTK (F := Ideal) a5 (((cfg3.win 3).blk t).view.emb (ix2 k cc)) = _
  have he : ((cfg3.win 3).blk t).view.emb (ix2 k cc) = ix2 k cc := by
    funext a; apply Fin.ext
    obtain ⟨-, -, -, -, -, -, e0, e1, -⟩ := idx_facts t
    match a with
    | ⟨0, _⟩ => show win3_3.index t (0 : Fin 2) * 128 + 1 * k.val = k.val; omega
    | ⟨1, _⟩ => show win3_3.index t (1 : Fin 2) * 384 + 1 * cc.val = cc.val; omega
  rw [he]
  unfold trTK
  exact transpose_ix2_apply a5 transposes_S384x128_S128x384_1_0 k cc

/-- The first bias's window is the whole bias as one row: entry (0, cc) is the bias's entry cc. -/
theorem blk4_apply (c : Dev nD) (a6 : CF Ideal S384) (h4 : V c (Pipeline.arrRef spec3 4) = row384K (F := Ideal) a6)
    (t : Fin cfg3.N) (cc : Fin 384) :
    iblk3 (F := Ideal) V c 4 t (ix2 0 cc) = a6 (ix1 cc) := by
  have e : iblk3 (F := Ideal) V c 4 t = ((cfg3.win 4).blk t).view.read (Elt Ideal) (row384K (F := Ideal) a6) :=
    congrArg (fun A => ((cfg3.win 4).blk t).view.read (Elt Ideal) A) h4
  rw [e]
  show row384K (F := Ideal) a6 (((cfg3.win 4).blk t).view.emb (ix2 0 cc)) = _
  have he : ((cfg3.win 4).blk t).view.emb (ix2 (0 : Fin 1) cc) = ix2 (0 : Fin 1) cc := by
    funext a; apply Fin.ext
    obtain ⟨-, -, -, -, -, -, -, -, e0, e1, -⟩ := idx_facts t
    match a with
    | ⟨0, _⟩ => show win3_4.index t (0 : Fin 2) * 1 + 1 * 0 = 0; omega
    | ⟨1, _⟩ => show win3_4.index t (1 : Fin 2) * 384 + 1 * cc.val = cc.val; omega
  rw [he]
  unfold row384K
  exact shapeCast_a_1a_apply a6 shapeCasts_S384_S1x384 0 cc

theorem blk5_apply (c : Dev nD) (a7 : CF Ideal S384) (h5 : V c (Pipeline.arrRef spec3 5) = row384K (F := Ideal) a7)
    (t : Fin cfg3.N) (cc : Fin 384) :
    iblk3 (F := Ideal) V c 5 t (ix2 0 cc) = a7 (ix1 cc) := by
  have e : iblk3 (F := Ideal) V c 5 t = ((cfg3.win 5).blk t).view.read (Elt Ideal) (row384K (F := Ideal) a7) :=
    congrArg (fun A => ((cfg3.win 5).blk t).view.read (Elt Ideal) A) h5
  rw [e]
  show row384K (F := Ideal) a7 (((cfg3.win 5).blk t).view.emb (ix2 0 cc)) = _
  have he : ((cfg3.win 5).blk t).view.emb (ix2 (0 : Fin 1) cc) = ix2 (0 : Fin 1) cc := by
    funext a; apply Fin.ext
    obtain ⟨-, -, -, -, -, -, -, -, -, -, e0, e1, -⟩ := idx_facts t
    match a with
    | ⟨0, _⟩ => show win3_5.index t (0 : Fin 2) * 1 + 1 * 0 = 0; omega
    | ⟨1, _⟩ => show win3_5.index t (1 : Fin 2) * 384 + 1 * cc.val = cc.val; omega
  rw [he]
  unfold row384K
  exact shapeCast_a_1a_apply a7 shapeCasts_S384_S1x384 0 cc

/-- The input blocks at their literal types. -/
abbrev xb0 (c : Dev nD) (t : Fin cfg3.N) : FVec Ideal S2000x128 .f32 := iblk3 (F := Ideal) V c 0 t
abbrev xb1 (c : Dev nD) (t : Fin cfg3.N) : FVec Ideal S2000x128 .f32 := iblk3 (F := Ideal) V c 1 t
abbrev wb2 (c : Dev nD) (t : Fin cfg3.N) : FVec Ideal S128x384 .f32 := iblk3 (F := Ideal) V c 2 t
abbrev wb3 (c : Dev nD) (t : Fin cfg3.N) : FVec Ideal S128x384 .f32 := iblk3 (F := Ideal) V c 3 t
abbrev bb4 (c : Dev nD) (t : Fin cfg3.N) : FVec Ideal S1x384 .f32 := iblk3 (F := Ideal) V c 4 t
abbrev bb5 (c : Dev nD) (t : Fin cfg3.N) : FVec Ideal S1x384 .f32 := iblk3 (F := Ideal) V c 5 t

/-- A gate of the summed messages read off the blocks is the array's gate at the block's row. -/
theorem gateI_eq (c : Dev nD) (agg : CF Ideal S100000x128) (a4 : CF Ideal S384x128) (a6 : CF Ideal S384)
    (h0 : V c (Pipeline.arrRef spec3 0) = agg) (h2 : V c (Pipeline.arrRef spec3 2) = trTK (F := Ideal) a4)
    (h4 : V c (Pipeline.arrRef spec3 4) = row384K (F := Ideal) a6) (t : Fin cfg3.N) (p : Fin 2000) (cc : Fin 384) :
    gateBlk (xb0 V c t) (wb2 V c t) (bb4 V c t) p cc = gateAt agg a4 a6 (rowOf t p) cc := by
  unfold gateBlk gateAt
  have hb : bb4 V c t (ix2 0 cc) = a6 (ix1 cc) := blk4_apply V c a6 h4 t cc
  rw [hb]
  refine congrArg (· + a6 (ix1 cc)) (Finset.sum_congr rfl fun k _ => ?_)
  have hx : xb0 V c t (ix2 p k) = agg (ix2 (rowOf t p) k) := blk0_apply V c agg h0 t p k
  have hw : wb2 V c t (ix2 k cc) = a4 (ix2 cc k) := blk2_apply V c a4 h2 t k cc
  rw [hx, hw]

/-- The same for the state's gate. -/
theorem gateH_eq (c : Dev nD) (h : CF Ideal S100000x128) (a5 : CF Ideal S384x128) (a7 : CF Ideal S384)
    (h1 : V c (Pipeline.arrRef spec3 1) = h) (h3 : V c (Pipeline.arrRef spec3 3) = trTK (F := Ideal) a5)
    (h5 : V c (Pipeline.arrRef spec3 5) = row384K (F := Ideal) a7) (t : Fin cfg3.N) (p : Fin 2000) (cc : Fin 384) :
    gateBlk (xb1 V c t) (wb3 V c t) (bb5 V c t) p cc = gateAt h a5 a7 (rowOf t p) cc := by
  unfold gateBlk gateAt
  have hb : bb5 V c t (ix2 0 cc) = a7 (ix1 cc) := blk5_apply V c a7 h5 t cc
  rw [hb]
  refine congrArg (· + a7 (ix1 cc)) (Finset.sum_congr rfl fun k _ => ?_)
  have hx : xb1 V c t (ix2 p k) = h (ix2 (rowOf t p) k) := blk1_apply V c h h1 t p k
  have hw : wb3 V c t (ix2 k cc) = a5 (ix2 cc k) := blk3_apply V c a5 h3 t k cc
  rw [hx, hw]

/-- WHAT POINT t WRITES BACK is block t of the GRU update of the arrays. -/
theorem flushed_eq (c : Dev nD) (agg h : CF Ideal S100000x128) (a4 a5 : CF Ideal S384x128) (a6 a7 : CF Ideal S384)
    (h0 : V c (Pipeline.arrRef spec3 0) = agg) (h1 : V c (Pipeline.arrRef spec3 1) = h)
    (h2 : V c (Pipeline.arrRef spec3 2) = trTK (F := Ideal) a4) (h3 : V c (Pipeline.arrRef spec3 3) = trTK (F := Ideal) a5)
    (h4 : V c (Pipeline.arrRef spec3 4) = row384K (F := Ideal) a6) (h5 : V c (Pipeline.arrRef spec3 5) = row384K (F := Ideal) a7)
    (t : Fin cfg3.N) :
    (dat3 (F := Ideal) V c).flushed 6 t
      = ((cfg3.win 6).blk t).view.read (Elt Ideal) (gruR (F := Ideal) agg h a4 a5 a6 a7) := by
  show (cfg3.win 6).cut (grid3.coords t) ((dat3 (F := Ideal) V c).after 6 t) = _
  rw [after3_6]
  unfold out3_6
  rw [View.canon_unit_zero zeroOff]
  simp only [View.ld_unit_zero (S := S2000x128) zeroOff, View.ld_unit_zero (S := S128x384) zeroOff,
    View.ld_unit_zero (S := S1x384) zeroOff]
  funext j
  obtain ⟨p, q, rfl⟩ : ∃ (p : Fin 2000) (q : Fin 128), j = ix2 p q := ⟨j 0, j 1, eq_ix2 j⟩
  show k3_pay1 (F := Ideal) (xb0 V c t) (xb1 V c t) (wb2 V c t) (wb3 V c t) (bb4 V c t) (bb5 V c t) (xb1 V c t) (ix2 p q)
    = gruR (F := Ideal) agg h a4 a5 a6 a7 (((cfg3.win 6).blk t).view.emb (ix2 p q))
  have he : ((cfg3.win 6).blk t).view.emb (ix2 p q) = ix2 (rowOf t p) q := by
    funext a; apply Fin.ext
    obtain ⟨-, -, -, -, -, -, -, -, -, -, -, -, e0, e1⟩ := idx_facts t
    match a with
    | ⟨0, _⟩ => show win3_6.index t (0 : Fin 2) * 2000 + 1 * p.val = 2000 * t.val + p.val; omega
    | ⟨1, _⟩ => show win3_6.index t (1 : Fin 2) * 128 + 1 * q.val = q.val; omega
  rw [he, gruR_apply, pay_apply]
  unfold cellBlk gruAt
  have hx : xb1 V c t (ix2 p q) = h (ix2 (rowOf t p) q) := blk1_apply V c h h1 t p q
  rw [gateI_eq V c agg a4 a6 h0 h2 h4 t p (g0 q), gateI_eq V c agg a4 a6 h0 h2 h4 t p (g1 q),
    gateI_eq V c agg a4 a6 h0 h2 h4 t p (g2 q), gateH_eq V c h a5 a7 h1 h3 h5 t p (g0 q),
    gateH_eq V c h a5 a7 h1 h3 h5 t p (g1 q), gateH_eq V c h a5 a7 h1 h3 h5 t p (g2 q), hx]

/-- An index of the array is in point t's block iff each coordinate is in the block's range on its axis. -/
theorem mem_blk6 (t : Fin cfg3.N) (i : S100000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v36).slice (win3_6.rect t)).set ↔ _
  rw [View.set_slice_whole, Rect.mem_set_unit]
  exact Iff.rfl

/-- The fifty row blocks fill the array: row r lies in block r / 2000. -/
theorem cover6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 50 := N_3
  have ht : (i 0).val / 2000 < cfg3.N := by rw [hN]; omega
  refine ⟨⟨(i 0).val / 2000, ht⟩, flush3_6 _, ?_⟩
  rw [mem_blk6]
  obtain ⟨-, -, -, -, -, -, -, -, -, -, -, -, e0, e1⟩ := idx_facts ⟨(i 0).val / 2000, ht⟩
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val
      ∧ (i 1).val < win3_6.index ⟨(i 0).val / 2000, ht⟩ (1 : Fin 2) * 128 + 128
    rw [e1]; omega

end Gru3

/-- After region 3 its output array is the reference's GRU cell of the arrays the kernel was given: the summed
    messages, the state, the two gate weights (handed over transposed) and the two biases (handed over as rows). -/
theorem gru3_val (c : Dev nD) (agg h : CF Ideal S100000x128) (a4 a5 : CF Ideal S384x128) (a6 a7 : CF Ideal S384)
    (h0 : V c (Pipeline.arrRef spec3 0) = agg) (h1 : V c (Pipeline.arrRef spec3 1) = h)
    (h2 : V c (Pipeline.arrRef spec3 2) = trTK (F := Ideal) a4) (h3 : V c (Pipeline.arrRef spec3 3) = trTK (F := Ideal) a5)
    (h4 : V c (Pipeline.arrRef spec3 4) = row384K (F := Ideal) a6) (h5 : V c (Pipeline.arrRef spec3 5) = row384K (F := Ideal) a7) :
    (dat3 (F := Ideal) V c).arrAt 6 cfg3.N = gruR (F := Ideal) agg h a4 a5 a6 a7 :=
  (dat3 (F := Ideal) V c).arrAt_eq_of_cover 6 (gruR (F := Ideal) agg h a4 a5 a6 a7)
    (fun t _ => Gru3.flushed_eq V c agg h a4 a5 a6 a7 h0 h1 h2 h3 h4 h5 t) Gru3.cover6

end Cert.KVal

end
-- ==== Proof.KGru5.lean ====
/-
  The third GRU kernel's output array: block t holds rows 2000t … 2000t+1999 of the GRU update, computed from the
  block's rows of the summed messages and of the state and from the whole gate weights and biases.

  The body's stored value is read at an entry of the block: the two products into zero are plain sums over the 128
  features, the bias rows are laid along every row, the three gates are the column bands 0, 128 and 256 of the
  pre-activations, and the logistic and hyperbolic tangent are the extended reals' own. The blocks are then read off the
  arrays: the row-blocked windows at rows 2000t + p, the weights whole (handed over transposed) and the biases whole
  (handed over as one row). The fifty row blocks fill the array, so it ends holding the GRU update everywhere.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

namespace Gru5

/-- The dimension numbers of the gate products: rows by 128 against 128 by the 384 gate columns. -/
abbrev gateDot : DotDims S2000x128 S128x384 S2000x384 := dot_S2000x128_S128x384_S2000x384_1_0_0_1_n_n

theorem gateDot_lhs_0 (j : S2000x384.Idx) (k : gateDot.contr.Idx) : (gateDot.lhsIdx j k 0).val = (j 0).val := rfl
theorem gateDot_lhs_1 (j : S2000x384.Idx) (k : gateDot.contr.Idx) : (gateDot.lhsIdx j k 1).val = (k ⟨0, by decide⟩).val :=
  gateDot.lhsIdx_val_of_single (cl := 1) rfl j k
theorem gateDot_rhs_0 (j : S2000x384.Idx) (k : gateDot.contr.Idx) : (gateDot.rhsIdx j k 0).val = (k ⟨0, by decide⟩).val :=
  gateDot.rhsIdx_val_of_single (cr := 0) rfl j k
theorem gateDot_rhs_1 (j : S2000x384.Idx) (k : gateDot.contr.Idx) : (gateDot.rhsIdx j k 1).val = (j 1).val := rfl

/-- A block's product with a gate weight, accumulated into zero, is the plain sum over the 128 features. -/
theorem gateMm_apply (x : FVec Ideal S2000x128 .bf16) (w : FVec Ideal S128x384 .bf16) (p : Fin 2000) (c : Fin 384) :
    matmul gateDot none x w (constant S2000x384 .f32 0x00000000#32) (ix2 p c) = ∑ k : Fin 128, x (ix2 p k) * w (ix2 k c) := by
  show FloatOps.matmul gateDot none x w (constant S2000x384 .f32 0x00000000#32) (ix2 p c) = _
  rw [Ideal.matmul_constant_zero_apply, ← Equiv.sum_comp (contrEquiv1 gateDot 128 rfl rfl).symm]
  refine Finset.sum_congr rfl fun k _ => ?_
  have hl : gateDot.lhsIdx (ix2 p c) ((contrEquiv1 gateDot 128 rfl rfl).symm k) = ix2 p k := by
    funext a; apply Fin.ext
    match a with
    | ⟨0, _⟩ => exact gateDot_lhs_0 _ _
    | ⟨1, _⟩ => exact (gateDot_lhs_1 _ _).trans (contrEquiv1_symm_val gateDot 128 rfl rfl k)
  have hr : gateDot.rhsIdx (ix2 p c) ((contrEquiv1 gateDot 128 rfl rfl).symm k) = ix2 k c := by
    funext a; apply Fin.ext
    match a with
    | ⟨0, _⟩ => exact (gateDot_rhs_0 _ _).trans (contrEquiv1_symm_val gateDot 128 rfl rfl k)
    | ⟨1, _⟩ => exact gateDot_rhs_1 _ _
  rw [hl, hr]

/-- Gate column c of row p of a block: the row of x against column c of the (transposed) weight w, plus the bias row's entry. -/
def gateBlk (x : FVec Ideal S2000x128 .f32) (w : FVec Ideal S128x384 .f32) (b : FVec Ideal S1x384 .f32) (p : Fin 2000) (c : Fin 384) : EReal :=
  (∑ k : Fin 128, x (ix2 p k) * w (ix2 k c)) + b (ix2 0 c)

/-- The GRU update of row p, feature q of a block, from the block's rows of the summed messages x0 and of the state x1. -/
def cellBlk (x0 x1 : FVec Ideal S2000x128 .f32) (w0 w1 : FVec Ideal S128x384 .f32) (b0 b1 : FVec Ideal S1x384 .f32)
    (hh : FVec Ideal S2000x128 .f32) (p : Fin 2000) (q : Fin 128) : EReal :=
  (1 - Ideal.logistic (gateBlk x0 w0 b0 p (g1 q) + gateBlk x1 w1 b1 p (g1 q)))
      * Ideal.tanh (gateBlk x0 w0 b0 p (g2 q)
          + Ideal.logistic (gateBlk x0 w0 b0 p (g0 q) + gateBlk x1 w1 b1 p (g0 q)) * gateBlk x1 w1 b1 p (g2 q))
    + Ideal.logistic (gateBlk x0 w0 b0 p (g1 q) + gateBlk x1 w1 b1 p (g1 q)) * hh (ix2 p q)

/-- The three gates' pre-activations of a block as the body computes them (identity casts dropped): the product into
    zero plus the bias row laid along every row. -/
def preV (x : FVec Ideal S2000x128 .bf16) (w : FVec Ideal S128x384 .f32) (b : FVec Ideal S1x384 .f32) : FVec Ideal S2000x384 .f32 :=
  addf (matmul gateDot none x (truncf .bf16 w bitsLt_bf16_f32) (constant S2000x384 .f32 0x00000000#32))
    (broadcastTo S2000x384 b broadcasts_S1x384_S2000x384)

theorem preV_apply (x : FVec Ideal S2000x128 .bf16) (w : FVec Ideal S128x384 .f32) (b : FVec Ideal S1x384 .f32) (p : Fin 2000) (c : Fin 384) :
    preV x w b (ix2 p c) = (∑ k : Fin 128, x (ix2 p k) * w (ix2 k c)) + b (ix2 0 c) := by
  unfold preV
  rw [addf_apply, gateMm_apply]
  have hb : broadcastTo S2000x384 b broadcasts_S1x384_S2000x384 (ix2 p c) = b (ix2 0 c) :=
    broadcastTo_apply b broadcasts_S1x384_S2000x384 (ix2 p c) (ix2 0 c) (fun a => by
      match a with
      | ⟨0, _⟩ => rfl
      | ⟨1, _⟩ => rfl)
  rw [hb]
  rfl

/-- THE BODY'S STORED VALUE at row p, feature q of the block. -/
theorem pay_apply (x0 x1 : FVec Ideal S2000x128 .f32) (w0 w1 : FVec Ideal S128x384 .f32) (b0 b1 : FVec Ideal S1x384 .f32)
    (hh : FVec Ideal S2000x128 .f32) (p : Fin 2000) (q : Fin 128) :
    k5_pay1 (F := Ideal) x0 x1 w0 w1 b0 b1 hh (ix2 p q) = cellBlk x0 x1 w0 w1 b0 b1 hh p q := by
  have s0 : ∀ g : FVec Ideal S2000x384 .f32,
      extractStridedSlice S2000x128 ![0, 0] g slices_S2000x384_o0_0_S2000x128 (ix2 p q) = g (ix2 p (g0 q)) :=
    fun g => slice2_axis1_apply 0 g slices_S2000x384_o0_0_S2000x128 p q (g0 q) (by show q.val = 0 + q.val; omega)
  have s1 : ∀ g : FVec Ideal S2000x384 .f32,
      extractStridedSlice S2000x128 ![0, 128] g slices_S2000x384_o0_128_S2000x128 (ix2 p q) = g (ix2 p (g1 q)) :=
    fun g => slice2_axis1_apply 128 g slices_S2000x384_o0_128_S2000x128 p q (g1 q) rfl
  have s2 : ∀ g : FVec Ideal S2000x384 .f32,
      extractStridedSlice S2000x128 ![0, 256] g slices_S2000x384_o0_256_S2000x128 (ix2 p q) = g (ix2 p (g2 q)) :=
    fun g => slice2_axis1_apply 256 g slices_S2000x384_o0_256_S2000x128 p q (g2 q) rfl
  have e0 : ∀ c : Fin 384, preV (truncf .bf16 x0 bitsLt_bf16_f32) w0 b0 (ix2 p c) = gateBlk x0 w0 b0 p c := fun c => by
    rw [preV_apply]; rfl
  have e1 : ∀ c : Fin 384, preV (truncf .bf16 x1 bitsLt_bf16_f32) w1 b1 (ix2 p c) = gateBlk x1 w1 b1 p c := fun c => by
    rw [preV_apply]; rfl
  unfold k5_pay1
  simp only [shapeCast_self]
  show (Ideal.ofBits .f32 0x3F800000#32
        - Ideal.logistic
            (extractStridedSlice S2000x128 ![0, 128]
                (preV (truncf .bf16 x0 bitsLt_bf16_f32) w0 b0)
                slices_S2000x384_o0_128_S2000x128 (ix2 p q)
              + extractStridedSlice S2000x128 ![0, 128] (preV (truncf .bf16 x1 bitsLt_bf16_f32) w1 b1)
                  slices_S2000x384_o0_128_S2000x128 (ix2 p q)))
      * Ideal.tanh
          (extractStridedSlice S2000x128 ![0, 256]
              (preV (truncf .bf16 x0 bitsLt_bf16_f32) w0 b0)
              slices_S2000x384_o0_256_S2000x128 (ix2 p q)
            + Ideal.logistic
                (extractStridedSlice S2000x128 ![0, 0]
                    (preV (truncf .bf16 x0 bitsLt_bf16_f32) w0 b0)
                    slices_S2000x384_o0_0_S2000x128 (ix2 p q)
                  + extractStridedSlice S2000x128 ![0, 0] (preV (truncf .bf16 x1 bitsLt_bf16_f32) w1 b1)
                      slices_S2000x384_o0_0_S2000x128 (ix2 p q))
              * extractStridedSlice S2000x128 ![0, 256] (preV (truncf .bf16 x1 bitsLt_bf16_f32) w1 b1)
                  slices_S2000x384_o0_256_S2000x128 (ix2 p q))
    + Ideal.logistic
        (extractStridedSlice S2000x128 ![0, 128]
            (preV (truncf .bf16 x0 bitsLt_bf16_f32) w0 b0)
            slices_S2000x384_o0_128_S2000x128 (ix2 p q)
          + extractStridedSlice S2000x128 ![0, 128] (preV (truncf .bf16 x1 bitsLt_bf16_f32) w1 b1)
              slices_S2000x384_o0_128_S2000x128 (ix2 p q))
      * hh (ix2 p q) = _
  simp only [s0, s1, s2, e0, e1, Ideal.ofBits_one_f32]
  rfl

theorem zeroOff : (![0, 0] : Fin 2 → Nat) = fun _ => 0 := funext fun a => by fin_cases a <;> rfl

/-- The printed index maps over the grid: the three row-blocked windows sit at block (t, 0), the weights and biases at (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row p of point t's block is row 2000 t + p of the array. -/
def rowOf (t : Fin cfg5.N) (p : Fin 2000) : Fin 100000 := ⟨2000 * t.val + p.val, by
  have ht : t.val < 50 := t.isLt
  have hp := p.isLt
  omega⟩

theorem blk0_apply (c : Dev nD) (agg : CF Ideal S100000x128) (h0 : V c (Pipeline.arrRef spec5 0) = agg)
    (t : Fin cfg5.N) (p : Fin 2000) (k : Fin 128) :
    iblk5 (F := Ideal) V c 0 t (ix2 p k) = agg (ix2 (rowOf t p) k) := by
  have e : iblk5 (F := Ideal) V c 0 t = ((cfg5.win 0).blk t).view.read (Elt Ideal) agg :=
    congrArg (fun A => ((cfg5.win 0).blk t).view.read (Elt Ideal) A) h0
  rw [e]
  show agg (((cfg5.win 0).blk t).view.emb (ix2 p k)) = _
  refine congrArg agg (funext fun a => Fin.ext ?_)
  obtain ⟨e0, e1, -⟩ := idx_facts t
  match a with
  | ⟨0, _⟩ => show win5_0.index t (0 : Fin 2) * 2000 + 1 * p.val = 2000 * t.val + p.val; omega
  | ⟨1, _⟩ => show win5_0.index t (1 : Fin 2) * 128 + 1 * k.val = k.val; omega

theorem blk1_apply (c : Dev nD) (h : CF Ideal S100000x128) (h1 : V c (Pipeline.arrRef spec5 1) = h)
    (t : Fin cfg5.N) (p : Fin 2000) (k : Fin 128) :
    iblk5 (F := Ideal) V c 1 t (ix2 p k) = h (ix2 (rowOf t p) k) := by
  have e : iblk5 (F := Ideal) V c 1 t = ((cfg5.win 1).blk t).view.read (Elt Ideal) h :=
    congrArg (fun A => ((cfg5.win 1).blk t).view.read (Elt Ideal) A) h1
  rw [e]
  show h (((cfg5.win 1).blk t).view.emb (ix2 p k)) = _
  refine congrArg h (funext fun a => Fin.ext ?_)
  obtain ⟨-, -, e0, e1, -⟩ := idx_facts t
  match a with
  | ⟨0, _⟩ => show win5_1.index t (0 : Fin 2) * 2000 + 1 * p.val = 2000 * t.val + p.val; omega
  | ⟨1, _⟩ => show win5_1.index t (1 : Fin 2) * 128 + 1 * k.val = k.val; omega

/-- The first gate weight's window is the whole transposed weight: entry (k, cc) is the stored weight's (cc, k). -/
theorem blk2_apply (c : Dev nD) (a4 : CF Ideal S384x128) (h2 : V c (Pipeline.arrRef spec5 2) = trTK (F := Ideal) a4)
    (t : Fin cfg5.N) (k : Fin 128) (cc : Fin 384) :
    iblk5 (F := Ideal) V c 2 t (ix2 k cc) = a4 (ix2 cc k) := by
  have e : iblk5 (F := Ideal) V c 2 t = ((cfg5.win 2).blk t).view.read (Elt Ideal) (trTK (F := Ideal) a4) :=
    congrArg (fun A => ((cfg5.win 2).blk t).view.read (Elt Ideal) A) h2
  rw [e]
  show trTK (F := Ideal) a4 (((cfg5.win 2).blk t).view.emb (ix2 k cc)) = _
  have he : ((cfg5.win 2).blk t).view.emb (ix2 k cc) = ix2 k cc := by
    funext a; apply Fin.ext
    obtain ⟨-, -, -, -, e0, e1, -⟩ := idx_facts t
    match a with
    | ⟨0, _⟩ => show win5_2.index t (0 : Fin 2) * 128 + 1 * k.val = k.val; omega
    | ⟨1, _⟩ => show win5_2.index t (1 : Fin 2) * 384 + 1 * cc.val = cc.val; omega
  rw [he]
  unfold trTK
  exact transpose_ix2_apply a4 transposes_S384x128_S128x384_1_0 k cc

theorem blk3_apply (c : Dev nD) (a5 : CF Ideal S384x128) (h3 : V c (Pipeline.arrRef spec5 3) = trTK (F := Ideal) a5)
    (t : Fin cfg5.N) (k : Fin 128) (cc : Fin 384) :
    iblk5 (F := Ideal) V c 3 t (ix2 k cc) = a5 (ix2 cc k) := by
  have e : iblk5 (F := Ideal) V c 3 t = ((cfg5.win 3).blk t).view.read (Elt Ideal) (trTK (F := Ideal) a5) :=
    congrArg (fun A => ((cfg5.win 3).blk t).view.read (Elt Ideal) A) h3
  rw [e]
  show trTK (F := Ideal) a5 (((cfg5.win 3).blk t).view.emb (ix2 k cc)) = _
  have he : ((cfg5.win 3).blk t).view.emb (ix2 k cc) = ix2 k cc := by
    funext a; apply Fin.ext
    obtain ⟨-, -, -, -, -, -, e0, e1, -⟩ := idx_facts t
    match a with
    | ⟨0, _⟩ => show win5_3.index t (0 : Fin 2) * 128 + 1 * k.val = k.val; omega
    | ⟨1, _⟩ => show win5_3.index t (1 : Fin 2) * 384 + 1 * cc.val = cc.val; omega
  rw [he]
  unfold trTK
  exact transpose_ix2_apply a5 transposes_S384x128_S128x384_1_0 k cc

/-- The first bias's window is the whole bias as one row: entry (0, cc) is the bias's entry cc. -/
theorem blk4_apply (c : Dev nD) (a6 : CF Ideal S384) (h4 : V c (Pipeline.arrRef spec5 4) = row384K (F := Ideal) a6)
    (t : Fin cfg5.N) (cc : Fin 384) :
    iblk5 (F := Ideal) V c 4 t (ix2 0 cc) = a6 (ix1 cc) := by
  have e : iblk5 (F := Ideal) V c 4 t = ((cfg5.win 4).blk t).view.read (Elt Ideal) (row384K (F := Ideal) a6) :=
    congrArg (fun A => ((cfg5.win 4).blk t).view.read (Elt Ideal) A) h4
  rw [e]
  show row384K (F := Ideal) a6 (((cfg5.win 4).blk t).view.emb (ix2 0 cc)) = _
  have he : ((cfg5.win 4).blk t).view.emb (ix2 (0 : Fin 1) cc) = ix2 (0 : Fin 1) cc := by
    funext a; apply Fin.ext
    obtain ⟨-, -, -, -, -, -, -, -, e0, e1, -⟩ := idx_facts t
    match a with
    | ⟨0, _⟩ => show win5_4.index t (0 : Fin 2) * 1 + 1 * 0 = 0; omega
    | ⟨1, _⟩ => show win5_4.index t (1 : Fin 2) * 384 + 1 * cc.val = cc.val; omega
  rw [he]
  unfold row384K
  exact shapeCast_a_1a_apply a6 shapeCasts_S384_S1x384 0 cc

theorem blk5_apply (c : Dev nD) (a7 : CF Ideal S384) (h5 : V c (Pipeline.arrRef spec5 5) = row384K (F := Ideal) a7)
    (t : Fin cfg5.N) (cc : Fin 384) :
    iblk5 (F := Ideal) V c 5 t (ix2 0 cc) = a7 (ix1 cc) := by
  have e : iblk5 (F := Ideal) V c 5 t = ((cfg5.win 5).blk t).view.read (Elt Ideal) (row384K (F := Ideal) a7) :=
    congrArg (fun A => ((cfg5.win 5).blk t).view.read (Elt Ideal) A) h5
  rw [e]
  show row384K (F := Ideal) a7 (((cfg5.win 5).blk t).view.emb (ix2 0 cc)) = _
  have he : ((cfg5.win 5).blk t).view.emb (ix2 (0 : Fin 1) cc) = ix2 (0 : Fin 1) cc := by
    funext a; apply Fin.ext
    obtain ⟨-, -, -, -, -, -, -, -, -, -, e0, e1, -⟩ := idx_facts t
    match a with
    | ⟨0, _⟩ => show win5_5.index t (0 : Fin 2) * 1 + 1 * 0 = 0; omega
    | ⟨1, _⟩ => show win5_5.index t (1 : Fin 2) * 384 + 1 * cc.val = cc.val; omega
  rw [he]
  unfold row384K
  exact shapeCast_a_1a_apply a7 shapeCasts_S384_S1x384 0 cc

/-- The input blocks at their literal types. -/
abbrev xb0 (c : Dev nD) (t : Fin cfg5.N) : FVec Ideal S2000x128 .f32 := iblk5 (F := Ideal) V c 0 t
abbrev xb1 (c : Dev nD) (t : Fin cfg5.N) : FVec Ideal S2000x128 .f32 := iblk5 (F := Ideal) V c 1 t
abbrev wb2 (c : Dev nD) (t : Fin cfg5.N) : FVec Ideal S128x384 .f32 := iblk5 (F := Ideal) V c 2 t
abbrev wb3 (c : Dev nD) (t : Fin cfg5.N) : FVec Ideal S128x384 .f32 := iblk5 (F := Ideal) V c 3 t
abbrev bb4 (c : Dev nD) (t : Fin cfg5.N) : FVec Ideal S1x384 .f32 := iblk5 (F := Ideal) V c 4 t
abbrev bb5 (c : Dev nD) (t : Fin cfg5.N) : FVec Ideal S1x384 .f32 := iblk5 (F := Ideal) V c 5 t

/-- A gate of the summed messages read off the blocks is the array's gate at the block's row. -/
theorem gateI_eq (c : Dev nD) (agg : CF Ideal S100000x128) (a4 : CF Ideal S384x128) (a6 : CF Ideal S384)
    (h0 : V c (Pipeline.arrRef spec5 0) = agg) (h2 : V c (Pipeline.arrRef spec5 2) = trTK (F := Ideal) a4)
    (h4 : V c (Pipeline.arrRef spec5 4) = row384K (F := Ideal) a6) (t : Fin cfg5.N) (p : Fin 2000) (cc : Fin 384) :
    gateBlk (xb0 V c t) (wb2 V c t) (bb4 V c t) p cc = gateAt agg a4 a6 (rowOf t p) cc := by
  unfold gateBlk gateAt
  have hb : bb4 V c t (ix2 0 cc) = a6 (ix1 cc) := blk4_apply V c a6 h4 t cc
  rw [hb]
  refine congrArg (· + a6 (ix1 cc)) (Finset.sum_congr rfl fun k _ => ?_)
  have hx : xb0 V c t (ix2 p k) = agg (ix2 (rowOf t p) k) := blk0_apply V c agg h0 t p k
  have hw : wb2 V c t (ix2 k cc) = a4 (ix2 cc k) := blk2_apply V c a4 h2 t k cc
  rw [hx, hw]

/-- The same for the state's gate. -/
theorem gateH_eq (c : Dev nD) (h : CF Ideal S100000x128) (a5 : CF Ideal S384x128) (a7 : CF Ideal S384)
    (h1 : V c (Pipeline.arrRef spec5 1) = h) (h3 : V c (Pipeline.arrRef spec5 3) = trTK (F := Ideal) a5)
    (h5 : V c (Pipeline.arrRef spec5 5) = row384K (F := Ideal) a7) (t : Fin cfg5.N) (p : Fin 2000) (cc : Fin 384) :
    gateBlk (xb1 V c t) (wb3 V c t) (bb5 V c t) p cc = gateAt h a5 a7 (rowOf t p) cc := by
  unfold gateBlk gateAt
  have hb : bb5 V c t (ix2 0 cc) = a7 (ix1 cc) := blk5_apply V c a7 h5 t cc
  rw [hb]
  refine congrArg (· + a7 (ix1 cc)) (Finset.sum_congr rfl fun k _ => ?_)
  have hx : xb1 V c t (ix2 p k) = h (ix2 (rowOf t p) k) := blk1_apply V c h h1 t p k
  have hw : wb3 V c t (ix2 k cc) = a5 (ix2 cc k) := blk3_apply V c a5 h3 t k cc
  rw [hx, hw]

/-- WHAT POINT t WRITES BACK is block t of the GRU update of the arrays. -/
theorem flushed_eq (c : Dev nD) (agg h : CF Ideal S100000x128) (a4 a5 : CF Ideal S384x128) (a6 a7 : CF Ideal S384)
    (h0 : V c (Pipeline.arrRef spec5 0) = agg) (h1 : V c (Pipeline.arrRef spec5 1) = h)
    (h2 : V c (Pipeline.arrRef spec5 2) = trTK (F := Ideal) a4) (h3 : V c (Pipeline.arrRef spec5 3) = trTK (F := Ideal) a5)
    (h4 : V c (Pipeline.arrRef spec5 4) = row384K (F := Ideal) a6) (h5 : V c (Pipeline.arrRef spec5 5) = row384K (F := Ideal) a7)
    (t : Fin cfg5.N) :
    (dat5 (F := Ideal) V c).flushed 6 t
      = ((cfg5.win 6).blk t).view.read (Elt Ideal) (gruR (F := Ideal) agg h a4 a5 a6 a7) := by
  show (cfg5.win 6).cut (grid5.coords t) ((dat5 (F := Ideal) V c).after 6 t) = _
  rw [after5_6]
  unfold out5_6
  rw [View.canon_unit_zero zeroOff]
  simp only [View.ld_unit_zero (S := S2000x128) zeroOff, View.ld_unit_zero (S := S128x384) zeroOff,
    View.ld_unit_zero (S := S1x384) zeroOff]
  funext j
  obtain ⟨p, q, rfl⟩ : ∃ (p : Fin 2000) (q : Fin 128), j = ix2 p q := ⟨j 0, j 1, eq_ix2 j⟩
  show k5_pay1 (F := Ideal) (xb0 V c t) (xb1 V c t) (wb2 V c t) (wb3 V c t) (bb4 V c t) (bb5 V c t) (xb1 V c t) (ix2 p q)
    = gruR (F := Ideal) agg h a4 a5 a6 a7 (((cfg5.win 6).blk t).view.emb (ix2 p q))
  have he : ((cfg5.win 6).blk t).view.emb (ix2 p q) = ix2 (rowOf t p) q := by
    funext a; apply Fin.ext
    obtain ⟨-, -, -, -, -, -, -, -, -, -, -, -, e0, e1⟩ := idx_facts t
    match a with
    | ⟨0, _⟩ => show win5_6.index t (0 : Fin 2) * 2000 + 1 * p.val = 2000 * t.val + p.val; omega
    | ⟨1, _⟩ => show win5_6.index t (1 : Fin 2) * 128 + 1 * q.val = q.val; omega
  rw [he, gruR_apply, pay_apply]
  unfold cellBlk gruAt
  have hx : xb1 V c t (ix2 p q) = h (ix2 (rowOf t p) q) := blk1_apply V c h h1 t p q
  rw [gateI_eq V c agg a4 a6 h0 h2 h4 t p (g0 q), gateI_eq V c agg a4 a6 h0 h2 h4 t p (g1 q),
    gateI_eq V c agg a4 a6 h0 h2 h4 t p (g2 q), gateH_eq V c h a5 a7 h1 h3 h5 t p (g0 q),
    gateH_eq V c h a5 a7 h1 h3 h5 t p (g1 q), gateH_eq V c h a5 a7 h1 h3 h5 t p (g2 q), hx]

/-- An index of the array is in point t's block iff each coordinate is in the block's range on its axis. -/
theorem mem_blk6 (t : Fin cfg5.N) (i : S100000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v50).slice (win5_6.rect t)).set ↔ _
  rw [View.set_slice_whole, Rect.mem_set_unit]
  exact Iff.rfl

/-- The fifty row blocks fill the array: row r lies in block r / 2000. -/
theorem cover6 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 50 := N_5
  have ht : (i 0).val / 2000 < cfg5.N := by rw [hN]; omega
  refine ⟨⟨(i 0).val / 2000, ht⟩, flush5_6 _, ?_⟩
  rw [mem_blk6]
  obtain ⟨-, -, -, -, -, -, -, -, -, -, -, -, e0, e1⟩ := idx_facts ⟨(i 0).val / 2000, ht⟩
  intro a
  match a with
  | ⟨0, _⟩ =>
    show win5_6.index ⟨(i 0).val / 2000, ht⟩ (0 : Fin 2) * 2000 ≤ (i 0).val
      ∧ (i 0).val < win5_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_6.index ⟨(i 0).val / 2000, ht⟩ (1 : Fin 2) * 128 ≤ (i 1).val
      ∧ (i 1).val < win5_6.index ⟨(i 0).val / 2000, ht⟩ (1 : Fin 2) * 128 + 128
    rw [e1]; omega

end Gru5

/-- After region 5 its output array is the reference's GRU cell of the arrays the kernel was given: the summed
    messages, the state, the two gate weights (handed over transposed) and the two biases (handed over as rows). -/
theorem gru5_val (c : Dev nD) (agg h : CF Ideal S100000x128) (a4 a5 : CF Ideal S384x128) (a6 a7 : CF Ideal S384)
    (h0 : V c (Pipeline.arrRef spec5 0) = agg) (h1 : V c (Pipeline.arrRef spec5 1) = h)
    (h2 : V c (Pipeline.arrRef spec5 2) = trTK (F := Ideal) a4) (h3 : V c (Pipeline.arrRef spec5 3) = trTK (F := Ideal) a5)
    (h4 : V c (Pipeline.arrRef spec5 4) = row384K (F := Ideal) a6) (h5 : V c (Pipeline.arrRef spec5 5) = row384K (F := Ideal) a7) :
    (dat5 (F := Ideal) V c).arrAt 6 cfg5.N = gruR (F := Ideal) agg h a4 a5 a6 a7 :=
  (dat5 (F := Ideal) V c).arrAt_eq_of_cover 6 (gruR (F := Ideal) agg h a4 a5 a6 a7)
    (fun t _ => Gru5.flushed_eq V c agg h a4 a5 a6 a7 h0 h1 h2 h3 h4 h5 t) Gru5.cover6

end Cert.KVal

end
-- ==== Proof.KGru7.lean ====
/-
  The fourth GRU kernel's output array: block t holds rows 2000t … 2000t+1999 of the GRU update, computed from the
  block's rows of the summed messages and of the state and from the whole gate weights and biases.

  The body's stored value is read at an entry of the block: the two products into zero are plain sums over the 128
  features, the bias rows are laid along every row, the three gates are the column bands 0, 128 and 256 of the
  pre-activations, and the logistic and hyperbolic tangent are the extended reals' own. The blocks are then read off the
  arrays: the row-blocked windows at rows 2000t + p, the weights whole (handed over transposed) and the biases whole
  (handed over as one row). The fifty row blocks fill the array, so it ends holding the GRU update everywhere.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

variable (V : (c : Dev nD) → (b : Ref sig .tc) → Buf (Elt Ideal) ((c : Thread nD τ).loc b))

namespace Gru7

/-- The dimension numbers of the gate products: rows by 128 against 128 by the 384 gate columns. -/
abbrev gateDot : DotDims S2000x128 S128x384 S2000x384 := dot_S2000x128_S128x384_S2000x384_1_0_0_1_n_n

theorem gateDot_lhs_0 (j : S2000x384.Idx) (k : gateDot.contr.Idx) : (gateDot.lhsIdx j k 0).val = (j 0).val := rfl
theorem gateDot_lhs_1 (j : S2000x384.Idx) (k : gateDot.contr.Idx) : (gateDot.lhsIdx j k 1).val = (k ⟨0, by decide⟩).val :=
  gateDot.lhsIdx_val_of_single (cl := 1) rfl j k
theorem gateDot_rhs_0 (j : S2000x384.Idx) (k : gateDot.contr.Idx) : (gateDot.rhsIdx j k 0).val = (k ⟨0, by decide⟩).val :=
  gateDot.rhsIdx_val_of_single (cr := 0) rfl j k
theorem gateDot_rhs_1 (j : S2000x384.Idx) (k : gateDot.contr.Idx) : (gateDot.rhsIdx j k 1).val = (j 1).val := rfl

/-- A block's product with a gate weight, accumulated into zero, is the plain sum over the 128 features. -/
theorem gateMm_apply (x : FVec Ideal S2000x128 .bf16) (w : FVec Ideal S128x384 .bf16) (p : Fin 2000) (c : Fin 384) :
    matmul gateDot none x w (constant S2000x384 .f32 0x00000000#32) (ix2 p c) = ∑ k : Fin 128, x (ix2 p k) * w (ix2 k c) := by
  show FloatOps.matmul gateDot none x w (constant S2000x384 .f32 0x00000000#32) (ix2 p c) = _
  rw [Ideal.matmul_constant_zero_apply, ← Equiv.sum_comp (contrEquiv1 gateDot 128 rfl rfl).symm]
  refine Finset.sum_congr rfl fun k _ => ?_
  have hl : gateDot.lhsIdx (ix2 p c) ((contrEquiv1 gateDot 128 rfl rfl).symm k) = ix2 p k := by
    funext a; apply Fin.ext
    match a with
    | ⟨0, _⟩ => exact gateDot_lhs_0 _ _
    | ⟨1, _⟩ => exact (gateDot_lhs_1 _ _).trans (contrEquiv1_symm_val gateDot 128 rfl rfl k)
  have hr : gateDot.rhsIdx (ix2 p c) ((contrEquiv1 gateDot 128 rfl rfl).symm k) = ix2 k c := by
    funext a; apply Fin.ext
    match a with
    | ⟨0, _⟩ => exact (gateDot_rhs_0 _ _).trans (contrEquiv1_symm_val gateDot 128 rfl rfl k)
    | ⟨1, _⟩ => exact gateDot_rhs_1 _ _
  rw [hl, hr]

/-- Gate column c of row p of a block: the row of x against column c of the (transposed) weight w, plus the bias row's entry. -/
def gateBlk (x : FVec Ideal S2000x128 .f32) (w : FVec Ideal S128x384 .f32) (b : FVec Ideal S1x384 .f32) (p : Fin 2000) (c : Fin 384) : EReal :=
  (∑ k : Fin 128, x (ix2 p k) * w (ix2 k c)) + b (ix2 0 c)

/-- The GRU update of row p, feature q of a block, from the block's rows of the summed messages x0 and of the state x1. -/
def cellBlk (x0 x1 : FVec Ideal S2000x128 .f32) (w0 w1 : FVec Ideal S128x384 .f32) (b0 b1 : FVec Ideal S1x384 .f32)
    (hh : FVec Ideal S2000x128 .f32) (p : Fin 2000) (q : Fin 128) : EReal :=
  (1 - Ideal.logistic (gateBlk x0 w0 b0 p (g1 q) + gateBlk x1 w1 b1 p (g1 q)))
      * Ideal.tanh (gateBlk x0 w0 b0 p (g2 q)
          + Ideal.logistic (gateBlk x0 w0 b0 p (g0 q) + gateBlk x1 w1 b1 p (g0 q)) * gateBlk x1 w1 b1 p (g2 q))
    + Ideal.logistic (gateBlk x0 w0 b0 p (g1 q) + gateBlk x1 w1 b1 p (g1 q)) * hh (ix2 p q)

/-- The three gates' pre-activations of a block as the body computes them (identity casts dropped): the product into
    zero plus the bias row laid along every row. -/
def preV (x : FVec Ideal S2000x128 .bf16) (w : FVec Ideal S128x384 .f32) (b : FVec Ideal S1x384 .f32) : FVec Ideal S2000x384 .f32 :=
  addf (matmul gateDot none x (truncf .bf16 w bitsLt_bf16_f32) (constant S2000x384 .f32 0x00000000#32))
    (broadcastTo S2000x384 b broadcasts_S1x384_S2000x384)

theorem preV_apply (x : FVec Ideal S2000x128 .bf16) (w : FVec Ideal S128x384 .f32) (b : FVec Ideal S1x384 .f32) (p : Fin 2000) (c : Fin 384) :
    preV x w b (ix2 p c) = (∑ k : Fin 128, x (ix2 p k) * w (ix2 k c)) + b (ix2 0 c) := by
  unfold preV
  rw [addf_apply, gateMm_apply]
  have hb : broadcastTo S2000x384 b broadcasts_S1x384_S2000x384 (ix2 p c) = b (ix2 0 c) :=
    broadcastTo_apply b broadcasts_S1x384_S2000x384 (ix2 p c) (ix2 0 c) (fun a => by
      match a with
      | ⟨0, _⟩ => rfl
      | ⟨1, _⟩ => rfl)
  rw [hb]
  rfl

/-- THE BODY'S STORED VALUE at row p, feature q of the block. -/
theorem pay_apply (x0 x1 : FVec Ideal S2000x128 .f32) (w0 w1 : FVec Ideal S128x384 .f32) (b0 b1 : FVec Ideal S1x384 .f32)
    (hh : FVec Ideal S2000x128 .f32) (p : Fin 2000) (q : Fin 128) :
    k7_pay1 (F := Ideal) x0 x1 w0 w1 b0 b1 hh (ix2 p q) = cellBlk x0 x1 w0 w1 b0 b1 hh p q := by
  have s0 : ∀ g : FVec Ideal S2000x384 .f32,
      extractStridedSlice S2000x128 ![0, 0] g slices_S2000x384_o0_0_S2000x128 (ix2 p q) = g (ix2 p (g0 q)) :=
    fun g => slice2_axis1_apply 0 g slices_S2000x384_o0_0_S2000x128 p q (g0 q) (by show q.val = 0 + q.val; omega)
  have s1 : ∀ g : FVec Ideal S2000x384 .f32,
      extractStridedSlice S2000x128 ![0, 128] g slices_S2000x384_o0_128_S2000x128 (ix2 p q) = g (ix2 p (g1 q)) :=
    fun g => slice2_axis1_apply 128 g slices_S2000x384_o0_128_S2000x128 p q (g1 q) rfl
  have s2 : ∀ g : FVec Ideal S2000x384 .f32,
      extractStridedSlice S2000x128 ![0, 256] g slices_S2000x384_o0_256_S2000x128 (ix2 p q) = g (ix2 p (g2 q)) :=
    fun g => slice2_axis1_apply 256 g slices_S2000x384_o0_256_S2000x128 p q (g2 q) rfl
  have e0 : ∀ c : Fin 384, preV (truncf .bf16 x0 bitsLt_bf16_f32) w0 b0 (ix2 p c) = gateBlk x0 w0 b0 p c := fun c => by
    rw [preV_apply]; rfl
  have e1 : ∀ c : Fin 384, preV (truncf .bf16 x1 bitsLt_bf16_f32) w1 b1 (ix2 p c) = gateBlk x1 w1 b1 p c := fun c => by
    rw [preV_apply]; rfl
  unfold k7_pay1
  simp only [shapeCast_self]
  show (Ideal.ofBits .f32 0x3F800000#32
        - Ideal.logistic
            (extractStridedSlice S2000x128 ![0, 128]
                (preV (truncf .bf16 x0 bitsLt_bf16_f32) w0 b0)
                slices_S2000x384_o0_128_S2000x128 (ix2 p q)
              + extractStridedSlice S2000x128 ![0, 128] (preV (truncf .bf16 x1 bitsLt_bf16_f32) w1 b1)
                  slices_S2000x384_o0_128_S2000x128 (ix2 p q)))
      * Ideal.tanh
          (extractStridedSlice S2000x128 ![0, 256]
              (preV (truncf .bf16 x0 bitsLt_bf16_f32) w0 b0)
              slices_S2000x384_o0_256_S2000x128 (ix2 p q)
            + Ideal.logistic
                (extractStridedSlice S2000x128 ![0, 0]
                    (preV (truncf .bf16 x0 bitsLt_bf16_f32) w0 b0)
                    slices_S2000x384_o0_0_S2000x128 (ix2 p q)
                  + extractStridedSlice S2000x128 ![0, 0] (preV (truncf .bf16 x1 bitsLt_bf16_f32) w1 b1)
                      slices_S2000x384_o0_0_S2000x128 (ix2 p q))
              * extractStridedSlice S2000x128 ![0, 256] (preV (truncf .bf16 x1 bitsLt_bf16_f32) w1 b1)
                  slices_S2000x384_o0_256_S2000x128 (ix2 p q))
    + Ideal.logistic
        (extractStridedSlice S2000x128 ![0, 128]
            (preV (truncf .bf16 x0 bitsLt_bf16_f32) w0 b0)
            slices_S2000x384_o0_128_S2000x128 (ix2 p q)
          + extractStridedSlice S2000x128 ![0, 128] (preV (truncf .bf16 x1 bitsLt_bf16_f32) w1 b1)
              slices_S2000x384_o0_128_S2000x128 (ix2 p q))
      * hh (ix2 p q) = _
  simp only [s0, s1, s2, e0, e1, Ideal.ofBits_one_f32]
  rfl

theorem zeroOff : (![0, 0] : Fin 2 → Nat) = fun _ => 0 := funext fun a => by fin_cases a <;> rfl

/-- The printed index maps over the grid: the three row-blocked windows sit at block (t, 0), the weights and biases at (0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Row p of point t's block is row 2000 t + p of the array. -/
def rowOf (t : Fin cfg7.N) (p : Fin 2000) : Fin 100000 := ⟨2000 * t.val + p.val, by
  have ht : t.val < 50 := t.isLt
  have hp := p.isLt
  omega⟩

theorem blk0_apply (c : Dev nD) (agg : CF Ideal S100000x128) (h0 : V c (Pipeline.arrRef spec7 0) = agg)
    (t : Fin cfg7.N) (p : Fin 2000) (k : Fin 128) :
    iblk7 (F := Ideal) V c 0 t (ix2 p k) = agg (ix2 (rowOf t p) k) := by
  have e : iblk7 (F := Ideal) V c 0 t = ((cfg7.win 0).blk t).view.read (Elt Ideal) agg :=
    congrArg (fun A => ((cfg7.win 0).blk t).view.read (Elt Ideal) A) h0
  rw [e]
  show agg (((cfg7.win 0).blk t).view.emb (ix2 p k)) = _
  refine congrArg agg (funext fun a => Fin.ext ?_)
  obtain ⟨e0, e1, -⟩ := idx_facts t
  match a with
  | ⟨0, _⟩ => show win7_0.index t (0 : Fin 2) * 2000 + 1 * p.val = 2000 * t.val + p.val; omega
  | ⟨1, _⟩ => show win7_0.index t (1 : Fin 2) * 128 + 1 * k.val = k.val; omega

theorem blk1_apply (c : Dev nD) (h : CF Ideal S100000x128) (h1 : V c (Pipeline.arrRef spec7 1) = h)
    (t : Fin cfg7.N) (p : Fin 2000) (k : Fin 128) :
    iblk7 (F := Ideal) V c 1 t (ix2 p k) = h (ix2 (rowOf t p) k) := by
  have e : iblk7 (F := Ideal) V c 1 t = ((cfg7.win 1).blk t).view.read (Elt Ideal) h :=
    congrArg (fun A => ((cfg7.win 1).blk t).view.read (Elt Ideal) A) h1
  rw [e]
  show h (((cfg7.win 1).blk t).view.emb (ix2 p k)) = _
  refine congrArg h (funext fun a => Fin.ext ?_)
  obtain ⟨-, -, e0, e1, -⟩ := idx_facts t
  match a with
  | ⟨0, _⟩ => show win7_1.index t (0 : Fin 2) * 2000 + 1 * p.val = 2000 * t.val + p.val; omega
  | ⟨1, _⟩ => show win7_1.index t (1 : Fin 2) * 128 + 1 * k.val = k.val; omega

/-- The first gate weight's window is the whole transposed weight: entry (k, cc) is the stored weight's (cc, k). -/
theorem blk2_apply (c : Dev nD) (a4 : CF Ideal S384x128) (h2 : V c (Pipeline.arrRef spec7 2) = trTK (F := Ideal) a4)
    (t : Fin cfg7.N) (k : Fin 128) (cc : Fin 384) :
    iblk7 (F := Ideal) V c 2 t (ix2 k cc) = a4 (ix2 cc k) := by
  have e : iblk7 (F := Ideal) V c 2 t = ((cfg7.win 2).blk t).view.read (Elt Ideal) (trTK (F := Ideal) a4) :=
    congrArg (fun A => ((cfg7.win 2).blk t).view.read (Elt Ideal) A) h2
  rw [e]
  show trTK (F := Ideal) a4 (((cfg7.win 2).blk t).view.emb (ix2 k cc)) = _
  have he : ((cfg7.win 2).blk t).view.emb (ix2 k cc) = ix2 k cc := by
    funext a; apply Fin.ext
    obtain ⟨-, -, -, -, e0, e1, -⟩ := idx_facts t
    match a with
    | ⟨0, _⟩ => show win7_2.index t (0 : Fin 2) * 128 + 1 * k.val = k.val; omega
    | ⟨1, _⟩ => show win7_2.index t (1 : Fin 2) * 384 + 1 * cc.val = cc.val; omega
  rw [he]
  unfold trTK
  exact transpose_ix2_apply a4 transposes_S384x128_S128x384_1_0 k cc

theorem blk3_apply (c : Dev nD) (a5 : CF Ideal S384x128) (h3 : V c (Pipeline.arrRef spec7 3) = trTK (F := Ideal) a5)
    (t : Fin cfg7.N) (k : Fin 128) (cc : Fin 384) :
    iblk7 (F := Ideal) V c 3 t (ix2 k cc) = a5 (ix2 cc k) := by
  have e : iblk7 (F := Ideal) V c 3 t = ((cfg7.win 3).blk t).view.read (Elt Ideal) (trTK (F := Ideal) a5) :=
    congrArg (fun A => ((cfg7.win 3).blk t).view.read (Elt Ideal) A) h3
  rw [e]
  show trTK (F := Ideal) a5 (((cfg7.win 3).blk t).view.emb (ix2 k cc)) = _
  have he : ((cfg7.win 3).blk t).view.emb (ix2 k cc) = ix2 k cc := by
    funext a; apply Fin.ext
    obtain ⟨-, -, -, -, -, -, e0, e1, -⟩ := idx_facts t
    match a with
    | ⟨0, _⟩ => show win7_3.index t (0 : Fin 2) * 128 + 1 * k.val = k.val; omega
    | ⟨1, _⟩ => show win7_3.index t (1 : Fin 2) * 384 + 1 * cc.val = cc.val; omega
  rw [he]
  unfold trTK
  exact transpose_ix2_apply a5 transposes_S384x128_S128x384_1_0 k cc

/-- The first bias's window is the whole bias as one row: entry (0, cc) is the bias's entry cc. -/
theorem blk4_apply (c : Dev nD) (a6 : CF Ideal S384) (h4 : V c (Pipeline.arrRef spec7 4) = row384K (F := Ideal) a6)
    (t : Fin cfg7.N) (cc : Fin 384) :
    iblk7 (F := Ideal) V c 4 t (ix2 0 cc) = a6 (ix1 cc) := by
  have e : iblk7 (F := Ideal) V c 4 t = ((cfg7.win 4).blk t).view.read (Elt Ideal) (row384K (F := Ideal) a6) :=
    congrArg (fun A => ((cfg7.win 4).blk t).view.read (Elt Ideal) A) h4
  rw [e]
  show row384K (F := Ideal) a6 (((cfg7.win 4).blk t).view.emb (ix2 0 cc)) = _
  have he : ((cfg7.win 4).blk t).view.emb (ix2 (0 : Fin 1) cc) = ix2 (0 : Fin 1) cc := by
    funext a; apply Fin.ext
    obtain ⟨-, -, -, -, -, -, -, -, e0, e1, -⟩ := idx_facts t
    match a with
    | ⟨0, _⟩ => show win7_4.index t (0 : Fin 2) * 1 + 1 * 0 = 0; omega
    | ⟨1, _⟩ => show win7_4.index t (1 : Fin 2) * 384 + 1 * cc.val = cc.val; omega
  rw [he]
  unfold row384K
  exact shapeCast_a_1a_apply a6 shapeCasts_S384_S1x384 0 cc

theorem blk5_apply (c : Dev nD) (a7 : CF Ideal S384) (h5 : V c (Pipeline.arrRef spec7 5) = row384K (F := Ideal) a7)
    (t : Fin cfg7.N) (cc : Fin 384) :
    iblk7 (F := Ideal) V c 5 t (ix2 0 cc) = a7 (ix1 cc) := by
  have e : iblk7 (F := Ideal) V c 5 t = ((cfg7.win 5).blk t).view.read (Elt Ideal) (row384K (F := Ideal) a7) :=
    congrArg (fun A => ((cfg7.win 5).blk t).view.read (Elt Ideal) A) h5
  rw [e]
  show row384K (F := Ideal) a7 (((cfg7.win 5).blk t).view.emb (ix2 0 cc)) = _
  have he : ((cfg7.win 5).blk t).view.emb (ix2 (0 : Fin 1) cc) = ix2 (0 : Fin 1) cc := by
    funext a; apply Fin.ext
    obtain ⟨-, -, -, -, -, -, -, -, -, -, e0, e1, -⟩ := idx_facts t
    match a with
    | ⟨0, _⟩ => show win7_5.index t (0 : Fin 2) * 1 + 1 * 0 = 0; omega
    | ⟨1, _⟩ => show win7_5.index t (1 : Fin 2) * 384 + 1 * cc.val = cc.val; omega
  rw [he]
  unfold row384K
  exact shapeCast_a_1a_apply a7 shapeCasts_S384_S1x384 0 cc

/-- The input blocks at their literal types. -/
abbrev xb0 (c : Dev nD) (t : Fin cfg7.N) : FVec Ideal S2000x128 .f32 := iblk7 (F := Ideal) V c 0 t
abbrev xb1 (c : Dev nD) (t : Fin cfg7.N) : FVec Ideal S2000x128 .f32 := iblk7 (F := Ideal) V c 1 t
abbrev wb2 (c : Dev nD) (t : Fin cfg7.N) : FVec Ideal S128x384 .f32 := iblk7 (F := Ideal) V c 2 t
abbrev wb3 (c : Dev nD) (t : Fin cfg7.N) : FVec Ideal S128x384 .f32 := iblk7 (F := Ideal) V c 3 t
abbrev bb4 (c : Dev nD) (t : Fin cfg7.N) : FVec Ideal S1x384 .f32 := iblk7 (F := Ideal) V c 4 t
abbrev bb5 (c : Dev nD) (t : Fin cfg7.N) : FVec Ideal S1x384 .f32 := iblk7 (F := Ideal) V c 5 t

/-- A gate of the summed messages read off the blocks is the array's gate at the block's row. -/
theorem gateI_eq (c : Dev nD) (agg : CF Ideal S100000x128) (a4 : CF Ideal S384x128) (a6 : CF Ideal S384)
    (h0 : V c (Pipeline.arrRef spec7 0) = agg) (h2 : V c (Pipeline.arrRef spec7 2) = trTK (F := Ideal) a4)
    (h4 : V c (Pipeline.arrRef spec7 4) = row384K (F := Ideal) a6) (t : Fin cfg7.N) (p : Fin 2000) (cc : Fin 384) :
    gateBlk (xb0 V c t) (wb2 V c t) (bb4 V c t) p cc = gateAt agg a4 a6 (rowOf t p) cc := by
  unfold gateBlk gateAt
  have hb : bb4 V c t (ix2 0 cc) = a6 (ix1 cc) := blk4_apply V c a6 h4 t cc
  rw [hb]
  refine congrArg (· + a6 (ix1 cc)) (Finset.sum_congr rfl fun k _ => ?_)
  have hx : xb0 V c t (ix2 p k) = agg (ix2 (rowOf t p) k) := blk0_apply V c agg h0 t p k
  have hw : wb2 V c t (ix2 k cc) = a4 (ix2 cc k) := blk2_apply V c a4 h2 t k cc
  rw [hx, hw]

/-- The same for the state's gate. -/
theorem gateH_eq (c : Dev nD) (h : CF Ideal S100000x128) (a5 : CF Ideal S384x128) (a7 : CF Ideal S384)
    (h1 : V c (Pipeline.arrRef spec7 1) = h) (h3 : V c (Pipeline.arrRef spec7 3) = trTK (F := Ideal) a5)
    (h5 : V c (Pipeline.arrRef spec7 5) = row384K (F := Ideal) a7) (t : Fin cfg7.N) (p : Fin 2000) (cc : Fin 384) :
    gateBlk (xb1 V c t) (wb3 V c t) (bb5 V c t) p cc = gateAt h a5 a7 (rowOf t p) cc := by
  unfold gateBlk gateAt
  have hb : bb5 V c t (ix2 0 cc) = a7 (ix1 cc) := blk5_apply V c a7 h5 t cc
  rw [hb]
  refine congrArg (· + a7 (ix1 cc)) (Finset.sum_congr rfl fun k _ => ?_)
  have hx : xb1 V c t (ix2 p k) = h (ix2 (rowOf t p) k) := blk1_apply V c h h1 t p k
  have hw : wb3 V c t (ix2 k cc) = a5 (ix2 cc k) := blk3_apply V c a5 h3 t k cc
  rw [hx, hw]

/-- WHAT POINT t WRITES BACK is block t of the GRU update of the arrays. -/
theorem flushed_eq (c : Dev nD) (agg h : CF Ideal S100000x128) (a4 a5 : CF Ideal S384x128) (a6 a7 : CF Ideal S384)
    (h0 : V c (Pipeline.arrRef spec7 0) = agg) (h1 : V c (Pipeline.arrRef spec7 1) = h)
    (h2 : V c (Pipeline.arrRef spec7 2) = trTK (F := Ideal) a4) (h3 : V c (Pipeline.arrRef spec7 3) = trTK (F := Ideal) a5)
    (h4 : V c (Pipeline.arrRef spec7 4) = row384K (F := Ideal) a6) (h5 : V c (Pipeline.arrRef spec7 5) = row384K (F := Ideal) a7)
    (t : Fin cfg7.N) :
    (dat7 (F := Ideal) V c).flushed 6 t
      = ((cfg7.win 6).blk t).view.read (Elt Ideal) (gruR (F := Ideal) agg h a4 a5 a6 a7) := by
  show (cfg7.win 6).cut (grid7.coords t) ((dat7 (F := Ideal) V c).after 6 t) = _
  rw [after7_6]
  unfold out7_6
  rw [View.canon_unit_zero zeroOff]
  simp only [View.ld_unit_zero (S := S2000x128) zeroOff, View.ld_unit_zero (S := S128x384) zeroOff,
    View.ld_unit_zero (S := S1x384) zeroOff]
  funext j
  obtain ⟨p, q, rfl⟩ : ∃ (p : Fin 2000) (q : Fin 128), j = ix2 p q := ⟨j 0, j 1, eq_ix2 j⟩
  show k7_pay1 (F := Ideal) (xb0 V c t) (xb1 V c t) (wb2 V c t) (wb3 V c t) (bb4 V c t) (bb5 V c t) (xb1 V c t) (ix2 p q)
    = gruR (F := Ideal) agg h a4 a5 a6 a7 (((cfg7.win 6).blk t).view.emb (ix2 p q))
  have he : ((cfg7.win 6).blk t).view.emb (ix2 p q) = ix2 (rowOf t p) q := by
    funext a; apply Fin.ext
    obtain ⟨-, -, -, -, -, -, -, -, -, -, -, -, e0, e1⟩ := idx_facts t
    match a with
    | ⟨0, _⟩ => show win7_6.index t (0 : Fin 2) * 2000 + 1 * p.val = 2000 * t.val + p.val; omega
    | ⟨1, _⟩ => show win7_6.index t (1 : Fin 2) * 128 + 1 * q.val = q.val; omega
  rw [he, gruR_apply, pay_apply]
  unfold cellBlk gruAt
  have hx : xb1 V c t (ix2 p q) = h (ix2 (rowOf t p) q) := blk1_apply V c h h1 t p q
  rw [gateI_eq V c agg a4 a6 h0 h2 h4 t p (g0 q), gateI_eq V c agg a4 a6 h0 h2 h4 t p (g1 q),
    gateI_eq V c agg a4 a6 h0 h2 h4 t p (g2 q), gateH_eq V c h a5 a7 h1 h3 h5 t p (g0 q),
    gateH_eq V c h a5 a7 h1 h3 h5 t p (g1 q), gateH_eq V c h a5 a7 h1 h3 h5 t p (g2 q), hx]

/-- An index of the array is in point t's block iff each coordinate is in the block's range on its axis. -/
theorem mem_blk6 (t : Fin cfg7.N) (i : S100000x128.Idx) :
    i ∈ ((cfg7.win 6).blk t).view.set ↔ ∀ a : Fin 2, win7_6.index t a * S2000x128.size a ≤ (i a).val
      ∧ (i a).val < win7_6.index t a * S2000x128.size a + S2000x128.size a := by
  show i ∈ ((View.whole main_v64).slice (win7_6.rect t)).set ↔ _
  rw [View.set_slice_whole, Rect.mem_set_unit]
  exact Iff.rfl

/-- The fifty row blocks fill the array: row r lies in block r / 2000. -/
theorem cover6 (i : S100000x128.Idx) :
    ∃ t : Fin cfg7.N, (cfg7.win 6).flush t = true ∧ i ∈ ((cfg7.win 6).blk t).view.set := by
  have hi0 : (i 0).val < 100000 := (i 0).isLt
  have hi1 : (i 1).val < 128 := (i 1).isLt
  have hN : cfg7.N = 50 := N_7
  have ht : (i 0).val / 2000 < cfg7.N := by rw [hN]; omega
  refine ⟨⟨(i 0).val / 2000, ht⟩, flush7_6 _, ?_⟩
  rw [mem_blk6]
  obtain ⟨-, -, -, -, -, -, -, -, -, -, -, -, e0, e1⟩ := idx_facts ⟨(i 0).val / 2000, ht⟩
  intro a
  match a with
  | ⟨0, _⟩ =>
    show win7_6.index ⟨(i 0).val / 2000, ht⟩ (0 : Fin 2) * 2000 ≤ (i 0).val
      ∧ (i 0).val < win7_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_6.index ⟨(i 0).val / 2000, ht⟩ (1 : Fin 2) * 128 ≤ (i 1).val
      ∧ (i 1).val < win7_6.index ⟨(i 0).val / 2000, ht⟩ (1 : Fin 2) * 128 + 128
    rw [e1]; omega

end Gru7

/-- After region 7 its output array is the reference's GRU cell of the arrays the kernel was given: the summed
    messages, the state, the two gate weights (handed over transposed) and the two biases (handed over as rows). -/
theorem gru7_val (c : Dev nD) (agg h : CF Ideal S100000x128) (a4 a5 : CF Ideal S384x128) (a6 a7 : CF Ideal S384)
    (h0 : V c (Pipeline.arrRef spec7 0) = agg) (h1 : V c (Pipeline.arrRef spec7 1) = h)
    (h2 : V c (Pipeline.arrRef spec7 2) = trTK (F := Ideal) a4) (h3 : V c (Pipeline.arrRef spec7 3) = trTK (F := Ideal) a5)
    (h4 : V c (Pipeline.arrRef spec7 4) = row384K (F := Ideal) a6) (h5 : V c (Pipeline.arrRef spec7 5) = row384K (F := Ideal) a7) :
    (dat7 (F := Ideal) V c).arrAt 6 cfg7.N = gruR (F := Ideal) agg h a4 a5 a6 a7 :=
  (dat7 (F := Ideal) V c).arrAt_eq_of_cover 6 (gruR (F := Ideal) agg h a4 a5 a6 a7)
    (fun t _ => Gru7.flushed_eq V c agg h a4 a5 a6 a7 h0 h1 h2 h3 h4 h5 t) Gru7.cover6

end Cert.KVal

end
-- ==== Proof.KFc1.lean ====
/-
  The head kernel: block t of its first output holds rows 2000t … 2000t+1999 of h · W₁ᵀ + b₁, and its two
  accumulators, reset at the first grid point and added to at every point, end at the column sums of that array
  and of its squares over all 100000 rows.

  The road: what one grid point leaves in each output block is read off the body's stores (the first point's reset
  is read back as zero); the block's arithmetic is read entry by entry at the extended reals (the product into the
  zero block is a sum over the 128 contracted coordinates, the lane reduction a sum down the block's 2000 rows);
  the state block at point t is rows 2000t … of the state, the weight and bias windows are whole.  By induction on
  the point, after point n the accumulators hold the sums over the rows below 2000(n+1) — addition of extended
  reals is commutative and associative, so regrouping the rows into blocks needs no finiteness.  The first output's
  fifty blocks tile its array; each accumulator's array is the one block the last point writes back.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.Lib.ValueLayout
import Idealize.ShloMosaic.PureOps.Ideal.Laws
import proofs.«403864_j85770496901353_1_alg».proof.Proof.GruRef

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

/-! ## What one grid point leaves in the three output blocks

At the first point the two accumulators are reset to zero and then added to; at every other point they are added to
over what the point before left.  The first output's block is the same function of the inputs at every point. -/

section Pieces
variable {F : FTy → Type} [FloatOps F]

theorem hz2 : (![0, 0] : Fin 2 → Nat) = fun _ => 0 := funext fun a => by fin_cases a <;> rfl

theorem out3_A (c : Dev nD) (i : grid8.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond8_0 i) (x0 : Vec F S2000x128 .f32) (x1 : Vec F S128x128 .f32) (x2 : Vec F S1x128 .f32) :
    out8_A_3 c i a1 h1 a2 h2 a3 h3 a4 h4 a5 h5 a6 h6 hc x0 x1 x2 = k8_pay3 x0 x1 x2 := by
  unfold out8_A_3
  rw [View.read_writes_eq_canon _ _ _ (cover8_A_3 c i a1 h1 a2 h2 a3 h3 a4 h4 a5 h5 a6 h6 hc x0 x1 x2)]
  unfold kernelRun8_A
  dsimp only
  sl_unfold_words
  rw [View.canon_unit_zero hz2]
  simp only [View.readAt_eq_ld, h1.read_unread, h2.read_unread, h3.read_unread, h5.read_unread, h6.read_unread,
    View.ld_unit_zero (S := S2000x128) hz2, View.ld_unit_zero (S := S128x128) hz2, View.ld_unit_zero (S := S1x128) hz2]

theorem out3_B (c : Dev nD) (i : grid8.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond8_0 i) (x0 : Vec F S2000x128 .f32) (x1 : Vec F S128x128 .f32) (x2 : Vec F S1x128 .f32) (xo4 xo5 : Vec F S1x128 .f32) :
    out8_B_3 c i a1 h1 a2 h2 a3 h3 a4 h4 a5 h5 a6 h6 hc x0 x1 x2 xo4 xo5 = k8_pay3 x0 x1 x2 := by
  unfold out8_B_3
  rw [View.read_writes_eq_canon _ _ _ (cover8_B_3 c i a1 h1 a2 h2 a3 h3 a4 h4 a5 h5 a6 h6 hc x0 x1 x2 xo4 xo5)]
  unfold kernelRun8_B
  dsimp only
  sl_unfold_words
  rw [View.canon_unit_zero hz2]
  simp only [View.readAt_eq_ld, h1.read_unread, h2.read_unread, h3.read_unread, h5.read_unread, h6.read_unread,
    View.ld_unit_zero (S := S2000x128) hz2, View.ld_unit_zero (S := S128x128) hz2, View.ld_unit_zero (S := S1x128) hz2]

theorem out4_B (c : Dev nD) (i : grid8.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond8_0 i) (x0 : Vec F S2000x128 .f32) (x1 : Vec F S128x128 .f32) (x2 : Vec F S1x128 .f32) (xo4 xo5 : Vec F S1x128 .f32) :
    out8_B_4 c i a1 h1 a2 h2 a3 h3 a4 h4 a5 h5 a6 h6 hc x0 x1 x2 xo4 xo5 = k8_pay4 x0 x1 x2 xo4 := by
  unfold out8_B_4
  rw [View.read_writes_eq_canon _ _ _ (cover8_B_4 c i a1 h1 a2 h2 a3 h3 a4 h4 a5 h5 a6 h6 hc x0 x1 x2 xo4 xo5)]
  unfold kernelRun8_B
  dsimp only
  sl_unfold_words
  rw [View.canon_unit_zero hz2]
  simp only [View.readAt_eq_ld, h1.read_unread, h2.read_unread, h3.read_unread, h5.read_unread, h6.read_unread,
    View.ld_unit_zero (S := S2000x128) hz2, View.ld_unit_zero (S := S128x128) hz2, View.ld_unit_zero (S := S1x128) hz2]

theorem out5_B (c : Dev nD) (i : grid8.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond8_0 i) (x0 : Vec F S2000x128 .f32) (x1 : Vec F S128x128 .f32) (x2 : Vec F S1x128 .f32) (xo4 xo5 : Vec F S1x128 .f32) :
    out8_B_5 c i a1 h1 a2 h2 a3 h3 a4 h4 a5 h5 a6 h6 hc x0 x1 x2 xo4 xo5 = k8_pay5 x0 x1 x2 xo5 := by
  unfold out8_B_5
  rw [View.read_writes_eq_canon _ _ _ (cover8_B_5 c i a1 h1 a2 h2 a3 h3 a4 h4 a5 h5 a6 h6 hc x0 x1 x2 xo4 xo5)]
  unfold kernelRun8_B
  dsimp only
  sl_unfold_words
  rw [View.canon_unit_zero hz2]
  simp only [View.readAt_eq_ld, h1.read_unread, h2.read_unread, h3.read_unread, h5.read_unread, h6.read_unread,
    View.ld_unit_zero (S := S2000x128) hz2, View.ld_unit_zero (S := S128x128) hz2, View.ld_unit_zero (S := S1x128) hz2]

theorem out4_A (c : Dev nD) (i : grid8.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond8_0 i) (x0 : Vec F S2000x128 .f32) (x1 : Vec F S128x128 .f32) (x2 : Vec F S1x128 .f32) :
    out8_A_4 c i a1 h1 a2 h2 a3 h3 a4 h4 a5 h5 a6 h6 hc x0 x1 x2 = k8_pay4 x0 x1 x2 (k8_pay1 (F := F)) := by
  unfold out8_A_4
  rw [View.read_writes_eq_canon _ _ _ (cover8_A_4 c i a1 h1 a2 h2 a3 h3 a4 h4 a5 h5 a6 h6 hc x0 x1 x2)]
  unfold kernelRun8_A
  dsimp only
  sl_unfold_words
  rw [View.canon_cons_unit_zero (S := S1x128) hz2, View.readCov_unit_zero (S := S1x128) _ hz2]
  simp only [View.readAt_eq_ld, h1.read_unread, h2.read_unread, h3.read_unread, h5.read_unread, h6.read_unread,
    View.ld_unit_zero (S := S2000x128) hz2, View.ld_unit_zero (S := S128x128) hz2, View.ld_unit_zero (S := S1x128) hz2]

theorem out5_A (c : Dev nD) (i : grid8.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond8_0 i) (x0 : Vec F S2000x128 .f32) (x1 : Vec F S128x128 .f32) (x2 : Vec F S1x128 .f32) :
    out8_A_5 c i a1 h1 a2 h2 a3 h3 a4 h4 a5 h5 a6 h6 hc x0 x1 x2 = k8_pay5 x0 x1 x2 (k8_pay2 (F := F)) := by
  unfold out8_A_5
  rw [View.read_writes_eq_canon _ _ _ (cover8_A_5 c i a1 h1 a2 h2 a3 h3 a4 h4 a5 h5 a6 h6 hc x0 x1 x2)]
  unfold kernelRun8_A
  dsimp only
  sl_unfold_words
  rw [View.canon_cons_unit_zero (S := S1x128) hz2, View.readCov_unit_zero (S := S1x128) _ hz2]
  simp only [View.readAt_eq_ld, h1.read_unread, h2.read_unread, h3.read_unread, h5.read_unread, h6.read_unread,
    View.ld_unit_zero (S := S2000x128) hz2, View.ld_unit_zero (S := S128x128) hz2, View.ld_unit_zero (S := S1x128) hz2]

end Pieces

/-! ## The block's arithmetic, entry by entry, at the extended reals -/

section Payloads

/-- A 2000 × 128 block times a 128 × 128 matrix into the zero block: the sum over the contracted coordinate. -/
theorem mm_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  refine (Ideal.matmul_constant_zero_apply dot_S2000x128_S128x128_S2000x128_1_0_0_1_n_n none A B (ix2 p q)).trans ?_
  rw [← Equiv.sum_comp (contrEquiv1 dot_S2000x128_S128x128_S2000x128_1_0_0_1_n_n 128 rfl rfl).symm]
  refine Finset.sum_congr rfl fun k _ => ?_
  have c2 := contrEquiv1_symm_val dot_S2000x128_S128x128_S2000x128_1_0_0_1_n_n 128 rfl rfl k
  have l2 : (dot_S2000x128_S128x128_S2000x128_1_0_0_1_n_n).lhsIdx (ix2 p q) ((contrEquiv1 dot_S2000x128_S128x128_S2000x128_1_0_0_1_n_n 128 rfl rfl).symm k) = ix2 p k := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : (dot_S2000x128_S128x128_S2000x128_1_0_0_1_n_n).rhsIdx (ix2 p q) ((contrEquiv1 dot_S2000x128_S128x128_S2000x128_1_0_0_1_n_n 128 rfl rfl).symm k) = ix2 k q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

/-- The sum down the 2000 rows of a block, column by column. -/
theorem laneSum_apply (v : FVec Ideal S2000x128 .f32) (hacc : (0x00000000#32 : BitVec 32) = 0x00000000#32) (q : Fin 128) :
    multiReduction .add [0] S128 v 0x00000000#32 reduces_S2000x128_S128 (.inl rfl) hacc (ix1 q)
      = ∑ p : Fin 2000, v (ix2 p q) := by
  refine (Ideal.multiReduction_add_single v 0x00000000#32 reduces_S2000x128_S128 (.inl rfl) hacc (ix1 q)).trans ?_
  refine Finset.sum_congr rfl fun p _ => congrArg v ?_
  funext a; apply Fin.ext
  match a with
  | ⟨0, _⟩ => rfl
  | ⟨1, _⟩ => rfl

/-- The first output's block: the state block times the weight as handed over, plus the bias row. -/
theorem pay3_apply (x0 : Vec Ideal S2000x128 .f32) (x1 : Vec Ideal S128x128 .f32) (x2 : Vec Ideal S1x128 .f32)
    (p : Fin 2000) (q : Fin 128) :
    k8_pay3 (F := Ideal) x0 x1 x2 (ix2 p q) = (∑ k : Fin 128, x0 (ix2 p k) * x1 (ix2 k q)) + x2 (ix2 (0 : Fin 1) q) := by
  unfold k8_pay3
  simp only [shapeCast_self]
  exact congrArg₂ (· + ·) (mm_apply _ _ p q) (broadcastTo_1b_ab_apply x2 broadcasts_S1x128_S2000x128 p q)

/-- The running column sums after a point: what they held before plus the block's column sums. -/
theorem pay4_apply (x0 : Vec Ideal S2000x128 .f32) (x1 : Vec Ideal S128x128 .f32) (x2 : Vec Ideal S1x128 .f32)
    (s : Vec Ideal S1x128 .f32) (u : Fin 1) (q : Fin 128) :
    k8_pay4 (F := Ideal) x0 x1 x2 s (ix2 u q) = s (ix2 u q) + ∑ p : Fin 2000, k8_pay3 (F := Ideal) x0 x1 x2 (ix2 p q) := by
  unfold k8_pay4
  simp only [shapeCast_self]
  exact congrArg₂ (· + ·) rfl ((shapeCast_a_1a_apply _ shapeCasts_S128_S1x128 u q).trans (laneSum_apply _ rfl q))

/-- The running column sums of squares after a point. -/
theorem pay5_apply (x0 : Vec Ideal S2000x128 .f32) (x1 : Vec Ideal S128x128 .f32) (x2 : Vec Ideal S1x128 .f32)
    (s : Vec Ideal S1x128 .f32) (u : Fin 1) (q : Fin 128) :
    k8_pay5 (F := Ideal) x0 x1 x2 s (ix2 u q)
      = s (ix2 u q) + ∑ p : Fin 2000, k8_pay3 (F := Ideal) x0 x1 x2 (ix2 p q) * k8_pay3 (F := Ideal) x0 x1 x2 (ix2 p q) := by
  unfold k8_pay5
  simp only [shapeCast_self]
  exact congrArg₂ (· + ·) rfl ((shapeCast_a_1a_apply _ shapeCasts_S128_S1x128 u q).trans (laneSum_apply _ rfl q))

/-- The reset value of both accumulators is zero. -/
theorem pay1_apply (i : S1x128.Idx) : k8_pay1 (F := Ideal) i = 0 := Ideal.ofBits_zero_f32
theorem pay2_apply (i : S1x128.Idx) : k8_pay2 (F := Ideal) i = 0 := Ideal.ofBits_zero_f32

end Payloads

/-! ## The windows' blocks, read off the arrays the region finds -/

variable (V : (c : Dev nD) → (b : Ref sig .tc) → Buf (Elt Ideal) ((c : Thread nD τ).loc b))

/-- The state block, the weight and the bias row at a grid point, at their literal types. -/
abbrev xblk (c : Dev nD) (t : Fin cfg8.N) : Vec Ideal S2000x128 .f32 := iblk8 V c 0 t
abbrev wblk (c : Dev nD) (t : Fin cfg8.N) : Vec Ideal S128x128 .f32 := iblk8 V c 1 t
abbrev bblk (c : Dev nD) (t : Fin cfg8.N) : Vec Ideal S1x128 .f32 := iblk8 V c 2 t

/-- The block index of every window at a grid point: the state and the first output move down the rows with the
    point, every other window stays at its one block. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- Row p of the state block at point t is row 2000·t + p of the state. -/
theorem xblk_apply (c : Dev nD) (h : CF Ideal S100000x128) (h0 : V c (Pipeline.arrRef spec8 0) = h) (t : Fin cfg8.N)
    (p : Fin 2000) (k : Fin 128) (r : Fin 100000) (hr : r.val = 2000 * t.val + p.val) :
    xblk V c t (ix2 p k) = h (ix2 r k) := by
  subst h0
  show V c (Pipeline.arrRef spec8 0) (((cfg8.win 0).blk t).view.emb (ix2 p k)) = V c (Pipeline.arrRef spec8 0) (ix2 r k)
  refine congrArg _ (funext fun a => Fin.ext ?_)
  obtain ⟨e0, e1, -⟩ := idx_facts t
  match a with
  | ⟨0, _⟩ => show win8_0.index t (0 : Fin 2) * 2000 + 1 * p.val = r.val; rw [e0, hr]; omega
  | ⟨1, _⟩ => show win8_0.index t (1 : Fin 2) * 128 + 1 * k.val = k.val; rw [e1]; omega

/-- The weight block is the whole transposed weight: entry (k, q) is the stored weight's (q, k). -/
theorem wblk_apply (c : Dev nD) (a8 : CF Ideal S128x128) (h1 : V c (Pipeline.arrRef spec8 1) = trSqK (F := Ideal) a8)
    (t : Fin cfg8.N) (k q : Fin 128) : wblk V c t (ix2 k q) = a8 (ix2 q k) := by
  have e : wblk V c t (ix2 k q) = V c (Pipeline.arrRef spec8 1) (ix2 k q) := by
    show V c (Pipeline.arrRef spec8 1) (((cfg8.win 1).blk t).view.emb (ix2 k q)) = _
    refine congrArg _ (funext fun a => Fin.ext ?_)
    obtain ⟨-, -, e0, e1, -⟩ := idx_facts t
    match a with
    | ⟨0, _⟩ => show win8_1.index t (0 : Fin 2) * 128 + 1 * k.val = k.val; rw [e0]; omega
    | ⟨1, _⟩ => show win8_1.index t (1 : Fin 2) * 128 + 1 * q.val = q.val; rw [e1]; omega
  exact e.trans ((congrFun h1 (ix2 k q)).trans (transpose_ix2_apply a8 transposes_S128x128_S128x128_1_0 k q))

/-- The bias block is the bias as a row. -/
theorem bblk_apply (c : Dev nD) (a9 : CF Ideal S128) (h2 : V c (Pipeline.arrRef spec8 2) = row128K (F := Ideal) a9)
    (t : Fin cfg8.N) (u : Fin 1) (q : Fin 128) : bblk V c t (ix2 u q) = a9 (ix1 q) := by
  have e : bblk V c t (ix2 u q) = V c (Pipeline.arrRef spec8 2) (ix2 u q) := by
    show V c (Pipeline.arrRef spec8 2) (((cfg8.win 2).blk t).view.emb (ix2 u q)) = _
    refine congrArg _ (funext fun a => Fin.ext ?_)
    obtain ⟨-, -, -, -, e0, e1, -⟩ := idx_facts t
    match a with
    | ⟨0, _⟩ => show win8_2.index t (0 : Fin 2) * 1 + 1 * u.val = u.val; rw [e0]; omega
    | ⟨1, _⟩ => show win8_2.index t (1 : Fin 2) * 128 + 1 * q.val = q.val; rw [e1]; omega
  exact e.trans ((congrFun h2 (ix2 u q)).trans (shapeCast_a_1a_apply a9 shapeCasts_S128_S1x128 u q))

/-- Row r of the first head as a function of a natural number: zero past the last row. -/
def yrow (h : CF Ideal S100000x128) (a8 : CF Ideal S128x128) (a9 : CF Ideal S128) (r : ℕ) (q : Fin 128) : EReal :=
  if hr : r < 100000 then fc1At h a8 a9 ⟨r, hr⟩ q else 0

/-- Entry (p, q) of the first output's block at point t is the first head at row 2000·t + p. -/
theorem blk_val (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) (t : Fin cfg8.N) (p : Fin 2000) (q : Fin 128) :
    k8_pay3 (F := Ideal) (xblk V c t) (wblk V c t) (bblk V c t) (ix2 p q) = yrow h a8 a9 (2000 * t.val + p.val) q := by
  have hN : cfg8.N = 50 := N_8
  have ht := t.isLt
  have hlt : 2000 * t.val + p.val < 100000 := by omega
  rw [yrow, dif_pos hlt]
  refine (pay3_apply _ _ _ p q).trans ?_
  unfold fc1At
  exact congrArg₂ (· + ·)
    (Finset.sum_congr rfl fun k _ => congrArg₂ (· * ·) (xblk_apply V c h h0 t p k ⟨_, hlt⟩ rfl) (wblk_apply V c a8 h1 t k q))
    (bblk_apply V c a9 h2 t 0 q)

/-! ## What the three output blocks hold after each point -/

theorem outs3 (c : Dev nD) (t : Fin cfg8.N) :
    (outsAt8 V c t.val t.isLt).1 = k8_pay3 (F := Ideal) (xblk V c t) (wblk V c t) (bblk V c t) := by
  by_cases h0 : t.val % 50 = 0
  · rw [outsAt8_A V c t h0]; dsimp only
    exact out3_A (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t)
  · rw [outsAt8_B V c t h0]; dsimp only
    exact out3_B (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) _ _

theorem outs4_A (c : Dev nD) (t : Fin cfg8.N) (h0 : t.val % 50 = 0) :
    (outsAt8 V c t.val t.isLt).2.1 = k8_pay4 (F := Ideal) (xblk V c t) (wblk V c t) (bblk V c t) (k8_pay1 (F := Ideal)) := by
  rw [outsAt8_A V c t h0]; dsimp only
  exact out4_A (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t)

theorem outs5_A (c : Dev nD) (t : Fin cfg8.N) (h0 : t.val % 50 = 0) :
    (outsAt8 V c t.val t.isLt).2.2 = k8_pay5 (F := Ideal) (xblk V c t) (wblk V c t) (bblk V c t) (k8_pay2 (F := Ideal)) := by
  rw [outsAt8_A V c t h0]; dsimp only
  exact out5_A (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t)

theorem outs4_B (c : Dev nD) (t : Fin cfg8.N) (h0 : ¬t.val % 50 = 0) :
    (outsAt8 V c t.val t.isLt).2.1 = k8_pay4 (F := Ideal) (xblk V c t) (wblk V c t) (bblk V c t)
      (outsAt8 V c (t.val - 1) (Nat.lt_of_le_of_lt (Nat.sub_le _ _) t.isLt)).2.1 := by
  rw [outsAt8_B V c t h0]; dsimp only
  exact out4_B (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) _ _

theorem outs5_B (c : Dev nD) (t : Fin cfg8.N) (h0 : ¬t.val % 50 = 0) :
    (outsAt8 V c t.val t.isLt).2.2 = k8_pay5 (F := Ideal) (xblk V c t) (wblk V c t) (bblk V c t)
      (outsAt8 V c (t.val - 1) (Nat.lt_of_le_of_lt (Nat.sub_le _ _) t.isLt)).2.2 := by
  rw [outsAt8_B V c t h0]; dsimp only
  exact out5_B (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) _ _

/-! ## The two accumulators after point n: sums over the rows seen so far -/

/-- A sum over the first 2000·(n+2) naturals splits off its last 2000 terms. -/
theorem range_block (f : ℕ → EReal) (n : ℕ) :
    ∑ r ∈ Finset.range (2000 * (n + 1 + 1)), f r
      = ∑ r ∈ Finset.range (2000 * (n + 1)), f r + ∑ p : Fin 2000, f (2000 * (n + 1) + p.val) := by
  rw [show 2000 * (n + 1 + 1) = 2000 * (n + 1) + 2000 by ring, Finset.sum_range_add,
    Fin.sum_univ_eq_sum_range (fun x => f (2000 * (n + 1) + x)) 2000]

theorem range_block0 (f : ℕ → EReal) :
    ∑ r ∈ Finset.range (2000 * (0 + 1)), f r = 0 + ∑ p : Fin 2000, f (2000 * 0 + p.val) := by
  rw [Fin.sum_univ_eq_sum_range (fun x => f (2000 * 0 + x)) 2000]
  simp only [Nat.mul_zero, Nat.zero_add, Nat.mul_one, zero_add]

/-- After point n the first accumulator holds the column sums of the first head over rows below 2000·(n+1), and
    the second those of its squares: the first point resets to zero and adds its block, every later point adds its
    block to what the point before left. -/
theorem outs_inv (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) :
    ∀ (n : ℕ) (hn : n < cfg8.N) (u : Fin 1) (q : Fin 128),
      (outsAt8 V c n hn).2.1 (ix2 u q) = ∑ r ∈ Finset.range (2000 * (n + 1)), yrow h a8 a9 r q
      ∧ (outsAt8 V c n hn).2.2 (ix2 u q) = ∑ r ∈ Finset.range (2000 * (n + 1)), yrow h a8 a9 r q * yrow h a8 a9 r q
  | 0, hn, u, q => by
    constructor
    · refine (congrFun (outs4_A V c ⟨0, hn⟩ (Nat.zero_mod _)) (ix2 u q)).trans ?_
      refine (pay4_apply _ _ _ _ u q).trans ?_
      rw [range_block0 (fun r => yrow h a8 a9 r q)]
      exact congrArg₂ (· + ·) (pay1_apply _) (Finset.sum_congr rfl fun p _ => blk_val V c h a8 a9 h0 h1 h2 ⟨0, hn⟩ p q)
    · refine (congrFun (outs5_A V c ⟨0, hn⟩ (Nat.zero_mod _)) (ix2 u q)).trans ?_
      refine (pay5_apply _ _ _ _ u q).trans ?_
      rw [range_block0 (fun r => yrow h a8 a9 r q * yrow h a8 a9 r q)]
      exact congrArg₂ (· + ·) (pay2_apply _) (Finset.sum_congr rfl fun p _ =>
        congrArg₂ (· * ·) (blk_val V c h a8 a9 h0 h1 h2 ⟨0, hn⟩ p q) (blk_val V c h a8 a9 h0 h1 h2 ⟨0, hn⟩ p q))
  | n + 1, hn, u, q => by
    have hN : cfg8.N = 50 := N_8
    have hB : ¬(⟨n + 1, hn⟩ : Fin cfg8.N).val % 50 = 0 := by dsimp only; omega
    have ih := outs_inv c h a8 a9 h0 h1 h2 n (Nat.lt_of_succ_lt hn) u q
    constructor
    · refine (congrFun (outs4_B V c ⟨n + 1, hn⟩ hB) (ix2 u q)).trans ?_
      refine (pay4_apply _ _ _ _ u q).trans ?_
      rw [range_block (fun r => yrow h a8 a9 r q)]
      exact congrArg₂ (· + ·) ih.1 (Finset.sum_congr rfl fun p _ => blk_val V c h a8 a9 h0 h1 h2 ⟨n + 1, hn⟩ p q)
    · refine (congrFun (outs5_B V c ⟨n + 1, hn⟩ hB) (ix2 u q)).trans ?_
      refine (pay5_apply _ _ _ _ u q).trans ?_
      rw [range_block (fun r => yrow h a8 a9 r q * yrow h a8 a9 r q)]
      exact congrArg₂ (· + ·) ih.2 (Finset.sum_congr rfl fun p _ =>
        congrArg₂ (· * ·) (blk_val V c h a8 a9 h0 h1 h2 ⟨n + 1, hn⟩ p q) (blk_val V c h a8 a9 h0 h1 h2 ⟨n + 1, hn⟩ p q))

/-- Over all 100000 rows the sums of the row function are the column sums of the first head, -/
theorem sum_yrowS (h : CF Ideal S100000x128) (a8 : CF Ideal S128x128) (a9 : CF Ideal S128) (u : Fin 1) (q : Fin 128) :
    ∑ r ∈ Finset.range 100000, yrow h a8 a9 r q = colSumAt (fc1R (F := Ideal) h a8 a9) (ix2 u q) := by
  unfold colSumAt
  show _ = ∑ r : Fin 100000, fc1R (F := Ideal) h a8 a9 (ix2 r q)
  rw [← Fin.sum_univ_eq_sum_range (fun r => yrow h a8 a9 r q) 100000]
  refine Finset.sum_congr rfl fun r _ => ?_
  rw [yrow, dif_pos r.isLt, fc1R_apply]

/-- and those of its squares the column sums of the first head's squares. -/
theorem sum_yrowQ (h : CF Ideal S100000x128) (a8 : CF Ideal S128x128) (a9 : CF Ideal S128) (u : Fin 1) (q : Fin 128) :
    ∑ r ∈ Finset.range 100000, yrow h a8 a9 r q * yrow h a8 a9 r q = colSqAt (fc1R (F := Ideal) h a8 a9) (ix2 u q) := by
  unfold colSqAt
  show _ = ∑ r : Fin 100000, fc1R (F := Ideal) h a8 a9 (ix2 r q) * fc1R (F := Ideal) h a8 a9 (ix2 r q)
  rw [← Fin.sum_univ_eq_sum_range (fun r => yrow h a8 a9 r q * yrow h a8 a9 r q) 100000]
  refine Finset.sum_congr rfl fun r _ => ?_
  rw [yrow, dif_pos r.isLt, fc1R_apply]

/-! ## The arrays after the region -/

/-- Block t of the first output array, as written back at point t, is rows 2000·t … 2000·t + 1999 of the first head. -/
theorem flushed3_eq (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) (t : Fin cfg8.N) :
    (dat8 (F := Ideal) V c).flushed 3 t = ((cfg8.win 3).blk t).view.read (Elt Ideal) (fc1R (F := Ideal) h a8 a9) := by
  show (cfg8.win 3).cut (grid8.coords t) ((dat8 V c).after 3 t) = _
  rw [after8_3, outs3]
  refine funext fun (j : S2000x128.Idx) => ?_
  obtain ⟨p, q, rfl⟩ : ∃ (p : Fin 2000) (q : Fin 128), j = ix2 p q := ⟨j 0, j 1, eq_ix2 j⟩
  show k8_pay3 (F := Ideal) (xblk V c t) (wblk V c t) (bblk V c t) (ix2 p q)
    = fc1R (F := Ideal) h a8 a9 (((cfg8.win 3).blk t).view.emb (ix2 p q))
  have hN : cfg8.N = 50 := N_8
  have ht := t.isLt
  have hlt : 2000 * t.val + p.val < 100000 := by omega
  have e : ((cfg8.win 3).blk t).view.emb (ix2 p q) = ix2 (⟨2000 * t.val + p.val, hlt⟩ : Fin 100000) q := by
    funext a; apply Fin.ext
    obtain ⟨-, -, -, -, -, -, e0, e1, -⟩ := idx_facts t
    match a with
    | ⟨0, _⟩ => show win8_3.index t (0 : Fin 2) * 2000 + 1 * p.val = 2000 * t.val + p.val; rw [e0]; omega
    | ⟨1, _⟩ => show win8_3.index t (1 : Fin 2) * 128 + 1 * q.val = q.val; rw [e1]; omega
  rw [e, fc1R_apply, blk_val V c h a8 a9 h0 h1 h2 t p q, yrow, dif_pos hlt]

/-- Every row of the first output array lies in the block of the point its row number divided by 2000 names. -/
theorem cover3 (i : S100000x128.Idx) :
    ∃ t : Fin cfg8.N, (cfg8.win 3).flush t = true ∧ i ∈ ((cfg8.win 3).blk t).view.set := by
  have hN : cfg8.N = 50 := N_8
  have hi0 : (i 0).val < 100000 := (i 0).isLt
  have hi1 : (i 1).val < 128 := (i 1).isLt
  have hq : (i 0).val / 2000 < cfg8.N := by omega
  refine ⟨⟨(i 0).val / 2000, hq⟩, flush8_3 _, ?_⟩
  show i ∈ ((View.whole main_v67_0).slice (win8_3.rect ⟨(i 0).val / 2000, hq⟩)).set
  rw [View.set_slice_whole, Rect.mem_set_unit]
  intro a
  obtain ⟨-, -, -, -, -, -, e0, e1, -⟩ := idx_facts ⟨(i 0).val / 2000, hq⟩
  match a with
  | ⟨0, _⟩ =>
    show win8_3.index ⟨(i 0).val / 2000, hq⟩ (0 : Fin 2) * 2000 ≤ (i 0).val
      ∧ (i 0).val < win8_3.index ⟨(i 0).val / 2000, hq⟩ (0 : Fin 2) * 2000 + 2000
    rw [e0]; dsimp only; omega
  | ⟨1, _⟩ =>
    show win8_3.index ⟨(i 0).val / 2000, hq⟩ (1 : Fin 2) * 128 ≤ (i 1).val
      ∧ (i 1).val < win8_3.index ⟨(i 0).val / 2000, hq⟩ (1 : Fin 2) * 128 + 128
    rw [e1]; omega

/-- After the last point the first accumulator holds the whole column sums. -/
theorem outs4_last (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) (t : Fin cfg8.N) (h49 : t.val = 49) :
    (outsAt8 V c t.val t.isLt).2.1 = colSumAt (fc1R (F := Ideal) h a8 a9) := by
  refine funext fun (j : S1x128.Idx) => ?_
  obtain ⟨u, q, rfl⟩ : ∃ (u : Fin 1) (q : Fin 128), j = ix2 u q := ⟨j 0, j 1, eq_ix2 j⟩
  have hi := (outs_inv V c h a8 a9 h0 h1 h2 t.val t.isLt u q).1
  have e : 2000 * (t.val + 1) = 100000 := by omega
  rw [e] at hi
  exact hi.trans (sum_yrowS h a8 a9 u q)

/-- The first accumulator's one block is its whole array: cutting a block to the window and reading the array
    through the block are both the identity. -/
theorem cut_read4 (G : Vec Ideal S1x128 .f32) (t : Fin cfg8.N) :
    (cfg8.win 4).cut (grid8.coords t) G = ((cfg8.win 4).blk t).view.read (Elt Ideal) G := by
  refine funext fun (j : S1x128.Idx) => ?_
  show G j = G (((cfg8.win 4).blk t).view.emb j)
  refine congrArg G (funext fun a => Fin.ext ?_)
  obtain ⟨-, -, -, -, -, -, -, -, e0, e1, -⟩ := idx_facts t
  match a with
  | ⟨0, _⟩ => show (j 0).val = win8_4.index t (0 : Fin 2) * 1 + 1 * (j 0).val; rw [e0]; omega
  | ⟨1, _⟩ => show (j 1).val = win8_4.index t (1 : Fin 2) * 128 + 1 * (j 1).val; rw [e1]; omega

/-- The one point that writes the first accumulator back, the last, writes the whole column sums. -/
theorem flushed4_eq (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) (t : Fin cfg8.N) (hf : (cfg8.win 4).flush t = true) :
    (dat8 (F := Ideal) V c).flushed 4 t
      = ((cfg8.win 4).blk t).view.read (Elt Ideal) (colSumAt (fc1R (F := Ideal) h a8 a9)) := by
  have hN : cfg8.N = 50 := N_8
  have h49 : t.val = 49 := by have := (flush8_4 t).mp hf; have := t.isLt; omega
  show (cfg8.win 4).cut (grid8.coords t) ((dat8 V c).after 4 t) = _
  rw [after8_4, outs4_last V c h a8 a9 h0 h1 h2 t h49]
  exact cut_read4 (colSumAt (fc1R (F := Ideal) h a8 a9)) t

/-- The last point's block of the first accumulator's array is the whole array. -/
theorem cover4 (i : S1x128.Idx) :
    ∃ t : Fin cfg8.N, (cfg8.win 4).flush t = true ∧ i ∈ ((cfg8.win 4).blk t).view.set := by
  have hN : cfg8.N = 50 := N_8
  have h49 : 49 < cfg8.N := by omega
  refine ⟨⟨49, h49⟩, (flush8_4 _).mpr rfl, ?_⟩
  show i ∈ ((View.whole main_v67_1).slice (win8_4.rect ⟨49, h49⟩)).set
  rw [View.set_slice_whole, Rect.mem_set_unit]
  intro a
  obtain ⟨-, -, -, -, -, -, -, -, e0, e1, -⟩ := idx_facts ⟨49, h49⟩
  have hi0 : (i 0).val < 1 := (i 0).isLt
  have hi1 : (i 1).val < 128 := (i 1).isLt
  match a with
  | ⟨0, _⟩ =>
    show win8_4.index ⟨49, h49⟩ (0 : Fin 2) * 1 ≤ (i 0).val ∧ (i 0).val < win8_4.index ⟨49, h49⟩ (0 : Fin 2) * 1 + 1
    rw [e0]; omega
  | ⟨1, _⟩ =>
    show win8_4.index ⟨49, h49⟩ (1 : Fin 2) * 128 ≤ (i 1).val ∧ (i 1).val < win8_4.index ⟨49, h49⟩ (1 : Fin 2) * 128 + 128
    rw [e1]; omega

/-- After the last point the second accumulator holds the whole column sums of squares. -/
theorem outs5_last (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) (t : Fin cfg8.N) (h49 : t.val = 49) :
    (outsAt8 V c t.val t.isLt).2.2 = colSqAt (fc1R (F := Ideal) h a8 a9) := by
  refine funext fun (j : S1x128.Idx) => ?_
  obtain ⟨u, q, rfl⟩ : ∃ (u : Fin 1) (q : Fin 128), j = ix2 u q := ⟨j 0, j 1, eq_ix2 j⟩
  have hi := (outs_inv V c h a8 a9 h0 h1 h2 t.val t.isLt u q).2
  have e : 2000 * (t.val + 1) = 100000 := by omega
  rw [e] at hi
  exact hi.trans (sum_yrowQ h a8 a9 u q)

/-- The second accumulator's one block is its whole array: cutting a block to the window and reading the array
    through the block are both the identity. -/
theorem cut_read5 (G : Vec Ideal S1x128 .f32) (t : Fin cfg8.N) :
    (cfg8.win 5).cut (grid8.coords t) G = ((cfg8.win 5).blk t).view.read (Elt Ideal) G := by
  refine funext fun (j : S1x128.Idx) => ?_
  show G j = G (((cfg8.win 5).blk t).view.emb j)
  refine congrArg G (funext fun a => Fin.ext ?_)
  obtain ⟨-, -, -, -, -, -, -, -, -, -, e0, e1⟩ := idx_facts t
  match a with
  | ⟨0, _⟩ => show (j 0).val = win8_5.index t (0 : Fin 2) * 1 + 1 * (j 0).val; rw [e0]; omega
  | ⟨1, _⟩ => show (j 1).val = win8_5.index t (1 : Fin 2) * 128 + 1 * (j 1).val; rw [e1]; omega

/-- The one point that writes the second accumulator back, the last, writes the whole column sums of squares. -/
theorem flushed5_eq (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) (t : Fin cfg8.N) (hf : (cfg8.win 5).flush t = true) :
    (dat8 (F := Ideal) V c).flushed 5 t
      = ((cfg8.win 5).blk t).view.read (Elt Ideal) (colSqAt (fc1R (F := Ideal) h a8 a9)) := by
  have hN : cfg8.N = 50 := N_8
  have h49 : t.val = 49 := by have := (flush8_5 t).mp hf; have := t.isLt; omega
  show (cfg8.win 5).cut (grid8.coords t) ((dat8 V c).after 5 t) = _
  rw [after8_5, outs5_last V c h a8 a9 h0 h1 h2 t h49]
  exact cut_read5 (colSqAt (fc1R (F := Ideal) h a8 a9)) t

/-- The last point's block of the second accumulator's array is the whole array. -/
theorem cover5 (i : S1x128.Idx) :
    ∃ t : Fin cfg8.N, (cfg8.win 5).flush t = true ∧ i ∈ ((cfg8.win 5).blk t).view.set := by
  have hN : cfg8.N = 50 := N_8
  have h49 : 49 < cfg8.N := by omega
  refine ⟨⟨49, h49⟩, (flush8_5 _).mpr rfl, ?_⟩
  show i ∈ ((View.whole main_v67_2).slice (win8_5.rect ⟨49, h49⟩)).set
  rw [View.set_slice_whole, Rect.mem_set_unit]
  intro a
  obtain ⟨-, -, -, -, -, -, -, -, -, -, e0, e1⟩ := idx_facts ⟨49, h49⟩
  have hi0 : (i 0).val < 1 := (i 0).isLt
  have hi1 : (i 1).val < 128 := (i 1).isLt
  match a with
  | ⟨0, _⟩ =>
    show win8_5.index ⟨49, h49⟩ (0 : Fin 2) * 1 ≤ (i 0).val ∧ (i 0).val < win8_5.index ⟨49, h49⟩ (0 : Fin 2) * 1 + 1
    rw [e0]; omega
  | ⟨1, _⟩ =>
    show win8_5.index ⟨49, h49⟩ (1 : Fin 2) * 128 ≤ (i 1).val ∧ (i 1).val < win8_5.index ⟨49, h49⟩ (1 : Fin 2) * 128 + 128
    rw [e1]; omega

/-- After region 8 its first output array is the reference's first head. -/
theorem fc1_y (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) :
    (dat8 (F := Ideal) V c).arrAt 3 cfg8.N = fc1R (F := Ideal) h a8 a9 :=
  (dat8 (F := Ideal) V c).arrAt_eq_of_cover 3 (fc1R (F := Ideal) h a8 a9)
    (fun t _ => flushed3_eq V c h a8 a9 h0 h1 h2 t) (fun i => cover3 i)

/-- After region 8 its second output holds the column sums of the first head. -/
theorem fc1_s (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) :
    (dat8 (F := Ideal) V c).arrAt 4 cfg8.N = colSumAt (fc1R (F := Ideal) h a8 a9) :=
  (dat8 (F := Ideal) V c).arrAt_eq_of_cover 4 (colSumAt (fc1R (F := Ideal) h a8 a9))
    (fun t hf => flushed4_eq V c h a8 a9 h0 h1 h2 t hf) (fun i => cover4 i)

/-- After region 8 its third output holds the column sums of the first head's squares. -/
theorem fc1_q (c : Dev nD) (h : CF Ideal S100000x128) (a8 : CF Ideal S128x128) (a9 : CF Ideal S128)
    (h0 : V c (Pipeline.arrRef spec8 0) = h) (h1 : V c (Pipeline.arrRef spec8 1) = trSqK (F := Ideal) a8)
    (h2 : V c (Pipeline.arrRef spec8 2) = row128K (F := Ideal) a9) :
    (dat8 (F := Ideal) V c).arrAt 5 cfg8.N = colSqAt (fc1R (F := Ideal) h a8 a9) :=
  (dat8 (F := Ideal) V c).arrAt_eq_of_cover 5 (colSqAt (fc1R (F := Ideal) h a8 a9))
    (fun t hf => flushed5_eq V c h a8 a9 h0 h1 h2 t hf) (fun i => cover5 i)

end Cert.KVal

end
-- ==== Proof.KPool.lean ====
/-
  The pooling kernel: its two accumulators, reset at the first grid point, end at the per-graph sums of the
  rectified, scaled and shifted rows and at the per-graph node counts, a node counted for graph g exactly when its
  graph word is g.

  Each of the 50 grid points sees 2000 rows. The body forms the 2000 × 200 one-hot matrix of the rows' graph words
  (entry (r, g) is one when row r's word is g, else zero), and adds to the running 200 × 128 sums the product of its
  transpose with the rectified rows max(y · scale + shift, 0), and to the running 200 × 1 counts the product of its
  transpose with a column of ones. Over the extended reals addition is commutative and associative, so after point n
  the accumulators hold the sums over the first 2000 (n + 1) rows (induction on n; the first point starts from the
  zero block), and after the last point the sums over all 100000 rows. Both accumulators are written back once,
  after the last point, and their one block is the whole array.
-/
import proofs.«403864_j85770496901353_1_alg».proof.Proof.Gen.KernelIdeal.Frame
import proofs.«403864_j85770496901353_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Idealize.ShloMosaic Idealize.ShloMosaic.TcCoe Idealize.ShloMosaic.ValueIdx Idealize.SL.Sem
open Cert.KernelIdeal Cert.KernelIdeal.Gen Cert.Net
open scoped BigOperators

namespace Pool

section Pieces
variable {F : FTy → Type} [FloatOps F]

/-- The origin, spelt as the constant-zero offsets. -/
theorem hz2 : (![0, 0] : Fin 2 → Nat) = fun _ => 0 := funext fun a => by fin_cases a <;> rfl

/-- At a later point the body leaves, in the sums' buffer holding xo4, the update of xo4 by the point's blocks. -/
theorem sumsB (c : Dev nD) (i : grid9.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S2000x1 .i32) (h4 : a4.IsWhole) (a5 : Memref sig .tc .vmem S200x128 .f32) (h5 : a5.IsWhole) (a6 : Memref sig .tc .vmem S200x1 .f32) (h6 : a6.IsWhole) (hc : ¬cond9_0 i)
    (x0 : Vec F S2000x128 .f32) (x1 x2 : Vec F S1x128 .f32) (x3 : Vec F S2000x1 .i32) (xo4 : Vec F S200x128 .f32) (xo5 : Vec F S200x1 .f32) :
    out9_B_4 c i a1 h1 a2 h2 a3 h3 a4 h4 a5 h5 a6 h6 hc x0 x1 x2 x3 xo4 xo5 = k9_pay4 x0 x1 x2 x3 xo4 := by
  unfold out9_B_4
  rw [View.read_writes_eq_canon _ _ _ (cover9_B_4 c i a1 h1 a2 h2 a3 h3 a4 h4 a5 h5 a6 h6 hc x0 x1 x2 x3 xo4 xo5)]
  unfold kernelRun9_B
  dsimp only
  sl_unfold_words
  rw [View.canon_unit_zero hz2]
  simp only [View.readAt_eq_ld, h1.read_unread, h2.read_unread, h3.read_unread, h4.read_unread, h5.read_unread,
    View.ld_unit_zero (S := S2000x128) hz2, View.ld_unit_zero (S := S1x128) hz2, View.ld_unit_zero (S := S2000x1) hz2,
    View.ld_unit_zero (S := S200x128) hz2]

/-- At a later point the body leaves, in the counts' buffer holding xo5, the update of xo5 by the point's graph words. -/
theorem cntsB (c : Dev nD) (i : grid9.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S2000x1 .i32) (h4 : a4.IsWhole) (a5 : Memref sig .tc .vmem S200x128 .f32) (h5 : a5.IsWhole) (a6 : Memref sig .tc .vmem S200x1 .f32) (h6 : a6.IsWhole) (hc : ¬cond9_0 i)
    (x0 : Vec F S2000x128 .f32) (x1 x2 : Vec F S1x128 .f32) (x3 : Vec F S2000x1 .i32) (xo4 : Vec F S200x128 .f32) (xo5 : Vec F S200x1 .f32) :
    out9_B_5 c i a1 h1 a2 h2 a3 h3 a4 h4 a5 h5 a6 h6 hc x0 x1 x2 x3 xo4 xo5 = k9_pay5 x3 xo5 := by
  unfold out9_B_5
  rw [View.read_writes_eq_canon _ _ _ (cover9_B_5 c i a1 h1 a2 h2 a3 h3 a4 h4 a5 h5 a6 h6 hc x0 x1 x2 x3 xo4 xo5)]
  unfold kernelRun9_B
  dsimp only
  sl_unfold_words
  rw [View.canon_unit_zero hz2]
  simp only [View.readAt_eq_ld, h4.read_unread, h6.read_unread,
    View.ld_unit_zero (S := S2000x1) hz2, View.ld_unit_zero (S := S200x1) hz2]

/-- At the first point the sums' buffer is first set to zero, so the body leaves the update of the zero block. -/
theorem sumsA (c : Dev nD) (i : grid9.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S2000x1 .i32) (h4 : a4.IsWhole) (a5 : Memref sig .tc .vmem S200x128 .f32) (h5 : a5.IsWhole) (a6 : Memref sig .tc .vmem S200x1 .f32) (h6 : a6.IsWhole) (hc : cond9_0 i) (x0 : Vec F S2000x128 .f32) (x1 x2 : Vec F S1x128 .f32) (x3 : Vec F S2000x1 .i32) :
    out9_A_4 c i a1 h1 a2 h2 a3 h3 a4 h4 a5 h5 a6 h6 hc x0 x1 x2 x3 = k9_pay4 x0 x1 x2 x3 (k9_pay1 (F := F)) := by
  unfold out9_A_4
  rw [View.read_writes_eq_canon _ _ _ (cover9_A_4 c i a1 h1 a2 h2 a3 h3 a4 h4 a5 h5 a6 h6 hc x0 x1 x2 x3)]
  unfold kernelRun9_A
  dsimp only
  sl_unfold_words
  rw [View.canon_cons_unit_zero (S := S200x128) hz2]
  simp only [View.readAt_eq_ld, h1.read_unread, h2.read_unread, h3.read_unread, h4.read_unread,
    View.ld_unit_zero (S := S2000x128) hz2, View.ld_unit_zero (S := S1x128) hz2, View.ld_unit_zero (S := S2000x1) hz2,
    View.readCov_unit_zero (S := S200x128) _ hz2]

/-- At the first point the counts' buffer is first set to zero, so the body leaves the update of the zero column. -/
theorem cntsA (c : Dev nD) (i : grid9.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S2000x1 .i32) (h4 : a4.IsWhole) (a5 : Memref sig .tc .vmem S200x128 .f32) (h5 : a5.IsWhole) (a6 : Memref sig .tc .vmem S200x1 .f32) (h6 : a6.IsWhole) (hc : cond9_0 i) (x0 : Vec F S2000x128 .f32) (x1 x2 : Vec F S1x128 .f32) (x3 : Vec F S2000x1 .i32) :
    out9_A_5 c i a1 h1 a2 h2 a3 h3 a4 h4 a5 h5 a6 h6 hc x0 x1 x2 x3 = k9_pay5 x3 (k9_pay2 (F := F)) := by
  unfold out9_A_5
  rw [View.read_writes_eq_canon _ _ _ (cover9_A_5 c i a1 h1 a2 h2 a3 h3 a4 h4 a5 h5 a6 h6 hc x0 x1 x2 x3)]
  unfold kernelRun9_A
  dsimp only
  sl_unfold_words
  rw [View.canon_cons_unit_zero (S := S200x1) hz2]
  simp only [View.readAt_eq_ld, h4.read_unread,
    View.ld_unit_zero (S := S2000x1) hz2, View.readCov_unit_zero (S := S200x1) _ hz2]
end Pieces

section AtIdeal

/-- A column [a,1] spread over b columns reads, at (p, c), the column's entry p. -/
theorem bcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word test "w is g", widened and read as a number, is one or zero. -/
theorem hot_word (w : BitVec 32) (g : Fin 200) :
    (FloatOps.sitofp (F := Ideal) .f32 ((IntOp.cmpi .eq w (BitVec.ofNat 32 g.val)).setWidth 32) : Ideal .f32) = hot w g := by
  unfold hot
  by_cases h : w = BitVec.ofNat 32 g.val
  · have e : IntOp.cmpi .eq w (BitVec.ofNat 32 g.val) = 1#1 := by simp [IntOp.cmpi, h]
    have t1 : ((1#1 : BitVec 1).setWidth 32).toInt = 1 := by decide
    rw [if_pos h, e]
    show ((((1#1 : BitVec 1).setWidth 32).toInt : ℝ) : EReal) = 1
    rw [t1]; norm_num
  · have hb : (w == BitVec.ofNat 32 g.val) = false := beq_eq_false_iff_ne.mpr h
    have e : IntOp.cmpi .eq w (BitVec.ofNat 32 g.val) = 0#1 := by simp [IntOp.cmpi, hb]
    have t0 : ((0#1 : BitVec 1).setWidth 32).toInt = 0 := by decide
    rw [if_neg h, e]
    show ((((0#1 : BitVec 1).setWidth 32).toInt : ℝ) : EReal) = 0
    rw [t0]; norm_num

/-- The one-hot block: row r, graph g, is one exactly when row r's graph word is g. -/
theorem onehot_apply (v15 : Vec Ideal S2000x1 .i32) (r : Fin 2000) (g : Fin 200) :
    k9_pay3 (F := Ideal) v15 (ix2 r g) = hot (v15 (ix2 r 0)) g := by
  unfold k9_pay3
  show FloatOps.sitofp (F := Ideal) .f32 ((IntOp.cmpi .eq
      (broadcastTo S2000x200 (shapeCast S2000x1 v15 shapeCasts_S2000x1_S2000x1) broadcasts_S2000x1_S2000x200 (ix2 r g))
      (broadcastTo S2000x200 (iota .tc S1x200 32 [1] iota_S1x200_d1_w32) broadcasts_S1x200_S2000x200 (ix2 r g))).setWidth 32) = _
  rw [bcastCol_apply, broadcastTo_1b_ab_apply, shapeCast_self, iota_single_apply]
  exact hot_word _ g

/-- A product contracting the first axis of both operands, into zero: entry (a, b) is ∑ over the rows. -/
theorem matmulT_apply {K M N : ℕ} {φ₁ φ₂ : FTy}
    (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (a : Fin M) (b : Fin N) :
    FloatOps.matmul (⟨[0], [0], [1], [1], [], [], w⟩ : DotDims _ _ _) none A B (constant _ .f32 0x00000000#32) (ix2 a b)
      = ∑ c : Fin K, A (ix2 c a) * B (ix2 c b) := by
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, M]⟩ ⟨2, ![K, N]⟩ ⟨2, ![M, N]⟩) K rfl rfl c
  have l2 : (⟨[0], [0], [1], [1], [], [], w⟩ : DotDims ⟨2, ![K, M]⟩ ⟨2, ![K, N]⟩ ⟨2, ![M, N]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, M]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end AtIdeal

section AtIdeal2

/-- The sums' update at graph g, feature j: the old entry plus the block's contribution. -/
theorem sums_apply (v3 : Vec Ideal S2000x128 .f32) (v5 v9 : Vec Ideal S1x128 .f32) (v15 : Vec Ideal S2000x1 .i32)
    (v26 : Vec Ideal S200x128 .f32) (g : Fin 200) (j : Fin 128) :
    k9_pay4 (F := Ideal) v3 v5 v9 v15 v26 (ix2 g j)
      = v26 (ix2 g j) + ∑ r : Fin 2000, hot (v15 (ix2 r 0)) g * max (v3 (ix2 r j) * v5 (ix2 0 j) + v9 (ix2 0 j)) 0 := by
  unfold k9_pay4
  rw [addf_apply, shapeCast_self]
  refine congrArg (v26 (ix2 g j) + ·) ?_
  refine (matmulT_apply dot_S2000x200_S2000x128_S200x128_0_0_1_1_n_n_wf (k9_pay3 v15) _ g j).trans ?_
  refine Finset.sum_congr rfl fun r _ => ?_
  rw [onehot_apply, truncf_apply, maximumf_apply, addf_apply, mulf_apply, shapeCast_self, shapeCast_self, shapeCast_self,
    broadcastTo_1b_ab_apply, broadcastTo_1b_ab_apply, broadcast_apply]
  show _ * max _ (Ideal.ofBits .f32 0x00000000#32) = _
  rw [Ideal.ofBits_zero_f32]

/-- The counts' update at graph g: the old entry plus the number of the block's rows in graph g. -/
theorem cnts_apply (v15 : Vec Ideal S2000x1 .i32) (v31 : Vec Ideal S200x1 .f32) (g : Fin 200) (z : Fin 1) :
    k9_pay5 (F := Ideal) v15 v31 (ix2 g z) = v31 (ix2 g z) + ∑ r : Fin 2000, hot (v15 (ix2 r 0)) g := by
  unfold k9_pay5
  rw [addf_apply, shapeCast_self]
  refine congrArg (v31 (ix2 g z) + ·) ?_
  refine (matmulT_apply dot_S2000x200_S2000x1_S200x1_0_0_1_1_n_n_wf (k9_pay3 v15) _ g z).trans ?_
  refine Finset.sum_congr rfl fun r _ => ?_
  rw [onehot_apply, broadcast_apply]
  show _ * Ideal.ofBits .bf16 0x3F80#16 = _
  rw [show Ideal.ofBits .bf16 0x3F80#16 = 1 from IdealRules.sign_bit.ideal_onePat .bf16, mul_one]

end AtIdeal2

section Sums

/-- A function of the 100000 rows, continued by zero past them. -/
def ext0 (f : Fin 100000 → EReal) (x : ℕ) : EReal := if h : x < 100000 then f ⟨x, h⟩ else 0

/-- Summed over the first 100000 naturals it is the sum over the rows. -/
theorem sum_ext0 (f : Fin 100000 → EReal) : ∑ x ∈ Finset.range 100000, ext0 f x = ∑ r : Fin 100000, f r := by
  rw [Finset.sum_range]
  refine Finset.sum_congr rfl fun r _ => ?_
  unfold ext0; rw [dif_pos r.isLt]

/-- One more block of 2000 rows: the partial sum grows by the block's sum. -/
theorem sum_block (f : Fin 100000 → EReal) (n : ℕ) (hn : n < 50) :
    ∑ x ∈ Finset.range (2000 * (n + 1)), ext0 f x
      = ∑ x ∈ Finset.range (2000 * n), ext0 f x
        + ∑ q : Fin 2000, f ⟨2000 * n + q.val, by have := q.isLt; omega⟩ := by
  rw [show 2000 * (n + 1) = 2000 * n + 2000 by ring, Finset.sum_range_add, Finset.sum_range (fun x => ext0 f (2000 * n + x))]
  congr 1
  refine Finset.sum_congr rfl fun q _ => ?_
  unfold ext0; rw [dif_pos]

end Sums

section Blocks
variable (V : (c : Dev nD) → (b : Ref sig .tc) → Buf (Elt Ideal) ((c : Thread nD τ).loc b))

/-- The four input blocks at a point, at their literal shapes. -/
abbrev yblk (c : Dev nD) (t : Fin cfg9.N) : Vec Ideal S2000x128 .f32 := iblk9 V c 0 t
abbrev scblk (c : Dev nD) (t : Fin cfg9.N) : Vec Ideal S1x128 .f32 := iblk9 V c 1 t
abbrev shblk (c : Dev nD) (t : Fin cfg9.N) : Vec Ideal S1x128 .f32 := iblk9 V c 2 t
abbrev bblk (c : Dev nD) (t : Fin cfg9.N) : Vec Ideal S2000x1 .i32 := iblk9 V c 3 t

/-- Where each window's block sits at point t: the row blocks at block-row t, everything else at the origin. -/
theorem idx9_0 : ∀ t : Fin cfg9.N, win9_0.index t 0 = t.val ∧ win9_0.index t 1 = 0 :=
  (by decide +kernel : ∀ t : Fin grid9.N, win9_0.index t 0 = t.val ∧ win9_0.index t 1 = 0)
theorem idx9_1 : ∀ t : Fin cfg9.N, win9_1.index t 0 = 0 ∧ win9_1.index t 1 = 0 :=
  (by decide +kernel : ∀ t : Fin grid9.N, win9_1.index t 0 = 0 ∧ win9_1.index t 1 = 0)
theorem idx9_2 : ∀ t : Fin cfg9.N, win9_2.index t 0 = 0 ∧ win9_2.index t 1 = 0 :=
  (by decide +kernel : ∀ t : Fin grid9.N, win9_2.index t 0 = 0 ∧ win9_2.index t 1 = 0)
theorem idx9_3 : ∀ t : Fin cfg9.N, win9_3.index t 0 = t.val ∧ win9_3.index t 1 = 0 :=
  (by decide +kernel : ∀ t : Fin grid9.N, win9_3.index t 0 = t.val ∧ win9_3.index t 1 = 0)

theorem lt_rows (t : Fin cfg9.N) (q : Fin 2000) : 2000 * t.val + q.val < 100000 := by
  have := q.isLt; have := t.isLt; have : cfg9.N = 50 := N_9; omega

/-- Row q of the block of y at point t is row 2000 t + q of y. -/
theorem yblk_apply (c : Dev nD) (y : CF Ideal S100000x128) (h0 : V c (Pipeline.arrRef spec9 0) = y)
    (t : Fin cfg9.N) (q : Fin 2000) (j : Fin 128) :
    yblk V c t (ix2 q j) = y (ix2 ⟨2000 * t.val + q.val, lt_rows t q⟩ j) := by
  have hi := idx9_0 t
  show iblk9 V c 0 t (ix2 q j) = _
  unfold iblk9
  rw [View.read_apply]
  show V c (Pipeline.arrRef spec9 0) _ = _
  refine (congrFun h0 _).trans (congrArg y (funext fun a => Fin.ext ?_))
  match a with
  | ⟨0, _⟩ => show win9_0.index t 0 * 2000 + 1 * q.val = 2000 * t.val + q.val; rw [hi.1]; omega
  | ⟨1, _⟩ => show win9_0.index t 1 * 128 + 1 * j.val = j.val; rw [hi.2]; omega

/-- The scale row's block is the scale row. -/
theorem scblk_apply (c : Dev nD) (sc : CF Ideal S1x128) (h1 : V c (Pipeline.arrRef spec9 1) = sc)
    (t : Fin cfg9.N) (z : Fin 1) (j : Fin 128) : scblk V c t (ix2 z j) = sc (ix2 z j) := by
  have hi := idx9_1 t
  show iblk9 V c 1 t (ix2 z j) = _
  unfold iblk9
  rw [View.read_apply]
  show V c (Pipeline.arrRef spec9 1) _ = _
  refine (congrFun h1 _).trans (congrArg sc (funext fun a => Fin.ext ?_))
  match a with
  | ⟨0, _⟩ => show win9_1.index t 0 * 1 + 1 * z.val = z.val; rw [hi.1]; omega
  | ⟨1, _⟩ => show win9_1.index t 1 * 128 + 1 * j.val = j.val; rw [hi.2]; omega

/-- The shift row's block is the shift row. -/
theorem shblk_apply (c : Dev nD) (sh : CF Ideal S1x128) (h2 : V c (Pipeline.arrRef spec9 2) = sh)
    (t : Fin cfg9.N) (z : Fin 1) (j : Fin 128) : shblk V c t (ix2 z j) = sh (ix2 z j) := by
  have hi := idx9_2 t
  show iblk9 V c 2 t (ix2 z j) = _
  unfold iblk9
  rw [View.read_apply]
  show V c (Pipeline.arrRef spec9 2) _ = _
  refine (congrFun h2 _).trans (congrArg sh (funext fun a => Fin.ext ?_))
  match a with
  | ⟨0, _⟩ => show win9_2.index t 0 * 1 + 1 * z.val = z.val; rw [hi.1]; omega
  | ⟨1, _⟩ => show win9_2.index t 1 * 128 + 1 * j.val = j.val; rw [hi.2]; omega

/-- Row q of the graph-word block at point t is row 2000 t + q of the graph-word column. -/
theorem bblk_apply (c : Dev nD) (b : CI Ideal S100000x1) (h3 : V c (Pipeline.arrRef spec9 3) = b)
    (t : Fin cfg9.N) (q : Fin 2000) (z : Fin 1) :
    bblk V c t (ix2 q z) = b (ix2 ⟨2000 * t.val + q.val, lt_rows t q⟩ z) := by
  have hi := idx9_3 t
  show iblk9 V c 3 t (ix2 q z) = _
  unfold iblk9
  rw [View.read_apply]
  show V c (Pipeline.arrRef spec9 3) _ = _
  refine (congrFun h3 _).trans (congrArg b (funext fun a => Fin.ext ?_))
  match a with
  | ⟨0, _⟩ => show win9_3.index t 0 * 2000 + 1 * q.val = 2000 * t.val + q.val; rw [hi.1]; omega
  | ⟨1, _⟩ => show win9_3.index t 1 * 1 + 1 * z.val = z.val; rw [hi.2]; omega

end Blocks

section Invariant
variable (V : (c : Dev nD) → (b : Ref sig .tc) → Buf (Elt Ideal) ((c : Thread nD τ).loc b))

/-- What graph g, feature j takes from row r: the rectified, scaled and shifted entry if the row is in graph g. -/
def sumTerm (y : CF Ideal S100000x128) (sc sh : CF Ideal S1x128) (b : CI Ideal S100000x1) (g : Fin 200) (j : Fin 128) (r : Fin 100000) : EReal :=
  hot (b (ix2 r 0)) g * max (y (ix2 r j) * sc (ix2 0 j) + sh (ix2 0 j)) 0
/-- What graph g's count takes from row r. -/
def cntTerm (b : CI Ideal S100000x1) (g : Fin 200) (r : Fin 100000) : EReal := hot (b (ix2 r 0)) g

/-- One point's update of the sums adds the point's 2000 rows. -/
theorem sums_step (c : Dev nD) (y : CF Ideal S100000x128) (sc sh : CF Ideal S1x128) (b : CI Ideal S100000x1)
    (h0 : V c (Pipeline.arrRef spec9 0) = y) (h1 : V c (Pipeline.arrRef spec9 1) = sc)
    (h2 : V c (Pipeline.arrRef spec9 2) = sh) (h3 : V c (Pipeline.arrRef spec9 3) = b)
    (t : Fin cfg9.N) (acc : Vec Ideal S200x128 .f32) (g : Fin 200) (j : Fin 128) :
    k9_pay4 (F := Ideal) (yblk V c t) (scblk V c t) (shblk V c t) (bblk V c t) acc (ix2 g j)
      = acc (ix2 g j) + ∑ q : Fin 2000, sumTerm y sc sh b g j ⟨2000 * t.val + q.val, lt_rows t q⟩ := by
  rw [sums_apply]
  refine congrArg (acc (ix2 g j) + ·) (Finset.sum_congr rfl fun q _ => ?_)
  rw [yblk_apply V c y h0, scblk_apply V c sc h1, shblk_apply V c sh h2, bblk_apply V c b h3]
  rfl

/-- One point's update of the counts adds the point's rows of graph g. -/
theorem cnts_step (c : Dev nD) (b : CI Ideal S100000x1) (h3 : V c (Pipeline.arrRef spec9 3) = b)
    (t : Fin cfg9.N) (acc : Vec Ideal S200x1 .f32) (g : Fin 200) (z : Fin 1) :
    k9_pay5 (F := Ideal) (bblk V c t) acc (ix2 g z)
      = acc (ix2 g z) + ∑ q : Fin 2000, cntTerm b g ⟨2000 * t.val + q.val, lt_rows t q⟩ := by
  rw [cnts_apply]
  refine congrArg (acc (ix2 g z) + ·) (Finset.sum_congr rfl fun q _ => ?_)
  rw [bblk_apply V c b h3]
  rfl

/-- The first point leaves the update of the zero block; -/
theorem sums_at_A (c : Dev nD) (t : Fin cfg9.N) (hA : t.val % 50 = 0) :
    (outsAt9 V c t.val t.isLt).1
      = k9_pay4 (F := Ideal) (yblk V c t) (scblk V c t) (shblk V c t) (bblk V c t) (k9_pay1 (F := Ideal)) := by
  rw [outsAt9_A V c t hA]
  dsimp only
  exact sumsA (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr hA) (iblk9 V c 0 t) (iblk9 V c 1 t) (iblk9 V c 2 t) (iblk9 V c 3 t)
theorem cnts_at_A (c : Dev nD) (t : Fin cfg9.N) (hA : t.val % 50 = 0) :
    (outsAt9 V c t.val t.isLt).2 = k9_pay5 (F := Ideal) (bblk V c t) (k9_pay2 (F := Ideal)) := by
  rw [outsAt9_A V c t hA]
  dsimp only
  exact cntsA (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr hA) (iblk9 V c 0 t) (iblk9 V c 1 t) (iblk9 V c 2 t) (iblk9 V c 3 t)
/-- every later point the update of what the point before left. -/
theorem sums_at_B (c : Dev nD) (t : Fin cfg9.N) (hB : ¬t.val % 50 = 0) :
    (outsAt9 V c t.val t.isLt).1
      = k9_pay4 (F := Ideal) (yblk V c t) (scblk V c t) (shblk V c t) (bblk V c t) (outsAt9 V c (t.val - 1) (Nat.lt_of_le_of_lt (Nat.sub_le _ _) t.isLt)).1 := by
  rw [outsAt9_B V c t hB]
  dsimp only
  exact sumsB (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (fun h => hB ((hcond9_0 t).mp h)) (iblk9 V c 0 t) (iblk9 V c 1 t) (iblk9 V c 2 t) (iblk9 V c 3 t) (outsAt9 V c (t.val - 1) (Nat.lt_of_le_of_lt (Nat.sub_le _ _) t.isLt)).1 (outsAt9 V c (t.val - 1) (Nat.lt_of_le_of_lt (Nat.sub_le _ _) t.isLt)).2
theorem cnts_at_B (c : Dev nD) (t : Fin cfg9.N) (hB : ¬t.val % 50 = 0) :
    (outsAt9 V c t.val t.isLt).2 = k9_pay5 (F := Ideal) (bblk V c t) (outsAt9 V c (t.val - 1) (Nat.lt_of_le_of_lt (Nat.sub_le _ _) t.isLt)).2 := by
  rw [outsAt9_B V c t hB]
  dsimp only
  exact cntsB (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (fun h => hB ((hcond9_0 t).mp h)) (iblk9 V c 0 t) (iblk9 V c 1 t) (iblk9 V c 2 t) (iblk9 V c 3 t) (outsAt9 V c (t.val - 1) (Nat.lt_of_le_of_lt (Nat.sub_le _ _) t.isLt)).1 (outsAt9 V c (t.val - 1) (Nat.lt_of_le_of_lt (Nat.sub_le _ _) t.isLt)).2

/-- After point n the sums hold the contributions of the first 2000 (n + 1) rows. -/
theorem sums_inv (c : Dev nD) (y : CF Ideal S100000x128) (sc sh : CF Ideal S1x128) (b : CI Ideal S100000x1)
    (h0 : V c (Pipeline.arrRef spec9 0) = y) (h1 : V c (Pipeline.arrRef spec9 1) = sc)
    (h2 : V c (Pipeline.arrRef spec9 2) = sh) (h3 : V c (Pipeline.arrRef spec9 3) = b) :
    ∀ (n : ℕ) (hn : n < cfg9.N) (g : Fin 200) (j : Fin 128),
      (outsAt9 V c n hn).1 (ix2 g j) = ∑ x ∈ Finset.range (2000 * (n + 1)), ext0 (sumTerm y sc sh b g j) x
  | 0, hn, g, j => by
    refine (congrFun (sums_at_A V c ⟨0, hn⟩ rfl) (ix2 g j)).trans ?_
    rw [sums_step V c y sc sh b h0 h1 h2 h3 ⟨0, hn⟩, sum_block _ 0 (by omega)]
    refine congrArg (· + _) ?_
    rw [Nat.mul_zero, Finset.range_zero, Finset.sum_empty]
    exact Ideal.ofBits_zero_f32
  | n + 1, hn, g, j => by
    have hN : cfg9.N = 50 := N_9
    have hB : ¬(⟨n + 1, hn⟩ : Fin cfg9.N).val % 50 = 0 := by dsimp only; omega
    refine (congrFun (sums_at_B V c ⟨n + 1, hn⟩ hB) (ix2 g j)).trans ?_
    rw [sums_step V c y sc sh b h0 h1 h2 h3 ⟨n + 1, hn⟩, sum_block _ (n + 1) (by omega)]
    refine congrArg (· + _) ?_
    exact sums_inv c y sc sh b h0 h1 h2 h3 n (Nat.lt_of_succ_lt hn) g j

/-- After point n the counts hold the number of rows of graph g among the first 2000 (n + 1). -/
theorem cnts_inv (c : Dev nD) (b : CI Ideal S100000x1) (h3 : V c (Pipeline.arrRef spec9 3) = b) :
    ∀ (n : ℕ) (hn : n < cfg9.N) (g : Fin 200) (z : Fin 1),
      (outsAt9 V c n hn).2 (ix2 g z) = ∑ x ∈ Finset.range (2000 * (n + 1)), ext0 (cntTerm b g) x
  | 0, hn, g, z => by
    refine (congrFun (cnts_at_A V c ⟨0, hn⟩ rfl) (ix2 g z)).trans ?_
    rw [cnts_step V c b h3 ⟨0, hn⟩, sum_block _ 0 (by omega)]
    refine congrArg (· + _) ?_
    rw [Nat.mul_zero, Finset.range_zero, Finset.sum_empty]
    exact Ideal.ofBits_zero_f32
  | n + 1, hn, g, z => by
    have hN : cfg9.N = 50 := N_9
    have hB : ¬(⟨n + 1, hn⟩ : Fin cfg9.N).val % 50 = 0 := by dsimp only; omega
    refine (congrFun (cnts_at_B V c ⟨n + 1, hn⟩ hB) (ix2 g z)).trans ?_
    rw [cnts_step V c b h3 ⟨n + 1, hn⟩, sum_block _ (n + 1) (by omega)]
    refine congrArg (· + _) ?_
    exact cnts_inv c b h3 n (Nat.lt_of_succ_lt hn) g z

end Invariant

section Place
variable (V : (c : Dev nD) → (b : Ref sig .tc) → Buf (Elt Ideal) ((c : Thread nD τ).loc b))

/-- The two accumulators' one block sits at the origin at every point. -/
theorem idx9_4 : ∀ t : Fin cfg9.N, win9_4.index t 0 = 0 ∧ win9_4.index t 1 = 0 :=
  (by decide +kernel : ∀ t : Fin grid9.N, win9_4.index t 0 = 0 ∧ win9_4.index t 1 = 0)
theorem idx9_5 : ∀ t : Fin cfg9.N, win9_5.index t 0 = 0 ∧ win9_5.index t 1 = 0 :=
  (by decide +kernel : ∀ t : Fin grid9.N, win9_5.index t 0 = 0 ∧ win9_5.index t 1 = 0)

/-- The last point, the only one after which the accumulators are written back. -/
abbrev tLast : Fin cfg9.N := ⟨49, by decide⟩

end Place

end Pool

open Pool

section Final
variable (V : (c : Dev nD) → (b : Ref sig .tc) → Buf (Elt Ideal) ((c : Thread nD τ).loc b))

/-- After region 9 its first output holds the per-graph sums. -/
theorem pool_sums (c : Dev nD) (y : CF Ideal S100000x128) (sc sh : CF Ideal S1x128) (b : CI Ideal S100000x1)
    (h0 : V c (Pipeline.arrRef spec9 0) = y) (h1 : V c (Pipeline.arrRef spec9 1) = sc)
    (h2 : V c (Pipeline.arrRef spec9 2) = sh) (h3 : V c (Pipeline.arrRef spec9 3) = b) :
    (dat9 (F := Ideal) V c).arrAt 4 cfg9.N = poolArr y sc sh b := by
  refine (dat9 (F := Ideal) V c).arrAt_eq_of_cover 4 (poolArr y sc sh b) (fun t hf => ?_) (fun i => ?_)
  · have hN : cfg9.N = 50 := N_9
    have h49 : t.val = 49 := by have := (flush9_4 t).mp hf; have := t.isLt; omega
    have e : (outsAt9 V c t.val t.isLt).1 = poolArr y sc sh b := funext fun i => by
      obtain ⟨g, j, rfl⟩ : ∃ (g : Fin 200) (j : Fin 128), i = ix2 g j := ⟨i 0, i 1, eq_ix2 i⟩
      rw [sums_inv V c y sc sh b h0 h1 h2 h3 t.val t.isLt g j, h49]
      show _ = ∑ r : Fin 100000, sumTerm y sc sh b g j r
      exact sum_ext0 _
    show (cfg9.win 4).cut (grid9.coords t) ((dat9 V c).after 4 t) = _
    rw [after9_4, e]
    have hz' : (fun a => win9_4.index t a * main_v82_0.ty.shape.size a) = fun _ => 0 := funext fun a => by
      match a with
      | ⟨0, _⟩ => show win9_4.index t 0 * 200 = 0; rw [(idx9_4 t).1]
      | ⟨1, _⟩ => show win9_4.index t 1 * 128 = 0; rw [(idx9_4 t).2]
    exact (Memref.read_access_unit_zero (Elt Ideal) main_v82_0 hz' (fun a => by rw [congrFun hz' a]; simp) (poolArr y sc sh b)).symm
  · refine ⟨tLast, (flush9_4 tLast).mpr rfl, ?_⟩
    show i ∈ ((View.whole main_v82_0).slice (win9_4.rect tLast)).set
    rw [View.set_slice_whole, Rect.mem_set_unit]
    intro a
    have b0 : (i 0 : Nat) < 200 := (i 0).isLt
    have b1 : (i 1 : Nat) < 128 := (i 1).isLt
    match a with
    | ⟨0, _⟩ =>
      show win9_4.index tLast 0 * win9_4.size 0 ≤ (i 0 : Nat)
        ∧ (i 0 : Nat) < win9_4.index tLast 0 * win9_4.size 0 + win9_4.xsize (grid9.coords tLast) 0
      rw [show win9_4.index tLast 0 * win9_4.size 0 = 0 from by decide +kernel,
        show win9_4.xsize (grid9.coords tLast) 0 = 200 from by decide +kernel]
      omega
    | ⟨1, _⟩ =>
      show win9_4.index tLast 1 * win9_4.size 1 ≤ (i 1 : Nat)
        ∧ (i 1 : Nat) < win9_4.index tLast 1 * win9_4.size 1 + win9_4.xsize (grid9.coords tLast) 1
      rw [show win9_4.index tLast 1 * win9_4.size 1 = 0 from by decide +kernel,
        show win9_4.xsize (grid9.coords tLast) 1 = 128 from by decide +kernel]
      omega

/-- After region 9 its second output holds the per-graph counts. -/
theorem pool_counts (c : Dev nD) (y : CF Ideal S100000x128) (sc sh : CF Ideal S1x128) (b : CI Ideal S100000x1)
    (h0 : V c (Pipeline.arrRef spec9 0) = y) (h1 : V c (Pipeline.arrRef spec9 1) = sc)
    (h2 : V c (Pipeline.arrRef spec9 2) = sh) (h3 : V c (Pipeline.arrRef spec9 3) = b) :
    (dat9 (F := Ideal) V c).arrAt 5 cfg9.N = cntArr b := by
  refine (dat9 (F := Ideal) V c).arrAt_eq_of_cover 5 (cntArr b) (fun t hf => ?_) (fun i => ?_)
  · have hN : cfg9.N = 50 := N_9
    have h49 : t.val = 49 := by have := (flush9_5 t).mp hf; have := t.isLt; omega
    have e : (outsAt9 V c t.val t.isLt).2 = cntArr b := funext fun i => by
      obtain ⟨g, j, rfl⟩ : ∃ (g : Fin 200) (j : Fin 1), i = ix2 g j := ⟨i 0, i 1, eq_ix2 i⟩
      rw [cnts_inv V c b h3 t.val t.isLt g j, h49]
      show _ = ∑ r : Fin 100000, cntTerm b g r
      exact sum_ext0 _
    show (cfg9.win 5).cut (grid9.coords t) ((dat9 V c).after 5 t) = _
    rw [after9_5, e]
    have hz' : (fun a => win9_5.index t a * main_v82_1.ty.shape.size a) = fun _ => 0 := funext fun a => by
      match a with
      | ⟨0, _⟩ => show win9_5.index t 0 * 200 = 0; rw [(idx9_5 t).1]
      | ⟨1, _⟩ => show win9_5.index t 1 * 1 = 0; rw [(idx9_5 t).2]
    exact (Memref.read_access_unit_zero (Elt Ideal) main_v82_1 hz' (fun a => by rw [congrFun hz' a]; simp) (cntArr b)).symm
  · refine ⟨tLast, (flush9_5 tLast).mpr rfl, ?_⟩
    show i ∈ ((View.whole main_v82_1).slice (win9_5.rect tLast)).set
    rw [View.set_slice_whole, Rect.mem_set_unit]
    intro a
    have b0 : (i 0 : Nat) < 200 := (i 0).isLt
    have b1 : (i 1 : Nat) < 1 := (i 1).isLt
    match a with
    | ⟨0, _⟩ =>
      show win9_5.index tLast 0 * win9_5.size 0 ≤ (i 0 : Nat)
        ∧ (i 0 : Nat) < win9_5.index tLast 0 * win9_5.size 0 + win9_5.xsize (grid9.coords tLast) 0
      rw [show win9_5.index tLast 0 * win9_5.size 0 = 0 from by decide +kernel,
        show win9_5.xsize (grid9.coords tLast) 0 = 200 from by decide +kernel]
      omega
    | ⟨1, _⟩ =>
      show win9_5.index tLast 1 * win9_5.size 1 ≤ (i 1 : Nat)
        ∧ (i 1 : Nat) < win9_5.index tLast 1 * win9_5.size 1 + win9_5.xsize (grid9.coords tLast) 1
      rw [show win9_5.index tLast 1 * win9_5.size 1 = 0 from by decide +kernel,
        show win9_5.xsize (grid9.coords tLast) 1 = 1 from by decide +kernel]
      omega

end Final

end Cert.KVal

end
-- ==== Proof.Head1.lean ====
/-
  The folded normalisation is the normalisation.  With real entries the biased variance (1/n)·∑(y − μ)² equals
  (1/n)·∑y² − μ², it is not negative, so its sum with the positive ε has a real inverse square root, and
  y · (rstd·γ) + (β − μ·(rstd·γ)) = ((y − μ)·rstd)·γ + β is an identity of real numbers.
-/
import proofs.«403864_j85770496901353_1_alg».proof.Proof.Net
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Net

open Idealize.ShloMosaic Idealize.ShloMosaic.ValueIdx Cert.ReferenceIdeal
open scoped BigOperators

namespace Head1

/-! ## Real numbers -/

/-- A finite sum of real numbers, read in the extended reals, is the real sum. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- ∑(f − m)² = ∑f² − 2m·∑f + n·m² over the n = 100000 rows. -/
theorem sum_centred_sq (f : Fin 100000 → ℝ) (m : ℝ) :
    ∑ k, (f k - m) * (f k - m) = (∑ k, f k * f k) - 2 * m * (∑ k, f k) + 100000 * (m * m) := by
  have h : ∀ k, (f k - m) * (f k - m) = f k * f k - 2 * m * f k + m * m := fun k => by ring
  simp only [h]
  rw [Finset.sum_add_distrib, Finset.sum_sub_distrib, ← Finset.mul_sum, Finset.sum_const, Finset.card_univ,
    Fintype.card_fin, nsmul_eq_mul]
  norm_num

/-- The variance both ways: (1/n)·∑(f − μ)² = (1/n)·∑f² − μ² at μ = (1/n)·∑f. -/
theorem var_identity (f : Fin 100000 → ℝ) :
    (∑ k, (f k - (∑ k, f k) * (1 / 100000)) * (f k - (∑ k, f k) * (1 / 100000))) * (1 / 100000)
      = (∑ k, f k * f k) * (1 / 100000) - ((∑ k, f k) * (1 / 100000)) * ((∑ k, f k) * (1 / 100000)) := by
  rw [sum_centred_sq]; ring

/-- A mean of squares is not negative. -/
theorem var_nonneg (f : Fin 100000 → ℝ) (m : ℝ) : 0 ≤ (∑ k, (f k - m) * (f k - m)) * (1 / 100000) :=
  mul_nonneg (Finset.sum_nonneg fun k _ => mul_self_nonneg _) (by norm_num)

/-- The inverse square root of a positive real is the real 1/√v. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-! ## The two literals -/

/-- The number of rows: the pattern 0x47C35000 is 100000. -/
theorem ofBits_n : Ideal.ofBits .f32 0x47C35000#32 = ((100000 : ℝ) : EReal) := by
  simp [Ideal.ofBits, Ideal.ieee, -EReal.coe_mul]; norm_num

/-- ε, the pattern 0x3727C5AC, is a positive real. -/
theorem ofBits_eps : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

/-! ## Layout operations at an entry -/

/-- A 1 × 128 row repeated down the rows reads its own entry j. -/
theorem bcast_row_apply {α : Type} (h : (⟨2, ![1, 128]⟩ : Shape).BroadcastsInDim ⟨2, ![100000, 128]⟩ ![0, 1])
    (v : (⟨2, ![1, 128]⟩ : Shape).Idx → α) (r : Fin 100000) (j : Fin 128) :
    broadcastInDim ⟨2, ![100000, 128]⟩ ![0, 1] h v (ix2 r j) = v (ix2 0 j) :=
  broadcastInDim_apply _ _ _ _ _ (fun a => match a with | ⟨0, _⟩ => rfl | ⟨1, _⟩ => rfl)

/-- A 128-vector laid as a 1 × 128 row reads its own entry j. -/
theorem bcast_vec_apply {α : Type} (h : (⟨1, ![128]⟩ : Shape).BroadcastsInDim ⟨2, ![1, 128]⟩ ![1])
    (v : (⟨1, ![128]⟩ : Shape).Idx → α) (u : Fin 1) (j : Fin 128) :
    broadcastInDim ⟨2, ![1, 128]⟩ ![1] h v (ix2 u j) = v (ix1 j) :=
  broadcastInDim_apply _ _ _ _ _ (fun a => match a with | ⟨0, _⟩ => rfl)

theorem rowB_apply (v : CF Ideal S128) (r : Fin 100000) (j : Fin 128) : rowB (F := Ideal) v (ix2 r j) = v (ix1 j) := by
  unfold rowB
  rw [bcast_row_apply, bcast_vec_apply]

theorem row128K_apply (v : CF Ideal S128) (j : Fin 128) : row128K (F := Ideal) v (ix2 0 j) = v (ix1 j) :=
  shapeCast_a_1a_apply _ _ 0 j

/-- The reference's column sum at column j is the sum down the rows. -/
theorem colSum_apply (y : CF Ideal S100000x128) (j : Fin 128) :
    colSum (F := Ideal) y (ix1 j) = ∑ k : Fin 100000, y (ix2 k j) := by
  have h : Shape.Reduces S100000x128 [0] S128 := by decide
  show Ideal.hostReduceAdd _ y (Ideal.ofBits .f32 0x00000000#32) (ix1 j) = _
  rw [Ideal.hostReduceAdd_single _ h, Ideal.ofBits_zero_f32, zero_add]
  refine Finset.sum_congr rfl fun k _ => congrArg y ?_
  funext c
  match c with
  | ⟨0, _⟩ => rfl
  | ⟨1, _⟩ => rfl

/-! ## Mean, variance and inverse deviation at a column, both ways -/

/-- The variance's divisor is 100000: the number of rows less the integer zero. -/
theorem ddofR_eq : (ddofR (F := Ideal)) ix0 = ((100000 : ℝ) : EReal) := by
  show Ideal.ofBits .f32 0x47C35000#32 - (((0#32 : BitVec 32).toInt : ℝ) : EReal) = _
  rw [ofBits_n]; simp

/-- 100000 > 0, as the comparison's bit. -/
theorem ogt_n_zero : FloatOps.cmpf (F := Ideal) (φ := .f32) .ogt ((100000 : ℝ) : EReal) 0 = 1#1 := by
  have h : (0 : EReal) < ((100000 : ℝ) : EReal) := by exact_mod_cast (by norm_num : (0 : ℝ) < 100000)
  show Ideal.cmp .ogt _ _ = _
  simp [Ideal.cmp, h]

section Column
variable (y : CF Ideal S100000x128) (yr : S100000x128.Idx → ℝ) (hyr : ∀ i, y i = (yr i : EReal)) (j : Fin 128)
include hyr

/-- The kernel's mean of column j. -/
theorem meanK_coe :
    meanK (F := Ideal) (colSumAt y) (ix2 0 j) = (((∑ k : Fin 100000, yr (ix2 k j)) * (1 / 100000) : ℝ) : EReal) := by
  show Ideal.div (∑ k : Fin 100000, y (ix2 k j)) (Ideal.ofBits .f32 0x47C35000#32) = _
  simp only [hyr]
  rw [ofBits_n, Ideal.div_coe (by norm_num), coe_sum, ← EReal.coe_mul]

/-- The kernel's variance of column j: mean of squares minus squared mean. -/
theorem varK_coe :
    varK (F := Ideal) (colSumAt y) (colSqAt y) (ix2 0 j)
      = (((∑ k : Fin 100000, yr (ix2 k j) * yr (ix2 k j)) * (1 / 100000)
          - ((∑ k : Fin 100000, yr (ix2 k j)) * (1 / 100000)) * ((∑ k : Fin 100000, yr (ix2 k j)) * (1 / 100000)) : ℝ) : EReal) := by
  show Ideal.div (∑ k : Fin 100000, y (ix2 k j) * y (ix2 k j)) (Ideal.ofBits .f32 0x47C35000#32)
      - meanK (F := Ideal) (colSumAt y) (ix2 0 j) * meanK (F := Ideal) (colSumAt y) (ix2 0 j) = _
  rw [meanK_coe y yr hyr j, ofBits_n, Ideal.div_coe (by norm_num)]
  simp only [hyr, ← EReal.coe_mul, coe_sum, ← EReal.coe_sub]

/-- The reference's mean of column j. -/
theorem meanR_coe :
    meanR (F := Ideal) y (ix1 j) = (((∑ k : Fin 100000, yr (ix2 k j)) * (1 / 100000) : ℝ) : EReal) := by
  show Ideal.div (colSum (F := Ideal) y (ix1 j)) (Ideal.ofBits .f32 0x47C35000#32) = _
  rw [colSum_apply]
  simp only [hyr]
  rw [ofBits_n, Ideal.div_coe (by norm_num), coe_sum, ← EReal.coe_mul]

/-- The centred entry (r, j). -/
theorem cenR_coe (r : Fin 100000) :
    cenR (F := Ideal) y (ix2 r j) = ((yr (ix2 r j) - (∑ k : Fin 100000, yr (ix2 k j)) * (1 / 100000) : ℝ) : EReal) := by
  unfold cenR
  rw [subf_apply, bcast_row_apply, hostDivf_apply, bcast_vec_apply, colSum_apply]
  show y (ix2 r j) - Ideal.div _ (Ideal.ofBits .f32 0x47C35000#32) = _
  simp only [hyr]
  rw [ofBits_n, Ideal.div_coe (by norm_num), coe_sum, ← EReal.coe_mul, ← EReal.coe_sub]

/-- The reference's variance of column j: the mean of the centred squares (the guard on the divisor's sign holds). -/
theorem varR_coe :
    varR (F := Ideal) y (ix1 j)
      = (((∑ k : Fin 100000, (yr (ix2 k j) - (∑ k : Fin 100000, yr (ix2 k j)) * (1 / 100000))
            * (yr (ix2 k j) - (∑ k : Fin 100000, yr (ix2 k j)) * (1 / 100000))) * (1 / 100000) : ℝ) : EReal) := by
  unfold varR
  rw [select_apply, broadcastInDim_scalar_apply, cmpf_apply, ddofR_eq, constant_apply, Ideal.ofBits_zero_f32, ogt_n_zero,
    select_one, hostDivf_apply, broadcastInDim_scalar_apply, ddofR_eq, Ideal.div_coe (by norm_num), colSum_apply]
  simp only [mulf_apply, cenR_coe y yr hyr j, ← EReal.coe_mul, coe_sum]

/-- Both inverse deviations of column j are one real number. -/
theorem rstd_coe :
    ∃ R : ℝ, rstdK (F := Ideal) (colSumAt y) (colSqAt y) (ix2 0 j) = (R : EReal) ∧ rstdR (F := Ideal) y (ix1 j) = (R : EReal) := by
  obtain ⟨e, he, hε⟩ := ofBits_eps
  have hv := var_identity fun k : Fin 100000 => yr (ix2 k j)
  have h0 := var_nonneg (fun k : Fin 100000 => yr (ix2 k j)) ((∑ k : Fin 100000, yr (ix2 k j)) * (1 / 100000))
  rw [hv] at h0
  refine ⟨(Real.sqrt ((∑ k : Fin 100000, yr (ix2 k j) * yr (ix2 k j)) * (1 / 100000)
      - ((∑ k : Fin 100000, yr (ix2 k j)) * (1 / 100000)) * ((∑ k : Fin 100000, yr (ix2 k j)) * (1 / 100000)) + e))⁻¹, ?_, ?_⟩
  · show Ideal.rsqrt (varK (F := Ideal) (colSumAt y) (colSqAt y) (ix2 0 j) + Ideal.ofBits .f32 0x3727C5AC#32) = _
    rw [varK_coe y yr hyr j, hε, ← EReal.coe_add, rsqrt_pos (by linarith)]
  · show Ideal.rsqrt (varR (F := Ideal) y (ix1 j) + Ideal.ofBits .f32 0x3727C5AC#32) = _
    rw [varR_coe y yr hyr j, hv, hε, ← EReal.coe_add, rsqrt_pos (by linarith)]

end Column

end Head1

open Head1 in
/-- Entry (r, j): the kernel's scale and shift, made from the column sums and the column sums of squares, applied to
    y give the reference's batch normalisation of y. -/
theorem bn_pointwise (y : CF Ideal S100000x128) (a10 a11 : CF Ideal S128) (hy : Fin' y) (h10 : Fin' a10) (h11 : Fin' a11)
    (r : Fin 100000) (j : Fin 128) :
    y (ix2 r j) * scaleK (F := Ideal) (colSumAt y) (colSqAt y) a10 (ix2 0 j)
        + shiftK (F := Ideal) (colSumAt y) (colSqAt y) a10 a11 (ix2 0 j)
      = bnR (F := Ideal) y a10 a11 (ix2 r j) := by
  have hy' : ∀ i, ∃ x : ℝ, y i = (x : EReal) := hy
  have h10' : ∀ i, ∃ x : ℝ, a10 i = (x : EReal) := h10
  have h11' : ∀ i, ∃ x : ℝ, a11 i = (x : EReal) := h11
  choose yr hyr using hy'
  choose g hg using h10'
  choose b hb using h11'
  obtain ⟨R, hK, hR⟩ := rstd_coe y yr hyr j
  have hs : scaleK (F := Ideal) (colSumAt y) (colSqAt y) a10 (ix2 0 j) = ((R * g (ix1 j) : ℝ) : EReal) := by
    show rstdK (F := Ideal) (colSumAt y) (colSqAt y) (ix2 0 j) * row128K (F := Ideal) a10 (ix2 0 j) = _
    rw [hK, row128K_apply, hg, ← EReal.coe_mul]
  have hsh : shiftK (F := Ideal) (colSumAt y) (colSqAt y) a10 a11 (ix2 0 j)
      = ((b (ix1 j) - (∑ k : Fin 100000, yr (ix2 k j)) * (1 / 100000) * (R * g (ix1 j)) : ℝ) : EReal) := by
    show row128K (F := Ideal) a11 (ix2 0 j)
        - meanK (F := Ideal) (colSumAt y) (ix2 0 j) * scaleK (F := Ideal) (colSumAt y) (colSqAt y) a10 (ix2 0 j) = _
    rw [row128K_apply, hb, meanK_coe y yr hyr j, hs, ← EReal.coe_mul, ← EReal.coe_sub]
  rw [hs, hsh]
  unfold bnR
  rw [addf_apply, mulf_apply, mulf_apply, subf_apply, rowB_apply, rowB_apply, rowB_apply, rowB_apply,
    meanR_coe y yr hyr j, hR, hg, hb, hyr]
  simp only [← EReal.coe_mul, ← EReal.coe_add, ← EReal.coe_sub]
  exact congrArg _ (by ring)

end Cert.Net

end
-- ==== Proof.LibGraphRead.lean ====
/-
  Reading the host's accumulating scatter and its row gather at ONE index, over the extended reals.

  A segment sum prints as a scatter-add whose indices are an [n × 1] column: update `e` (a scalar, or row `e` of an
  [n × C] array) is added at the row its index word names, read signed and NOT clamped, and is dropped when that row is
  outside the operand. So entry `v` of the result is the operand's entry plus the sum of the updates whose word is `v`.
  A row gather `X[idx]` reads, for position `e`, the row its word names, read signed and clamped into [0, N − 1].
  A negative word is first wrapped by adding N; a word that lands on `v` is not negative, so wrap and clamp return `v`.
-/
import Idealize.ShloMosaic.PureOps.Ideal
import Idealize.ShloMosaic.Lib.ValueIdx
import Idealize.ShloMosaic.Lib.StableHlo.Predicate

noncomputable section

namespace Cert.GcnLib

open Idealize.ShloMosaic Idealize.ShloMosaic.ValueIdx

/-- The updates that land on row `v`: their index word, read signed, is `v`. -/
def landing {N n : ℕ} (idx : IVec ⟨2, ![n, 1]⟩ 32) (v : Fin N) : Finset (Fin n) :=
  Finset.univ.filter fun e : Fin n => (idx (ix2 e 0)).toInt = (v.val : Int)

/-- An update lands on operand index `i` exactly when, on every axis, its start plus its window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have h1 := congrFun (Option.some.inj heq) a
      have h2 := congrArg Fin.val h1
      simp only at h2
      have := (h a).1
      omega
    · intro hall
      congr 1
      funext a
      apply Fin.ext
      simp only
      rw [hall a]
      simp
  · next h =>
    constructor
    · intro heq; cases heq
    · intro hall
      exfalso
      apply h
      intro a
      rw [hall a]
      exact ⟨Int.natCast_nonneg _, by exact_mod_cast (i a).isLt⟩

/-- A scatter-add into a rank-1 operand through a column of indices, read at entry `v`. -/
theorem scatterAdd_vec_apply {N n : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ 32) (u : (⟨1, ![n]⟩ : Shape).Idx → EReal) (v : Fin N) :
    Ideal.hostScatterAdd d x idx u (ix1 v) = x (ix1 v) + ∑ e ∈ landing idx v, u (ix1 e) := by
  have hm : (0 : Fin 1) ∈ d.scatterDimsToOperandDims := by rw [hsd]; exact List.mem_singleton.mpr rfl
  have hk : (0 : Fin 1) ∉ d.sKept := by
    simp [ScatterDims.sKept, Shape.kept, hiw]
  have hstart : ∀ j : (⟨1, ![n]⟩ : Shape).Idx, d.start j idx 0 = (idx (ix2 (j 0) 0)).toInt := by
    intro j
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hwin : ∀ j : (⟨1, ![n]⟩ : Shape).Idx, d.window j 0 = 0 := by
    intro j; unfold ScatterDims.window; rw [dif_neg hk]
  have hiff : ∀ j : (⟨1, ![n]⟩ : Shape).Idx, d.resultIdx? j idx = some (ix1 v) ↔ (idx (ix2 (j 0) 0)).toInt = (v.val : Int) := by
    intro j
    rw [resultIdx?_eq_some_iff]
    constructor
    · intro h
      have h0 : d.start j idx 0 + (d.window j 0 : Int) = (v.val : Int) := h 0
      rw [hstart, hwin] at h0
      simpa using h0
    · intro h a
      have ha0 : a = 0 := Subsingleton.elim _ _
      subst ha0
      show d.start j idx 0 + (d.window j 0 : Int) = (v.val : Int)
      rw [hstart, hwin, h]
      simp
  show x (ix1 v) + ∑ j ∈ Finset.univ.filter (fun j => d.resultIdx? j idx = some (ix1 v)), u j = _
  congr 1
  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg u (eq_ix1 j)

/-- A scatter-add of ROWS into an [N × C] operand through a column of indices, read at entry `(v, j)`. -/
theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j) = x (ix2 v j) + ∑ e ∈ landing idx v, u (ix2 e j) := by
  have hm : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by simp [ScatterDims.sKept, Shape.kept, hiw]
  have hk1 : (1 : Fin 2) ∈ d.sKept := by simp [ScatterDims.sKept, Shape.kept, hiw]
  have hstart0 : ∀ t : (⟨2, ![n, C]⟩ : Shape).Idx, d.start t idx 0 = (idx (ix2 (t 0) 0)).toInt := by
    intro t
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have hX : ∀ X : Fin 2, X ∈ d.uScatter → (t X).val = (t 0).val := by
        intro X hX
        have h1 : X ∉ d.updateWindowDims := by simpa [ScatterDims.uScatter, Shape.kept] using hX
        rw [huw] at h1
        match X, h1 with
        | ⟨0, _⟩, _ => rfl
        | ⟨1, _⟩, h => exact absurd (List.mem_singleton.mpr rfl) h
      exact hX _ (List.getElem_mem _)
    | ⟨1, _⟩ =>
      unfold ScatterDims.siIdx
      rw [dif_pos (by rw [hiv])]
      apply Fin.ext
      show List.idxOf (0 : Fin 2) d.scatterDimsToOperandDims = 0
      rw [hsd]; simp
  have hstart1 : ∀ t : (⟨2, ![n, C]⟩ : Shape).Idx, d.start t idx 1 = 0 := by
    intro t; unfold ScatterDims.start; rw [dif_neg hm1]
  have hwin0 : ∀ t : (⟨2, ![n, C]⟩ : Shape).Idx, d.window t 0 = 0 := by
    intro t; unfold ScatterDims.window; rw [dif_neg hk0]
  have hl : ∀ (l : List (Fin 2)) (_ : l = [1]) (k : ℕ) (hk : k < l.length), l[k] = 1 := by
    intro l hl k hk; subst hl
    simp only [List.length_singleton, Nat.lt_one_iff] at hk
    subst hk; rfl
  have hwin1 : ∀ t : (⟨2, ![n, C]⟩ : Shape).Idx, d.window t 1 = (t 1).val := by
    intro t; unfold ScatterDims.window; rw [dif_pos hk1]
    rw [hl d.updateWindowDims huw]
  have hiff : ∀ t : (⟨2, ![n, C]⟩ : Shape).Idx,
      d.resultIdx? t idx = some (ix2 v j) ↔ (idx (ix2 (t 0) 0)).toInt = (v.val : Int) ∧ t 1 = j := by
    intro t
    rw [resultIdx?_eq_some_iff]
    constructor
    · intro h
      have h0 : d.start t idx 0 + (d.window t 0 : Int) = (v.val : Int) := h 0
      have h1 : d.start t idx 1 + (d.window t 1 : Int) = (j.val : Int) := h 1
      rw [hstart0, hwin0] at h0
      rw [hstart1, hwin1] at h1
      refine ⟨by simpa using h0, Fin.ext ?_⟩
      have h2 : ((t 1).val : Int) = (j.val : Int) := by simpa using h1
      exact_mod_cast h2
    · rintro ⟨h0, h1⟩ a
      match a with
      | ⟨0, _⟩ =>
        show d.start t idx 0 + (d.window t 0 : Int) = (v.val : Int)
        rw [hstart0, hwin0, h0]; simp
      | ⟨1, _⟩ =>
        show d.start t idx 1 + (d.window t 1 : Int) = (j.val : Int)
        rw [hstart1, hwin1, h1]; simp
  show x (ix2 v j) + ∑ t ∈ Finset.univ.filter (fun t => d.resultIdx? t idx = some (ix2 v j)), u t = _
  congr 1
  refine Finset.sum_bij' (fun t _ => t 0) (fun e _ => ix2 e j) ?_ ?_ ?_ ?_ ?_
  · intro t ht
    exact Finset.mem_filter.2 ⟨Finset.mem_univ _, ((hiff t).1 (Finset.mem_filter.1 ht).2).1⟩
  · intro e he
    exact Finset.mem_filter.2 ⟨Finset.mem_univ _, (hiff (ix2 e j)).2 ⟨(Finset.mem_filter.1 he).2, rfl⟩⟩
  · intro t ht
    have h1 := ((hiff t).1 (Finset.mem_filter.1 ht).2).2
    show ix2 (t 0) j = t
    rw [← h1]; exact (eq_ix2 t).symm
  · intro e _
    rfl
  · intro t ht
    have h1 := ((hiff t).1 (Finset.mem_filter.1 ht).2).2
    show u t = u (ix2 (t 0) j)
    rw [← h1]; exact congrArg u (eq_ix2 t)

/-- The row a gather reads for index word `w`: read signed, clamped into [0, N − 1]. -/
def clampRow (N : ℕ) (hN : 0 < N) (w : BitVec 32) : Fin N := ⟨min w.toInt.toNat (N - 1), by omega⟩

/-- A gather of entries of a rank-1 operand through a column of indices, read at position `e`
    (Lib/StableHlo/Predicate.lean `gather_take` with the row named). -/
theorem gather_vec_apply {α : Type} {N n : ℕ} (hN : 0 < N) (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ 32) (e : Fin n) :
    Host.gather d x idx (ix1 e) = x (ix1 (clampRow N hN (idx (ix2 e 0)))) := by
  have h1 : (ix1 e : (⟨1, ![n]⟩ : Shape).Idx) = Shape.Idx.ofFin e := by
    funext a; match a with | ⟨0, _⟩ => rfl
  have h2 : (ix2 e 0 : (⟨2, ![n, 1]⟩ : Shape).Idx) = StableHlo.Predicate.ixP e := by
    funext a; match a with | ⟨0, _⟩ => rfl | ⟨1, _⟩ => rfl
  rw [h1, h2, StableHlo.Predicate.gather_take d hcoll hob hsim hivd x idx e hN]
  congr 1
  funext a; match a with | ⟨0, _⟩ => rfl

/-- A gather of ROWS of an [N × C] operand through a column of indices, read at `(e, j)`. -/
theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  unfold Host.gather
  congr 1
  funext a
  apply Fin.ext
  have hb : ∀ a, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ix2 e 0)).toInt.toNat (N - 1)
    rw [GatherDims.batchCoord_eq_zero _ _ _ (hb _), GatherDims.offCoord_eq_zero _ _ _ hk]
    simp only [Nat.add_zero]
    unfold GatherDims.start
    rw [dif_pos hm]
    have hsi : d.siIdx (ix2 e j) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        have hX : ∀ X : Fin 2, X ∈ d.batchDims → ((ix2 e j : (⟨2, ![n, C]⟩ : Shape).Idx) X).val = e.val := by
          intro X hX
          have h1 : X ∉ d.offsetDims := by simpa [GatherDims.batchDims, Shape.kept] using hX
          rw [hoff] at h1
          match X, h1 with
          | ⟨0, _⟩, _ => rfl
          | ⟨1, _⟩, h => exact absurd (List.mem_singleton.mpr rfl) h
        exact hX _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
    show min (idx (ix2 e 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb _)]
    unfold GatherDims.start
    rw [dif_neg hm]
    unfold GatherDims.offCoord
    rw [dif_pos hk]
    simp only [Nat.zero_add, Nat.add_zero]
    have hl : ∀ (l : List (Fin 2)) (_ : l = [1]) (k : ℕ) (hk : k < l.length), l[k] = 1 := by
      intro l hl k hk; subst hl
      simp only [List.length_singleton, Nat.lt_one_iff] at hk
      subst hk; rfl
    rw [hl d.offsetDims hoff]

/-- The wrap of a negative index word: `select (w < 0) (w + N) w`, on one word. -/
def wrapWord (N : BitVec 32) (w : BitVec 32) : BitVec 32 :=
  Scalar.select (Scalar.cmpi .slt w 0#32) (IntOp.addi w N) w

/-- A word that lands on row `v` (read signed it is `v`, and `v < N`) is left alone by the wrap and by the clamp. -/
theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by
    simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.Head2.lean ====
/-
  Pooling by an indicator sum is pooling by an accumulating scatter: entry (g, j) of the scatter is the sum of the
  rows whose graph word, read signed, is g, and a 32-bit word read signed is g < 200 exactly when it is the word of
  g; the counts likewise; and dividing by the clipped counts broadcast along the row is the same on both sides.
-/
import proofs.«403864_j85770496901353_1_alg».proof.Proof.Net
import proofs.«403864_j85770496901353_1_alg».proof.Proof.LibGraphRead
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Net

open Idealize.ShloMosaic Idealize.ShloMosaic.ValueIdx Cert.ReferenceIdeal
open scoped BigOperators

/-- A 32-bit word read signed is g < 200 exactly when it is the word of g. -/
theorem toInt_eq_iff_word (w : BitVec 32) (g : Fin 200) : w.toInt = (g.val : Int) ↔ w = BitVec.ofNat 32 g.val := by
  have hg := g.isLt
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-- The sum over the rows landing on graph g is the indicator sum over all rows. -/
theorem sum_landing_eq_hot {n : ℕ} (idx : IVec ⟨2, ![n, 1]⟩ 32) (g : Fin 200) (u : Fin n → EReal) :
    ∑ e ∈ Cert.GcnLib.landing idx g, u e = ∑ r : Fin n, hot (idx (ix2 r 0)) g * u r := by
  unfold Cert.GcnLib.landing
  rw [Finset.sum_filter]
  refine Finset.sum_congr rfl fun r _ => ?_
  unfold hot
  by_cases h : idx (ix2 r 0) = BitVec.ofNat 32 g.val
  · rw [if_pos ((toInt_eq_iff_word _ g).2 h), if_pos h, one_mul]
  · rw [if_neg (fun h' => h ((toInt_eq_iff_word _ g).1 h')), if_neg h, zero_mul]

/-- The graph column by a broadcast reads the graph word of the row. -/
theorem bcol_apply (b : CI Ideal S100000) (r : Fin 100000) : bcol (F := Ideal) b (ix2 r 0) = b (ix1 r) := by
  unfold bcol
  exact broadcastInDim_apply _ _ _ _ (ix1 r) (fun a => match a with | ⟨0, _⟩ => rfl)

/-- The graph column by a reshape reads the graph word of the row. -/
theorem bcolK_apply (b : CI Ideal S100000) (r : Fin 100000) : bcolK (F := Ideal) b (ix2 r 0) = b (ix1 r) := by
  unfold bcolK
  refine shapeCast_apply _ _ _ (ix1 r) ?_
  rw [Shape.rowMajor_val_one, Shape.rowMajor_val_two]
  show r.val = r.val * 1 + 0
  omega

/-- A 200 × 1 column broadcast along the row reads the column at the row's graph. -/
theorem bcastRow_apply {α : Type} (h : (⟨2, ![200, 1]⟩ : Shape).BroadcastsInDim ⟨2, ![200, 128]⟩ ![0, 1])
    (x : (⟨2, ![200, 1]⟩ : Shape).Idx → α) (g : Fin 200) (j : Fin 128) :
    broadcastInDim ⟨2, ![200, 128]⟩ ![0, 1] h x (ix2 g j) = x (ix2 g 0) :=
  broadcastInDim_apply _ _ _ _ (ix2 g 0) (fun a => match a with | ⟨0, _⟩ => rfl | ⟨1, _⟩ => rfl)

/-- A length-200 vector broadcast to a column reads the vector at the graph. -/
theorem bcastCol_apply {α : Type} (h : (⟨1, ![200]⟩ : Shape).BroadcastsInDim ⟨2, ![200, 1]⟩ ![0])
    (x : (⟨1, ![200]⟩ : Shape).Idx → α) (g : Fin 200) :
    broadcastInDim ⟨2, ![200, 1]⟩ ![0] h x (ix2 g 0) = x (ix1 g) :=
  broadcastInDim_apply _ _ _ _ (ix1 g) (fun a => match a with | ⟨0, _⟩ => rfl)

/-- The reference's per-graph sums of the rectified rows at an entry: the indicator sum of the rows. -/
theorem sumsR_relu_apply (yn : CF Ideal S100000x128) (b : CI Ideal S100000) (g : Fin 200) (j : Fin 128) :
    sumsR (F := Ideal) (reluR (F := Ideal) yn) b (ix2 g j) = ∑ r : Fin 100000, hot (b (ix1 r)) g * max (yn (ix2 r j)) 0 := by
  unfold sumsR
  show Ideal.hostScatterAdd scatter_S200x128_S100000x1_S100000x128_1_0_0_1 _ (bcol (F := Ideal) b) (reluR (F := Ideal) yn) (ix2 g j) = _
  rw [Cert.GcnLib.scatterAdd_rows_apply _ rfl rfl rfl rfl]
  rw [sum_landing_eq_hot (bcol (F := Ideal) b) g (fun e => reluR (F := Ideal) yn (ix2 e j))]
  show Ideal.ofBits .f32 0x00000000#32 + _ = _
  rw [Ideal.ofBits_zero_f32, zero_add]
  refine Finset.sum_congr rfl fun r _ => ?_
  rw [bcol_apply]
  show _ * max (yn (ix2 r j)) (Ideal.ofBits .f32 0x00000000#32) = _
  rw [Ideal.ofBits_zero_f32]

/-- The reference's per-graph counts at an entry: the indicator count of the rows. -/
theorem countsR_apply (b : CI Ideal S100000) (g : Fin 200) :
    countsR (F := Ideal) b (ix1 g) = ∑ r : Fin 100000, hot (b (ix1 r)) g := by
  unfold countsR
  show Ideal.hostScatterAdd scatter_S200_S100000x1_S100000_n_0_0_1 _ (bcol (F := Ideal) b) _ (ix1 g) = _
  rw [Cert.GcnLib.scatterAdd_vec_apply _ rfl rfl rfl rfl]
  rw [sum_landing_eq_hot (bcol (F := Ideal) b) g (fun e => _)]
  show Ideal.ofBits .f32 0x00000000#32 + ∑ r : Fin 100000, _ * Ideal.ofBits .f32 0x3F800000#32 = _
  rw [Ideal.ofBits_zero_f32, zero_add, Ideal.ofBits_one_f32]
  refine Finset.sum_congr rfl fun r _ => ?_
  rw [bcol_apply, mul_one]

/-- The kernel's per-graph means, from indicator sums S of the rectified rows and the indicator counts, are the
    reference's per-graph means of the rectified rows. -/
theorem pool_bridge (yn : CF Ideal S100000x128) (b : CI Ideal S100000) (S : CF Ideal S200x128)
    (hS : ∀ (g : Fin 200) (j : Fin 128), S (ix2 g j) = ∑ r : Fin 100000, hot (bcolK (F := Ideal) b (ix2 r 0)) g * max (yn (ix2 r j)) 0) :
    gfeatK (F := Ideal) S (cntArr (bcolK (F := Ideal) b)) = gfeatR (F := Ideal) (reluR (F := Ideal) yn) b := by
  funext i
  obtain ⟨g, j, rfl⟩ : ∃ g j, i = ix2 g j := ⟨i 0, i 1, eq_ix2 i⟩
  have hnum : S (ix2 g j) = sumsR (F := Ideal) (reluR (F := Ideal) yn) b (ix2 g j) := by
    rw [hS g j, sumsR_relu_apply]
    refine Finset.sum_congr rfl fun r _ => ?_
    rw [bcolK_apply]
  have hcnt : cntAt (bcolK (F := Ideal) b) g = countsR (F := Ideal) b (ix1 g) := by
    rw [countsR_apply]
    unfold cntAt
    refine Finset.sum_congr rfl fun r _ => ?_
    rw [bcolK_apply]
  unfold gfeatK gfeatR
  rw [hostDivf_apply, hostDivf_apply, bcastRow_apply, bcastRow_apply, bcastCol_apply, hnum]
  refine congrArg (Ideal.div _) ?_
  show max (Ideal.ofBits .f32 0x3F800000#32) (cntAt (bcolK (F := Ideal) b) g) = max (Ideal.ofBits .f32 0x3F800000#32) (countsR (F := Ideal) b (ix1 g))
  rw [hcnt]

end Cert.Net

end
-- ==== Proof.Chain.lean ====
/-
  The kernel program's result, walked boundary by boundary: each host stretch and each region turns the buffers it
  reads into the network's next value, every other buffer keeping what it held, until the result buffer holds the
  network of the launch arguments.  The one place where the two programs compute differently, the normalisation
  folded into a scale and a shift and the pooling by an indicator product, is bridged for real-valued arrays.
-/
import proofs.«403864_j85770496901353_1_alg».proof.Proof.Gen.KernelIdeal.Frame
import proofs.«403864_j85770496901353_1_alg».proof.Proof.Net
import proofs.«403864_j85770496901353_1_alg».proof.Proof.ChainKeep
import proofs.«403864_j85770496901353_1_alg».proof.Proof.KHost
import proofs.«403864_j85770496901353_1_alg».proof.Proof.KMm0
import proofs.«403864_j85770496901353_1_alg».proof.Proof.KMm2
import proofs.«403864_j85770496901353_1_alg».proof.Proof.KMm4
import proofs.«403864_j85770496901353_1_alg».proof.Proof.KMm6
import proofs.«403864_j85770496901353_1_alg».proof.Proof.KGru1
import proofs.«403864_j85770496901353_1_alg».proof.Proof.KGru3
import proofs.«403864_j85770496901353_1_alg».proof.Proof.KGru5
import proofs.«403864_j85770496901353_1_alg».proof.Proof.KGru7
import proofs.«403864_j85770496901353_1_alg».proof.Proof.KFc1
import proofs.«403864_j85770496901353_1_alg».proof.Proof.KPool
import proofs.«403864_j85770496901353_1_alg».proof.Proof.GruRef
import proofs.«403864_j85770496901353_1_alg».proof.Proof.Head1
import proofs.«403864_j85770496901353_1_alg».proof.Proof.Head2

set_option maxRecDepth 16384

noncomputable section

namespace Cert.KVal

open Idealize.ShloMosaic Idealize.ShloMosaic.TcCoe Idealize.ShloMosaic.ValueIdx Idealize.SL.Sem Idealize.ShloMosaic.StableHlo
open Cert.KernelIdeal Cert.KernelIdeal.Gen Cert.Net

variable (m : (ℓ : Loc nD τ sig) → Buf (Elt Ideal) ℓ) (ρ : Dev nD → PrngReg) (c : Dev nD)

/-! ## The launch arguments -/
abbrev a0 : CF Ideal S100000x128 := W0 m ρ c (Proc.devRef .tc main_arg0)
abbrev a1 : CI Ideal S2x1600000 := W0 m ρ c (Proc.devRef .tc main_arg1)
abbrev a2 : CI Ideal S100000 := W0 m ρ c (Proc.devRef .tc main_arg2)
abbrev a3 : CF Ideal S4x128x128 := W0 m ρ c (Proc.devRef .tc main_arg3)
abbrev a4 : CF Ideal S384x128 := W0 m ρ c (Proc.devRef .tc main_arg4)
abbrev a5 : CF Ideal S384x128 := W0 m ρ c (Proc.devRef .tc main_arg5)
abbrev a6 : CF Ideal S384 := W0 m ρ c (Proc.devRef .tc main_arg6)
abbrev a7 : CF Ideal S384 := W0 m ρ c (Proc.devRef .tc main_arg7)
abbrev a8 : CF Ideal S128x128 := W0 m ρ c (Proc.devRef .tc main_arg8)
abbrev a9 : CF Ideal S128 := W0 m ρ c (Proc.devRef .tc main_arg9)
abbrev a10 : CF Ideal S128 := W0 m ρ c (Proc.devRef .tc main_arg10)
abbrev a11 : CF Ideal S128 := W0 m ρ c (Proc.devRef .tc main_arg11)
abbrev a12 : CF Ideal S10x128 := W0 m ρ c (Proc.devRef .tc main_arg12)
abbrev a13 : CF Ideal S10 := W0 m ρ c (Proc.devRef .tc main_arg13)

/-! ## The node states after each layer -/
def hL1 : CF Ideal S100000x128 := layerR (wsl0 (a3 m ρ c)) (a0 m ρ c) (a1 m ρ c) (a4 m ρ c) (a5 m ρ c) (a6 m ρ c) (a7 m ρ c)
def hL2 : CF Ideal S100000x128 := layerR (wsl1 (a3 m ρ c)) (hL1 m ρ c) (a1 m ρ c) (a4 m ρ c) (a5 m ρ c) (a6 m ρ c) (a7 m ρ c)
def hL3 : CF Ideal S100000x128 := layerR (wsl2 (a3 m ρ c)) (hL2 m ρ c) (a1 m ρ c) (a4 m ρ c) (a5 m ρ c) (a6 m ρ c) (a7 m ρ c)
def hL4 : CF Ideal S100000x128 := layerR (wsl3 (a3 m ρ c)) (hL3 m ρ c) (a1 m ρ c) (a4 m ρ c) (a5 m ρ c) (a6 m ρ c) (a7 m ρ c)

/-! ## What the first host stretch leaves -/
theorem w1_v1 : W1 m ρ c (Proc.devRef .tc main_v1) = srcR (a1 m ρ c) := host0_v1 (W0 m ρ c)
theorem w1_v3 : W1 m ρ c (Proc.devRef .tc main_v3) = dstR (a1 m ρ c) := host0_v3 (W0 m ρ c)
theorem w1_v4 : W1 m ρ c (Proc.devRef .tc main_v4) = bcolK (a2 m ρ c) := host0_v4 (W0 m ρ c)
theorem w1_v5 : W1 m ρ c (Proc.devRef .tc main_v5) = trTK (a4 m ρ c) := host0_v5 (W0 m ρ c)
theorem w1_v6 : W1 m ρ c (Proc.devRef .tc main_v6) = trTK (a5 m ρ c) := host0_v6 (W0 m ρ c)
theorem w1_v7 : W1 m ρ c (Proc.devRef .tc main_v7) = row384K (a6 m ρ c) := host0_v7 (W0 m ρ c)
theorem w1_v8 : W1 m ρ c (Proc.devRef .tc main_v8) = row384K (a7 m ρ c) := host0_v8 (W0 m ρ c)
theorem w1_v10 : W1 m ρ c (Proc.devRef .tc main_v10) = wsl0 (a3 m ρ c) := host0_v10 (W0 m ρ c)

/-! ## Layer 0 -/
theorem w2_v11 : W2 m ρ c (Proc.devRef .tc main_v11) = mmR (a0 m ρ c) (wsl0 (a3 m ρ c)) :=
  (W2_arr m ρ c 2).trans (mm0_val (V1 m ρ) c _ _ (keep_arg0_1 m ρ c) (w1_v10 m ρ c))

theorem w3_v21 : W3 m ρ c (Proc.devRef .tc main_v21)
    = aggR (srcR (a1 m ρ c)) (dstR (a1 m ρ c)) (mmR (a0 m ρ c) (wsl0 (a3 m ρ c))) :=
  (host1_v21 (W2 m ρ c)).trans (by
    rw [keep_v1_2 m ρ c, keep_v3_2 m ρ c, w2_v11 m ρ c, w1_v1 m ρ c, w1_v3 m ρ c])

theorem w4_v22 : W4 m ρ c (Proc.devRef .tc main_v22) = hL1 m ρ c :=
  (W4_arr m ρ c 6).trans (gru1_val (V3 m ρ) c _ _ _ _ _ _ (w3_v21 m ρ c) (keep_arg0_3 m ρ c)
    ((keep_v5_3 m ρ c).trans (w1_v5 m ρ c)) ((keep_v6_3 m ρ c).trans (w1_v6 m ρ c))
    ((keep_v7_3 m ρ c).trans (w1_v7 m ρ c)) ((keep_v8_3 m ρ c).trans (w1_v8 m ρ c)))

/-! ## Layer 1 -/
theorem w5_v24 : W5 m ρ c (Proc.devRef .tc main_v24) = wsl1 (a3 m ρ c) :=
  (host2_v24 (W4 m ρ c)).trans (by rw [keep_arg3_4 m ρ c])

theorem w6_v25 : W6 m ρ c (Proc.devRef .tc main_v25) = mmR (hL1 m ρ c) (wsl1 (a3 m ρ c)) :=
  (W6_arr m ρ c 2).trans (mm2_val (V5 m ρ) c _ _ ((keep_v22_5 m ρ c).trans (w4_v22 m ρ c)) (w5_v24 m ρ c))

theorem w7_v35 : W7 m ρ c (Proc.devRef .tc main_v35)
    = aggR (srcR (a1 m ρ c)) (dstR (a1 m ρ c)) (mmR (hL1 m ρ c) (wsl1 (a3 m ρ c))) :=
  (host3_v35 (W6 m ρ c)).trans (by
    rw [keep_v1_6 m ρ c, keep_v3_6 m ρ c, w6_v25 m ρ c, w1_v1 m ρ c, w1_v3 m ρ c])

theorem w8_v36 : W8 m ρ c (Proc.devRef .tc main_v36) = hL2 m ρ c :=
  (W8_arr m ρ c 6).trans (gru3_val (V7 m ρ) c _ _ _ _ _ _ (w7_v35 m ρ c)
    ((keep_v22_7 m ρ c).trans (w4_v22 m ρ c))
    ((keep_v5_7 m ρ c).trans (w1_v5 m ρ c)) ((keep_v6_7 m ρ c).trans (w1_v6 m ρ c))
    ((keep_v7_7 m ρ c).trans (w1_v7 m ρ c)) ((keep_v8_7 m ρ c).trans (w1_v8 m ρ c)))

/-! ## Layer 2 -/
theorem w9_v38 : W9 m ρ c (Proc.devRef .tc main_v38) = wsl2 (a3 m ρ c) :=
  (host4_v38 (W8 m ρ c)).trans (by rw [keep_arg3_8 m ρ c])

theorem w10_v39 : W10 m ρ c (Proc.devRef .tc main_v39) = mmR (hL2 m ρ c) (wsl2 (a3 m ρ c)) :=
  (W10_arr m ρ c 2).trans (mm4_val (V9 m ρ) c _ _ ((keep_v36_9 m ρ c).trans (w8_v36 m ρ c)) (w9_v38 m ρ c))

theorem w11_v49 : W11 m ρ c (Proc.devRef .tc main_v49)
    = aggR (srcR (a1 m ρ c)) (dstR (a1 m ρ c)) (mmR (hL2 m ρ c) (wsl2 (a3 m ρ c))) :=
  (host5_v49 (W10 m ρ c)).trans (by
    rw [keep_v1_10 m ρ c, keep_v3_10 m ρ c, w10_v39 m ρ c, w1_v1 m ρ c, w1_v3 m ρ c])

theorem w12_v50 : W12 m ρ c (Proc.devRef .tc main_v50) = hL3 m ρ c :=
  (W12_arr m ρ c 6).trans (gru5_val (V11 m ρ) c _ _ _ _ _ _ (w11_v49 m ρ c)
    ((keep_v36_11 m ρ c).trans (w8_v36 m ρ c))
    ((keep_v5_11 m ρ c).trans (w1_v5 m ρ c)) ((keep_v6_11 m ρ c).trans (w1_v6 m ρ c))
    ((keep_v7_11 m ρ c).trans (w1_v7 m ρ c)) ((keep_v8_11 m ρ c).trans (w1_v8 m ρ c)))

/-! ## Layer 3 -/
theorem w13_v52 : W13 m ρ c (Proc.devRef .tc main_v52) = wsl3 (a3 m ρ c) :=
  (host6_v52 (W12 m ρ c)).trans (by rw [keep_arg3_12 m ρ c])

theorem w14_v53 : W14 m ρ c (Proc.devRef .tc main_v53) = mmR (hL3 m ρ c) (wsl3 (a3 m ρ c)) :=
  (W14_arr m ρ c 2).trans (mm6_val (V13 m ρ) c _ _ ((keep_v50_13 m ρ c).trans (w12_v50 m ρ c)) (w13_v52 m ρ c))

theorem w15_v63 : W15 m ρ c (Proc.devRef .tc main_v63)
    = aggR (srcR (a1 m ρ c)) (dstR (a1 m ρ c)) (mmR (hL3 m ρ c) (wsl3 (a3 m ρ c))) :=
  (host7_v63 (W14 m ρ c)).trans (by
    rw [keep_v1_14 m ρ c, keep_v3_14 m ρ c, w14_v53 m ρ c, w1_v1 m ρ c, w1_v3 m ρ c])

theorem w16_v64 : W16 m ρ c (Proc.devRef .tc main_v64) = hL4 m ρ c :=
  (W16_arr m ρ c 6).trans (gru7_val (V15 m ρ) c _ _ _ _ _ _ (w15_v63 m ρ c)
    ((keep_v50_15 m ρ c).trans (w12_v50 m ρ c))
    ((keep_v5_15 m ρ c).trans (w1_v5 m ρ c)) ((keep_v6_15 m ρ c).trans (w1_v6 m ρ c))
    ((keep_v7_15 m ρ c).trans (w1_v7 m ρ c)) ((keep_v8_15 m ρ c).trans (w1_v8 m ρ c)))

/-! ## The head: first dense map with its column sums, the folded normalisation, the pooling -/
theorem w17_v65 : W17 m ρ c (Proc.devRef .tc main_v65) = trSqK (a8 m ρ c) :=
  (host8_v65 (W16 m ρ c)).trans (by rw [keep_arg8_16 m ρ c])
theorem w17_v66 : W17 m ρ c (Proc.devRef .tc main_v66) = row128K (a9 m ρ c) :=
  (host8_v66 (W16 m ρ c)).trans (by rw [keep_arg9_16 m ρ c])

/-- The first head of the final node states. -/
def yK : CF Ideal S100000x128 := fc1R (hL4 m ρ c) (a8 m ρ c) (a9 m ρ c)

theorem w18_v67_0 : W18 m ρ c (Proc.devRef .tc main_v67_0) = yK m ρ c :=
  (W18_arr m ρ c 3).trans (fc1_y (V17 m ρ) c _ _ _ ((keep_v64_17 m ρ c).trans (w16_v64 m ρ c)) (w17_v65 m ρ c) (w17_v66 m ρ c))
theorem w18_v67_1 : W18 m ρ c (Proc.devRef .tc main_v67_1) = colSumAt (yK m ρ c) :=
  (W18_arr m ρ c 4).trans (fc1_s (V17 m ρ) c _ _ _ ((keep_v64_17 m ρ c).trans (w16_v64 m ρ c)) (w17_v65 m ρ c) (w17_v66 m ρ c))
theorem w18_v67_2 : W18 m ρ c (Proc.devRef .tc main_v67_2) = colSqAt (yK m ρ c) :=
  (W18_arr m ρ c 5).trans (fc1_q (V17 m ρ) c _ _ _ ((keep_v64_17 m ρ c).trans (w16_v64 m ρ c)) (w17_v65 m ρ c) (w17_v66 m ρ c))

/-- The kernel's scale and shift. -/
def scK : CF Ideal S1x128 := scaleK (colSumAt (yK m ρ c)) (colSqAt (yK m ρ c)) (a10 m ρ c)
def shK : CF Ideal S1x128 := shiftK (colSumAt (yK m ρ c)) (colSqAt (yK m ρ c)) (a10 m ρ c) (a11 m ρ c)

theorem w19_v78 : W19 m ρ c (Proc.devRef .tc main_v78) = scK m ρ c :=
  (host9_v78 (W18 m ρ c)).trans (by rw [w18_v67_1 m ρ c, w18_v67_2 m ρ c, keep_arg10_18 m ρ c]; rfl)
theorem w19_v81 : W19 m ρ c (Proc.devRef .tc main_v81) = shK m ρ c :=
  (host9_v81 (W18 m ρ c)).trans (by rw [w18_v67_1 m ρ c, w18_v67_2 m ρ c, keep_arg10_18 m ρ c, keep_arg11_18 m ρ c]; rfl)

theorem w20_v82_0 : W20 m ρ c (Proc.devRef .tc main_v82_0) = poolArr (yK m ρ c) (scK m ρ c) (shK m ρ c) (bcolK (a2 m ρ c)) :=
  (W20_arr m ρ c 4).trans (pool_sums (V19 m ρ) c _ _ _ _ ((keep_v67_0_19 m ρ c).trans (w18_v67_0 m ρ c)) (w19_v78 m ρ c) (w19_v81 m ρ c)
    ((keep_v4_19 m ρ c).trans (w1_v4 m ρ c)))
theorem w20_v82_1 : W20 m ρ c (Proc.devRef .tc main_v82_1) = cntArr (bcolK (a2 m ρ c)) :=
  (W20_arr m ρ c 5).trans (pool_counts (V19 m ρ) c _ _ _ _ ((keep_v67_0_19 m ρ c).trans (w18_v67_0 m ρ c)) (w19_v78 m ρ c) (w19_v81 m ρ c)
    ((keep_v4_19 m ρ c).trans (w1_v4 m ρ c)))

theorem w24_v91 : W24 m ρ c (Proc.devRef .tc main_v91)
    = lsmR (logitsR (gfeatK (poolArr (yK m ρ c) (scK m ρ c) (shK m ρ c) (bcolK (a2 m ρ c))) (cntArr (bcolK (a2 m ρ c))))
        (a12 m ρ c) (a13 m ρ c)) :=
  (host10_v91 (W20 m ρ c)).trans (by rw [w20_v82_0 m ρ c, w20_v82_1 m ρ c, keep_arg12_20 m ρ c, keep_arg13_20 m ρ c])

/-! ## The result is the network of the launch arguments -/
theorem hL1_fin (h0 : Fin' (a0 m ρ c)) : Fin' (hL1 m ρ c) := gruR_fin _ _ _ _ _ _ h0
theorem hL2_fin (h0 : Fin' (a0 m ρ c)) : Fin' (hL2 m ρ c) := gruR_fin _ _ _ _ _ _ (hL1_fin m ρ c h0)
theorem hL3_fin (h0 : Fin' (a0 m ρ c)) : Fin' (hL3 m ρ c) := gruR_fin _ _ _ _ _ _ (hL2_fin m ρ c h0)
theorem hL4_fin (h0 : Fin' (a0 m ρ c)) : Fin' (hL4 m ρ c) := gruR_fin _ _ _ _ _ _ (hL3_fin m ρ c h0)

/-- With real-valued node features, head weights and normalisation parameters, the kernel program's result buffer
    ends at the network of the launch arguments. -/
theorem kernel_value (h0 : Fin' (a0 m ρ c)) (h8 : Fin' (a8 m ρ c)) (h9 : Fin' (a9 m ρ c)) (h10 : Fin' (a10 m ρ c)) (h11 : Fin' (a11 m ρ c)) :
    W24 m ρ c (Proc.devRef .tc main_v91)
      = netR (a0 m ρ c) (a1 m ρ c) (a2 m ρ c) (a3 m ρ c) (a4 m ρ c) (a5 m ρ c) (a6 m ρ c) (a7 m ρ c) (a8 m ρ c) (a9 m ρ c)
          (a10 m ρ c) (a11 m ρ c) (a12 m ρ c) (a13 m ρ c) := by
  have hy : Fin' (yK m ρ c) := fc1R_fin _ _ _ (hL4_fin m ρ c h0) h8 h9
  have hb : gfeatK (poolArr (yK m ρ c) (scK m ρ c) (shK m ρ c) (bcolK (a2 m ρ c))) (cntArr (bcolK (a2 m ρ c)))
      = gfeatR (reluR (bnR (yK m ρ c) (a10 m ρ c) (a11 m ρ c))) (a2 m ρ c) :=
    pool_bridge (bnR (yK m ρ c) (a10 m ρ c) (a11 m ρ c)) (a2 m ρ c) _ (fun g j => by
      show poolAt (yK m ρ c) (scK m ρ c) (shK m ρ c) (bcolK (a2 m ρ c)) g j = _
      unfold poolAt
      refine Finset.sum_congr rfl fun r _ => ?_
      rw [show (yK m ρ c) (ix2 r j) * (scK m ρ c) (ix2 0 j) + (shK m ρ c) (ix2 0 j)
            = bnR (yK m ρ c) (a10 m ρ c) (a11 m ρ c) (ix2 r j) from bn_pointwise (yK m ρ c) _ _ hy h10 h11 r j])
  rw [w24_v91 m ρ c, hb]
  rfl

end Cert.KVal

end
-- ==== Proof.PreFin.lean ====
/-
  The precondition read back: an array whose every entry has absolute value below +∞ holds real numbers only.
-/
import proofs.«403864_j85770496901353_1_alg».proof.Defs
import proofs.«403864_j85770496901353_1_alg».proof.Proof.Gen.Pre_finite_inputs
import proofs.«403864_j85770496901353_1_alg».proof.Proof.Net
import Idealize.ShloMosaic.Lib.ReduceAll
import Idealize.ShloMosaic.Lib.ValueIdx

noncomputable section

namespace Cert.Net

open Idealize.ShloMosaic Idealize.ShloMosaic.TcCoe Idealize.ShloMosaic.ValueIdx Idealize.SL.Sem
open Cert.KernelIdeal

/-- The scalar shape has one index. -/
instance subsingleton_scalar_idx : Subsingleton Cert.Pre_finite_inputs.S_.Idx :=
  ⟨fun a b => funext fun d => d.elim0⟩

/-- The pattern 0x7F800000 denotes +∞. -/
theorem inf_pattern : Ideal.ofBits .f32 0x7F800000#32 = (⊤ : EReal) := by
  simp [Ideal.ofBits, Ideal.ieee]

/-- An extended real whose absolute value max x (-x) lies strictly below +∞ is a real: +∞ has absolute value +∞,
    and so has -∞. -/
theorem real_of_abs_lt (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- An array for which the conjunction over all entries of |x| < +∞ is one holds reals only. -/
theorem fin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] hb (constant Cert.Pre_finite_inputs.S_ .f32 0x7F800000#32)))
          init hr hu j = 1#1) : Fin' x := by
  intro i
  have hi := Host.reduce_andi_all _ init hr hu j e i
  exact real_of_abs_lt (x i) hi

/-- Under the precondition the node features, the first head's weight and bias and the normalisation's γ and β are
    real-valued. -/
theorem pre_fin [hP : Cert.Pre_finite_inputs.Facts] (m : (ℓ : Loc nD τ sig) → Buf (Elt Ideal) ℓ) (h : Cert.Pre_KernelIdeal m) (c : Dev nD) :
    Fin' (s := S100000x128) (m ((c.tc : Thread nD τ).loc main_arg0)) ∧ Fin' (s := S128x128) (m ((c.tc : Thread nD τ).loc main_arg8))
      ∧ Fin' (s := S128) (m ((c.tc : Thread nD τ).loc main_arg9)) ∧ Fin' (s := S128) (m ((c.tc : Thread nD τ).loc main_arg10))
      ∧ Fin' (s := S128) (m ((c.tc : Thread nD τ).loc main_arg11)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨e0, -⟩, -⟩, -⟩, -⟩, -⟩, e8⟩, e9⟩, e10⟩, e11⟩, -⟩, -⟩ := h0
  exact ⟨fin_of_all _ _ _ _ _ _ e0, fin_of_all _ _ _ _ _ _ e8, fin_of_all _ _ _ _ _ _ e9,
    fin_of_all _ _ _ _ _ _ e10, fin_of_all _ _ _ _ _ _ e11⟩

end Cert.Net

end
-- ==== Proof.RefParts.lean ====
/- The reference program's @main as lists of its host operations, in program order: the statements of the printed
   windows read off one by one, each called function's operations standing in the call's place over the call's own
   buffers (the function's parameters replaced by the call's operands, its record's fields by the buffers the call
   names). The whole line is cut where the network's stages begin: the edge tables, then per layer the node matmul, the
   gather and scatter-add along the edges and the gated update, then the head's dense layer, its batch statistics and
   normalisation, the per-graph pooling, and the classifier with its log-softmax. -/
import proofs.«403864_j85770496901353_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- 4 operations: those writing main_v0 … main_v3. -/
abbrev pSetup : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- 3 operations: those writing main_v4 … main_v6. -/
abbrev pL0a : List (HloOp τ sig (Elt F)) :=
  [ StableHlo.unary main_arg3 main_v4 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v4 main_v5 rfl shapeCasts_S1x128x128_S128x128,
    StableHlo.binary main_arg0 main_v5 main_v6 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- 13 operations: those writing main_c … main_v16. -/
abbrev pL0b : List (HloOp τ sig (Elt F)) :=
  [ StableHlo.nullary main_c (constantI S_ 32 0#32),
    StableHlo.unary main_c main_v7 (broadcastInDim S1600000 ![] bcast_S_S1600000 : (⟨S_, .i32⟩ : BufTy).Contents (Elt F) → (⟨S1600000, .i32⟩ : BufTy).Contents (Elt F)),
    StableHlo.binary main_v1 main_v7 main_v8 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v9 (broadcastInDim S1600000 ![] bcast_S_S1600000 : (⟨S_, .i32⟩ : BufTy).Contents (Elt F) → (⟨S1600000, .i32⟩ : BufTy).Contents (Elt F)),
    StableHlo.binary main_v1 main_v9 main_v10 (addi : (⟨S1600000, .i32⟩ : BufTy).Contents (Elt F) → (⟨S1600000, .i32⟩ : BufTy).Contents (Elt F) → (⟨S1600000, .i32⟩ : BufTy).Contents (Elt F)),
    StableHlo.ternary main_v8 main_v10 main_v1 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v11 main_v12 (broadcastInDim S1600000x1 ![0] bcast_S1600000_S1600000x1_0 : (⟨S1600000, .i32⟩ : BufTy).Contents (Elt F) → (⟨S1600000x1, .i32⟩ : BufTy).Contents (Elt F)),
    StableHlo.binary main_v6 main_v12 main_v13 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v14 (broadcastInDim S100000x128 ![] bcast_S_S100000x128 : (⟨S_, .f32⟩ : BufTy).Contents (Elt F) → (⟨S100000x128, .f32⟩ : BufTy).Contents (Elt F)),
    StableHlo.unary main_v3 main_v15 (broadcastInDim S1600000x1 ![0] bcast_S1600000_S1600000x1_0 : (⟨S1600000, .i32⟩ : BufTy).Contents (Elt F) → (⟨S1600000x1, .i32⟩ : BufTy).Contents (Elt F)),
    StableHlo.ternary main_v14 main_v15 main_v13 main_v16 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- 43 operations: those writing main_v17 … main_v54. -/
abbrev pL0c : List (HloOp τ sig (Elt F)) :=
  [ StableHlo.unary main_arg4 main_v17 ((transpose S128x384 [1, 0] · transposes_S384x128_S128x384_1_0) : (⟨S384x128, .f32⟩ : BufTy).Contents (Elt F) → (⟨S128x384, .f32⟩ : BufTy).Contents (Elt F)),
    StableHlo.binary main_v16 main_v17 main_v18 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg6 main_v19 (broadcastInDim S1x384 ![1] bcast_S384_S1x384_1 : (⟨S384, .f32⟩ : BufTy).Contents (Elt F) → (⟨S1x384, .f32⟩ : BufTy).Contents (Elt F)),
    StableHlo.unary main_v19 main_v20 (broadcastInDim S100000x384 ![0, 1] bcast_S1x384_S100000x384_0_1 : (⟨S1x384, .f32⟩ : BufTy).Contents (Elt F) → (⟨S100000x384, .f32⟩ : BufTy).Contents (Elt F)),
    StableHlo.binary main_v18 main_v20 main_v21 (addf : (⟨S100000x384, .f32⟩ : BufTy).Contents (Elt F) → (⟨S100000x384, .f32⟩ : BufTy).Contents (Elt F) → (⟨S100000x384, .f32⟩ : BufTy).Contents (Elt F)),
    StableHlo.unary main_arg5 main_v22 ((transpose S128x384 [1, 0] · transposes_S384x128_S128x384_1_0) : (⟨S384x128, .f32⟩ : BufTy).Contents (Elt F) → (⟨S128x384, .f32⟩ : BufTy).Contents (Elt F)),
    StableHlo.binary main_arg0 main_v22 main_v23 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg7 main_v24 (broadcastInDim S1x384 ![1] bcast_S384_S1x384_1 : (⟨S384, .f32⟩ : BufTy).Contents (Elt F) → (⟨S1x384, .f32⟩ : BufTy).Contents (Elt F)),
    StableHlo.unary main_v24 main_v25 (broadcastInDim S100000x384 ![0, 1] bcast_S1x384_S100000x384_0_1 : (⟨S1x384, .f32⟩ : BufTy).Contents (Elt F) → (⟨S100000x384, .f32⟩ : BufTy).Contents (Elt F)),
    StableHlo.binary main_v23 main_v25 main_v26 (addf : (⟨S100000x384, .f32⟩ : BufTy).Contents (Elt F) → (⟨S100000x384, .f32⟩ : BufTy).Contents (Elt F) → (⟨S100000x384, .f32⟩ : BufTy).Contents (Elt F)),
    StableHlo.unary main_v21 main_v27 ((extractStridedSlice S100000x128 ![0, 0] · slices_S100000x384_S100000x128_0_0) : (⟨S100000x384, .f32⟩ : BufTy).Contents (Elt F) → (⟨S100000x128, .f32⟩ : BufTy).Contents (Elt F)),
    StableHlo.unary main_v21 main_v28 ((extractStridedSlice S100000x128 ![0, 128] · slices_S100000x384_S100000x128_0_128) : (⟨S100000x384, .f32⟩ : BufTy).Contents (Elt F) → (⟨S100000x128, .f32⟩ : BufTy).Contents (Elt F)),
    StableHlo.unary main_v21 main_v29 ((extractStridedSlice S100000x128 ![0, 256] · slices_S100000x384_S100000x128_0_256) : (⟨S100000x384, .f32⟩ : BufTy).Contents (Elt F) → (⟨S100000x128, .f32⟩ : BufTy).Contents (Elt F)),
    StableHlo.unary main_v26 main_v30 ((extractStridedSlice S100000x128 ![0, 0] · slices_S100000x384_S100000x128_0_0) : (⟨S100000x384, .f32⟩ : BufTy).Contents (Elt F) → (⟨S100000x128, .f32⟩ : BufTy).Contents (Elt F)),
    StableHlo.unary main_v26 main_v31 ((extractStridedSlice S100000x128 ![0, 128] · slices_S100000x384_S100000x128_0_128) : (⟨S100000x384, .f32⟩ : BufTy).Contents (Elt F) → (⟨S100000x128, .f32⟩ : BufTy).Contents (Elt F)),
    StableHlo.unary main_v26 main_v32 ((extractStridedSlice S100000x128 ![0, 256] · slices_S100000x384_S100000x128_0_256) : (⟨S100000x384, .f32⟩ : BufTy).Contents (Elt F) → (⟨S100000x128, .f32⟩ : BufTy).Contents (Elt F)),
    StableHlo.binary main_v27 main_v30 main_v33 (addf : (⟨S100000x128, .f32⟩ : BufTy).Contents (Elt F) → (⟨S100000x128, .f32⟩ : BufTy).Contents (Elt F) → (⟨S100000x128, .f32⟩ : BufTy).Contents (Elt F)),
    StableHlo.unary main_v33 main_v34 (Host.negf : (⟨S100000x128, .f32⟩ : BufTy).Contents (Elt F) → (⟨S100000x128, .f32⟩ : BufTy).Contents (Elt F)),
    StableHlo.unary main_v34 main_v35 (Host.exp : (⟨S100000x128, .f32⟩ : BufTy).Contents (Elt F) → (⟨S100000x128, .f32⟩ : BufTy).Contents (Elt F)),
    StableHlo.nullary main_cst_1 (constant S_ .f32 0x3F800000#32),
    StableHlo.unary main_cst_1 main_v36 (broadcastInDim S100000x128 ![] bcast_S_S100000x128 : (⟨S_, .f32⟩ : BufTy).Contents (Elt F) → (⟨S100000x128, .f32⟩ : BufTy).Contents (Elt F)),
    StableHlo.binary main_v36 main_v35 main_v37 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3F800000#32),
    StableHlo.unary main_cst_2 main_v38 (broadcastInDim S100000x128 ![] bcast_S_S100000x128 : (⟨S_, .f32⟩ : BufTy).Contents (Elt F) → (⟨S100000x128, .f32⟩ : BufTy).Contents (Elt F)),
    StableHlo.binary main_v38 main_v37 main_v39 (Host.divf : (⟨S100000x128, .f32⟩ : BufTy).Contents (Elt F) → (⟨S100000x128, .f32⟩ : BufTy).Contents (Elt F) → (⟨S100000x128, .f32⟩ : BufTy).Contents (Elt F)),
    StableHlo.binary main_v28 main_v31 main_v40 (addf : (⟨S100000x128, .f32⟩ : BufTy).Contents (Elt F) → (⟨S100000x128, .f32⟩ : BufTy).Contents (Elt F) → (⟨S100000x128, .f32⟩ : BufTy).Contents (Elt F)),
    StableHlo.unary main_v40 main_v41 (Host.negf : (⟨S100000x128, .f32⟩ : BufTy).Contents (Elt F) → (⟨S100000x128, .f32⟩ : BufTy).Contents (Elt F)),
    StableHlo.unary main_v41 main_v42 (Host.exp : (⟨S100000x128, .f32⟩ : BufTy).Contents (Elt F) → (⟨S100000x128, .f32⟩ : BufTy).Contents (Elt F)),
    StableHlo.nullary main_cst_3 (constant S_ .f32 0x3F800000#32),
    StableHlo.unary main_cst_3 main_v43 (broadcastInDim S100000x128 ![] bcast_S_S100000x128 : (⟨S_, .f32⟩ : BufTy).Contents (Elt F) → (⟨S100000x128, .f32⟩ : BufTy).Contents (Elt F)),
    StableHlo.binary main_v43 main_v42 main_v44 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3F800000#32),
    StableHlo.unary main_cst_4 main_v45 (broadcastInDim S100000x128 ![] bcast_S_S100000x128 : (⟨S_, .f32⟩ : BufTy).Contents (Elt F) → (⟨S100000x128, .f32⟩ : BufTy).Contents (Elt F)),
    StableHlo.binary main_v45 main_v44 main_v46 (Host.divf : (⟨S100000x128, .f32⟩ : BufTy).Contents (Elt F) → (⟨S100000x128, .f32⟩ : BufTy).Contents (Elt F) → (⟨S100000x128, .f32⟩ : BufTy).Contents (Elt F)),
    StableHlo.binary main_v39 main_v32 main_v47 (mulf : (⟨S100000x128, .f32⟩ : BufTy).Contents (Elt F) → (⟨S100000x128, .f32⟩ : BufTy).Contents (Elt F) → (⟨S100000x128, .f32⟩ : BufTy).Contents (Elt F)),
    StableHlo.binary main_v29 main_v47 main_v48 (addf : (⟨S100000x128, .f32⟩ : BufTy).Contents (Elt F) → (⟨S100000x128, .f32⟩ : BufTy).Contents (Elt F) → (⟨S100000x128, .f32⟩ : BufTy).Contents (Elt F)),
    StableHlo.unary main_v48 main_v49 (Host.tanh : (⟨S100000x128, .f32⟩ : BufTy).Contents (Elt F) → (⟨S100000x128, .f32⟩ : BufTy).Contents (Elt F)),
    StableHlo.nullary main_cst_5 (constant S_ .f32 0x3F800000#32),
    StableHlo.unary main_cst_5 main_v50 (broadcastInDim S100000x128 ![] bcast_S_S100000x128 : (⟨S_, .f32⟩ : BufTy).Contents (Elt F) → (⟨S100000x128, .f32⟩ : BufTy).Contents (Elt F)),
    StableHlo.binary main_v50 main_v46 main_v51 (subf : (⟨S100000x128, .f32⟩ : BufTy).Contents (Elt F) → (⟨S100000x128, .f32⟩ : BufTy).Contents (Elt F) → (⟨S100000x128, .f32⟩ : BufTy).Contents (Elt F)),
    StableHlo.binary main_v51 main_v49 main_v52 (mulf : (⟨S100000x128, .f32⟩ : BufTy).Contents (Elt F) → (⟨S100000x128, .f32⟩ : BufTy).Contents (Elt F) → (⟨S100000x128, .f32⟩ : BufTy).Contents (Elt F)),
    StableHlo.binary main_v46 main_arg0 main_v53 (mulf : (⟨S100000x128, .f32⟩ : BufTy).Contents (Elt F) → (⟨S100000x128, .f32⟩ : BufTy).Contents (Elt F) → (⟨S100000x128, .f32⟩ : BufTy).Contents (Elt F)),
    StableHlo.binary main_v52 main_v53 main_v54 (addf : (⟨S100000x128, .f32⟩ : BufTy).Contents (Elt F) → (⟨S100000x128, .f32⟩ : BufTy).Contents (Elt F) → (⟨S100000x128, .f32⟩ : BufTy).Contents (Elt F)) ]

/-- 3 operations: those writing main_v55 … main_v57. -/
abbrev pL1a : List (HloOp τ sig (Elt F)) :=
  [ StableHlo.unary main_arg3 main_v55 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v55 main_v56 rfl shapeCasts_S1x128x128_S128x128,
    StableHlo.binary main_v54 main_v56 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- 13 operations: those writing main_c_6 … main_v67. -/
abbrev pL1b : List (HloOp τ sig (Elt F)) :=
  [ StableHlo.nullary main_c_6 (constantI S_ 32 0#32),
    StableHlo.unary main_c_6 main_v58 (broadcastInDim S1600000 ![] bcast_S_S1600000 : (⟨S_, .i32⟩ : BufTy).Contents (Elt F) → (⟨S1600000, .i32⟩ : BufTy).Contents (Elt F)),
    StableHlo.binary main_v1 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v60 (broadcastInDim S1600000 ![] bcast_S_S1600000 : (⟨S_, .i32⟩ : BufTy).Contents (Elt F) → (⟨S1600000, .i32⟩ : BufTy).Contents (Elt F)),
    StableHlo.binary main_v1 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_v1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v57 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v65 (broadcastInDim S100000x128 ![] bcast_S_S100000x128 : (⟨S_, .f32⟩ : BufTy).Contents (Elt F) → (⟨S100000x128, .f32⟩ : BufTy).Contents (Elt F)),
    StableHlo.unary main_v3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- 43 operations: those writing main_v68 … main_v105. -/
abbrev pL1c : List (HloOp τ sig (Elt F)) :=
  [ StableHlo.unary main_arg4 main_v68 ((transpose S128x384 [1, 0] · transposes_S384x128_S128x384_1_0) : (⟨S384x128, .f32⟩ : BufTy).Contents (Elt F) → (⟨S128x384, .f32⟩ : BufTy).Contents (Elt F)),
    StableHlo.binary main_v67 main_v68 main_v69 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg6 main_v70 (broadcastInDim S1x384 ![1] bcast_S384_S1x384_1 : (⟨S384, .f32⟩ : BufTy).Contents (Elt F) → (⟨S1x384, .f32⟩ : BufTy).Contents (Elt F)),
    StableHlo.unary main_v70 main_v71 (broadcastInDim S100000x384 ![0, 1] bcast_S1x384_S100000x384_0_1 : (⟨S1x384, .f32⟩ : BufTy).Contents (Elt F) → (⟨S100000x384, .f32⟩ : BufTy).Contents (Elt F)),
    StableHlo.binary main_v69 main_v71 main_v72 (addf : (⟨S100000x384, .f32⟩ : BufTy).Contents (Elt F) → (⟨S100000x384, .f32⟩ : BufTy).Contents (Elt F) → (⟨S100000x384, .f32⟩ : BufTy).Contents (Elt F)),
    StableHlo.unary main_arg5 main_v73 ((transpose S128x384 [1, 0] · transposes_S384x128_S128x384_1_0) : (⟨S384x128, .f32⟩ : BufTy).Contents (Elt F) → (⟨S128x384, .f32⟩ : BufTy).Contents (Elt F)),
    StableHlo.binary main_v54 main_v73 main_v74 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg7 main_v75 (broadcastInDim S1x384 ![1] bcast_S384_S1x384_1 : (⟨S384, .f32⟩ : BufTy).Contents (Elt F) → (⟨S1x384, .f32⟩ : BufTy).Contents (Elt F)),
    StableHlo.unary main_v75 main_v76 (broadcastInDim S100000x384 ![0, 1] bcast_S1x384_S100000x384_0_1 : (⟨S1x384, .f32⟩ : BufTy).Contents (Elt F) → (⟨S100000x384, .f32⟩ : BufTy).Contents (Elt F)),
    StableHlo.binary main_v74 main_v76 main_v77 (addf : (⟨S100000x384, .f32⟩ : BufTy).Contents (Elt F) → (⟨S100000x384, .f32⟩ : BufTy).Contents (Elt F) → (⟨S100000x384, .f32⟩ : BufTy).Contents (Elt F)),
    StableHlo.unary main_v72 main_v78 ((extractStridedSlice S100000x128 ![0, 0] · slices_S100000x384_S100000x128_0_0) : (⟨S100000x384, .f32⟩ : BufTy).Contents (Elt F) → (⟨S100000x128, .f32⟩ : BufTy).Contents (Elt F)),
    StableHlo.unary main_v72 main_v79 ((extractStridedSlice S100000x128 ![0, 128] · slices_S100000x384_S100000x128_0_128) : (⟨S100000x384, .f32⟩ : BufTy).Contents (Elt F) → (⟨S100000x128, .f32⟩ : BufTy).Contents (Elt F)),
    StableHlo.unary main_v72 main_v80 ((extractStridedSlice S100000x128 ![0, 256] · slices_S100000x384_S100000x128_0_256) : (⟨S100000x384, .f32⟩ : BufTy).Contents (Elt F) → (⟨S100000x128, .f32⟩ : BufTy).Contents (Elt F)),
    StableHlo.unary main_v77 main_v81 ((extractStridedSlice S100000x128 ![0, 0] · slices_S100000x384_S100000x128_0_0) : (⟨S100000x384, .f32⟩ : BufTy).Contents (Elt F) → (⟨S100000x128, .f32⟩ : BufTy).Contents (Elt F)),
    StableHlo.unary main_v77 main_v82 ((extractStridedSlice S100000x128 ![0, 128] · slices_S100000x384_S100000x128_0_128) : (⟨S100000x384, .f32⟩ : BufTy).Contents (Elt F) → (⟨S100000x128, .f32⟩ : BufTy).Contents (Elt F)),
    StableHlo.unary main_v77 main_v83 ((extractStridedSlice S100000x128 ![0, 256] · slices_S100000x384_S100000x128_0_256) : (⟨S100000x384, .f32⟩ : BufTy).Contents (Elt F) → (⟨S100000x128, .f32⟩ : BufTy).Contents (Elt F)),
    StableHlo.binary main_v78 main_v81 main_v84 (addf : (⟨S100000x128, .f32⟩ : BufTy).Contents (Elt F) → (⟨S100000x128, .f32⟩ : BufTy).Contents (Elt F) → (⟨S100000x128, .f32⟩ : BufTy).Contents (Elt F)),
    StableHlo.unary main_v84 main_v85 (Host.negf : (⟨S100000x128, .f32⟩ : BufTy).Contents (Elt F) → (⟨S100000x128, .f32⟩ : BufTy).Contents (Elt F)),
    StableHlo.unary main_v85 main_v86 (Host.exp : (⟨S100000x128, .f32⟩ : BufTy).Contents (Elt F) → (⟨S100000x128, .f32⟩ : BufTy).Contents (Elt F)),
    StableHlo.nullary main_cst_9 (constant S_ .f32 0x3F800000#32),
    StableHlo.unary main_cst_9 main_v87 (broadcastInDim S100000x128 ![] bcast_S_S100000x128 : (⟨S_, .f32⟩ : BufTy).Contents (Elt F) → (⟨S100000x128, .f32⟩ : BufTy).Contents (Elt F)),
    StableHlo.binary main_v87 main_v86 main_v88 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3F800000#32),
    StableHlo.unary main_cst_10 main_v89 (broadcastInDim S100000x128 ![] bcast_S_S100000x128 : (⟨S_, .f32⟩ : BufTy).Contents (Elt F) → (⟨S100000x128, .f32⟩ : BufTy).Contents (Elt F)),
    StableHlo.binary main_v89 main_v88 main_v90 (Host.divf : (⟨S100000x128, .f32⟩ : BufTy).Contents (Elt F) → (⟨S100000x128, .f32⟩ : BufTy).Contents (Elt F) → (⟨S100000x128, .f32⟩ : BufTy).Contents (Elt F)),
    StableHlo.binary main_v79 main_v82 main_v91 (addf : (⟨S100000x128, .f32⟩ : BufTy).Contents (Elt F) → (⟨S100000x128, .f32⟩ : BufTy).Contents (Elt F) → (⟨S100000x128, .f32⟩ : BufTy).Contents (Elt F)),
    StableHlo.unary main_v91 main_v92 (Host.negf : (⟨S100000x128, .f32⟩ : BufTy).Contents (Elt F) → (⟨S100000x128, .f32⟩ : BufTy).Contents (Elt F)),
    StableHlo.unary main_v92 main_v93 (Host.exp : (⟨S100000x128, .f32⟩ : BufTy).Contents (Elt F) → (⟨S100000x128, .f32⟩ : BufTy).Contents (Elt F)),
    StableHlo.nullary main_cst_11 (constant S_ .f32 0x3F800000#32),
    StableHlo.unary main_cst_11 main_v94 (broadcastInDim S100000x128 ![] bcast_S_S100000x128 : (⟨S_, .f32⟩ : BufTy).Contents (Elt F) → (⟨S100000x128, .f32⟩ : BufTy).Contents (Elt F)),
    StableHlo.binary main_v94 main_v93 main_v95 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3F800000#32),
    StableHlo.unary main_cst_12 main_v96 (broadcastInDim S100000x128 ![] bcast_S_S100000x128 : (⟨S_, .f32⟩ : BufTy).Contents (Elt F) → (⟨S100000x128, .f32⟩ : BufTy).Contents (Elt F)),
    StableHlo.binary main_v96 main_v95 main_v97 (Host.divf : (⟨S100000x128, .f32⟩ : BufTy).Contents (Elt F) → (⟨S100000x128, .f32⟩ : BufTy).Contents (Elt F) → (⟨S100000x128, .f32⟩ : BufTy).Contents (Elt F)),
    StableHlo.binary main_v90 main_v83 main_v98 (mulf : (⟨S100000x128, .f32⟩ : BufTy).Contents (Elt F) → (⟨S100000x128, .f32⟩ : BufTy).Contents (Elt F) → (⟨S100000x128, .f32⟩ : BufTy).Contents (Elt F)),
    StableHlo.binary main_v80 main_v98 main_v99 (addf : (⟨S100000x128, .f32⟩ : BufTy).Contents (Elt F) → (⟨S100000x128, .f32⟩ : BufTy).Contents (Elt F) → (⟨S100000x128, .f32⟩ : BufTy).Contents (Elt F)),
    StableHlo.unary main_v99 main_v100 (Host.tanh : (⟨S100000x128, .f32⟩ : BufTy).Contents (Elt F) → (⟨S100000x128, .f32⟩ : BufTy).Contents (Elt F)),
    StableHlo.nullary main_cst_13 (constant S_ .f32 0x3F800000#32),
    StableHlo.unary main_cst_13 main_v101 (broadcastInDim S100000x128 ![] bcast_S_S100000x128 : (⟨S_, .f32⟩ : BufTy).Contents (Elt F) → (⟨S100000x128, .f32⟩ : BufTy).Contents (Elt F)),
    StableHlo.binary main_v101 main_v97 main_v102 (subf : (⟨S100000x128, .f32⟩ : BufTy).Contents (Elt F) → (⟨S100000x128, .f32⟩ : BufTy).Contents (Elt F) → (⟨S100000x128, .f32⟩ : BufTy).Contents (Elt F)),
    StableHlo.binary main_v102 main_v100 main_v103 (mulf : (⟨S100000x128, .f32⟩ : BufTy).Contents (Elt F) → (⟨S100000x128, .f32⟩ : BufTy).Contents (Elt F) → (⟨S100000x128, .f32⟩ : BufTy).Contents (Elt F)),
    StableHlo.binary main_v97 main_v54 main_v104 (mulf : (⟨S100000x128, .f32⟩ : BufTy).Contents (Elt F) → (⟨S100000x128, .f32⟩ : BufTy).Contents (Elt F) → (⟨S100000x128, .f32⟩ : BufTy).Contents (Elt F)),
    StableHlo.binary main_v103 main_v104 main_v105 (addf : (⟨S100000x128, .f32⟩ : BufTy).Contents (Elt F) → (⟨S100000x128, .f32⟩ : BufTy).Contents (Elt F) → (⟨S100000x128, .f32⟩ : BufTy).Contents (Elt F)) ]

/-- 3 operations: those writing main_v106 … main_v108. -/
abbrev pL2a : List (HloOp τ sig (Elt F)) :=
  [ StableHlo.unary main_arg3 main_v106 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v106 main_v107 rfl shapeCasts_S1x128x128_S128x128,
    StableHlo.binary main_v105 main_v107 main_v108 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- 13 operations: those writing main_c_14 … main_v118. -/
abbrev pL2b : List (HloOp τ sig (Elt F)) :=
  [ StableHlo.nullary main_c_14 (constantI S_ 32 0#32),
    StableHlo.unary main_c_14 main_v109 (broadcastInDim S1600000 ![] bcast_S_S1600000 : (⟨S_, .i32⟩ : BufTy).Contents (Elt F) → (⟨S1600000, .i32⟩ : BufTy).Contents (Elt F)),
    StableHlo.binary main_v1 main_v109 main_v110 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v111 (broadcastInDim S1600000 ![] bcast_S_S1600000 : (⟨S_, .i32⟩ : BufTy).Contents (Elt F) → (⟨S1600000, .i32⟩ : BufTy).Contents (Elt F)),
    StableHlo.binary main_v1 main_v111 main_v112 (addi : (⟨S1600000, .i32⟩ : BufTy).Contents (Elt F) → (⟨S1600000, .i32⟩ : BufTy).Contents (Elt F) → (⟨S1600000, .i32⟩ : BufTy).Contents (Elt F)),
    StableHlo.ternary main_v110 main_v112 main_v1 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v113 main_v114 (broadcastInDim S1600000x1 ![0] bcast_S1600000_S1600000x1_0 : (⟨S1600000, .i32⟩ : BufTy).Contents (Elt F) → (⟨S1600000x1, .i32⟩ : BufTy).Contents (Elt F)),
    StableHlo.binary main_v108 main_v114 main_v115 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v116 (broadcastInDim S100000x128 ![] bcast_S_S100000x128 : (⟨S_, .f32⟩ : BufTy).Contents (Elt F) → (⟨S100000x128, .f32⟩ : BufTy).Contents (Elt F)),
    StableHlo.unary main_v3 main_v117 (broadcastInDim S1600000x1 ![0] bcast_S1600000_S1600000x1_0 : (⟨S1600000, .i32⟩ : BufTy).Contents (Elt F) → (⟨S1600000x1, .i32⟩ : BufTy).Contents (Elt F)),
    StableHlo.ternary main_v116 main_v117 main_v115 main_v118 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- 43 operations: those writing main_v119 … main_v156. -/
abbrev pL2c : List (HloOp τ sig (Elt F)) :=
  [ StableHlo.unary main_arg4 main_v119 ((transpose S128x384 [1, 0] · transposes_S384x128_S128x384_1_0) : (⟨S384x128, .f32⟩ : BufTy).Contents (Elt F) → (⟨S128x384, .f32⟩ : BufTy).Contents (Elt F)),
    StableHlo.binary main_v118 main_v119 main_v120 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg6 main_v121 (broadcastInDim S1x384 ![1] bcast_S384_S1x384_1 : (⟨S384, .f32⟩ : BufTy).Contents (Elt F) → (⟨S1x384, .f32⟩ : BufTy).Contents (Elt F)),
    StableHlo.unary main_v121 main_v122 (broadcastInDim S100000x384 ![0, 1] bcast_S1x384_S100000x384_0_1 : (⟨S1x384, .f32⟩ : BufTy).Contents (Elt F) → (⟨S100000x384, .f32⟩ : BufTy).Contents (Elt F)),
    StableHlo.binary main_v120 main_v122 main_v123 (addf : (⟨S100000x384, .f32⟩ : BufTy).Contents (Elt F) → (⟨S100000x384, .f32⟩ : BufTy).Contents (Elt F) → (⟨S100000x384, .f32⟩ : BufTy).Contents (Elt F)),
    StableHlo.unary main_arg5 main_v124 ((transpose S128x384 [1, 0] · transposes_S384x128_S128x384_1_0) : (⟨S384x128, .f32⟩ : BufTy).Contents (Elt F) → (⟨S128x384, .f32⟩ : BufTy).Contents (Elt F)),
    StableHlo.binary main_v105 main_v124 main_v125 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg7 main_v126 (broadcastInDim S1x384 ![1] bcast_S384_S1x384_1 : (⟨S384, .f32⟩ : BufTy).Contents (Elt F) → (⟨S1x384, .f32⟩ : BufTy).Contents (Elt F)),
    StableHlo.unary main_v126 main_v127 (broadcastInDim S100000x384 ![0, 1] bcast_S1x384_S100000x384_0_1 : (⟨S1x384, .f32⟩ : BufTy).Contents (Elt F) → (⟨S100000x384, .f32⟩ : BufTy).Contents (Elt F)),
    StableHlo.binary main_v125 main_v127 main_v128 (addf : (⟨S100000x384, .f32⟩ : BufTy).Contents (Elt F) → (⟨S100000x384, .f32⟩ : BufTy).Contents (Elt F) → (⟨S100000x384, .f32⟩ : BufTy).Contents (Elt F)),
    StableHlo.unary main_v123 main_v129 ((extractStridedSlice S100000x128 ![0, 0] · slices_S100000x384_S100000x128_0_0) : (⟨S100000x384, .f32⟩ : BufTy).Contents (Elt F) → (⟨S100000x128, .f32⟩ : BufTy).Contents (Elt F)),
    StableHlo.unary main_v123 main_v130 ((extractStridedSlice S100000x128 ![0, 128] · slices_S100000x384_S100000x128_0_128) : (⟨S100000x384, .f32⟩ : BufTy).Contents (Elt F) → (⟨S100000x128, .f32⟩ : BufTy).Contents (Elt F)),
    StableHlo.unary main_v123 main_v131 ((extractStridedSlice S100000x128 ![0, 256] · slices_S100000x384_S100000x128_0_256) : (⟨S100000x384, .f32⟩ : BufTy).Contents (Elt F) → (⟨S100000x128, .f32⟩ : BufTy).Contents (Elt F)),
    StableHlo.unary main_v128 main_v132 ((extractStridedSlice S100000x128 ![0, 0] · slices_S100000x384_S100000x128_0_0) : (⟨S100000x384, .f32⟩ : BufTy).Contents (Elt F) → (⟨S100000x128, .f32⟩ : BufTy).Contents (Elt F)),
    StableHlo.unary main_v128 main_v133 ((extractStridedSlice S100000x128 ![0, 128] · slices_S100000x384_S100000x128_0_128) : (⟨S100000x384, .f32⟩ : BufTy).Contents (Elt F) → (⟨S100000x128, .f32⟩ : BufTy).Contents (Elt F)),
    StableHlo.unary main_v128 main_v134 ((extractStridedSlice S100000x128 ![0, 256] · slices_S100000x384_S100000x128_0_256) : (⟨S100000x384, .f32⟩ : BufTy).Contents (Elt F) → (⟨S100000x128, .f32⟩ : BufTy).Contents (Elt F)),
    StableHlo.binary main_v129 main_v132 main_v135 (addf : (⟨S100000x128, .f32⟩ : BufTy).Contents (Elt F) → (⟨S100000x128, .f32⟩ : BufTy).Contents (Elt F) → (⟨S100000x128, .f32⟩ : BufTy).Contents (Elt F)),
    StableHlo.unary main_v135 main_v136 (Host.negf : (⟨S100000x128, .f32⟩ : BufTy).Contents (Elt F) → (⟨S100000x128, .f32⟩ : BufTy).Contents (Elt F)),
    StableHlo.unary main_v136 main_v137 (Host.exp : (⟨S100000x128, .f32⟩ : BufTy).Contents (Elt F) → (⟨S100000x128, .f32⟩ : BufTy).Contents (Elt F)),
    StableHlo.nullary main_cst_17 (constant S_ .f32 0x3F800000#32),
    StableHlo.unary main_cst_17 main_v138 (broadcastInDim S100000x128 ![] bcast_S_S100000x128 : (⟨S_, .f32⟩ : BufTy).Contents (Elt F) → (⟨S100000x128, .f32⟩ : BufTy).Contents (Elt F)),
    StableHlo.binary main_v138 main_v137 main_v139 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3F800000#32),
    StableHlo.unary main_cst_18 main_v140 (broadcastInDim S100000x128 ![] bcast_S_S100000x128 : (⟨S_, .f32⟩ : BufTy).Contents (Elt F) → (⟨S100000x128, .f32⟩ : BufTy).Contents (Elt F)),
    StableHlo.binary main_v140 main_v139 main_v141 (Host.divf : (⟨S100000x128, .f32⟩ : BufTy).Contents (Elt F) → (⟨S100000x128, .f32⟩ : BufTy).Contents (Elt F) → (⟨S100000x128, .f32⟩ : BufTy).Contents (Elt F)),
    StableHlo.binary main_v130 main_v133 main_v142 (addf : (⟨S100000x128, .f32⟩ : BufTy).Contents (Elt F) → (⟨S100000x128, .f32⟩ : BufTy).Contents (Elt F) → (⟨S100000x128, .f32⟩ : BufTy).Contents (Elt F)),
    StableHlo.unary main_v142 main_v143 (Host.negf : (⟨S100000x128, .f32⟩ : BufTy).Contents (Elt F) → (⟨S100000x128, .f32⟩ : BufTy).Contents (Elt F)),
    StableHlo.unary main_v143 main_v144 (Host.exp : (⟨S100000x128, .f32⟩ : BufTy).Contents (Elt F) → (⟨S100000x128, .f32⟩ : BufTy).Contents (Elt F)),
    StableHlo.nullary main_cst_19 (constant S_ .f32 0x3F800000#32),
    StableHlo.unary main_cst_19 main_v145 (broadcastInDim S100000x128 ![] bcast_S_S100000x128 : (⟨S_, .f32⟩ : BufTy).Contents (Elt F) → (⟨S100000x128, .f32⟩ : BufTy).Contents (Elt F)),
    StableHlo.binary main_v145 main_v144 main_v146 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3F800000#32),
    StableHlo.unary main_cst_20 main_v147 (broadcastInDim S100000x128 ![] bcast_S_S100000x128 : (⟨S_, .f32⟩ : BufTy).Contents (Elt F) → (⟨S100000x128, .f32⟩ : BufTy).Contents (Elt F)),
    StableHlo.binary main_v147 main_v146 main_v148 (Host.divf : (⟨S100000x128, .f32⟩ : BufTy).Contents (Elt F) → (⟨S100000x128, .f32⟩ : BufTy).Contents (Elt F) → (⟨S100000x128, .f32⟩ : BufTy).Contents (Elt F)),
    StableHlo.binary main_v141 main_v134 main_v149 (mulf : (⟨S100000x128, .f32⟩ : BufTy).Contents (Elt F) → (⟨S100000x128, .f32⟩ : BufTy).Contents (Elt F) → (⟨S100000x128, .f32⟩ : BufTy).Contents (Elt F)),
    StableHlo.binary main_v131 main_v149 main_v150 (addf : (⟨S100000x128, .f32⟩ : BufTy).Contents (Elt F) → (⟨S100000x128, .f32⟩ : BufTy).Contents (Elt F) → (⟨S100000x128, .f32⟩ : BufTy).Contents (Elt F)),
    StableHlo.unary main_v150 main_v151 (Host.tanh : (⟨S100000x128, .f32⟩ : BufTy).Contents (Elt F) → (⟨S100000x128, .f32⟩ : BufTy).Contents (Elt F)),
    StableHlo.nullary main_cst_21 (constant S_ .f32 0x3F800000#32),
    StableHlo.unary main_cst_21 main_v152 (broadcastInDim S100000x128 ![] bcast_S_S100000x128 : (⟨S_, .f32⟩ : BufTy).Contents (Elt F) → (⟨S100000x128, .f32⟩ : BufTy).Contents (Elt F)),
    StableHlo.binary main_v152 main_v148 main_v153 (subf : (⟨S100000x128, .f32⟩ : BufTy).Contents (Elt F) → (⟨S100000x128, .f32⟩ : BufTy).Contents (Elt F) → (⟨S100000x128, .f32⟩ : BufTy).Contents (Elt F)),
    StableHlo.binary main_v153 main_v151 main_v154 (mulf : (⟨S100000x128, .f32⟩ : BufTy).Contents (Elt F) → (⟨S100000x128, .f32⟩ : BufTy).Contents (Elt F) → (⟨S100000x128, .f32⟩ : BufTy).Contents (Elt F)),
    StableHlo.binary main_v148 main_v105 main_v155 (mulf : (⟨S100000x128, .f32⟩ : BufTy).Contents (Elt F) → (⟨S100000x128, .f32⟩ : BufTy).Contents (Elt F) → (⟨S100000x128, .f32⟩ : BufTy).Contents (Elt F)),
    StableHlo.binary main_v154 main_v155 main_v156 (addf : (⟨S100000x128, .f32⟩ : BufTy).Contents (Elt F) → (⟨S100000x128, .f32⟩ : BufTy).Contents (Elt F) → (⟨S100000x128, .f32⟩ : BufTy).Contents (Elt F)) ]

/-- 3 operations: those writing main_v157 … main_v159. -/
abbrev pL3a : List (HloOp τ sig (Elt F)) :=
  [ StableHlo.unary main_arg3 main_v157 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v157 main_v158 rfl shapeCasts_S1x128x128_S128x128,
    StableHlo.binary main_v156 main_v158 main_v159 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- 13 operations: those writing main_c_22 … main_v169. -/
abbrev pL3b : List (HloOp τ sig (Elt F)) :=
  [ StableHlo.nullary main_c_22 (constantI S_ 32 0#32),
    StableHlo.unary main_c_22 main_v160 (broadcastInDim S1600000 ![] bcast_S_S1600000 : (⟨S_, .i32⟩ : BufTy).Contents (Elt F) → (⟨S1600000, .i32⟩ : BufTy).Contents (Elt F)),
    StableHlo.binary main_v1 main_v160 main_v161 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v162 (broadcastInDim S1600000 ![] bcast_S_S1600000 : (⟨S_, .i32⟩ : BufTy).Contents (Elt F) → (⟨S1600000, .i32⟩ : BufTy).Contents (Elt F)),
    StableHlo.binary main_v1 main_v162 main_v163 (addi : (⟨S1600000, .i32⟩ : BufTy).Contents (Elt F) → (⟨S1600000, .i32⟩ : BufTy).Contents (Elt F) → (⟨S1600000, .i32⟩ : BufTy).Contents (Elt F)),
    StableHlo.ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v164 main_v165 (broadcastInDim S1600000x1 ![0] bcast_S1600000_S1600000x1_0 : (⟨S1600000, .i32⟩ : BufTy).Contents (Elt F) → (⟨S1600000x1, .i32⟩ : BufTy).Contents (Elt F)),
    StableHlo.binary main_v159 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v167 (broadcastInDim S100000x128 ![] bcast_S_S100000x128 : (⟨S_, .f32⟩ : BufTy).Contents (Elt F) → (⟨S100000x128, .f32⟩ : BufTy).Contents (Elt F)),
    StableHlo.unary main_v3 main_v168 (broadcastInDim S1600000x1 ![0] bcast_S1600000_S1600000x1_0 : (⟨S1600000, .i32⟩ : BufTy).Contents (Elt F) → (⟨S1600000x1, .i32⟩ : BufTy).Contents (Elt F)),
    StableHlo.ternary main_v167 main_v168 main_v166 main_v169 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- 43 operations: those writing main_v170 … main_v207. -/
abbrev pL3c : List (HloOp τ sig (Elt F)) :=
  [ StableHlo.unary main_arg4 main_v170 ((transpose S128x384 [1, 0] · transposes_S384x128_S128x384_1_0) : (⟨S384x128, .f32⟩ : BufTy).Contents (Elt F) → (⟨S128x384, .f32⟩ : BufTy).Contents (Elt F)),
    StableHlo.binary main_v169 main_v170 main_v171 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg6 main_v172 (broadcastInDim S1x384 ![1] bcast_S384_S1x384_1 : (⟨S384, .f32⟩ : BufTy).Contents (Elt F) → (⟨S1x384, .f32⟩ : BufTy).Contents (Elt F)),
    StableHlo.unary main_v172 main_v173 (broadcastInDim S100000x384 ![0, 1] bcast_S1x384_S100000x384_0_1 : (⟨S1x384, .f32⟩ : BufTy).Contents (Elt F) → (⟨S100000x384, .f32⟩ : BufTy).Contents (Elt F)),
    StableHlo.binary main_v171 main_v173 main_v174 (addf : (⟨S100000x384, .f32⟩ : BufTy).Contents (Elt F) → (⟨S100000x384, .f32⟩ : BufTy).Contents (Elt F) → (⟨S100000x384, .f32⟩ : BufTy).Contents (Elt F)),
    StableHlo.unary main_arg5 main_v175 ((transpose S128x384 [1, 0] · transposes_S384x128_S128x384_1_0) : (⟨S384x128, .f32⟩ : BufTy).Contents (Elt F) → (⟨S128x384, .f32⟩ : BufTy).Contents (Elt F)),
    StableHlo.binary main_v156 main_v175 main_v176 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg7 main_v177 (broadcastInDim S1x384 ![1] bcast_S384_S1x384_1 : (⟨S384, .f32⟩ : BufTy).Contents (Elt F) → (⟨S1x384, .f32⟩ : BufTy).Contents (Elt F)),
    StableHlo.unary main_v177 main_v178 (broadcastInDim S100000x384 ![0, 1] bcast_S1x384_S100000x384_0_1 : (⟨S1x384, .f32⟩ : BufTy).Contents (Elt F) → (⟨S100000x384, .f32⟩ : BufTy).Contents (Elt F)),
    StableHlo.binary main_v176 main_v178 main_v179 (addf : (⟨S100000x384, .f32⟩ : BufTy).Contents (Elt F) → (⟨S100000x384, .f32⟩ : BufTy).Contents (Elt F) → (⟨S100000x384, .f32⟩ : BufTy).Contents (Elt F)),
    StableHlo.unary main_v174 main_v180 ((extractStridedSlice S100000x128 ![0, 0] · slices_S100000x384_S100000x128_0_0) : (⟨S100000x384, .f32⟩ : BufTy).Contents (Elt F) → (⟨S100000x128, .f32⟩ : BufTy).Contents (Elt F)),
    StableHlo.unary main_v174 main_v181 ((extractStridedSlice S100000x128 ![0, 128] · slices_S100000x384_S100000x128_0_128) : (⟨S100000x384, .f32⟩ : BufTy).Contents (Elt F) → (⟨S100000x128, .f32⟩ : BufTy).Contents (Elt F)),
    StableHlo.unary main_v174 main_v182 ((extractStridedSlice S100000x128 ![0, 256] · slices_S100000x384_S100000x128_0_256) : (⟨S100000x384, .f32⟩ : BufTy).Contents (Elt F) → (⟨S100000x128, .f32⟩ : BufTy).Contents (Elt F)),
    StableHlo.unary main_v179 main_v183 ((extractStridedSlice S100000x128 ![0, 0] · slices_S100000x384_S100000x128_0_0) : (⟨S100000x384, .f32⟩ : BufTy).Contents (Elt F) → (⟨S100000x128, .f32⟩ : BufTy).Contents (Elt F)),
    StableHlo.unary main_v179 main_v184 ((extractStridedSlice S100000x128 ![0, 128] · slices_S100000x384_S100000x128_0_128) : (⟨S100000x384, .f32⟩ : BufTy).Contents (Elt F) → (⟨S100000x128, .f32⟩ : BufTy).Contents (Elt F)),
    StableHlo.unary main_v179 main_v185 ((extractStridedSlice S100000x128 ![0, 256] · slices_S100000x384_S100000x128_0_256) : (⟨S100000x384, .f32⟩ : BufTy).Contents (Elt F) → (⟨S100000x128, .f32⟩ : BufTy).Contents (Elt F)),
    StableHlo.binary main_v180 main_v183 main_v186 (addf : (⟨S100000x128, .f32⟩ : BufTy).Contents (Elt F) → (⟨S100000x128, .f32⟩ : BufTy).Contents (Elt F) → (⟨S100000x128, .f32⟩ : BufTy).Contents (Elt F)),
    StableHlo.unary main_v186 main_v187 (Host.negf : (⟨S100000x128, .f32⟩ : BufTy).Contents (Elt F) → (⟨S100000x128, .f32⟩ : BufTy).Contents (Elt F)),
    StableHlo.unary main_v187 main_v188 (Host.exp : (⟨S100000x128, .f32⟩ : BufTy).Contents (Elt F) → (⟨S100000x128, .f32⟩ : BufTy).Contents (Elt F)),
    StableHlo.nullary main_cst_25 (constant S_ .f32 0x3F800000#32),
    StableHlo.unary main_cst_25 main_v189 (broadcastInDim S100000x128 ![] bcast_S_S100000x128 : (⟨S_, .f32⟩ : BufTy).Contents (Elt F) → (⟨S100000x128, .f32⟩ : BufTy).Contents (Elt F)),
    StableHlo.binary main_v189 main_v188 main_v190 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3F800000#32),
    StableHlo.unary main_cst_26 main_v191 (broadcastInDim S100000x128 ![] bcast_S_S100000x128 : (⟨S_, .f32⟩ : BufTy).Contents (Elt F) → (⟨S100000x128, .f32⟩ : BufTy).Contents (Elt F)),
    StableHlo.binary main_v191 main_v190 main_v192 (Host.divf : (⟨S100000x128, .f32⟩ : BufTy).Contents (Elt F) → (⟨S100000x128, .f32⟩ : BufTy).Contents (Elt F) → (⟨S100000x128, .f32⟩ : BufTy).Contents (Elt F)),
    StableHlo.binary main_v181 main_v184 main_v193 (addf : (⟨S100000x128, .f32⟩ : BufTy).Contents (Elt F) → (⟨S100000x128, .f32⟩ : BufTy).Contents (Elt F) → (⟨S100000x128, .f32⟩ : BufTy).Contents (Elt F)),
    StableHlo.unary main_v193 main_v194 (Host.negf : (⟨S100000x128, .f32⟩ : BufTy).Contents (Elt F) → (⟨S100000x128, .f32⟩ : BufTy).Contents (Elt F)),
    StableHlo.unary main_v194 main_v195 (Host.exp : (⟨S100000x128, .f32⟩ : BufTy).Contents (Elt F) → (⟨S100000x128, .f32⟩ : BufTy).Contents (Elt F)),
    StableHlo.nullary main_cst_27 (constant S_ .f32 0x3F800000#32),
    StableHlo.unary main_cst_27 main_v196 (broadcastInDim S100000x128 ![] bcast_S_S100000x128 : (⟨S_, .f32⟩ : BufTy).Contents (Elt F) → (⟨S100000x128, .f32⟩ : BufTy).Contents (Elt F)),
    StableHlo.binary main_v196 main_v195 main_v197 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3F800000#32),
    StableHlo.unary main_cst_28 main_v198 (broadcastInDim S100000x128 ![] bcast_S_S100000x128 : (⟨S_, .f32⟩ : BufTy).Contents (Elt F) → (⟨S100000x128, .f32⟩ : BufTy).Contents (Elt F)),
    StableHlo.binary main_v198 main_v197 main_v199 (Host.divf : (⟨S100000x128, .f32⟩ : BufTy).Contents (Elt F) → (⟨S100000x128, .f32⟩ : BufTy).Contents (Elt F) → (⟨S100000x128, .f32⟩ : BufTy).Contents (Elt F)),
    StableHlo.binary main_v192 main_v185 main_v200 (mulf : (⟨S100000x128, .f32⟩ : BufTy).Contents (Elt F) → (⟨S100000x128, .f32⟩ : BufTy).Contents (Elt F) → (⟨S100000x128, .f32⟩ : BufTy).Contents (Elt F)),
    StableHlo.binary main_v182 main_v200 main_v201 (addf : (⟨S100000x128, .f32⟩ : BufTy).Contents (Elt F) → (⟨S100000x128, .f32⟩ : BufTy).Contents (Elt F) → (⟨S100000x128, .f32⟩ : BufTy).Contents (Elt F)),
    StableHlo.unary main_v201 main_v202 (Host.tanh : (⟨S100000x128, .f32⟩ : BufTy).Contents (Elt F) → (⟨S100000x128, .f32⟩ : BufTy).Contents (Elt F)),
    StableHlo.nullary main_cst_29 (constant S_ .f32 0x3F800000#32),
    StableHlo.unary main_cst_29 main_v203 (broadcastInDim S100000x128 ![] bcast_S_S100000x128 : (⟨S_, .f32⟩ : BufTy).Contents (Elt F) → (⟨S100000x128, .f32⟩ : BufTy).Contents (Elt F)),
    StableHlo.binary main_v203 main_v199 main_v204 (subf : (⟨S100000x128, .f32⟩ : BufTy).Contents (Elt F) → (⟨S100000x128, .f32⟩ : BufTy).Contents (Elt F) → (⟨S100000x128, .f32⟩ : BufTy).Contents (Elt F)),
    StableHlo.binary main_v204 main_v202 main_v205 (mulf : (⟨S100000x128, .f32⟩ : BufTy).Contents (Elt F) → (⟨S100000x128, .f32⟩ : BufTy).Contents (Elt F) → (⟨S100000x128, .f32⟩ : BufTy).Contents (Elt F)),
    StableHlo.binary main_v199 main_v156 main_v206 (mulf : (⟨S100000x128, .f32⟩ : BufTy).Contents (Elt F) → (⟨S100000x128, .f32⟩ : BufTy).Contents (Elt F) → (⟨S100000x128, .f32⟩ : BufTy).Contents (Elt F)),
    StableHlo.binary main_v205 main_v206 main_v207 (addf : (⟨S100000x128, .f32⟩ : BufTy).Contents (Elt F) → (⟨S100000x128, .f32⟩ : BufTy).Contents (Elt F) → (⟨S100000x128, .f32⟩ : BufTy).Contents (Elt F)) ]

/-- 5 operations: those writing main_v208 … main_v212. -/
abbrev pH1 : List (HloOp τ sig (Elt F)) :=
  [ StableHlo.unary main_arg8 main_v208 ((transpose S128x128 [1, 0] · transposes_S128x128_S128x128_1_0) : (⟨S128x128, .f32⟩ : BufTy).Contents (Elt F) → (⟨S128x128, .f32⟩ : BufTy).Contents (Elt F)),
    StableHlo.binary main_v207 main_v208 main_v209 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v211 main_v212 (addf : (⟨S100000x128, .f32⟩ : BufTy).Contents (Elt F) → (⟨S100000x128, .f32⟩ : BufTy).Contents (Elt F) → (⟨S100000x128, .f32⟩ : BufTy).Contents (Elt F)) ]

/-- 47 operations: those writing main_cst_30 … main_v232. -/
abbrev pH2 : List (HloOp τ sig (Elt F)) :=
  [ StableHlo.nullary main_cst_30 (constant S_ .f32 0x00000000#32),
    StableHlo.binary main_v212 main_cst_30 main_v213 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v214 (broadcastInDim S128 ![] bcast_S_S128 : (⟨S_, .f32⟩ : BufTy).Contents (Elt F) → (⟨S128, .f32⟩ : BufTy).Contents (Elt F)),
    StableHlo.binary main_v213 main_v214 main_v215 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary (.of main_call0_cst : StableHlo.TRef sig ⟨S_, .f32⟩) (constant S_ .f32 0x00000000#32),
    StableHlo.TRef.binary (.of main_v212 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v212 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_32 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v216 : StableHlo.TRef sig ⟨S128, .f32⟩) (fun p a b => select (broadcastInDim S128 ![] bcast_S_S128 p) a b),
    StableHlo.unary main_v215 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),
    StableHlo.binary main_v212 main_v218 main_v219 (subf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x3727C5AC#32),
    StableHlo.unary main_cst_33 main_v220 (broadcastInDim S128 ![] bcast_S_S128 : (⟨S_, .f32⟩ : BufTy).Contents (Elt F) → (⟨S128, .f32⟩ : BufTy).Contents (Elt F)),
    StableHlo.binary main_v216 main_v220 main_v221 (addf : (⟨S128, .f32⟩ : BufTy).Contents (Elt F) → (⟨S128, .f32⟩ : BufTy).Contents (Elt F) → (⟨S128, .f32⟩ : BufTy).Contents (Elt F)),
    StableHlo.unary main_v221 main_v222 (Host.rsqrt : (⟨S128, .f32⟩ : BufTy).Contents (Elt F) → (⟨S128, .f32⟩ : BufTy).Contents (Elt F)),
    StableHlo.unary main_v222 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S100000x128 ![0, 1] bcast_S1x128_S100000x128_0_1 : (⟨S1x128, .f32⟩ : BufTy).Contents (Elt F) → (⟨S100000x128, .f32⟩ : BufTy).Contents (Elt F)),
    StableHlo.binary main_v219 main_v224 main_v225 (mulf : (⟨S100000x128, .f32⟩ : BufTy).Contents (Elt F) → (⟨S100000x128, .f32⟩ : BufTy).Contents (Elt F) → (⟨S100000x128, .f32⟩ : BufTy).Contents (Elt F)),
    StableHlo.unary main_arg10 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S100000x128 ![0, 1] bcast_S1x128_S100000x128_0_1 : (⟨S1x128, .f32⟩ : BufTy).Contents (Elt F) → (⟨S100000x128, .f32⟩ : BufTy).Contents (Elt F)),
    StableHlo.binary main_v225 main_v227 main_v228 (mulf : (⟨S100000x128, .f32⟩ : BufTy).Contents (Elt F) → (⟨S100000x128, .f32⟩ : BufTy).Contents (Elt F) → (⟨S100000x128, .f32⟩ : BufTy).Contents (Elt F)),
    StableHlo.unary main_arg11 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v228 main_v230 main_v231 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v231 : StableHlo.TRef sig ⟨S100000x128, .f32⟩) (.of main_call1_v0 : StableHlo.TRef sig ⟨S100000x128, .f32⟩) (.of main_v232 : StableHlo.TRef sig ⟨S100000x128, .f32⟩) maximumf ]

/-- 17 operations: those writing main_cst_34 … main_v243. -/
abbrev pH3 : List (HloOp τ sig (Elt F)) :=
  [ StableHlo.nullary main_cst_34 (constant S_ .f32 0x00000000#32),
    StableHlo.unary main_cst_34 main_v233 (broadcastInDim S200x128 ![] bcast_S_S200x128 : (⟨S_, .f32⟩ : BufTy).Contents (Elt F) → (⟨S200x128, .f32⟩ : BufTy).Contents (Elt F)),
    StableHlo.unary main_arg2 main_v234 (broadcastInDim S100000x1 ![0] bcast_S100000_S100000x1_0 : (⟨S100000, .i32⟩ : BufTy).Contents (Elt F) → (⟨S100000x1, .i32⟩ : BufTy).Contents (Elt F)),
    StableHlo.ternary main_v233 main_v234 main_v232 main_v235 ((fun x i u => Host.scatterAdd scatter_S200x128_S100000x1_S100000x128_1_0_0_1 x i u) : (⟨S200x128, .f32⟩ : BufTy).Contents (Elt F) → (⟨S100000x1, .i32⟩ : BufTy).Contents (Elt F) → (⟨S100000x128, .f32⟩ : BufTy).Contents (Elt F) → (⟨S200x128, .f32⟩ : BufTy).Contents (Elt F)),
    StableHlo.nullary main_cst_35 (constant S_ .f32 0x3F800000#32),
    StableHlo.unary main_cst_35 main_v236 (broadcastInDim S100000 ![] bcast_S_S100000 : (⟨S_, .f32⟩ : BufTy).Contents (Elt F) → (⟨S100000, .f32⟩ : BufTy).Contents (Elt F)),
    StableHlo.nullary main_cst_36 (constant S_ .f32 0x00000000#32),
    StableHlo.unary main_cst_36 main_v237 (broadcastInDim S200 ![] bcast_S_S200 : (⟨S_, .f32⟩ : BufTy).Contents (Elt F) → (⟨S200, .f32⟩ : BufTy).Contents (Elt F)),
    StableHlo.unary main_arg2 main_v238 (broadcastInDim S100000x1 ![0] bcast_S100000_S100000x1_0 : (⟨S100000, .i32⟩ : BufTy).Contents (Elt F) → (⟨S100000x1, .i32⟩ : BufTy).Contents (Elt F)),
    StableHlo.ternary main_v237 main_v238 main_v236 main_v239 ((fun x i u => Host.scatterAdd scatter_S200_S100000x1_S100000_n_0_0_1 x i u) : (⟨S200, .f32⟩ : BufTy).Contents (Elt F) → (⟨S100000x1, .i32⟩ : BufTy).Contents (Elt F) → (⟨S100000, .f32⟩ : BufTy).Contents (Elt F) → (⟨S200, .f32⟩ : BufTy).Contents (Elt F)),
    StableHlo.nullary main_cst_37 (constant S_ .f32 0x3F800000#32),
    StableHlo.TRef.unary (.of main_cst_37 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S200, .f32⟩) (broadcastInDim S200 ![] bcast_S_S200),
    StableHlo.TRef.binary (.of main_call2_v1 : StableHlo.TRef sig ⟨S200, .f32⟩) (.of main_v239 : StableHlo.TRef sig ⟨S200, .f32⟩) (.of main_v240 : StableHlo.TRef sig ⟨S200, .f32⟩) maximumf,
    StableHlo.unary main_v240 main_v241 (broadcastInDim S200x1 ![0] bcast_S200_S200x1_0 : (⟨S200, .f32⟩ : BufTy).Contents (Elt F) → (⟨S200x1, .f32⟩ : BufTy).Contents (Elt F)),
    StableHlo.unary main_v241 main_v242 (broadcastInDim S200x128 ![0, 1] bcast_S200x1_S200x128_0_1 : (⟨S200x1, .f32⟩ : BufTy).Contents (Elt F) → (⟨S200x128, .f32⟩ : BufTy).Contents (Elt F)),
    StableHlo.binary main_v235 main_v242 main_v243 (Host.divf : (⟨S200x128, .f32⟩ : BufTy).Contents (Elt F) → (⟨S200x128, .f32⟩ : BufTy).Contents (Elt F) → (⟨S200x128, .f32⟩ : BufTy).Contents (Elt F)) ]

/-- 20 operations: those writing main_v244 … main_v249. -/
abbrev pH4 : List (HloOp τ sig (Elt F)) :=
  [ StableHlo.unary main_arg12 main_v244 ((transpose S128x10 [1, 0] · transposes_S10x128_S128x10_1_0) : (⟨S10x128, .f32⟩ : BufTy).Contents (Elt F) → (⟨S128x10, .f32⟩ : BufTy).Contents (Elt F)),
    StableHlo.binary main_v243 main_v244 main_v245 ((fun l r => Host.dotGeneral dot_S200x128_S128x10_S200x10_1_0_0_1_n_n none l r) : (⟨S200x128, .f32⟩ : BufTy).Contents (Elt F) → (⟨S128x10, .f32⟩ : BufTy).Contents (Elt F) → (⟨S200x10, .f32⟩ : BufTy).Contents (Elt F)),
    StableHlo.unary main_arg13 main_v246 (broadcastInDim S1x10 ![1] bcast_S10_S1x10_1 : (⟨S10, .f32⟩ : BufTy).Contents (Elt F) → (⟨S1x10, .f32⟩ : BufTy).Contents (Elt F)),
    StableHlo.unary main_v246 main_v247 (broadcastInDim S200x10 ![0, 1] bcast_S1x10_S200x10_0_1 : (⟨S1x10, .f32⟩ : BufTy).Contents (Elt F) → (⟨S200x10, .f32⟩ : BufTy).Contents (Elt F)),
    StableHlo.binary main_v245 main_v247 main_v248 (addf : (⟨S200x10, .f32⟩ : BufTy).Contents (Elt F) → (⟨S200x10, .f32⟩ : BufTy).Contents (Elt F) → (⟨S200x10, .f32⟩ : BufTy).Contents (Elt F)),
    StableHlo.TRef.nullary (.of main_call3_cst : StableHlo.TRef sig ⟨S_, .f32⟩) (constant S_ .f32 0xFF800000#32),
    StableHlo.TRef.binary (.of main_v248 : StableHlo.TRef sig ⟨S200x10, .f32⟩) (.of main_call3_cst : StableHlo.TRef sig ⟨S_, .f32⟩) (.of main_call3_v0 : StableHlo.TRef sig ⟨S200, .f32⟩) (fun x v => Host.reduce FloatOps.maximumf x v reducesTo_S200x10_S200_d1 h_S_),
    StableHlo.TRef.nullary (.of main_call3_cst_0 : StableHlo.TRef sig ⟨S_, .f32⟩) (constant S_ .f32 0xFF800000#32),
    StableHlo.TRef.unary (.of main_call3_cst_0 : StableHlo.TRef sig ⟨S_, .f32⟩) (.of main_call3_v1 : StableHlo.TRef sig ⟨S200, .f32⟩) (broadcastInDim S200 ![] bcast_S_S200),
    StableHlo.TRef.binary (.of main_call3_v1 : StableHlo.TRef sig ⟨S200, .f32⟩) (.of main_call3_v0 : StableHlo.TRef sig ⟨S200, .f32⟩) (.of main_call3_v2 : StableHlo.TRef sig ⟨S200, .f32⟩) maximumf,
    StableHlo.TRef.unary (.of main_call3_v2 : StableHlo.TRef sig ⟨S200, .f32⟩) (.of main_call3_v3 : StableHlo.TRef sig ⟨S200x1, .f32⟩) (broadcastInDim S200x1 ![0] bcast_S200_S200x1_0),
    StableHlo.TRef.unary (.of main_call3_v3 : StableHlo.TRef sig ⟨S200x1, .f32⟩) (.of main_call3_v4 : StableHlo.TRef sig ⟨S200x10, .f32⟩) (broadcastInDim S200x10 ![0, 1] bcast_S200x1_S200x10_0_1),
    StableHlo.TRef.binary (.of main_v248 : StableHlo.TRef sig ⟨S200x10, .f32⟩) (.of main_call3_v4 : StableHlo.TRef sig ⟨S200x10, .f32⟩) (.of main_call3_v5 : StableHlo.TRef sig ⟨S200x10, .f32⟩) subf,
    StableHlo.TRef.unary (.of main_call3_v5 : StableHlo.TRef sig ⟨S200x10, .f32⟩) (.of main_call3_v6 : StableHlo.TRef sig ⟨S200x10, .f32⟩) Host.exp,
    StableHlo.TRef.nullary (.of main_call3_cst_1 : StableHlo.TRef sig ⟨S_, .f32⟩) (constant S_ .f32 0x00000000#32),
    StableHlo.TRef.binary (.of main_call3_v6 : StableHlo.TRef sig ⟨S200x10, .f32⟩) (.of main_call3_cst_1 : StableHlo.TRef sig ⟨S_, .f32⟩) (.of main_call3_v7 : StableHlo.TRef sig ⟨S200, .f32⟩) (fun x v => Host.reduceAdd x v reducesTo_S200x10_S200_d1 h_S_),
    StableHlo.TRef.unary (.of main_call3_v7 : StableHlo.TRef sig ⟨S200, .f32⟩) (.of main_call3_v8 : StableHlo.TRef sig ⟨S200x1, .f32⟩) (broadcastInDim S200x1 ![0] bcast_S200_S200x1_0),
    StableHlo.TRef.unary (.of main_call3_v8 : StableHlo.TRef sig ⟨S200x1, .f32⟩) (.of main_call3_v9 : StableHlo.TRef sig ⟨S200x1, .f32⟩) Host.log,
    StableHlo.TRef.unary (.of main_call3_v9 : StableHlo.TRef sig ⟨S200x1, .f32⟩) (.of main_call3_v10 : StableHlo.TRef sig ⟨S200x10, .f32⟩) (broadcastInDim S200x10 ![0, 1] bcast_S200x1_S200x10_0_1),
    StableHlo.TRef.binary (.of main_call3_v5 : StableHlo.TRef sig ⟨S200x10, .f32⟩) (.of main_call3_v10 : StableHlo.TRef sig ⟨S200x10, .f32⟩) (.of main_v249 : StableHlo.TRef sig ⟨S200x10, .f32⟩) subf ]

/-- @main's 329 operations, in order. -/
abbrev ops : List (HloOp τ sig (Elt F)) :=
  pSetup ++ pL0a ++ pL0b ++ pL0c ++ pL1a ++ pL1b ++ pL1c ++ pL2a ++ pL2b ++ pL2c ++ pL3a ++ pL3b ++ pL3c ++ pH1 ++ pH2 ++ pH3 ++ pH4

end Cert.RefRun

end
-- ==== Proof.RefRun.lean ====
/-
  The reference program's run.  Its @main is one straight line of host operations: the printed windows, each a
  sequence of statements, and inside the last one four calls of module-local functions (the batch variance with
  its guarded division, the rectifier, the lower clamp of the node counts, the log-softmax), whose bodies are
  again straight lines over the buffers the call names.  Unfolded, the whole program is the list ops of
  the operation lists' module, run in order; the windows do not end where the stages of the network do, so a
  stage's list cut by a window's end is split there into its first operations and the rest.  A straight line of
  host operations, run from any memory with all counters zero, terminates on every weakly fair execution with
  every buffer at the operations' composed value of the launch contents.
-/
import proofs.«403864_j85770496901353_1_alg».proof.Proof.RefParts
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The windows as lists -/

set_option maxRecDepth 8192 in
set_option maxHeartbeats 4000000 in
/-- Statements 1 … 60: the edge tables, layer 0's matmul and aggregation, and the first 40 operations of its gated update. -/
theorem main_part0_eq (c : Dev nD) :
    main_part0 (F := F) c = seq (pSetup ++ pL0a ++ pL0b ++ (pL0c (F := F)).take 40) := rfl

set_option maxRecDepth 8192 in
set_option maxHeartbeats 4000000 in
/-- Statements 61 … 120: the last 3 operations of layer 0's update, layer 1 up to the first 41 of its update. -/
theorem main_part1_eq (c : Dev nD) :
    main_part1 (F := F) c = seq ((pL0c (F := F)).drop 40 ++ pL1a ++ pL1b ++ (pL1c (F := F)).take 41) := rfl

set_option maxRecDepth 8192 in
set_option maxHeartbeats 4000000 in
/-- Statements 121 … 180: the last 2 operations of layer 1's update, layer 2 up to the first 42 of its update. -/
theorem main_part2_eq (c : Dev nD) :
    main_part2 (F := F) c = seq ((pL1c (F := F)).drop 41 ++ pL2a ++ pL2b ++ (pL2c (F := F)).take 42) := rfl

set_option maxRecDepth 8192 in
set_option maxHeartbeats 4000000 in
/-- Statements 181 … 240: the last operation of layer 2's update and the whole of layer 3. -/
theorem main_part3_eq (c : Dev nD) :
    main_part3 (F := F) c = seq ((pL2c (F := F)).drop 42 ++ pL3a ++ pL3b ++ pL3c) := rfl

set_option maxRecDepth 8192 in
set_option maxHeartbeats 4000000 in
/-- Statements 241 … 291: the head, each called function's operations in its call's place. -/
theorem main_part4_eq (c : Dev nD) :
    main_part4 (F := F) c = seq (pH1 ++ pH2 ++ pH3 ++ pH4) := by
  simp only [main_part4, fn_var.body, fn_where.body, fn_relu.body, fn_clip.body, fn_log_softmax.body, bind_assoc, pure_bind]
  rfl

/-! ## @main is the list -/

/-- A stage's list cut by a window's end is its first operations followed by the rest. -/
theorem pL0c_cut : (pL0c : List (HloOp τ sig (Elt F))) = (pL0c (F := F)).take 40 ++ (pL0c (F := F)).drop 40 :=
  (List.take_append_drop 40 _).symm
theorem pL1c_cut : (pL1c : List (HloOp τ sig (Elt F))) = (pL1c (F := F)).take 41 ++ (pL1c (F := F)).drop 41 :=
  (List.take_append_drop 41 _).symm
theorem pL2c_cut : (pL2c : List (HloOp τ sig (Elt F))) = (pL2c (F := F)).take 42 ++ (pL2c (F := F)).drop 42 :=
  (List.take_append_drop 42 _).symm

/-- The operations' list regrouped by windows. -/
theorem ops_windows : (ops : List (HloOp τ sig (Elt F)))
    = (pSetup ++ pL0a ++ pL0b ++ (pL0c (F := F)).take 40)
      ++ ((pL0c (F := F)).drop 40 ++ pL1a ++ pL1b ++ (pL1c (F := F)).take 41)
      ++ ((pL1c (F := F)).drop 41 ++ pL2a ++ pL2b ++ (pL2c (F := F)).take 42)
      ++ ((pL2c (F := F)).drop 42 ++ pL3a ++ pL3b ++ pL3c)
      ++ (pH1 ++ pH2 ++ pH3 ++ pH4) := by
  show pSetup ++ pL0a ++ pL0b ++ pL0c ++ pL1a ++ pL1b ++ pL1c ++ pL2a ++ pL2b ++ pL2c ++ pL3a ++ pL3b ++ pL3c
      ++ pH1 ++ pH2 ++ pH3 ++ pH4 = _
  conv_lhs => rw [pL0c_cut (F := F), pL1c_cut (F := F), pL2c_cut (F := F)]
  simp only [List.append_assoc]

/-- @main runs its operations in order: the windows one after the other, each the run of its list. -/
theorem main_eq (c : Dev nD) : main (F := F) c = seq ops := by
  rw [ops_windows]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation stays on the TensorCore's buffers and allocates none -/

/-- An operation's buffers are TensorCore references, whatever its kind. -/
macro "bufs_sub" : tactic =>
  `(tactic| (simp only [List.Forall, ↓nullary_bufs_sub, ↓unary_bufs_sub, ↓binary_bufs_sub, ↓ternary_bufs_sub,
      ↓reshape_bufs_sub, and_self]))

/-- No operation allocates: each one's fresh set is empty by computation. -/
macro "no_fresh" : tactic => `(tactic| (simp only [List.Forall]; repeat' constructor))

theorem pSetup_sub : (pSetup : List (HloOp τ sig (Elt F))).Forall fun op => op.bufs ⊆ tcRefs τ sig := by bufs_sub
theorem pL0a_sub : (pL0a : List (HloOp τ sig (Elt F))).Forall fun op => op.bufs ⊆ tcRefs τ sig := by bufs_sub
theorem pL0b_sub : (pL0b : List (HloOp τ sig (Elt F))).Forall fun op => op.bufs ⊆ tcRefs τ sig := by bufs_sub
theorem pL0c_sub : (pL0c : List (HloOp τ sig (Elt F))).Forall fun op => op.bufs ⊆ tcRefs τ sig := by bufs_sub
theorem pL1a_sub : (pL1a : List (HloOp τ sig (Elt F))).Forall fun op => op.bufs ⊆ tcRefs τ sig := by bufs_sub
theorem pL1b_sub : (pL1b : List (HloOp τ sig (Elt F))).Forall fun op => op.bufs ⊆ tcRefs τ sig := by bufs_sub
theorem pL1c_sub : (pL1c : List (HloOp τ sig (Elt F))).Forall fun op => op.bufs ⊆ tcRefs τ sig := by bufs_sub
theorem pL2a_sub : (pL2a : List (HloOp τ sig (Elt F))).Forall fun op => op.bufs ⊆ tcRefs τ sig := by bufs_sub
theorem pL2b_sub : (pL2b : List (HloOp τ sig (Elt F))).Forall fun op => op.bufs ⊆ tcRefs τ sig := by bufs_sub
theorem pL2c_sub : (pL2c : List (HloOp τ sig (Elt F))).Forall fun op => op.bufs ⊆ tcRefs τ sig := by bufs_sub
theorem pL3a_sub : (pL3a : List (HloOp τ sig (Elt F))).Forall fun op => op.bufs ⊆ tcRefs τ sig := by bufs_sub
theorem pL3b_sub : (pL3b : List (HloOp τ sig (Elt F))).Forall fun op => op.bufs ⊆ tcRefs τ sig := by bufs_sub
theorem pL3c_sub : (pL3c : List (HloOp τ sig (Elt F))).Forall fun op => op.bufs ⊆ tcRefs τ sig := by bufs_sub
theorem pH1_sub : (pH1 : List (HloOp τ sig (Elt F))).Forall fun op => op.bufs ⊆ tcRefs τ sig := by bufs_sub
theorem pH2_sub : (pH2 : List (HloOp τ sig (Elt F))).Forall fun op => op.bufs ⊆ tcRefs τ sig := by bufs_sub
theorem pH3_sub : (pH3 : List (HloOp τ sig (Elt F))).Forall fun op => op.bufs ⊆ tcRefs τ sig := by bufs_sub
theorem pH4_sub : (pH4 : List (HloOp τ sig (Elt F))).Forall fun op => op.bufs ⊆ tcRefs τ sig := by bufs_sub

theorem pSetup_fresh : (pSetup : List (HloOp τ sig (Elt F))).Forall fun op => op.fresh = ∅ := by no_fresh
theorem pL0a_fresh : (pL0a : List (HloOp τ sig (Elt F))).Forall fun op => op.fresh = ∅ := by no_fresh
theorem pL0b_fresh : (pL0b : List (HloOp τ sig (Elt F))).Forall fun op => op.fresh = ∅ := by no_fresh
theorem pL0c_fresh : (pL0c : List (HloOp τ sig (Elt F))).Forall fun op => op.fresh = ∅ := by no_fresh
theorem pL1a_fresh : (pL1a : List (HloOp τ sig (Elt F))).Forall fun op => op.fresh = ∅ := by no_fresh
theorem pL1b_fresh : (pL1b : List (HloOp τ sig (Elt F))).Forall fun op => op.fresh = ∅ := by no_fresh
theorem pL1c_fresh : (pL1c : List (HloOp τ sig (Elt F))).Forall fun op => op.fresh = ∅ := by no_fresh
theorem pL2a_fresh : (pL2a : List (HloOp τ sig (Elt F))).Forall fun op => op.fresh = ∅ := by no_fresh
theorem pL2b_fresh : (pL2b : List (HloOp τ sig (Elt F))).Forall fun op => op.fresh = ∅ := by no_fresh
theorem pL2c_fresh : (pL2c : List (HloOp τ sig (Elt F))).Forall fun op => op.fresh = ∅ := by no_fresh
theorem pL3a_fresh : (pL3a : List (HloOp τ sig (Elt F))).Forall fun op => op.fresh = ∅ := by no_fresh
theorem pL3b_fresh : (pL3b : List (HloOp τ sig (Elt F))).Forall fun op => op.fresh = ∅ := by no_fresh
theorem pL3c_fresh : (pL3c : List (HloOp τ sig (Elt F))).Forall fun op => op.fresh = ∅ := by no_fresh
theorem pH1_fresh : (pH1 : List (HloOp τ sig (Elt F))).Forall fun op => op.fresh = ∅ := by no_fresh
theorem pH2_fresh : (pH2 : List (HloOp τ sig (Elt F))).Forall fun op => op.fresh = ∅ := by no_fresh
theorem pH3_fresh : (pH3 : List (HloOp τ sig (Elt F))).Forall fun op => op.fresh = ∅ := by no_fresh
theorem pH4_fresh : (pH4 : List (HloOp τ sig (Elt F))).Forall fun op => op.fresh = ∅ := by no_fresh

theorem ops_sub : (ops : List (HloOp τ sig (Elt F))).Forall fun op => op.bufs ⊆ tcRefs τ sig := by
  simp only [ops, List.forall_append, and_assoc]
  exact ⟨pSetup_sub, pL0a_sub, pL0b_sub, pL0c_sub, pL1a_sub, pL1b_sub, pL1c_sub, pL2a_sub, pL2b_sub, pL2c_sub, pL3a_sub, pL3b_sub, pL3c_sub, pH1_sub, pH2_sub, pH3_sub, pH4_sub⟩

theorem ops_fresh : ∀ op ∈ (ops : List (HloOp τ sig (Elt F))), op.fresh = ∅ := by
  have h : (ops : List (HloOp τ sig (Elt F))).Forall fun op => op.fresh = ∅ := by
    simp only [ops, List.forall_append, and_assoc]
    exact ⟨pSetup_fresh, pL0a_fresh, pL0b_fresh, pL0c_fresh, pL1a_fresh, pL1b_fresh, pL1c_fresh, pL2a_fresh, pL2b_fresh, pL2c_fresh, pL3a_fresh, pL3b_fresh, pL3c_fresh, pH1_fresh, pH2_fresh, pH3_fresh, pH4_fresh⟩
  exact List.forall_iff_forall_mem.mp h

/-! ## The run -/

set_option maxHeartbeats 4000000 in
/-- On every device, for any float values, from any memory with zero counters: every weakly fair execution of @main
    terminates, and every final state has each TensorCore buffer at the operations' composed value of the launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefRun

end
-- ==== Proof.RefRead.lean ====
/-
  The reference program read as the network.

  The reference's line of host operations is cut into seventeen stretches: the edge tables; for each of the four
  layers the dense map, the sum along the edges, and the gated update; then the first dense head, the batch
  normalisation with its rectifier, the per-graph means, and the class scores with their log-softmax.  Each stretch
  writes its own buffers only, so what a stretch leaves in its last buffer is one of the network's functions of the
  buffers it reads, and every other buffer is as it was.  Reading the stretches in order, the last buffer of the
  line holds the whole network applied to the fourteen argument arrays, and the argument arrays are untouched.
-/
import proofs.«403864_j85770496901353_1_alg».proof.Proof.RefParts
import proofs.«403864_j85770496901353_1_alg».proof.Proof.Net
import Idealize.ShloMosaic.Lib.StableHlo.Run

noncomputable section

namespace Cert.RefRun

open Cert.ReferenceIdeal Idealize.ShloMosaic Idealize.ShloMosaic.TcCoe Idealize.SL.Sem Idealize.ShloMosaic.StableHlo Cert.Net

variable {F : FTy → Type} [FloatOps F]

/-- Two stretches run one after the other are their concatenation run as one. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stretch leaves in its last buffer -/

/-- The edge tables: the source row of the edge list. -/
theorem val_Setup_v1 (V : Valuation τ sig (Elt F)) :
    after pSetup V (Proc.devRef .tc main_v1) = srcR (V (Proc.devRef .tc main_arg1)) := by
  after_results
  rfl

/-- The edge tables: the target row of the edge list. -/
theorem val_Setup_v3 (V : Valuation τ sig (Elt F)) :
    after pSetup V (Proc.devRef .tc main_v3) = dstR (V (Proc.devRef .tc main_arg1)) := by
  after_results
  rfl

/-- Layer 0: the dense map of the node states by the layer's weight. -/
theorem val_L0a (V : Valuation τ sig (Elt F)) :
    after pL0a V (Proc.devRef .tc main_v6) = mmR (V (Proc.devRef .tc main_arg0)) (wsl0 (V (Proc.devRef .tc main_arg3))) := by
  after_results
  rfl

/-- Layer 0: the messages summed along the edges. -/
theorem val_L0b (V : Valuation τ sig (Elt F)) :
    after pL0b V (Proc.devRef .tc main_v16) = aggR (V (Proc.devRef .tc main_v1)) (V (Proc.devRef .tc main_v3)) (V (Proc.devRef .tc main_v6)) := by
  after_results_simp
  rfl

/-- Layer 0: the gated update of every node. -/
theorem val_L0c (V : Valuation τ sig (Elt F)) :
    after pL0c V (Proc.devRef .tc main_v54) = gruR (V (Proc.devRef .tc main_v16)) (V (Proc.devRef .tc main_arg0))
      (V (Proc.devRef .tc main_arg4)) (V (Proc.devRef .tc main_arg5)) (V (Proc.devRef .tc main_arg6)) (V (Proc.devRef .tc main_arg7)) := by
  after_results_simp
  rfl

/-- Layer 1: the dense map of the node states by the layer's weight. -/
theorem val_L1a (V : Valuation τ sig (Elt F)) :
    after pL1a V (Proc.devRef .tc main_v57) = mmR (V (Proc.devRef .tc main_v54)) (wsl1 (V (Proc.devRef .tc main_arg3))) := by
  after_results
  rfl

/-- Layer 1: the messages summed along the edges. -/
theorem val_L1b (V : Valuation τ sig (Elt F)) :
    after pL1b V (Proc.devRef .tc main_v67) = aggR (V (Proc.devRef .tc main_v1)) (V (Proc.devRef .tc main_v3)) (V (Proc.devRef .tc main_v57)) := by
  after_results_simp
  rfl

/-- Layer 1: the gated update of every node. -/
theorem val_L1c (V : Valuation τ sig (Elt F)) :
    after pL1c V (Proc.devRef .tc main_v105) = gruR (V (Proc.devRef .tc main_v67)) (V (Proc.devRef .tc main_v54))
      (V (Proc.devRef .tc main_arg4)) (V (Proc.devRef .tc main_arg5)) (V (Proc.devRef .tc main_arg6)) (V (Proc.devRef .tc main_arg7)) := by
  after_results_simp
  rfl

/-- Layer 2: the dense map of the node states by the layer's weight. -/
theorem val_L2a (V : Valuation τ sig (Elt F)) :
    after pL2a V (Proc.devRef .tc main_v108) = mmR (V (Proc.devRef .tc main_v105)) (wsl2 (V (Proc.devRef .tc main_arg3))) := by
  after_results
  rfl

/-- Layer 2: the messages summed along the edges. -/
theorem val_L2b (V : Valuation τ sig (Elt F)) :
    after pL2b V (Proc.devRef .tc main_v118) = aggR (V (Proc.devRef .tc main_v1)) (V (Proc.devRef .tc main_v3)) (V (Proc.devRef .tc main_v108)) := by
  after_results_simp
  rfl

/-- Layer 2: the gated update of every node. -/
theorem val_L2c (V : Valuation τ sig (Elt F)) :
    after pL2c V (Proc.devRef .tc main_v156) = gruR (V (Proc.devRef .tc main_v118)) (V (Proc.devRef .tc main_v105))
      (V (Proc.devRef .tc main_arg4)) (V (Proc.devRef .tc main_arg5)) (V (Proc.devRef .tc main_arg6)) (V (Proc.devRef .tc main_arg7)) := by
  after_results_simp
  rfl

/-- Layer 3: the dense map of the node states by the layer's weight. -/
theorem val_L3a (V : Valuation τ sig (Elt F)) :
    after pL3a V (Proc.devRef .tc main_v159) = mmR (V (Proc.devRef .tc main_v156)) (wsl3 (V (Proc.devRef .tc main_arg3))) := by
  after_results
  rfl

/-- Layer 3: the messages summed along the edges. -/
theorem val_L3b (V : Valuation τ sig (Elt F)) :
    after pL3b V (Proc.devRef .tc main_v169) = aggR (V (Proc.devRef .tc main_v1)) (V (Proc.devRef .tc main_v3)) (V (Proc.devRef .tc main_v159)) := by
  after_results_simp
  rfl

/-- Layer 3: the gated update of every node. -/
theorem val_L3c (V : Valuation τ sig (Elt F)) :
    after pL3c V (Proc.devRef .tc main_v207) = gruR (V (Proc.devRef .tc main_v169)) (V (Proc.devRef .tc main_v156))
      (V (Proc.devRef .tc main_arg4)) (V (Proc.devRef .tc main_arg5)) (V (Proc.devRef .tc main_arg6)) (V (Proc.devRef .tc main_arg7)) := by
  after_results_simp
  rfl

/-- The first dense head. -/
theorem val_H1 (V : Valuation τ sig (Elt F)) :
    after pH1 V (Proc.devRef .tc main_v212) = fc1R (V (Proc.devRef .tc main_v207)) (V (Proc.devRef .tc main_arg8)) (V (Proc.devRef .tc main_arg9)) := by
  after_results
  rfl

/-- The batch normalisation and the rectifier. -/
theorem val_H2 (V : Valuation τ sig (Elt F)) :
    after pH2 V (Proc.devRef .tc main_v232) = reluR (bnR (V (Proc.devRef .tc main_v212)) (V (Proc.devRef .tc main_arg10)) (V (Proc.devRef .tc main_arg11))) := by
  after_results_simp
  rfl

/-- The per-graph means. -/
theorem val_H3 (V : Valuation τ sig (Elt F)) :
    after pH3 V (Proc.devRef .tc main_v243) = gfeatR (V (Proc.devRef .tc main_v232)) (V (Proc.devRef .tc main_arg2)) := by
  after_results_simp
  rfl

/-- The class scores and their log-softmax. -/
theorem val_H4 (V : Valuation τ sig (Elt F)) :
    after pH4 V (Proc.devRef .tc main_v249) = lsmR (logitsR (V (Proc.devRef .tc main_v243)) (V (Proc.devRef .tc main_arg12)) (V (Proc.devRef .tc main_arg13))) := by
  after_results_simp
  rfl

/-! ## The buffers each stretch writes -/

/-- The buffers written by this stretch, one per operation. -/
abbrev wSetup : List (Ref sig .tc) := [main_v0, main_v1, main_v2, main_v3]
theorem hwSetup : (pSetup (F := F)).Forall fun op => op.writes ⊆ ((wSetup).map (Proc.devRef (τ := τ) .tc)).toFinset := by
  simp only [pSetup, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL0a : List (Ref sig .tc) := [main_v4, main_v5, main_v6]
theorem hwL0a : (pL0a (F := F)).Forall fun op => op.writes ⊆ ((wL0a).map (Proc.devRef (τ := τ) .tc)).toFinset := by
  simp only [pL0a, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL0b : List (Ref sig .tc) := [main_c, main_v7, main_v8, main_c_0, main_v9, main_v10, main_v11, main_v12, main_v13, main_cst, main_v14, main_v15, main_v16]
theorem hwL0b : (pL0b (F := F)).Forall fun op => op.writes ⊆ ((wL0b).map (Proc.devRef (τ := τ) .tc)).toFinset := by
  simp only [pL0b, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL0c : List (Ref sig .tc) := [main_v17, main_v18, main_v19, main_v20, main_v21, main_v22, main_v23, main_v24, main_v25, main_v26, main_v27, main_v28, main_v29, main_v30, main_v31, main_v32, main_v33, main_v34, main_v35, main_cst_1, main_v36, main_v37, main_cst_2, main_v38, main_v39, main_v40, main_v41, main_v42, main_cst_3, main_v43, main_v44, main_cst_4, main_v45, main_v46, main_v47, main_v48, main_v49, main_cst_5, main_v50, main_v51, main_v52, main_v53, main_v54]
theorem hwL0c : (pL0c (F := F)).Forall fun op => op.writes ⊆ ((wL0c).map (Proc.devRef (τ := τ) .tc)).toFinset := by
  simp only [pL0c, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL1a : List (Ref sig .tc) := [main_v55, main_v56, main_v57]
theorem hwL1a : (pL1a (F := F)).Forall fun op => op.writes ⊆ ((wL1a).map (Proc.devRef (τ := τ) .tc)).toFinset := by
  simp only [pL1a, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL1b : List (Ref sig .tc) := [main_c_6, main_v58, main_v59, main_c_7, main_v60, main_v61, main_v62, main_v63, main_v64, main_cst_8, main_v65, main_v66, main_v67]
theorem hwL1b : (pL1b (F := F)).Forall fun op => op.writes ⊆ ((wL1b).map (Proc.devRef (τ := τ) .tc)).toFinset := by
  simp only [pL1b, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL1c : List (Ref sig .tc) := [main_v68, main_v69, main_v70, main_v71, main_v72, main_v73, main_v74, main_v75, main_v76, main_v77, main_v78, main_v79, main_v80, main_v81, main_v82, main_v83, main_v84, main_v85, main_v86, main_cst_9, main_v87, main_v88, main_cst_10, main_v89, main_v90, main_v91, main_v92, main_v93, main_cst_11, main_v94, main_v95, main_cst_12, main_v96, main_v97, main_v98, main_v99, main_v100, main_cst_13, main_v101, main_v102, main_v103, main_v104, main_v105]
theorem hwL1c : (pL1c (F := F)).Forall fun op => op.writes ⊆ ((wL1c).map (Proc.devRef (τ := τ) .tc)).toFinset := by
  simp only [pL1c, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL2a : List (Ref sig .tc) := [main_v106, main_v107, main_v108]
theorem hwL2a : (pL2a (F := F)).Forall fun op => op.writes ⊆ ((wL2a).map (Proc.devRef (τ := τ) .tc)).toFinset := by
  simp only [pL2a, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL2b : List (Ref sig .tc) := [main_c_14, main_v109, main_v110, main_c_15, main_v111, main_v112, main_v113, main_v114, main_v115, main_cst_16, main_v116, main_v117, main_v118]
theorem hwL2b : (pL2b (F := F)).Forall fun op => op.writes ⊆ ((wL2b).map (Proc.devRef (τ := τ) .tc)).toFinset := by
  simp only [pL2b, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL2c : List (Ref sig .tc) := [main_v119, main_v120, main_v121, main_v122, main_v123, main_v124, main_v125, main_v126, main_v127, main_v128, main_v129, main_v130, main_v131, main_v132, main_v133, main_v134, main_v135, main_v136, main_v137, main_cst_17, main_v138, main_v139, main_cst_18, main_v140, main_v141, main_v142, main_v143, main_v144, main_cst_19, main_v145, main_v146, main_cst_20, main_v147, main_v148, main_v149, main_v150, main_v151, main_cst_21, main_v152, main_v153, main_v154, main_v155, main_v156]
theorem hwL2c : (pL2c (F := F)).Forall fun op => op.writes ⊆ ((wL2c).map (Proc.devRef (τ := τ) .tc)).toFinset := by
  simp only [pL2c, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL3a : List (Ref sig .tc) := [main_v157, main_v158, main_v159]
theorem hwL3a : (pL3a (F := F)).Forall fun op => op.writes ⊆ ((wL3a).map (Proc.devRef (τ := τ) .tc)).toFinset := by
  simp only [pL3a, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL3b : List (Ref sig .tc) := [main_c_22, main_v160, main_v161, main_c_23, main_v162, main_v163, main_v164, main_v165, main_v166, main_cst_24, main_v167, main_v168, main_v169]
theorem hwL3b : (pL3b (F := F)).Forall fun op => op.writes ⊆ ((wL3b).map (Proc.devRef (τ := τ) .tc)).toFinset := by
  simp only [pL3b, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wL3c : List (Ref sig .tc) := [main_v170, main_v171, main_v172, main_v173, main_v174, main_v175, main_v176, main_v177, main_v178, main_v179, main_v180, main_v181, main_v182, main_v183, main_v184, main_v185, main_v186, main_v187, main_v188, main_cst_25, main_v189, main_v190, main_cst_26, main_v191, main_v192, main_v193, main_v194, main_v195, main_cst_27, main_v196, main_v197, main_cst_28, main_v198, main_v199, main_v200, main_v201, main_v202, main_cst_29, main_v203, main_v204, main_v205, main_v206, main_v207]
theorem hwL3c : (pL3c (F := F)).Forall fun op => op.writes ⊆ ((wL3c).map (Proc.devRef (τ := τ) .tc)).toFinset := by
  simp only [pL3c, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wH1 : List (Ref sig .tc) := [main_v208, main_v209, main_v210, main_v211, main_v212]
theorem hwH1 : (pH1 (F := F)).Forall fun op => op.writes ⊆ ((wH1).map (Proc.devRef (τ := τ) .tc)).toFinset := by
  simp only [pH1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wH2 : List (Ref sig .tc) := [main_cst_30, main_v213, main_cst_31, main_v214, main_v215, main_c_32, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v216, main_v217, main_v218, main_v219, main_cst_33, main_v220, main_v221, main_v222, main_v223, main_v224, main_v225, main_v226, main_v227, main_v228, main_v229, main_v230, main_v231, main_call1_cst, main_call1_v0, main_v232]
theorem hwH2 : (pH2 (F := F)).Forall fun op => op.writes ⊆ ((wH2).map (Proc.devRef (τ := τ) .tc)).toFinset := by
  simp only [pH2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wH3 : List (Ref sig .tc) := [main_cst_34, main_v233, main_v234, main_v235, main_cst_35, main_v236, main_cst_36, main_v237, main_v238, main_v239, main_cst_37, main_call2_v0, main_call2_v1, main_v240, main_v241, main_v242, main_v243]
theorem hwH3 : (pH3 (F := F)).Forall fun op => op.writes ⊆ ((wH3).map (Proc.devRef (τ := τ) .tc)).toFinset := by
  simp only [pH3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers written by this stretch, one per operation. -/
abbrev wH4 : List (Ref sig .tc) := [main_v244, main_v245, main_v246, main_v247, main_v248, main_call3_cst, main_call3_v0, main_call3_cst_0, main_call3_v1, main_call3_v2, main_call3_v3, main_call3_v4, main_call3_v5, main_call3_v6, main_call3_cst_1, main_call3_v7, main_call3_v8, main_call3_v9, main_call3_v10, main_v249]
theorem hwH4 : (pH4 (F := F)).Forall fun op => op.writes ⊆ ((wH4).map (Proc.devRef (τ := τ) .tc)).toFinset := by
  simp only [pH4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## The line read stretch by stretch -/

/-- The fourteen argument arrays. -/
abbrev argL : List (Ref sig .tc) :=
  [main_arg0, main_arg1, main_arg2, main_arg3, main_arg4, main_arg5, main_arg6, main_arg7, main_arg8, main_arg9,
   main_arg10, main_arg11, main_arg12, main_arg13]
theorem dj0 : ∀ r ∈ argL, r ∉ wSetup := by decide
theorem dj1 : ∀ r ∈ argL, r ∉ wL0a := by decide
theorem dj2 : ∀ r ∈ argL, r ∉ wL0b := by decide
theorem dj3 : ∀ r ∈ argL, r ∉ wL0c := by decide
theorem dj4 : ∀ r ∈ argL, r ∉ wL1a := by decide
theorem dj5 : ∀ r ∈ argL, r ∉ wL1b := by decide
theorem dj6 : ∀ r ∈ argL, r ∉ wL1c := by decide
theorem dj7 : ∀ r ∈ argL, r ∉ wL2a := by decide
theorem dj8 : ∀ r ∈ argL, r ∉ wL2b := by decide
theorem dj9 : ∀ r ∈ argL, r ∉ wL2c := by decide
theorem dj10 : ∀ r ∈ argL, r ∉ wL3a := by decide
theorem dj11 : ∀ r ∈ argL, r ∉ wL3b := by decide
theorem dj12 : ∀ r ∈ argL, r ∉ wL3c := by decide
theorem dj13 : ∀ r ∈ argL, r ∉ wH1 := by decide
theorem dj14 : ∀ r ∈ argL, r ∉ wH2 := by decide
theorem dj15 : ∀ r ∈ argL, r ∉ wH3 := by decide
theorem dj16 : ∀ r ∈ argL, r ∉ wH4 := by decide

/-- The buffers after the first stretches. -/
abbrev s0 (V : Valuation τ sig (Elt F)) : Valuation τ sig (Elt F) := after pSetup V
abbrev s1 (V : Valuation τ sig (Elt F)) : Valuation τ sig (Elt F) := after pL0a (s0 V)
abbrev s2 (V : Valuation τ sig (Elt F)) : Valuation τ sig (Elt F) := after pL0b (s1 V)
abbrev s3 (V : Valuation τ sig (Elt F)) : Valuation τ sig (Elt F) := after pL0c (s2 V)
abbrev s4 (V : Valuation τ sig (Elt F)) : Valuation τ sig (Elt F) := after pL1a (s3 V)
abbrev s5 (V : Valuation τ sig (Elt F)) : Valuation τ sig (Elt F) := after pL1b (s4 V)
abbrev s6 (V : Valuation τ sig (Elt F)) : Valuation τ sig (Elt F) := after pL1c (s5 V)
abbrev s7 (V : Valuation τ sig (Elt F)) : Valuation τ sig (Elt F) := after pL2a (s6 V)
abbrev s8 (V : Valuation τ sig (Elt F)) : Valuation τ sig (Elt F) := after pL2b (s7 V)
abbrev s9 (V : Valuation τ sig (Elt F)) : Valuation τ sig (Elt F) := after pL2c (s8 V)
abbrev s10 (V : Valuation τ sig (Elt F)) : Valuation τ sig (Elt F) := after pL3a (s9 V)
abbrev s11 (V : Valuation τ sig (Elt F)) : Valuation τ sig (Elt F) := after pL3b (s10 V)
abbrev s12 (V : Valuation τ sig (Elt F)) : Valuation τ sig (Elt F) := after pL3c (s11 V)
abbrev s13 (V : Valuation τ sig (Elt F)) : Valuation τ sig (Elt F) := after pH1 (s12 V)
abbrev s14 (V : Valuation τ sig (Elt F)) : Valuation τ sig (Elt F) := after pH2 (s13 V)
abbrev s15 (V : Valuation τ sig (Elt F)) : Valuation τ sig (Elt F) := after pH3 (s14 V)
abbrev s16 (V : Valuation τ sig (Elt F)) : Valuation τ sig (Elt F) := after pH4 (s15 V)

/-- The whole line is the stretches in order. -/
theorem ops_eq (V : Valuation τ sig (Elt F)) : after ops V = s16 V := by
  simp only [ops, after_app]

/-! ### The argument arrays are never written -/

theorem s0_arg (V : Valuation τ sig (Elt F)) {r : Ref sig .tc} (hr : r ∈ argL) : s0 V (Proc.devRef .tc r) = V (Proc.devRef .tc r) :=
  after_of_writes_sub pSetup V hwSetup (dj0 r hr)
theorem s1_arg (V : Valuation τ sig (Elt F)) {r : Ref sig .tc} (hr : r ∈ argL) : s1 V (Proc.devRef .tc r) = V (Proc.devRef .tc r) :=
  (after_of_writes_sub pL0a (s0 V) hwL0a (dj1 r hr)).trans (s0_arg V hr)
theorem s2_arg (V : Valuation τ sig (Elt F)) {r : Ref sig .tc} (hr : r ∈ argL) : s2 V (Proc.devRef .tc r) = V (Proc.devRef .tc r) :=
  (after_of_writes_sub pL0b (s1 V) hwL0b (dj2 r hr)).trans (s1_arg V hr)
theorem s3_arg (V : Valuation τ sig (Elt F)) {r : Ref sig .tc} (hr : r ∈ argL) : s3 V (Proc.devRef .tc r) = V (Proc.devRef .tc r) :=
  (after_of_writes_sub pL0c (s2 V) hwL0c (dj3 r hr)).trans (s2_arg V hr)
theorem s4_arg (V : Valuation τ sig (Elt F)) {r : Ref sig .tc} (hr : r ∈ argL) : s4 V (Proc.devRef .tc r) = V (Proc.devRef .tc r) :=
  (after_of_writes_sub pL1a (s3 V) hwL1a (dj4 r hr)).trans (s3_arg V hr)
theorem s5_arg (V : Valuation τ sig (Elt F)) {r : Ref sig .tc} (hr : r ∈ argL) : s5 V (Proc.devRef .tc r) = V (Proc.devRef .tc r) :=
  (after_of_writes_sub pL1b (s4 V) hwL1b (dj5 r hr)).trans (s4_arg V hr)
theorem s6_arg (V : Valuation τ sig (Elt F)) {r : Ref sig .tc} (hr : r ∈ argL) : s6 V (Proc.devRef .tc r) = V (Proc.devRef .tc r) :=
  (after_of_writes_sub pL1c (s5 V) hwL1c (dj6 r hr)).trans (s5_arg V hr)
theorem s7_arg (V : Valuation τ sig (Elt F)) {r : Ref sig .tc} (hr : r ∈ argL) : s7 V (Proc.devRef .tc r) = V (Proc.devRef .tc r) :=
  (after_of_writes_sub pL2a (s6 V) hwL2a (dj7 r hr)).trans (s6_arg V hr)
theorem s8_arg (V : Valuation τ sig (Elt F)) {r : Ref sig .tc} (hr : r ∈ argL) : s8 V (Proc.devRef .tc r) = V (Proc.devRef .tc r) :=
  (after_of_writes_sub pL2b (s7 V) hwL2b (dj8 r hr)).trans (s7_arg V hr)
theorem s9_arg (V : Valuation τ sig (Elt F)) {r : Ref sig .tc} (hr : r ∈ argL) : s9 V (Proc.devRef .tc r) = V (Proc.devRef .tc r) :=
  (after_of_writes_sub pL2c (s8 V) hwL2c (dj9 r hr)).trans (s8_arg V hr)
theorem s10_arg (V : Valuation τ sig (Elt F)) {r : Ref sig .tc} (hr : r ∈ argL) : s10 V (Proc.devRef .tc r) = V (Proc.devRef .tc r) :=
  (after_of_writes_sub pL3a (s9 V) hwL3a (dj10 r hr)).trans (s9_arg V hr)
theorem s11_arg (V : Valuation τ sig (Elt F)) {r : Ref sig .tc} (hr : r ∈ argL) : s11 V (Proc.devRef .tc r) = V (Proc.devRef .tc r) :=
  (after_of_writes_sub pL3b (s10 V) hwL3b (dj11 r hr)).trans (s10_arg V hr)
theorem s12_arg (V : Valuation τ sig (Elt F)) {r : Ref sig .tc} (hr : r ∈ argL) : s12 V (Proc.devRef .tc r) = V (Proc.devRef .tc r) :=
  (after_of_writes_sub pL3c (s11 V) hwL3c (dj12 r hr)).trans (s11_arg V hr)
theorem s13_arg (V : Valuation τ sig (Elt F)) {r : Ref sig .tc} (hr : r ∈ argL) : s13 V (Proc.devRef .tc r) = V (Proc.devRef .tc r) :=
  (after_of_writes_sub pH1 (s12 V) hwH1 (dj13 r hr)).trans (s12_arg V hr)
theorem s14_arg (V : Valuation τ sig (Elt F)) {r : Ref sig .tc} (hr : r ∈ argL) : s14 V (Proc.devRef .tc r) = V (Proc.devRef .tc r) :=
  (after_of_writes_sub pH2 (s13 V) hwH2 (dj14 r hr)).trans (s13_arg V hr)
theorem s15_arg (V : Valuation τ sig (Elt F)) {r : Ref sig .tc} (hr : r ∈ argL) : s15 V (Proc.devRef .tc r) = V (Proc.devRef .tc r) :=
  (after_of_writes_sub pH3 (s14 V) hwH3 (dj15 r hr)).trans (s14_arg V hr)
theorem s16_arg (V : Valuation τ sig (Elt F)) {r : Ref sig .tc} (hr : r ∈ argL) : s16 V (Proc.devRef .tc r) = V (Proc.devRef .tc r) :=
  (after_of_writes_sub pH4 (s15 V) hwH4 (dj16 r hr)).trans (s15_arg V hr)

/-! ### The edge tables stay through the layers -/

theorem s0_v1 (V : Valuation τ sig (Elt F)) : s0 V (Proc.devRef .tc main_v1) = srcR (V (Proc.devRef .tc main_arg1)) := val_Setup_v1 V
theorem s0_v3 (V : Valuation τ sig (Elt F)) : s0 V (Proc.devRef .tc main_v3) = dstR (V (Proc.devRef .tc main_arg1)) := val_Setup_v3 V
theorem s1_v1 (V : Valuation τ sig (Elt F)) : s1 V (Proc.devRef .tc main_v1) = srcR (V (Proc.devRef .tc main_arg1)) :=
  (after_of_writes_sub pL0a (s0 V) hwL0a (by decide)).trans (s0_v1 V)
theorem s1_v3 (V : Valuation τ sig (Elt F)) : s1 V (Proc.devRef .tc main_v3) = dstR (V (Proc.devRef .tc main_arg1)) :=
  (after_of_writes_sub pL0a (s0 V) hwL0a (by decide)).trans (s0_v3 V)
theorem s2_v1 (V : Valuation τ sig (Elt F)) : s2 V (Proc.devRef .tc main_v1) = srcR (V (Proc.devRef .tc main_arg1)) :=
  (after_of_writes_sub pL0b (s1 V) hwL0b (by decide)).trans (s1_v1 V)
theorem s2_v3 (V : Valuation τ sig (Elt F)) : s2 V (Proc.devRef .tc main_v3) = dstR (V (Proc.devRef .tc main_arg1)) :=
  (after_of_writes_sub pL0b (s1 V) hwL0b (by decide)).trans (s1_v3 V)
theorem s3_v1 (V : Valuation τ sig (Elt F)) : s3 V (Proc.devRef .tc main_v1) = srcR (V (Proc.devRef .tc main_arg1)) :=
  (after_of_writes_sub pL0c (s2 V) hwL0c (by decide)).trans (s2_v1 V)
theorem s3_v3 (V : Valuation τ sig (Elt F)) : s3 V (Proc.devRef .tc main_v3) = dstR (V (Proc.devRef .tc main_arg1)) :=
  (after_of_writes_sub pL0c (s2 V) hwL0c (by decide)).trans (s2_v3 V)
theorem s4_v1 (V : Valuation τ sig (Elt F)) : s4 V (Proc.devRef .tc main_v1) = srcR (V (Proc.devRef .tc main_arg1)) :=
  (after_of_writes_sub pL1a (s3 V) hwL1a (by decide)).trans (s3_v1 V)
theorem s4_v3 (V : Valuation τ sig (Elt F)) : s4 V (Proc.devRef .tc main_v3) = dstR (V (Proc.devRef .tc main_arg1)) :=
  (after_of_writes_sub pL1a (s3 V) hwL1a (by decide)).trans (s3_v3 V)
theorem s5_v1 (V : Valuation τ sig (Elt F)) : s5 V (Proc.devRef .tc main_v1) = srcR (V (Proc.devRef .tc main_arg1)) :=
  (after_of_writes_sub pL1b (s4 V) hwL1b (by decide)).trans (s4_v1 V)
theorem s5_v3 (V : Valuation τ sig (Elt F)) : s5 V (Proc.devRef .tc main_v3) = dstR (V (Proc.devRef .tc main_arg1)) :=
  (after_of_writes_sub pL1b (s4 V) hwL1b (by decide)).trans (s4_v3 V)
theorem s6_v1 (V : Valuation τ sig (Elt F)) : s6 V (Proc.devRef .tc main_v1) = srcR (V (Proc.devRef .tc main_arg1)) :=
  (after_of_writes_sub pL1c (s5 V) hwL1c (by decide)).trans (s5_v1 V)
theorem s6_v3 (V : Valuation τ sig (Elt F)) : s6 V (Proc.devRef .tc main_v3) = dstR (V (Proc.devRef .tc main_arg1)) :=
  (after_of_writes_sub pL1c (s5 V) hwL1c (by decide)).trans (s5_v3 V)
theorem s7_v1 (V : Valuation τ sig (Elt F)) : s7 V (Proc.devRef .tc main_v1) = srcR (V (Proc.devRef .tc main_arg1)) :=
  (after_of_writes_sub pL2a (s6 V) hwL2a (by decide)).trans (s6_v1 V)
theorem s7_v3 (V : Valuation τ sig (Elt F)) : s7 V (Proc.devRef .tc main_v3) = dstR (V (Proc.devRef .tc main_arg1)) :=
  (after_of_writes_sub pL2a (s6 V) hwL2a (by decide)).trans (s6_v3 V)
theorem s8_v1 (V : Valuation τ sig (Elt F)) : s8 V (Proc.devRef .tc main_v1) = srcR (V (Proc.devRef .tc main_arg1)) :=
  (after_of_writes_sub pL2b (s7 V) hwL2b (by decide)).trans (s7_v1 V)
theorem s8_v3 (V : Valuation τ sig (Elt F)) : s8 V (Proc.devRef .tc main_v3) = dstR (V (Proc.devRef .tc main_arg1)) :=
  (after_of_writes_sub pL2b (s7 V) hwL2b (by decide)).trans (s7_v3 V)
theorem s9_v1 (V : Valuation τ sig (Elt F)) : s9 V (Proc.devRef .tc main_v1) = srcR (V (Proc.devRef .tc main_arg1)) :=
  (after_of_writes_sub pL2c (s8 V) hwL2c (by decide)).trans (s8_v1 V)
theorem s9_v3 (V : Valuation τ sig (Elt F)) : s9 V (Proc.devRef .tc main_v3) = dstR (V (Proc.devRef .tc main_arg1)) :=
  (after_of_writes_sub pL2c (s8 V) hwL2c (by decide)).trans (s8_v3 V)
theorem s10_v1 (V : Valuation τ sig (Elt F)) : s10 V (Proc.devRef .tc main_v1) = srcR (V (Proc.devRef .tc main_arg1)) :=
  (after_of_writes_sub pL3a (s9 V) hwL3a (by decide)).trans (s9_v1 V)
theorem s10_v3 (V : Valuation τ sig (Elt F)) : s10 V (Proc.devRef .tc main_v3) = dstR (V (Proc.devRef .tc main_arg1)) :=
  (after_of_writes_sub pL3a (s9 V) hwL3a (by decide)).trans (s9_v3 V)

/-! ### The node states layer by layer -/

/-- The node states entering layer 0: the input features. -/
abbrev hh0 (V : Valuation τ sig (Elt F)) : CF F S100000x128 := V (Proc.devRef .tc main_arg0)
/-- The node states after layer 0. -/
abbrev hh1 (V : Valuation τ sig (Elt F)) : CF F S100000x128 :=
  layerR (wsl0 (V (Proc.devRef .tc main_arg3))) (hh0 V) (V (Proc.devRef .tc main_arg1)) (V (Proc.devRef .tc main_arg4)) (V (Proc.devRef .tc main_arg5)) (V (Proc.devRef .tc main_arg6)) (V (Proc.devRef .tc main_arg7))
/-- The node states after layer 1. -/
abbrev hh2 (V : Valuation τ sig (Elt F)) : CF F S100000x128 :=
  layerR (wsl1 (V (Proc.devRef .tc main_arg3))) (hh1 V) (V (Proc.devRef .tc main_arg1)) (V (Proc.devRef .tc main_arg4)) (V (Proc.devRef .tc main_arg5)) (V (Proc.devRef .tc main_arg6)) (V (Proc.devRef .tc main_arg7))
/-- The node states after layer 2. -/
abbrev hh3 (V : Valuation τ sig (Elt F)) : CF F S100000x128 :=
  layerR (wsl2 (V (Proc.devRef .tc main_arg3))) (hh2 V) (V (Proc.devRef .tc main_arg1)) (V (Proc.devRef .tc main_arg4)) (V (Proc.devRef .tc main_arg5)) (V (Proc.devRef .tc main_arg6)) (V (Proc.devRef .tc main_arg7))
/-- The node states after layer 3. -/
abbrev hh4 (V : Valuation τ sig (Elt F)) : CF F S100000x128 :=
  layerR (wsl3 (V (Proc.devRef .tc main_arg3))) (hh3 V) (V (Proc.devRef .tc main_arg1)) (V (Proc.devRef .tc main_arg4)) (V (Proc.devRef .tc main_arg5)) (V (Proc.devRef .tc main_arg6)) (V (Proc.devRef .tc main_arg7))

theorem s0_h (V : Valuation τ sig (Elt F)) : s0 V (Proc.devRef .tc main_arg0) = hh0 V := s0_arg V (by decide)

theorem s1_mm (V : Valuation τ sig (Elt F)) : s1 V (Proc.devRef .tc main_v6) = mmR (hh0 V) (wsl0 (V (Proc.devRef .tc main_arg3))) :=
  (val_L0a (s0 V)).trans (by rw [s0_h V, s0_arg V (r := main_arg3) (by decide)])
theorem s1_h (V : Valuation τ sig (Elt F)) : s1 V (Proc.devRef .tc main_arg0) = hh0 V :=
  (after_of_writes_sub pL0a (s0 V) hwL0a (by decide)).trans (s0_h V)
theorem s2_agg (V : Valuation τ sig (Elt F)) : s2 V (Proc.devRef .tc main_v16)
    = aggR (srcR (V (Proc.devRef .tc main_arg1))) (dstR (V (Proc.devRef .tc main_arg1))) (mmR (hh0 V) (wsl0 (V (Proc.devRef .tc main_arg3)))) :=
  (val_L0b (s1 V)).trans (by rw [s1_v1 V, s1_v3 V, s1_mm V])
theorem s2_h (V : Valuation τ sig (Elt F)) : s2 V (Proc.devRef .tc main_arg0) = hh0 V :=
  (after_of_writes_sub pL0b (s1 V) hwL0b (by decide)).trans (s1_h V)
theorem s3_h (V : Valuation τ sig (Elt F)) : s3 V (Proc.devRef .tc main_v54) = hh1 V :=
  (val_L0c (s2 V)).trans (by
    rw [s2_agg V, s2_h V, s2_arg V (r := main_arg4) (by decide), s2_arg V (r := main_arg5) (by decide),
      s2_arg V (r := main_arg6) (by decide), s2_arg V (r := main_arg7) (by decide)]
    rfl)

theorem s4_mm (V : Valuation τ sig (Elt F)) : s4 V (Proc.devRef .tc main_v57) = mmR (hh1 V) (wsl1 (V (Proc.devRef .tc main_arg3))) :=
  (val_L1a (s3 V)).trans (by rw [s3_h V, s3_arg V (r := main_arg3) (by decide)])
theorem s4_h (V : Valuation τ sig (Elt F)) : s4 V (Proc.devRef .tc main_v54) = hh1 V :=
  (after_of_writes_sub pL1a (s3 V) hwL1a (by decide)).trans (s3_h V)
theorem s5_agg (V : Valuation τ sig (Elt F)) : s5 V (Proc.devRef .tc main_v67)
    = aggR (srcR (V (Proc.devRef .tc main_arg1))) (dstR (V (Proc.devRef .tc main_arg1))) (mmR (hh1 V) (wsl1 (V (Proc.devRef .tc main_arg3)))) :=
  (val_L1b (s4 V)).trans (by rw [s4_v1 V, s4_v3 V, s4_mm V])
theorem s5_h (V : Valuation τ sig (Elt F)) : s5 V (Proc.devRef .tc main_v54) = hh1 V :=
  (after_of_writes_sub pL1b (s4 V) hwL1b (by decide)).trans (s4_h V)
theorem s6_h (V : Valuation τ sig (Elt F)) : s6 V (Proc.devRef .tc main_v105) = hh2 V :=
  (val_L1c (s5 V)).trans (by
    rw [s5_agg V, s5_h V, s5_arg V (r := main_arg4) (by decide), s5_arg V (r := main_arg5) (by decide),
      s5_arg V (r := main_arg6) (by decide), s5_arg V (r := main_arg7) (by decide)]
    rfl)

theorem s7_mm (V : Valuation τ sig (Elt F)) : s7 V (Proc.devRef .tc main_v108) = mmR (hh2 V) (wsl2 (V (Proc.devRef .tc main_arg3))) :=
  (val_L2a (s6 V)).trans (by rw [s6_h V, s6_arg V (r := main_arg3) (by decide)])
theorem s7_h (V : Valuation τ sig (Elt F)) : s7 V (Proc.devRef .tc main_v105) = hh2 V :=
  (after_of_writes_sub pL2a (s6 V) hwL2a (by decide)).trans (s6_h V)
theorem s8_agg (V : Valuation τ sig (Elt F)) : s8 V (Proc.devRef .tc main_v118)
    = aggR (srcR (V (Proc.devRef .tc main_arg1))) (dstR (V (Proc.devRef .tc main_arg1))) (mmR (hh2 V) (wsl2 (V (Proc.devRef .tc main_arg3)))) :=
  (val_L2b (s7 V)).trans (by rw [s7_v1 V, s7_v3 V, s7_mm V])
theorem s8_h (V : Valuation τ sig (Elt F)) : s8 V (Proc.devRef .tc main_v105) = hh2 V :=
  (after_of_writes_sub pL2b (s7 V) hwL2b (by decide)).trans (s7_h V)
theorem s9_h (V : Valuation τ sig (Elt F)) : s9 V (Proc.devRef .tc main_v156) = hh3 V :=
  (val_L2c (s8 V)).trans (by
    rw [s8_agg V, s8_h V, s8_arg V (r := main_arg4) (by decide), s8_arg V (r := main_arg5) (by decide),
      s8_arg V (r := main_arg6) (by decide), s8_arg V (r := main_arg7) (by decide)]
    rfl)

theorem s10_mm (V : Valuation τ sig (Elt F)) : s10 V (Proc.devRef .tc main_v159) = mmR (hh3 V) (wsl3 (V (Proc.devRef .tc main_arg3))) :=
  (val_L3a (s9 V)).trans (by rw [s9_h V, s9_arg V (r := main_arg3) (by decide)])
theorem s10_h (V : Valuation τ sig (Elt F)) : s10 V (Proc.devRef .tc main_v156) = hh3 V :=
  (after_of_writes_sub pL3a (s9 V) hwL3a (by decide)).trans (s9_h V)
theorem s11_agg (V : Valuation τ sig (Elt F)) : s11 V (Proc.devRef .tc main_v169)
    = aggR (srcR (V (Proc.devRef .tc main_arg1))) (dstR (V (Proc.devRef .tc main_arg1))) (mmR (hh3 V) (wsl3 (V (Proc.devRef .tc main_arg3)))) :=
  (val_L3b (s10 V)).trans (by rw [s10_v1 V, s10_v3 V, s10_mm V])
theorem s11_h (V : Valuation τ sig (Elt F)) : s11 V (Proc.devRef .tc main_v156) = hh3 V :=
  (after_of_writes_sub pL3b (s10 V) hwL3b (by decide)).trans (s10_h V)
theorem s12_h (V : Valuation τ sig (Elt F)) : s12 V (Proc.devRef .tc main_v207) = hh4 V :=
  (val_L3c (s11 V)).trans (by
    rw [s11_agg V, s11_h V, s11_arg V (r := main_arg4) (by decide), s11_arg V (r := main_arg5) (by decide),
      s11_arg V (r := main_arg6) (by decide), s11_arg V (r := main_arg7) (by decide)]
    rfl)

/-! ### The head -/

theorem s13_fc1 (V : Valuation τ sig (Elt F)) : s13 V (Proc.devRef .tc main_v212) = fc1R (hh4 V) (V (Proc.devRef .tc main_arg8)) (V (Proc.devRef .tc main_arg9)) :=
  (val_H1 (s12 V)).trans (by rw [s12_h V, s12_arg V (r := main_arg8) (by decide), s12_arg V (r := main_arg9) (by decide)])
theorem s14_bn (V : Valuation τ sig (Elt F)) : s14 V (Proc.devRef .tc main_v232)
    = reluR (bnR (fc1R (hh4 V) (V (Proc.devRef .tc main_arg8)) (V (Proc.devRef .tc main_arg9))) (V (Proc.devRef .tc main_arg10)) (V (Proc.devRef .tc main_arg11))) :=
  (val_H2 (s13 V)).trans (by rw [s13_fc1 V, s13_arg V (r := main_arg10) (by decide), s13_arg V (r := main_arg11) (by decide)])
theorem s15_pool (V : Valuation τ sig (Elt F)) : s15 V (Proc.devRef .tc main_v243)
    = gfeatR (reluR (bnR (fc1R (hh4 V) (V (Proc.devRef .tc main_arg8)) (V (Proc.devRef .tc main_arg9))) (V (Proc.devRef .tc main_arg10)) (V (Proc.devRef .tc main_arg11))))
        (V (Proc.devRef .tc main_arg2)) :=
  (val_H3 (s14 V)).trans (by rw [s14_bn V, s14_arg V (r := main_arg2) (by decide)])
theorem s16_out (V : Valuation τ sig (Elt F)) : s16 V (Proc.devRef .tc main_v249)
    = lsmR (logitsR (gfeatR (reluR (bnR (fc1R (hh4 V) (V (Proc.devRef .tc main_arg8)) (V (Proc.devRef .tc main_arg9))) (V (Proc.devRef .tc main_arg10)) (V (Proc.devRef .tc main_arg11))))
        (V (Proc.devRef .tc main_arg2))) (V (Proc.devRef .tc main_arg12)) (V (Proc.devRef .tc main_arg13))) :=
  (val_H4 (s15 V)).trans (by rw [s15_pool V, s15_arg V (r := main_arg12) (by decide), s15_arg V (r := main_arg13) (by decide)])

/-! ## The reference computes the network and leaves its arguments -/

/-- The last buffer of the line holds the network applied to the fourteen argument arrays. -/
theorem ref_value (V : Valuation τ sig (Elt F)) :
    after ops V (Proc.devRef .tc main_v249)
      = netR (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) := by
  rw [ops_eq]
  exact (s16_out V).trans rfl

/-- Every argument array is as it was. -/
theorem ref_keep (V : Valuation τ sig (Elt F)) {r : Ref sig .tc} (hr : r ∈ argL) : after ops V (Proc.devRef .tc r) = V (Proc.devRef .tc r) := by
  rw [ops_eq]
  exact s16_arg V hr
theorem ref_keep_arg0 (V : Valuation τ sig (Elt F)) : after ops V (Proc.devRef .tc main_arg0) = V (Proc.devRef .tc main_arg0) := ref_keep V (by decide)
theorem ref_keep_arg1 (V : Valuation τ sig (Elt F)) : after ops V (Proc.devRef .tc main_arg1) = V (Proc.devRef .tc main_arg1) := ref_keep V (by decide)
theorem ref_keep_arg2 (V : Valuation τ sig (Elt F)) : after ops V (Proc.devRef .tc main_arg2) = V (Proc.devRef .tc main_arg2) := ref_keep V (by decide)
theorem ref_keep_arg3 (V : Valuation τ sig (Elt F)) : after ops V (Proc.devRef .tc main_arg3) = V (Proc.devRef .tc main_arg3) := ref_keep V (by decide)
theorem ref_keep_arg4 (V : Valuation τ sig (Elt F)) : after ops V (Proc.devRef .tc main_arg4) = V (Proc.devRef .tc main_arg4) := ref_keep V (by decide)
theorem ref_keep_arg5 (V : Valuation τ sig (Elt F)) : after ops V (Proc.devRef .tc main_arg5) = V (Proc.devRef .tc main_arg5) := ref_keep V (by decide)
theorem ref_keep_arg6 (V : Valuation τ sig (Elt F)) : after ops V (Proc.devRef .tc main_arg6) = V (Proc.devRef .tc main_arg6) := ref_keep V (by decide)
theorem ref_keep_arg7 (V : Valuation τ sig (Elt F)) : after ops V (Proc.devRef .tc main_arg7) = V (Proc.devRef .tc main_arg7) := ref_keep V (by decide)
theorem ref_keep_arg8 (V : Valuation τ sig (Elt F)) : after ops V (Proc.devRef .tc main_arg8) = V (Proc.devRef .tc main_arg8) := ref_keep V (by decide)
theorem ref_keep_arg9 (V : Valuation τ sig (Elt F)) : after ops V (Proc.devRef .tc main_arg9) = V (Proc.devRef .tc main_arg9) := ref_keep V (by decide)
theorem ref_keep_arg10 (V : Valuation τ sig (Elt F)) : after ops V (Proc.devRef .tc main_arg10) = V (Proc.devRef .tc main_arg10) := ref_keep V (by decide)
theorem ref_keep_arg11 (V : Valuation τ sig (Elt F)) : after ops V (Proc.devRef .tc main_arg11) = V (Proc.devRef .tc main_arg11) := ref_keep V (by decide)
theorem ref_keep_arg12 (V : Valuation τ sig (Elt F)) : after ops V (Proc.devRef .tc main_arg12) = V (Proc.devRef .tc main_arg12) := ref_keep V (by decide)
theorem ref_keep_arg13 (V : Valuation τ sig (Elt F)) : after ops V (Proc.devRef .tc main_arg13) = V (Proc.devRef .tc main_arg13) := ref_keep V (by decide)

end Cert.RefRun

end
-- ==== Proof.lean ====
/-
  The certificate.  The kernel program runs ten tiled regions among host stretches: four graph layers (a dense map
  of the node states, a sum of the messages along the edges, a GRU update), a dense head with its column sums and
  column sums of squares, a batch normalisation folded into one scale and one shift, and a pooling of the rectified
  rows by graph through an indicator product; the reference computes the same network in host operations, with
  the variance centred and the pooling an accumulating scatter.  Over the extended reals every region's array is
  the reference's operation of the arrays it was given (the dense maps and the GRU cell entry by entry, the
  accumulators as sums over all rows), the host stretches between them are the reference's own operations, and
  under the precondition — every float input real — the node states stay real through the GRU updates (the
  logistic function and the hyperbolic tangent are real at every extended real), so the head's values are real,
  the two forms of the variance agree, and the folded normalisation is the normalisation.  The frames of the two
  kernel programs are the generated ones; the reference's is its run with the result dropped.
-/
import proofs.«403864_j85770496901353_1_alg».proof.Defs
import proofs.«403864_j85770496901353_1_alg».proof.Proof.Gen.Kernel
import proofs.«403864_j85770496901353_1_alg».proof.Proof.Gen.Kernel.Frame
import proofs.«403864_j85770496901353_1_alg».proof.Proof.Gen.KernelIdeal
import proofs.«403864_j85770496901353_1_alg».proof.Proof.Gen.KernelIdeal.Frame
import proofs.«403864_j85770496901353_1_alg».proof.Proof.Gen.ReferenceIdeal
import proofs.«403864_j85770496901353_1_alg».proof.Proof.Gen.Pre_finite_inputs
import proofs.«403864_j85770496901353_1_alg».proof.Proof.Net
import proofs.«403864_j85770496901353_1_alg».proof.Proof.KRun
import proofs.«403864_j85770496901353_1_alg».proof.Proof.Chain
import proofs.«403864_j85770496901353_1_alg».proof.Proof.PreFin
import proofs.«403864_j85770496901353_1_alg».proof.Proof.RefRun
import proofs.«403864_j85770496901353_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.Net

/-- The word-level kernel program runs and leaves its arguments alone: the generated frame. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ

/-- The reference's run with its result named: the network of the launch arguments. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v249)
          = netR (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run (Cert.ReferenceIdeal.defs (F := Ideal)) _ _).mono (fun r h c =>
    ⟨(h c Cert.ReferenceIdeal.main_v249).trans (Cert.RefRun.ref_value (launchContents m c)),
     (h c Cert.ReferenceIdeal.main_arg0).trans (Cert.RefRun.ref_keep_arg0 (launchContents m c)),
     (h c Cert.ReferenceIdeal.main_arg1).trans (Cert.RefRun.ref_keep_arg1 (launchContents m c)),
     (h c Cert.ReferenceIdeal.main_arg2).trans (Cert.RefRun.ref_keep_arg2 (launchContents m c)),
     (h c Cert.ReferenceIdeal.main_arg3).trans (Cert.RefRun.ref_keep_arg3 (launchContents m c)),
     (h c Cert.ReferenceIdeal.main_arg4).trans (Cert.RefRun.ref_keep_arg4 (launchContents m c)),
     (h c Cert.ReferenceIdeal.main_arg5).trans (Cert.RefRun.ref_keep_arg5 (launchContents m c)),
     (h c Cert.ReferenceIdeal.main_arg6).trans (Cert.RefRun.ref_keep_arg6 (launchContents m c)),
     (h c Cert.ReferenceIdeal.main_arg7).trans (Cert.RefRun.ref_keep_arg7 (launchContents m c)),
     (h c Cert.ReferenceIdeal.main_arg8).trans (Cert.RefRun.ref_keep_arg8 (launchContents m c)),
     (h c Cert.ReferenceIdeal.main_arg9).trans (Cert.RefRun.ref_keep_arg9 (launchContents m c)),
     (h c Cert.ReferenceIdeal.main_arg10).trans (Cert.RefRun.ref_keep_arg10 (launchContents m c)),
     (h c Cert.ReferenceIdeal.main_arg11).trans (Cert.RefRun.ref_keep_arg11 (launchContents m c)),
     (h c Cert.ReferenceIdeal.main_arg12).trans (Cert.RefRun.ref_keep_arg12 (launchContents m c)),
     (h c Cert.ReferenceIdeal.main_arg13).trans (Cert.RefRun.ref_keep_arg13 (launchContents m c))⟩)
    (Cert.RefRun.run_raw m ρ)

/-- The reference runs and leaves its arguments alone: its run with the result dropped. -/
theorem frame_ri : Cert.frame_ReferenceIdeal := fun m ρ _ =>
  (θ_run (Cert.ReferenceIdeal.defs (F := Ideal)) _ _).mono (fun _ h c => (h c).2) (ref_run m ρ)

/-- From memories that agree on the arguments both idealized programs end with the network of the arguments in their
    result buffers. -/
theorem algebraic : Cert.algebraic_KernelIdeal_ReferenceIdeal := by
  intro m ρ m' ρ' hpre hagree
  refine ⟨fun c => netR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run (Cert.KernelIdeal.defs (F := Ideal)) _ _).mono (fun r h c => ⟨(h c).1.trans ?_, (h c).2⟩)
      (Cert.KernelIdeal.Gen.run_val m ρ)
    obtain ⟨f0, f8, f9, f10, f11⟩ := Cert.Net.pre_fin m hpre c
    exact Cert.KVal.kernel_value m ρ c f0 f8 f9 f10 f11
  · refine (θ_run (Cert.ReferenceIdeal.defs (F := Ideal)) _ _).mono (fun r h c => ⟨(h c).1.trans ?_, (h c).2⟩)
      (ref_run m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
